-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096 : Shape := ⟨2, ![8, 4096]⟩
abbrev S1024x32000 : Shape := ⟨2, ![1024, 32000]⟩
abbrev S_ : Shape := ⟨0, ![]⟩

class Facts : Prop where
  bcast_S_S1024x32000 : S_.BroadcastsInDim S1024x32000 (![] : Fin 0 → Fin S1024x32000.rank)
  reducesTo_S1024x32000_S_d0_1 : S1024x32000.ReducesTo [0, 1] S_
  h_S_ : 0 < S_.numel
  bcast_S_S8x4096 : S_.BroadcastsInDim S8x4096 (![] : Fin 0 → Fin S8x4096.rank)
  reducesTo_S8x4096_S_d0_1 : S8x4096.ReducesTo [0, 1] S_

variable [Facts]

def fn {F : FTy → Type} [FloatOps F] (main_arg0 : IVec S8x4096 32) (main_arg1 : FVec F S1024x32000 .f32) : IVec S_ 1 :=
  let main_v0 : FVec F S1024x32000 .f32 := Host.absf main_arg1
  let main_cst : FVec F S_ .f32 := constant S_ .f32 0x7F800000#32
  let main_v1 : FVec F S1024x32000 .f32 := broadcastInDim S1024x32000 ![] bcast_S_S1024x32000 main_cst
  let main_v2 : IVec S1024x32000 1 := cmpf .olt main_v0 main_v1
  let main_c : IVec S_ 1 := constantI S_ 1 1#1
  let main_v3 : IVec S_ 1 := (fun x v => Host.reduce IntOp.andi x v reducesTo_S1024x32000_S_d0_1 h_S_) main_v2 main_c
  let main_c_0 : IVec S_ 32 := constantI S_ 32 0#32
  let main_v4 : IVec S8x4096 32 := broadcastInDim S8x4096 ![] bcast_S_S8x4096 main_c_0
  let main_v5 : IVec S8x4096 1 := cmpi .sge main_arg0 main_v4
  let main_c_1 : IVec S_ 1 := constantI S_ 1 1#1
  let main_v6 : IVec S_ 1 := (fun x v => Host.reduce IntOp.andi x v reducesTo_S8x4096_S_d0_1 h_S_) main_v5 main_c_1
  let main_v7 : IVec S_ 1 := andi main_v3 main_v6
  let main_c_2 : IVec S_ 32 := constantI S_ 32 32000#32
  let main_v8 : IVec S8x4096 32 := broadcastInDim S8x4096 ![] bcast_S_S8x4096 main_c_2
  let main_v9 : IVec S8x4096 1 := cmpi .slt main_arg0 main_v8
  let main_c_3 : IVec S_ 1 := constantI S_ 1 1#1
  let main_v10 : IVec S_ 1 := (fun x v => Host.reduce IntOp.andi x v reducesTo_S8x4096_S_d0_1 h_S_) main_v9 main_c_3
  let main_v11 : IVec S_ 1 := andi main_v7 main_v10
  main_v11
-- ==== Kernel.lean ====
abbrev S8x4096 : Shape := ⟨2, ![8, 4096]⟩
abbrev S1024x32000 : Shape := ⟨2, ![1024, 32000]⟩
abbrev S32000x1024 : Shape := ⟨2, ![32000, 1024]⟩
abbrev S1024x1280 : Shape := ⟨2, ![1024, 1280]⟩
abbrev S1280x1024 : Shape := ⟨2, ![1280, 1024]⟩
abbrev S32768 : Shape := ⟨1, ![32768]⟩
abbrev S32768x1024 : Shape := ⟨2, ![32768, 1024]⟩
abbrev S128x1024 : Shape := ⟨2, ![128, 1024]⟩
abbrev S8 : Shape := ⟨1, ![8]⟩
abbrev S1 : Shape := ⟨1, ![1]⟩
abbrev S_ : Shape := ⟨0, ![]⟩
abbrev S1x1024 : Shape := ⟨2, ![1, 1024]⟩
abbrev S1024 : Shape := ⟨1, ![1024]⟩
abbrev S8x4096x1024 : Shape := ⟨3, ![8, 4096, 1024]⟩

abbrev nBuf : Space → Nat
  | .hbm => 5
  | .vmem => 6
  | .smem => 1
  | _ => 0

abbrev bufTy : (tb : Table) → Fin (tcTables nBuf tb) → BufTy
  | .hbm, ⟨0, _⟩ => ⟨S8x4096, .i32⟩
  | .hbm, ⟨1, _⟩ => ⟨S1024x32000, .f32⟩
  | .hbm, ⟨2, _⟩ => ⟨S32000x1024, .f32⟩
  | .hbm, ⟨3, _⟩ => ⟨S32768x1024, .f32⟩
  | .hbm, ⟨4, _⟩ => ⟨S8x4096x1024, .f32⟩
  | .local _ .vmem, ⟨0, _⟩ => ⟨S1024x1280, .f32⟩
  | .local _ .vmem, ⟨1, _⟩ => ⟨S1024x1280, .f32⟩
  | .local _ .vmem, ⟨2, _⟩ => ⟨S1280x1024, .f32⟩
  | .local _ .vmem, ⟨3, _⟩ => ⟨S1280x1024, .f32⟩
  | .local _ .vmem, ⟨4, _⟩ => ⟨S128x1024, .f32⟩
  | .local _ .vmem, ⟨5, _⟩ => ⟨S128x1024, .f32⟩
  | .local _ .smem, ⟨0, _⟩ => ⟨S32768, .i32⟩
  | _, _ => ⟨S8x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v2 : Ref sig .tc := ⟨.hbm, 3, rfl⟩
abbrev main_v3 : Ref sig .tc := ⟨.hbm, 4, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![256], ![false]⟩

abbrev pre1 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let v1 : BitVec 32 := Scalar.addi v0 c0_i32
  let v2 : Index := Scalar.indexCast v1
  ![v2.toNat]
def k1_off2 (v3 : BitVec 32) : Fin 2 → Nat :=
  let c0_i32_3 : BitVec 32 := 0#32
  ![v3.toNat, 0]

def k1_chk1 (v3 : BitVec 32) : Prop :=
  (∀ a, (k1_off2 v3) a + S1x1024.size a ≤ S32000x1024.size a)
instance k1_chk1.dec : ∀ (v3 : BitVec 32), Decidable (k1_chk1 v3) := fun v3 => decidable_of_iff' _ (Iff.of_eq (k1_chk1.eq_1 v3))
theorem k1_off2_inb : ∀ (v3 : BitVec 32) (k1_hw1 : k1_chk1 v3), ∀ a, (k1_off2 v3) a + S1x1024.size a ≤ S32000x1024.size a := fun v3 k1_hw1 => k1_hw1

def k1_off3 (i : grid1.Coords) : Fin 1 → Nat :=
  let arg0 : BitVec 32 := BitVec.ofNat 32 (i 0).val
  let c128_i32 : BitVec 32 := 128#32
  let v0 : BitVec 32 := Scalar.muli arg0 c128_i32
  let c1_i32 : BitVec 32 := 1#32
  let v10 : BitVec 32 := Scalar.addi v0 c1_i32
  let v11 : Index := Scalar.indexCast v10
  ![v11.toNat]
def k1_off4 (v12 : BitVec 32) : Fin 2 → Nat :=
  let c0_i32_7 : BitVec 32 := 0#32
  ![v12.toNat, 0]

def k1_chk2 (v12 : BitVec 32) : Prop :=
  (∀ a, (k1_off4 v12) a + S1x1024.size a ≤ S32000x1024.size a)
instance k1_chk2.dec : ∀ (v12 : BitVec 32), Decidable (k1_chk2 v12) := fun v12 => decidable_of_iff' _ (Iff.of_eq (k1_chk2.eq_1 v12))
theorem k1_off4_inb : ∀ (v12 : BitVec 32) (k1_hw2 : k1_chk2 v12), ∀ a, (k1_off4 v12) a + S1x1024.size a ≤ S32000x1024.size a := fun v12 k1_hw2 => k1_hw2

def k1_off5 (i : grid1.Coords) : Fin 1 → Nat :=
  let arg0 : BitVec 32 := BitVec.ofNat 32 (i 0).val
  let c128_i32 : BitVec 32 := 128#32
  let v0 : BitVec 32 := Scalar.muli arg0 c128_i32
  let c2_i32 : BitVec 32 := 2#32
  let v19 : BitVec 32 := Scalar.addi v0 c2_i32
  let v20 : Index := Scalar.indexCast v19
  ![v20.toNat]
def k1_off6 (v21 : BitVec 32) : Fin 2 → Nat :=
  let c0_i32_11 : BitVec 32 := 0#32
  ![v21.toNat, 0]

def k1_chk3 (v21 : BitVec 32) : Prop :=
  (∀ a, (k1_off6 v21) a + S1x1024.size a ≤ S32000x1024.size a)
instance k1_chk3.dec : ∀ (v21 : BitVec 32), Decidable (k1_chk3 v21) := fun v21 => decidable_of_iff' _ (Iff.of_eq (k1_chk3.eq_1 v21))
theorem k1_off6_inb : ∀ (v21 : BitVec 32) (k1_hw3 : k1_chk3 v21), ∀ a, (k1_off6 v21) a + S1x1024.size a ≤ S32000x1024.size a := fun v21 k1_hw3 => k1_hw3

def k1_off7 (i : grid1.Coords) : Fin 1 → Nat :=
  let arg0 : BitVec 32 := BitVec.ofNat 32 (i 0).val
  let c128_i32 : BitVec 32 := 128#32
  let v0 : BitVec 32 := Scalar.muli arg0 c128_i32
  let c3_i32 : BitVec 32 := 3#32
  let v28 : BitVec 32 := Scalar.addi v0 c3_i32
  let v29 : Index := Scalar.indexCast v28
  ![v29.toNat]
def k1_off8 (v30 : BitVec 32) : Fin 2 → Nat :=
  let c0_i32_15 : BitVec 32 := 0#32
  ![v30.toNat, 0]

def k1_chk4 (v30 : BitVec 32) : Prop :=
  (∀ a, (k1_off8 v30) a + S1x1024.size a ≤ S32000x1024.size a)
instance k1_chk4.dec : ∀ (v30 : BitVec 32), Decidable (k1_chk4 v30) := fun v30 => decidable_of_iff' _ (Iff.of_eq (k1_chk4.eq_1 v30))
theorem k1_off8_inb : ∀ (v30 : BitVec 32) (k1_hw4 : k1_chk4 v30), ∀ a, (k1_off8 v30) a + S1x1024.size a ≤ S32000x1024.size a := fun v30 k1_hw4 => k1_hw4

def k1_off9 (i : grid1.Coords) : Fin 1 → Nat :=
  let arg0 : BitVec 32 := BitVec.ofNat 32 (i 0).val
  let c128_i32 : BitVec 32 := 128#32
  let v0 : BitVec 32 := Scalar.muli arg0 c128_i32
  let c4_i32 : BitVec 32 := 4#32
  let v37 : BitVec 32 := Scalar.addi v0 c4_i32
  let v38 : Index := Scalar.indexCast v37
  ![v38.toNat]
def k1_off10 (v39 : BitVec 32) : Fin 2 → Nat :=
  let c0_i32_19 : BitVec 32 := 0#32
  ![v39.toNat, 0]

def k1_chk5 (v39 : BitVec 32) : Prop :=
  (∀ a, (k1_off10 v39) a + S1x1024.size a ≤ S32000x1024.size a)
instance k1_chk5.dec : ∀ (v39 : BitVec 32), Decidable (k1_chk5 v39) := fun v39 => decidable_of_iff' _ (Iff.of_eq (k1_chk5.eq_1 v39))
theorem k1_off10_inb : ∀ (v39 : BitVec 32) (k1_hw5 : k1_chk5 v39), ∀ a, (k1_off10 v39) a + S1x1024.size a ≤ S32000x1024.size a := fun v39 k1_hw5 => k1_hw5

def k1_off11 (i : grid1.Coords) : Fin 1 → Nat :=
  let arg0 : BitVec 32 := BitVec.ofNat 32 (i 0).val
  let c128_i32 : BitVec 32 := 128#32
  let v0 : BitVec 32 := Scalar.muli arg0 c128_i32
  let c5_i32 : BitVec 32 := 5#32
  let v46 : BitVec 32 := Scalar.addi v0 c5_i32
  let v47 : Index := Scalar.indexCast v46
  ![v47.toNat]
def k1_off12 (v48 : BitVec 32) : Fin 2 → Nat :=
  let c0_i32_23 : BitVec 32 := 0#32
  ![v48.toNat, 0]

def k1_chk6 (v48 : BitVec 32) : Prop :=
  (∀ a, (k1_off12 v48) a + S1x1024.size a ≤ S32000x1024.size a)
instance k1_chk6.dec : ∀ (v48 : BitVec 32), Decidable (k1_chk6 v48) := fun v48 => decidable_of_iff' _ (Iff.of_eq (k1_chk6.eq_1 v48))
theorem k1_off12_inb : ∀ (v48 : BitVec 32) (k1_hw6 : k1_chk6 v48), ∀ a, (k1_off12 v48) a + S1x1024.size a ≤ S32000x1024.size a := fun v48 k1_hw6 => k1_hw6

def k1_off13 (i : grid1.Coords) : Fin 1 → Nat :=
  let arg0 : BitVec 32 := BitVec.ofNat 32 (i 0).val
  let c128_i32 : BitVec 32 := 128#32
  let v0 : BitVec 32 := Scalar.muli arg0 c128_i32
  let c6_i32 : BitVec 32 := 6#32
  let v55 : BitVec 32 := Scalar.addi v0 c6_i32
  let v56 : Index := Scalar.indexCast v55
  ![v56.toNat]
def k1_off14 (v57 : BitVec 32) : Fin 2 → Nat :=
  let c0_i32_27 : BitVec 32 := 0#32
  ![v57.toNat, 0]

def k1_chk7 (v57 : BitVec 32) : Prop :=
  (∀ a, (k1_off14 v57) a + S1x1024.size a ≤ S32000x1024.size a)
instance k1_chk7.dec : ∀ (v57 : BitVec 32), Decidable (k1_chk7 v57) := fun v57 => decidable_of_iff' _ (Iff.of_eq (k1_chk7.eq_1 v57))
theorem k1_off14_inb : ∀ (v57 : BitVec 32) (k1_hw7 : k1_chk7 v57), ∀ a, (k1_off14 v57) a + S1x1024.size a ≤ S32000x1024.size a := fun v57 k1_hw7 => k1_hw7

def k1_off15 (i : grid1.Coords) : Fin 1 → Nat :=
  let arg0 : BitVec 32 := BitVec.ofNat 32 (i 0).val
  let c128_i32 : BitVec 32 := 128#32
  let v0 : BitVec 32 := Scalar.muli arg0 c128_i32
  let c7_i32 : BitVec 32 := 7#32
  let v64 : BitVec 32 := Scalar.addi v0 c7_i32
  let v65 : Index := Scalar.indexCast v64
  ![v65.toNat]
def k1_off16 (v66 : BitVec 32) : Fin 2 → Nat :=
  let c0_i32_31 : BitVec 32 := 0#32
  ![v66.toNat, 0]

def k1_chk8 (v66 : BitVec 32) : Prop :=
  (∀ a, (k1_off16 v66) a + S1x1024.size a ≤ S32000x1024.size a)
instance k1_chk8.dec : ∀ (v66 : BitVec 32), Decidable (k1_chk8 v66) := fun v66 => decidable_of_iff' _ (Iff.of_eq (k1_chk8.eq_1 v66))
theorem k1_off16_inb : ∀ (v66 : BitVec 32) (k1_hw8 : k1_chk8 v66), ∀ a, (k1_off16 v66) a + S1x1024.size a ≤ S32000x1024.size a := fun v66 k1_hw8 => k1_hw8

def k1_off17 (i : grid1.Coords) : Fin 1 → Nat :=
  let arg0 : BitVec 32 := BitVec.ofNat 32 (i 0).val
  let c128_i32 : BitVec 32 := 128#32
  let v0 : BitVec 32 := Scalar.muli arg0 c128_i32
  let c0_i32_32 : BitVec 32 := 0#32
  let v73 : BitVec 32 := Scalar.addi v0 c0_i32_32
  let v74 : Index := Scalar.indexCast v73
  ![v74.toNat]
def k1_off18 (v75 : BitVec 32) : Fin 2 → Nat :=
  let c0_i32_36 : BitVec 32 := 0#32
  ![v75.toNat, 0]

def k1_chk9 (v75 : BitVec 32) : Prop :=
  (∀ a, (k1_off18 v75) a + S1x1024.size a ≤ S32000x1024.size a)
instance k1_chk9.dec : ∀ (v75 : BitVec 32), Decidable (k1_chk9 v75) := fun v75 => decidable_of_iff' _ (Iff.of_eq (k1_chk9.eq_1 v75))
theorem k1_off18_inb : ∀ (v75 : BitVec 32) (k1_hw9 : k1_chk9 v75), ∀ a, (k1_off18 v75) a + S1x1024.size a ≤ S32000x1024.size a := fun v75 k1_hw9 => k1_hw9

def k1_off19 (i : grid1.Coords) : Fin 1 → Nat :=
  let arg0 : BitVec 32 := BitVec.ofNat 32 (i 0).val
  let c128_i32 : BitVec 32 := 128#32
  let v0 : BitVec 32 := Scalar.muli arg0 c128_i32
  let c8_i32 : BitVec 32 := 8#32
  let v82 : BitVec 32 := Scalar.addi v0 c8_i32
  let v83 : Index := Scalar.indexCast v82
  ![v83.toNat]
def k1_off20 (v84 : BitVec 32) : Fin 2 → Nat :=
  let c0_i32_40 : BitVec 32 := 0#32
  ![v84.toNat, 0]

def k1_chk10 (v84 : BitVec 32) : Prop :=
  (∀ a, (k1_off20 v84) a + S1x1024.size a ≤ S32000x1024.size a)
instance k1_chk10.dec : ∀ (v84 : BitVec 32), Decidable (k1_chk10 v84) := fun v84 => decidable_of_iff' _ (Iff.of_eq (k1_chk10.eq_1 v84))
theorem k1_off20_inb : ∀ (v84 : BitVec 32) (k1_hw10 : k1_chk10 v84), ∀ a, (k1_off20 v84) a + S1x1024.size a ≤ S32000x1024.size a := fun v84 k1_hw10 => k1_hw10

def k1_off21 (i : grid1.Coords) : Fin 1 → Nat :=
  let arg0 : BitVec 32 := BitVec.ofNat 32 (i 0).val
  let c128_i32 : BitVec 32 := 128#32
  let v0 : BitVec 32 := Scalar.muli arg0 c128_i32
  let c1_i32_41 : BitVec 32 := 1#32
  let v91 : BitVec 32 := Scalar.addi v0 c1_i32_41
  let v92 : Index := Scalar.indexCast v91
  ![v92.toNat]
def k1_off22 (v93 : BitVec 32) : Fin 2 → Nat :=
  let c0_i32_45 : BitVec 32 := 0#32
  ![v93.toNat, 0]

def k1_chk11 (v93 : BitVec 32) : Prop :=
  (∀ a, (k1_off22 v93) a + S1x1024.size a ≤ S32000x1024.size a)
instance k1_chk11.dec : ∀ (v93 : BitVec 32), Decidable (k1_chk11 v93) := fun v93 => decidable_of_iff' _ (Iff.of_eq (k1_chk11.eq_1 v93))
theorem k1_off22_inb : ∀ (v93 : BitVec 32) (k1_hw11 : k1_chk11 v93), ∀ a, (k1_off22 v93) a + S1x1024.size a ≤ S32000x1024.size a := fun v93 k1_hw11 => k1_hw11

def k1_off23 (i : grid1.Coords) : Fin 1 → Nat :=
  let arg0 : BitVec 32 := BitVec.ofNat 32 (i 0).val
  let c128_i32 : BitVec 32 := 128#32
  let v0 : BitVec 32 := Scalar.muli arg0 c128_i32
  let c9_i32 : BitVec 32 := 9#32
  let v100 : BitVec 32 := Scalar.addi v0 c9_i32
  let v101 : Index := Scalar.indexCast v100
  ![v101.toNat]
def k1_off24 (v102 : BitVec 32) : Fin 2 → Nat :=
  let c0_i32_49 : BitVec 32 := 0#32
  ![v102.toNat, 0]

def k1_chk12 (v102 : BitVec 32) : Prop :=
  (∀ a, (k1_off24 v102) a + S1x1024.size a ≤ S32000x1024.size a)
instance k1_chk12.dec : ∀ (v102 : BitVec 32), Decidable (k1_chk12 v102) := fun v102 => decidable_of_iff' _ (Iff.of_eq (k1_chk12.eq_1 v102))
theorem k1_off24_inb : ∀ (v102 : BitVec 32) (k1_hw12 : k1_chk12 v102), ∀ a, (k1_off24 v102) a + S1x1024.size a ≤ S32000x1024.size a := fun v102 k1_hw12 => k1_hw12

def k1_off25 (i : grid1.Coords) : Fin 1 → Nat :=
  let arg0 : BitVec 32 := BitVec.ofNat 32 (i 0).val
  let c128_i32 : BitVec 32 := 128#32
  let v0 : BitVec 32 := Scalar.muli arg0 c128_i32
  let c2_i32_50 : BitVec 32 := 2#32
  let v109 : BitVec 32 := Scalar.addi v0 c2_i32_50
  let v110 : Index := Scalar.indexCast v109
  ![v110.toNat]
def k1_off26 (v111 : BitVec 32) : Fin 2 → Nat :=
  let c0_i32_54 : BitVec 32 := 0#32
  ![v111.toNat, 0]

def k1_chk13 (v111 : BitVec 32) : Prop :=
  (∀ a, (k1_off26 v111) a + S1x1024.size a ≤ S32000x1024.size a)
instance k1_chk13.dec : ∀ (v111 : BitVec 32), Decidable (k1_chk13 v111) := fun v111 => decidable_of_iff' _ (Iff.of_eq (k1_chk13.eq_1 v111))
theorem k1_off26_inb : ∀ (v111 : BitVec 32) (k1_hw13 : k1_chk13 v111), ∀ a, (k1_off26 v111) a + S1x1024.size a ≤ S32000x1024.size a := fun v111 k1_hw13 => k1_hw13

def k1_off27 (i : grid1.Coords) : Fin 1 → Nat :=
  let arg0 : BitVec 32 := BitVec.ofNat 32 (i 0).val
  let c128_i32 : BitVec 32 := 128#32
  let v0 : BitVec 32 := Scalar.muli arg0 c128_i32
  let c10_i32 : BitVec 32 := 10#32
  let v118 : BitVec 32 := Scalar.addi v0 c10_i32
  let v119 : Index := Scalar.indexCast v118
  ![v119.toNat]
def k1_off28 (v120 : BitVec 32) : Fin 2 → Nat :=
  let c0_i32_58 : BitVec 32 := 0#32
  ![v120.toNat, 0]

def k1_chk14 (v120 : BitVec 32) : Prop :=
  (∀ a, (k1_off28 v120) a + S1x1024.size a ≤ S32000x1024.size a)
instance k1_chk14.dec : ∀ (v120 : BitVec 32), Decidable (k1_chk14 v120) := fun v120 => decidable_of_iff' _ (Iff.of_eq (k1_chk14.eq_1 v120))
theorem k1_off28_inb : ∀ (v120 : BitVec 32) (k1_hw14 : k1_chk14 v120), ∀ a, (k1_off28 v120) a + S1x1024.size a ≤ S32000x1024.size a := fun v120 k1_hw14 => k1_hw14

def k1_off29 (i : grid1.Coords) : Fin 1 → Nat :=
  let arg0 : BitVec 32 := BitVec.ofNat 32 (i 0).val
  let c128_i32 : BitVec 32 := 128#32
  let v0 : BitVec 32 := Scalar.muli arg0 c128_i32
  let c3_i32_59 : BitVec 32 := 3#32
  let v127 : BitVec 32 := Scalar.addi v0 c3_i32_59
  let v128 : Index := Scalar.indexCast v127
  ![v128.toNat]
def k1_off30 (v129 : BitVec 32) : Fin 2 → Nat :=
  let c0_i32_63 : BitVec 32 := 0#32
  ![v129.toNat, 0]

def k1_chk15 (v129 : BitVec 32) : Prop :=
  (∀ a, (k1_off30 v129) a + S1x1024.size a ≤ S32000x1024.size a)
instance k1_chk15.dec : ∀ (v129 : BitVec 32), Decidable (k1_chk15 v129) := fun v129 => decidable_of_iff' _ (Iff.of_eq (k1_chk15.eq_1 v129))
theorem k1_off30_inb : ∀ (v129 : BitVec 32) (k1_hw15 : k1_chk15 v129), ∀ a, (k1_off30 v129) a + S1x1024.size a ≤ S32000x1024.size a := fun v129 k1_hw15 => k1_hw15

def k1_off31 (i : grid1.Coords) : Fin 1 → Nat :=
  let arg0 : BitVec 32 := BitVec.ofNat 32 (i 0).val
  let c128_i32 : BitVec 32 := 128#32
  let v0 : BitVec 32 := Scalar.muli arg0 c128_i32
  let c11_i32 : BitVec 32 := 11#32
  let v136 : BitVec 32 := Scalar.addi v0 c11_i32
  let v137 : Index := Scalar.indexCast v136
  ![v137.toNat]
def k1_off32 (v138 : BitVec 32) : Fin 2 → Nat :=
  let c0_i32_67 : BitVec 32 := 0#32
  ![v138.toNat, 0]

def k1_chk16 (v138 : BitVec 32) : Prop :=
  (∀ a, (k1_off32 v138) a + S1x1024.size a ≤ S32000x1024.size a)
instance k1_chk16.dec : ∀ (v138 : BitVec 32), Decidable (k1_chk16 v138) := fun v138 => decidable_of_iff' _ (Iff.of_eq (k1_chk16.eq_1 v138))
theorem k1_off32_inb : ∀ (v138 : BitVec 32) (k1_hw16 : k1_chk16 v138), ∀ a, (k1_off32 v138) a + S1x1024.size a ≤ S32000x1024.size a := fun v138 k1_hw16 => k1_hw16

def k1_off33 (i : grid1.Coords) : Fin 1 → Nat :=
  let arg0 : BitVec 32 := BitVec.ofNat 32 (i 0).val
  let c128_i32 : BitVec 32 := 128#32
  let v0 : BitVec 32 := Scalar.muli arg0 c128_i32
  let c4_i32_68 : BitVec 32 := 4#32
  let v145 : BitVec 32 := Scalar.addi v0 c4_i32_68
  let v146 : Index := Scalar.indexCast v145
  ![v146.toNat]
def k1_off34 (v147 : BitVec 32) : Fin 2 → Nat :=
  let c0_i32_72 : BitVec 32 := 0#32
  ![v147.toNat, 0]

def k1_chk17 (v147 : BitVec 32) : Prop :=
  (∀ a, (k1_off34 v147) a + S1x1024.size a ≤ S32000x1024.size a)
instance k1_chk17.dec : ∀ (v147 : BitVec 32), Decidable (k1_chk17 v147) := fun v147 => decidable_of_iff' _ (Iff.of_eq (k1_chk17.eq_1 v147))
theorem k1_off34_inb : ∀ (v147 : BitVec 32) (k1_hw17 : k1_chk17 v147), ∀ a, (k1_off34 v147) a + S1x1024.size a ≤ S32000x1024.size a := fun v147 k1_hw17 => k1_hw17

def k1_off35 (i : grid1.Coords) : Fin 1 → Nat :=
  let arg0 : BitVec 32 := BitVec.ofNat 32 (i 0).val
  let c128_i32 : BitVec 32 := 128#32
  let v0 : BitVec 32 := Scalar.muli arg0 c128_i32
  let c12_i32 : BitVec 32 := 12#32
  let v154 : BitVec 32 := Scalar.addi v0 c12_i32
  let v155 : Index := Scalar.indexCast v154
  ![v155.toNat]
def k1_off36 (v156 : BitVec 32) : Fin 2 → Nat :=
  let c0_i32_76 : BitVec 32 := 0#32
  ![v156.toNat, 0]

def k1_chk18 (v156 : BitVec 32) : Prop :=
  (∀ a, (k1_off36 v156) a + S1x1024.size a ≤ S32000x1024.size a)
instance k1_chk18.dec : ∀ (v156 : BitVec 32), Decidable (k1_chk18 v156) := fun v156 => decidable_of_iff' _ (Iff.of_eq (k1_chk18.eq_1 v156))
theorem k1_off36_inb : ∀ (v156 : BitVec 32) (k1_hw18 : k1_chk18 v156), ∀ a, (k1_off36 v156) a + S1x1024.size a ≤ S32000x1024.size a := fun v156 k1_hw18 => k1_hw18

def k1_off37 (i : grid1.Coords) : Fin 1 → Nat :=
  let arg0 : BitVec 32 := BitVec.ofNat 32 (i 0).val
  let c128_i32 : BitVec 32 := 128#32
  let v0 : BitVec 32 := Scalar.muli arg0 c128_i32
  let c5_i32_77 : BitVec 32 := 5#32
  let v163 : BitVec 32 := Scalar.addi v0 c5_i32_77
  let v164 : Index := Scalar.indexCast v163
  ![v164.toNat]
def k1_off38 (v165 : BitVec 32) : Fin 2 → Nat :=
  let c0_i32_81 : BitVec 32 := 0#32
  ![v165.toNat, 0]

def k1_chk19 (v165 : BitVec 32) : Prop :=
  (∀ a, (k1_off38 v165) a + S1x1024.size a ≤ S32000x1024.size a)
instance k1_chk19.dec : ∀ (v165 : BitVec 32), Decidable (k1_chk19 v165) := fun v165 => decidable_of_iff' _ (Iff.of_eq (k1_chk19.eq_1 v165))
theorem k1_off38_inb : ∀ (v165 : BitVec 32) (k1_hw19 : k1_chk19 v165), ∀ a, (k1_off38 v165) a + S1x1024.size a ≤ S32000x1024.size a := fun v165 k1_hw19 => k1_hw19

def k1_off39 (i : grid1.Coords) : Fin 1 → Nat :=
  let arg0 : BitVec 32 := BitVec.ofNat 32 (i 0).val
  let c128_i32 : BitVec 32 := 128#32
  let v0 : BitVec 32 := Scalar.muli arg0 c128_i32
  let c13_i32 : BitVec 32 := 13#32
  let v172 : BitVec 32 := Scalar.addi v0 c13_i32
  let v173 : Index := Scalar.indexCast v172
  ![v173.toNat]
def k1_off40 (v174 : BitVec 32) : Fin 2 → Nat :=
  let c0_i32_85 : BitVec 32 := 0#32
  ![v174.toNat, 0]

def k1_chk20 (v174 : BitVec 32) : Prop :=
  (∀ a, (k1_off40 v174) a + S1x1024.size a ≤ S32000x1024.size a)
instance k1_chk20.dec : ∀ (v174 : BitVec 32), Decidable (k1_chk20 v174) := fun v174 => decidable_of_iff' _ (Iff.of_eq (k1_chk20.eq_1 v174))
theorem k1_off40_inb : ∀ (v174 : BitVec 32) (k1_hw20 : k1_chk20 v174), ∀ a, (k1_off40 v174) a + S1x1024.size a ≤ S32000x1024.size a := fun v174 k1_hw20 => k1_hw20

def k1_off41 (i : grid1.Coords) : Fin 1 → Nat :=
  let arg0 : BitVec 32 := BitVec.ofNat 32 (i 0).val
  let c128_i32 : BitVec 32 := 128#32
  let v0 : BitVec 32 := Scalar.muli arg0 c128_i32
  let c6_i32_86 : BitVec 32 := 6#32
  let v181 : BitVec 32 := Scalar.addi v0 c6_i32_86
  let v182 : Index := Scalar.indexCast v181
  ![v182.toNat]
def k1_off42 (v183 : BitVec 32) : Fin 2 → Nat :=
  let c0_i32_90 : BitVec 32 := 0#32
  ![v183.toNat, 0]

def k1_chk21 (v183 : BitVec 32) : Prop :=
  (∀ a, (k1_off42 v183) a + S1x1024.size a ≤ S32000x1024.size a)
instance k1_chk21.dec : ∀ (v183 : BitVec 32), Decidable (k1_chk21 v183) := fun v183 => decidable_of_iff' _ (Iff.of_eq (k1_chk21.eq_1 v183))
theorem k1_off42_inb : ∀ (v183 : BitVec 32) (k1_hw21 : k1_chk21 v183), ∀ a, (k1_off42 v183) a + S1x1024.size a ≤ S32000x1024.size a := fun v183 k1_hw21 => k1_hw21

def k1_off43 (i : grid1.Coords) : Fin 1 → Nat :=
  let arg0 : BitVec 32 := BitVec.ofNat 32 (i 0).val
  let c128_i32 : BitVec 32 := 128#32
  let v0 : BitVec 32 := Scalar.muli arg0 c128_i32
  let c14_i32 : BitVec 32 := 14#32
  let v190 : BitVec 32 := Scalar.addi v0 c14_i32
  let v191 : Index := Scalar.indexCast v190
  ![v191.toNat]
def k1_off44 (v192 : BitVec 32) : Fin 2 → Nat :=
  let c0_i32_94 : BitVec 32 := 0#32
  ![v192.toNat, 0]

def k1_chk22 (v192 : BitVec 32) : Prop :=
  (∀ a, (k1_off44 v192) a + S1x1024.size a ≤ S32000x1024.size a)
instance k1_chk22.dec : ∀ (v192 : BitVec 32), Decidable (k1_chk22 v192) := fun v192 => decidable_of_iff' _ (Iff.of_eq (k1_chk22.eq_1 v192))
theorem k1_off44_inb : ∀ (v192 : BitVec 32) (k1_hw22 : k1_chk22 v192), ∀ a, (k1_off44 v192) a + S1x1024.size a ≤ S32000x1024.size a := fun v192 k1_hw22 => k1_hw22

def k1_off45 (i : grid1.Coords) : Fin 1 → Nat :=
  let arg0 : BitVec 32 := BitVec.ofNat 32 (i 0).val
  let c128_i32 : BitVec 32 := 128#32
  let v0 : BitVec 32 := Scalar.muli arg0 c128_i32
  let c7_i32_95 : BitVec 32 := 7#32
  let v199 : BitVec 32 := Scalar.addi v0 c7_i32_95
  let v200 : Index := Scalar.indexCast v199
  ![v200.toNat]
def k1_off46 (v201 : BitVec 32) : Fin 2 → Nat :=
  let c0_i32_99 : BitVec 32 := 0#32
  ![v201.toNat, 0]

def k1_chk23 (v201 : BitVec 32) : Prop :=
  (∀ a, (k1_off46 v201) a + S1x1024.size a ≤ S32000x1024.size a)
instance k1_chk23.dec : ∀ (v201 : BitVec 32), Decidable (k1_chk23 v201) := fun v201 => decidable_of_iff' _ (Iff.of_eq (k1_chk23.eq_1 v201))
theorem k1_off46_inb : ∀ (v201 : BitVec 32) (k1_hw23 : k1_chk23 v201), ∀ a, (k1_off46 v201) a + S1x1024.size a ≤ S32000x1024.size a := fun v201 k1_hw23 => k1_hw23

def k1_off47 (i : grid1.Coords) : Fin 1 → Nat :=
  let arg0 : BitVec 32 := BitVec.ofNat 32 (i 0).val
  let c128_i32 : BitVec 32 := 128#32
  let v0 : BitVec 32 := Scalar.muli arg0 c128_i32
  let c15_i32 : BitVec 32 := 15#32
  let v208 : BitVec 32 := Scalar.addi v0 c15_i32
  let v209 : Index := Scalar.indexCast v208
  ![v209.toNat]
def k1_off48 (v210 : BitVec 32) : Fin 2 → Nat :=
  let c0_i32_103 : BitVec 32 := 0#32
  ![v210.toNat, 0]

def k1_chk24 (v210 : BitVec 32) : Prop :=
  (∀ a, (k1_off48 v210) a + S1x1024.size a ≤ S32000x1024.size a)
instance k1_chk24.dec : ∀ (v210 : BitVec 32), Decidable (k1_chk24 v210) := fun v210 => decidable_of_iff' _ (Iff.of_eq (k1_chk24.eq_1 v210))
theorem k1_off48_inb : ∀ (v210 : BitVec 32) (k1_hw24 : k1_chk24 v210), ∀ a, (k1_off48 v210) a + S1x1024.size a ≤ S32000x1024.size a := fun v210 k1_hw24 => k1_hw24

def k1_off49 (i : grid1.Coords) : Fin 1 → Nat :=
  let arg0 : BitVec 32 := BitVec.ofNat 32 (i 0).val
  let c128_i32 : BitVec 32 := 128#32
  let v0 : BitVec 32 := Scalar.muli arg0 c128_i32
  let c8_i32_104 : BitVec 32 := 8#32
  let v217 : BitVec 32 := Scalar.addi v0 c8_i32_104
  let v218 : Index := Scalar.indexCast v217
  ![v218.toNat]
def k1_off50 (v219 : BitVec 32) : Fin 2 → Nat :=
  let c0_i32_108 : BitVec 32 := 0#32
  ![v219.toNat, 0]

def k1_chk25 (v219 : BitVec 32) : Prop :=
  (∀ a, (k1_off50 v219) a + S1x1024.size a ≤ S32000x1024.size a)
instance k1_chk25.dec : ∀ (v219 : BitVec 32), Decidable (k1_chk25 v219) := fun v219 => decidable_of_iff' _ (Iff.of_eq (k1_chk25.eq_1 v219))
theorem k1_off50_inb : ∀ (v219 : BitVec 32) (k1_hw25 : k1_chk25 v219), ∀ a, (k1_off50 v219) a + S1x1024.size a ≤ S32000x1024.size a := fun v219 k1_hw25 => k1_hw25

def k1_off51 (i : grid1.Coords) : Fin 1 → Nat :=
  let arg0 : BitVec 32 := BitVec.ofNat 32 (i 0).val
  let c128_i32 : BitVec 32 := 128#32
  let v0 : BitVec 32 := Scalar.muli arg0 c128_i32
  let c16_i32 : BitVec 32 := 16#32
  let v226 : BitVec 32 := Scalar.addi v0 c16_i32
  let v227 : Index := Scalar.indexCast v226
  ![v227.toNat]
def k1_off52 (v228 : BitVec 32) : Fin 2 → Nat :=
  let c0_i32_112 : BitVec 32 := 0#32
  ![v228.toNat, 0]

def k1_chk26 (v228 : BitVec 32) : Prop :=
  (∀ a, (k1_off52 v228) a + S1x1024.size a ≤ S32000x1024.size a)
instance k1_chk26.dec : ∀ (v228 : BitVec 32), Decidable (k1_chk26 v228) := fun v228 => decidable_of_iff' _ (Iff.of_eq (k1_chk26.eq_1 v228))
theorem k1_off52_inb : ∀ (v228 : BitVec 32) (k1_hw26 : k1_chk26 v228), ∀ a, (k1_off52 v228) a + S1x1024.size a ≤ S32000x1024.size a := fun v228 k1_hw26 => k1_hw26

def k1_off53 (i : grid1.Coords) : Fin 1 → Nat :=
  let arg0 : BitVec 32 := BitVec.ofNat 32 (i 0).val
  let c128_i32 : BitVec 32 := 128#32
  let v0 : BitVec 32 := Scalar.muli arg0 c128_i32
  let c9_i32_113 : BitVec 32 := 9#32
  let v235 : BitVec 32 := Scalar.addi v0 c9_i32_113
  let v236 : Index := Scalar.indexCast v235
  ![v236.toNat]
def k1_off54 (v237 : BitVec 32) : Fin 2 → Nat :=
  let c0_i32_117 : BitVec 32 := 0#32
  ![v237.toNat, 0]

def k1_chk27 (v237 : BitVec 32) : Prop :=
  (∀ a, (k1_off54 v237) a + S1x1024.size a ≤ S32000x1024.size a)
instance k1_chk27.dec : ∀ (v237 : BitVec 32), Decidable (k1_chk27 v237) := fun v237 => decidable_of_iff' _ (Iff.of_eq (k1_chk27.eq_1 v237))
theorem k1_off54_inb : ∀ (v237 : BitVec 32) (k1_hw27 : k1_chk27 v237), ∀ a, (k1_off54 v237) a + S1x1024.size a ≤ S32000x1024.size a := fun v237 k1_hw27 => k1_hw27

def k1_off55 (i : grid1.Coords) : Fin 1 → Nat :=
  let arg0 : BitVec 32 := BitVec.ofNat 32 (i 0).val
  let c128_i32 : BitVec 32 := 128#32
  let v0 : BitVec 32 := Scalar.muli arg0 c128_i32
  let c17_i32 : BitVec 32 := 17#32
  let v244 : BitVec 32 := Scalar.addi v0 c17_i32
  let v245 : Index := Scalar.indexCast v244
  ![v245.toNat]
def k1_off56 (v246 : BitVec 32) : Fin 2 → Nat :=
  let c0_i32_121 : BitVec 32 := 0#32
  ![v246.toNat, 0]

def k1_chk28 (v246 : BitVec 32) : Prop :=
  (∀ a, (k1_off56 v246) a + S1x1024.size a ≤ S32000x1024.size a)
instance k1_chk28.dec : ∀ (v246 : BitVec 32), Decidable (k1_chk28 v246) := fun v246 => decidable_of_iff' _ (Iff.of_eq (k1_chk28.eq_1 v246))
theorem k1_off56_inb : ∀ (v246 : BitVec 32) (k1_hw28 : k1_chk28 v246), ∀ a, (k1_off56 v246) a + S1x1024.size a ≤ S32000x1024.size a := fun v246 k1_hw28 => k1_hw28

def k1_off57 (i : grid1.Coords) : Fin 1 → Nat :=
  let arg0 : BitVec 32 := BitVec.ofNat 32 (i 0).val
  let c128_i32 : BitVec 32 := 128#32
  let v0 : BitVec 32 := Scalar.muli arg0 c128_i32
  let c10_i32_122 : BitVec 32 := 10#32
  let v253 : BitVec 32 := Scalar.addi v0 c10_i32_122
  let v254 : Index := Scalar.indexCast v253
  ![v254.toNat]
def k1_off58 (v255 : BitVec 32) : Fin 2 → Nat :=
  let c0_i32_126 : BitVec 32 := 0#32
  ![v255.toNat, 0]

def k1_chk29 (v255 : BitVec 32) : Prop :=
  (∀ a, (k1_off58 v255) a + S1x1024.size a ≤ S32000x1024.size a)
instance k1_chk29.dec : ∀ (v255 : BitVec 32), Decidable (k1_chk29 v255) := fun v255 => decidable_of_iff' _ (Iff.of_eq (k1_chk29.eq_1 v255))
theorem k1_off58_inb : ∀ (v255 : BitVec 32) (k1_hw29 : k1_chk29 v255), ∀ a, (k1_off58 v255) a + S1x1024.size a ≤ S32000x1024.size a := fun v255 k1_hw29 => k1_hw29

def k1_off59 (i : grid1.Coords) : Fin 1 → Nat :=
  let arg0 : BitVec 32 := BitVec.ofNat 32 (i 0).val
  let c128_i32 : BitVec 32 := 128#32
  let v0 : BitVec 32 := Scalar.muli arg0 c128_i32
  let c18_i32 : BitVec 32 := 18#32
  let v262 : BitVec 32 := Scalar.addi v0 c18_i32
  let v263 : Index := Scalar.indexCast v262
  ![v263.toNat]
def k1_off60 (v264 : BitVec 32) : Fin 2 → Nat :=
  let c0_i32_130 : BitVec 32 := 0#32
  ![v264.toNat, 0]

def k1_chk30 (v264 : BitVec 32) : Prop :=
  (∀ a, (k1_off60 v264) a + S1x1024.size a ≤ S32000x1024.size a)
instance k1_chk30.dec : ∀ (v264 : BitVec 32), Decidable (k1_chk30 v264) := fun v264 => decidable_of_iff' _ (Iff.of_eq (k1_chk30.eq_1 v264))
theorem k1_off60_inb : ∀ (v264 : BitVec 32) (k1_hw30 : k1_chk30 v264), ∀ a, (k1_off60 v264) a + S1x1024.size a ≤ S32000x1024.size a := fun v264 k1_hw30 => k1_hw30

def k1_off61 (i : grid1.Coords) : Fin 1 → Nat :=
  let arg0 : BitVec 32 := BitVec.ofNat 32 (i 0).val
  let c128_i32 : BitVec 32 := 128#32
  let v0 : BitVec 32 := Scalar.muli arg0 c128_i32
  let c11_i32_131 : BitVec 32 := 11#32
  let v271 : BitVec 32 := Scalar.addi v0 c11_i32_131
  let v272 : Index := Scalar.indexCast v271
  ![v272.toNat]
def k1_off62 (v273 : BitVec 32) : Fin 2 → Nat :=
  let c0_i32_135 : BitVec 32 := 0#32
  ![v273.toNat, 0]

def k1_chk31 (v273 : BitVec 32) : Prop :=
  (∀ a, (k1_off62 v273) a + S1x1024.size a ≤ S32000x1024.size a)
instance k1_chk31.dec : ∀ (v273 : BitVec 32), Decidable (k1_chk31 v273) := fun v273 => decidable_of_iff' _ (Iff.of_eq (k1_chk31.eq_1 v273))
theorem k1_off62_inb : ∀ (v273 : BitVec 32) (k1_hw31 : k1_chk31 v273), ∀ a, (k1_off62 v273) a + S1x1024.size a ≤ S32000x1024.size a := fun v273 k1_hw31 => k1_hw31

def k1_off63 (i : grid1.Coords) : Fin 1 → Nat :=
  let arg0 : BitVec 32 := BitVec.ofNat 32 (i 0).val
  let c128_i32 : BitVec 32 := 128#32
  let v0 : BitVec 32 := Scalar.muli arg0 c128_i32
  let c19_i32 : BitVec 32 := 19#32
  let v280 : BitVec 32 := Scalar.addi v0 c19_i32
  let v281 : Index := Scalar.indexCast v280
  ![v281.toNat]
def k1_off64 (v282 : BitVec 32) : Fin 2 → Nat :=
  let c0_i32_139 : BitVec 32 := 0#32
  ![v282.toNat, 0]

def k1_chk32 (v282 : BitVec 32) : Prop :=
  (∀ a, (k1_off64 v282) a + S1x1024.size a ≤ S32000x1024.size a)
instance k1_chk32.dec : ∀ (v282 : BitVec 32), Decidable (k1_chk32 v282) := fun v282 => decidable_of_iff' _ (Iff.of_eq (k1_chk32.eq_1 v282))
theorem k1_off64_inb : ∀ (v282 : BitVec 32) (k1_hw32 : k1_chk32 v282), ∀ a, (k1_off64 v282) a + S1x1024.size a ≤ S32000x1024.size a := fun v282 k1_hw32 => k1_hw32

def k1_off65 (i : grid1.Coords) : Fin 1 → Nat :=
  let arg0 : BitVec 32 := BitVec.ofNat 32 (i 0).val
  let c128_i32 : BitVec 32 := 128#32
  let v0 : BitVec 32 := Scalar.muli arg0 c128_i32
  let c12_i32_140 : BitVec 32 := 12#32
  let v289 : BitVec 32 := Scalar.addi v0 c12_i32_140
  let v290 : Index := Scalar.indexCast v289
  ![v290.toNat]
def k1_off66 (v291 : BitVec 32) : Fin 2 → Nat :=
  let c0_i32_144 : BitVec 32 := 0#32
  ![v291.toNat, 0]

def k1_chk33 (v291 : BitVec 32) : Prop :=
  (∀ a, (k1_off66 v291) a + S1x1024.size a ≤ S32000x1024.size a)
instance k1_chk33.dec : ∀ (v291 : BitVec 32), Decidable (k1_chk33 v291) := fun v291 => decidable_of_iff' _ (Iff.of_eq (k1_chk33.eq_1 v291))
theorem k1_off66_inb : ∀ (v291 : BitVec 32) (k1_hw33 : k1_chk33 v291), ∀ a, (k1_off66 v291) a + S1x1024.size a ≤ S32000x1024.size a := fun v291 k1_hw33 => k1_hw33

def k1_off67 (i : grid1.Coords) : Fin 1 → Nat :=
  let arg0 : BitVec 32 := BitVec.ofNat 32 (i 0).val
  let c128_i32 : BitVec 32 := 128#32
  let v0 : BitVec 32 := Scalar.muli arg0 c128_i32
  let c20_i32 : BitVec 32 := 20#32
  let v298 : BitVec 32 := Scalar.addi v0 c20_i32
  let v299 : Index := Scalar.indexCast v298
  ![v299.toNat]
def k1_off68 (v300 : BitVec 32) : Fin 2 → Nat :=
  let c0_i32_148 : BitVec 32 := 0#32
  ![v300.toNat, 0]

def k1_chk34 (v300 : BitVec 32) : Prop :=
  (∀ a, (k1_off68 v300) a + S1x1024.size a ≤ S32000x1024.size a)
instance k1_chk34.dec : ∀ (v300 : BitVec 32), Decidable (k1_chk34 v300) := fun v300 => decidable_of_iff' _ (Iff.of_eq (k1_chk34.eq_1 v300))
theorem k1_off68_inb : ∀ (v300 : BitVec 32) (k1_hw34 : k1_chk34 v300), ∀ a, (k1_off68 v300) a + S1x1024.size a ≤ S32000x1024.size a := fun v300 k1_hw34 => k1_hw34

def k1_off69 (i : grid1.Coords) : Fin 1 → Nat :=
  let arg0 : BitVec 32 := BitVec.ofNat 32 (i 0).val
  let c128_i32 : BitVec 32 := 128#32
  let v0 : BitVec 32 := Scalar.muli arg0 c128_i32
  let c13_i32_149 : BitVec 32 := 13#32
  let v307 : BitVec 32 := Scalar.addi v0 c13_i32_149
  let v308 : Index := Scalar.indexCast v307
  ![v308.toNat]
def k1_off70 (v309 : BitVec 32) : Fin 2 → Nat :=
  let c0_i32_153 : BitVec 32 := 0#32
  ![v309.toNat, 0]

def k1_chk35 (v309 : BitVec 32) : Prop :=
  (∀ a, (k1_off70 v309) a + S1x1024.size a ≤ S32000x1024.size a)
instance k1_chk35.dec : ∀ (v309 : BitVec 32), Decidable (k1_chk35 v309) := fun v309 => decidable_of_iff' _ (Iff.of_eq (k1_chk35.eq_1 v309))
theorem k1_off70_inb : ∀ (v309 : BitVec 32) (k1_hw35 : k1_chk35 v309), ∀ a, (k1_off70 v309) a + S1x1024.size a ≤ S32000x1024.size a := fun v309 k1_hw35 => k1_hw35

def k1_off71 (i : grid1.Coords) : Fin 1 → Nat :=
  let arg0 : BitVec 32 := BitVec.ofNat 32 (i 0).val
  let c128_i32 : BitVec 32 := 128#32
  let v0 : BitVec 32 := Scalar.muli arg0 c128_i32
  let c21_i32 : BitVec 32 := 21#32
  let v316 : BitVec 32 := Scalar.addi v0 c21_i32
  let v317 : Index := Scalar.indexCast v316
  ![v317.toNat]
def k1_off72 (v318 : BitVec 32) : Fin 2 → Nat :=
  let c0_i32_157 : BitVec 32 := 0#32
  ![v318.toNat, 0]

def k1_chk36 (v318 : BitVec 32) : Prop :=
  (∀ a, (k1_off72 v318) a + S1x1024.size a ≤ S32000x1024.size a)
instance k1_chk36.dec : ∀ (v318 : BitVec 32), Decidable (k1_chk36 v318) := fun v318 => decidable_of_iff' _ (Iff.of_eq (k1_chk36.eq_1 v318))
theorem k1_off72_inb : ∀ (v318 : BitVec 32) (k1_hw36 : k1_chk36 v318), ∀ a, (k1_off72 v318) a + S1x1024.size a ≤ S32000x1024.size a := fun v318 k1_hw36 => k1_hw36

def k1_off73 (i : grid1.Coords) : Fin 1 → Nat :=
  let arg0 : BitVec 32 := BitVec.ofNat 32 (i 0).val
  let c128_i32 : BitVec 32 := 128#32
  let v0 : BitVec 32 := Scalar.muli arg0 c128_i32
  let c14_i32_158 : BitVec 32 := 14#32
  let v325 : BitVec 32 := Scalar.addi v0 c14_i32_158
  let v326 : Index := Scalar.indexCast v325
  ![v326.toNat]
def k1_off74 (v327 : BitVec 32) : Fin 2 → Nat :=
  let c0_i32_162 : BitVec 32 := 0#32
  ![v327.toNat, 0]

def k1_chk37 (v327 : BitVec 32) : Prop :=
  (∀ a, (k1_off74 v327) a + S1x1024.size a ≤ S32000x1024.size a)
instance k1_chk37.dec : ∀ (v327 : BitVec 32), Decidable (k1_chk37 v327) := fun v327 => decidable_of_iff' _ (Iff.of_eq (k1_chk37.eq_1 v327))
theorem k1_off74_inb : ∀ (v327 : BitVec 32) (k1_hw37 : k1_chk37 v327), ∀ a, (k1_off74 v327) a + S1x1024.size a ≤ S32000x1024.size a := fun v327 k1_hw37 => k1_hw37

def k1_off75 (i : grid1.Coords) : Fin 1 → Nat :=
  let arg0 : BitVec 32 := BitVec.ofNat 32 (i 0).val
  let c128_i32 : BitVec 32 := 128#32
  let v0 : BitVec 32 := Scalar.muli arg0 c128_i32
  let c22_i32 : BitVec 32 := 22#32
  let v334 : BitVec 32 := Scalar.addi v0 c22_i32
  let v335 : Index := Scalar.indexCast v334
  ![v335.toNat]
def k1_off76 (v336 : BitVec 32) : Fin 2 → Nat :=
  let c0_i32_166 : BitVec 32 := 0#32
  ![v336.toNat, 0]

def k1_chk38 (v336 : BitVec 32) : Prop :=
  (∀ a, (k1_off76 v336) a + S1x1024.size a ≤ S32000x1024.size a)
instance k1_chk38.dec : ∀ (v336 : BitVec 32), Decidable (k1_chk38 v336) := fun v336 => decidable_of_iff' _ (Iff.of_eq (k1_chk38.eq_1 v336))
theorem k1_off76_inb : ∀ (v336 : BitVec 32) (k1_hw38 : k1_chk38 v336), ∀ a, (k1_off76 v336) a + S1x1024.size a ≤ S32000x1024.size a := fun v336 k1_hw38 => k1_hw38

def k1_off77 (i : grid1.Coords) : Fin 1 → Nat :=
  let arg0 : BitVec 32 := BitVec.ofNat 32 (i 0).val
  let c128_i32 : BitVec 32 := 128#32
  let v0 : BitVec 32 := Scalar.muli arg0 c128_i32
  let c15_i32_167 : BitVec 32 := 15#32
  let v343 : BitVec 32 := Scalar.addi v0 c15_i32_167
  let v344 : Index := Scalar.indexCast v343
  ![v344.toNat]
def k1_off78 (v345 : BitVec 32) : Fin 2 → Nat :=
  let c0_i32_171 : BitVec 32 := 0#32
  ![v345.toNat, 0]

def k1_chk39 (v345 : BitVec 32) : Prop :=
  (∀ a, (k1_off78 v345) a + S1x1024.size a ≤ S32000x1024.size a)
instance k1_chk39.dec : ∀ (v345 : BitVec 32), Decidable (k1_chk39 v345) := fun v345 => decidable_of_iff' _ (Iff.of_eq (k1_chk39.eq_1 v345))
theorem k1_off78_inb : ∀ (v345 : BitVec 32) (k1_hw39 : k1_chk39 v345), ∀ a, (k1_off78 v345) a + S1x1024.size a ≤ S32000x1024.size a := fun v345 k1_hw39 => k1_hw39

def k1_off79 (i : grid1.Coords) : Fin 1 → Nat :=
  let arg0 : BitVec 32 := BitVec.ofNat 32 (i 0).val
  let c128_i32 : BitVec 32 := 128#32
  let v0 : BitVec 32 := Scalar.muli arg0 c128_i32
  let c23_i32 : BitVec 32 := 23#32
  let v352 : BitVec 32 := Scalar.addi v0 c23_i32
  let v353 : Index := Scalar.indexCast v352
  ![v353.toNat]
def k1_off80 (v354 : BitVec 32) : Fin 2 → Nat :=
  let c0_i32_175 : BitVec 32 := 0#32
  ![v354.toNat, 0]

def k1_chk40 (v354 : BitVec 32) : Prop :=
  (∀ a, (k1_off80 v354) a + S1x1024.size a ≤ S32000x1024.size a)
instance k1_chk40.dec : ∀ (v354 : BitVec 32), Decidable (k1_chk40 v354) := fun v354 => decidable_of_iff' _ (Iff.of_eq (k1_chk40.eq_1 v354))
theorem k1_off80_inb : ∀ (v354 : BitVec 32) (k1_hw40 : k1_chk40 v354), ∀ a, (k1_off80 v354) a + S1x1024.size a ≤ S32000x1024.size a := fun v354 k1_hw40 => k1_hw40

def k1_off81 (i : grid1.Coords) : Fin 1 → Nat :=
  let arg0 : BitVec 32 := BitVec.ofNat 32 (i 0).val
  let c128_i32 : BitVec 32 := 128#32
  let v0 : BitVec 32 := Scalar.muli arg0 c128_i32
  let c16_i32_176 : BitVec 32 := 16#32
  let v361 : BitVec 32 := Scalar.addi v0 c16_i32_176
  let v362 : Index := Scalar.indexCast v361
  ![v362.toNat]
def k1_off82 (v363 : BitVec 32) : Fin 2 → Nat :=
  let c0_i32_180 : BitVec 32 := 0#32
  ![v363.toNat, 0]

def k1_chk41 (v363 : BitVec 32) : Prop :=
  (∀ a, (k1_off82 v363) a + S1x1024.size a ≤ S32000x1024.size a)
instance k1_chk41.dec : ∀ (v363 : BitVec 32), Decidable (k1_chk41 v363) := fun v363 => decidable_of_iff' _ (Iff.of_eq (k1_chk41.eq_1 v363))
theorem k1_off82_inb : ∀ (v363 : BitVec 32) (k1_hw41 : k1_chk41 v363), ∀ a, (k1_off82 v363) a + S1x1024.size a ≤ S32000x1024.size a := fun v363 k1_hw41 => k1_hw41

def k1_off83 (i : grid1.Coords) : Fin 1 → Nat :=
  let arg0 : BitVec 32 := BitVec.ofNat 32 (i 0).val
  let c128_i32 : BitVec 32 := 128#32
  let v0 : BitVec 32 := Scalar.muli arg0 c128_i32
  let c24_i32 : BitVec 32 := 24#32
  let v370 : BitVec 32 := Scalar.addi v0 c24_i32
  let v371 : Index := Scalar.indexCast v370
  ![v371.toNat]
def k1_off84 (v372 : BitVec 32) : Fin 2 → Nat :=
  let c0_i32_184 : BitVec 32 := 0#32
  ![v372.toNat, 0]

def k1_chk42 (v372 : BitVec 32) : Prop :=
  (∀ a, (k1_off84 v372) a + S1x1024.size a ≤ S32000x1024.size a)
instance k1_chk42.dec : ∀ (v372 : BitVec 32), Decidable (k1_chk42 v372) := fun v372 => decidable_of_iff' _ (Iff.of_eq (k1_chk42.eq_1 v372))
theorem k1_off84_inb : ∀ (v372 : BitVec 32) (k1_hw42 : k1_chk42 v372), ∀ a, (k1_off84 v372) a + S1x1024.size a ≤ S32000x1024.size a := fun v372 k1_hw42 => k1_hw42

def k1_off85 (i : grid1.Coords) : Fin 1 → Nat :=
  let arg0 : BitVec 32 := BitVec.ofNat 32 (i 0).val
  let c128_i32 : BitVec 32 := 128#32
  let v0 : BitVec 32 := Scalar.muli arg0 c128_i32
  let c17_i32_185 : BitVec 32 := 17#32
  let v379 : BitVec 32 := Scalar.addi v0 c17_i32_185
  let v380 : Index := Scalar.indexCast v379
  ![v380.toNat]
def k1_off86 (v381 : BitVec 32) : Fin 2 → Nat :=
  let c0_i32_189 : BitVec 32 := 0#32
  ![v381.toNat, 0]

def k1_chk43 (v381 : BitVec 32) : Prop :=
  (∀ a, (k1_off86 v381) a + S1x1024.size a ≤ S32000x1024.size a)
instance k1_chk43.dec : ∀ (v381 : BitVec 32), Decidable (k1_chk43 v381) := fun v381 => decidable_of_iff' _ (Iff.of_eq (k1_chk43.eq_1 v381))
theorem k1_off86_inb : ∀ (v381 : BitVec 32) (k1_hw43 : k1_chk43 v381), ∀ a, (k1_off86 v381) a + S1x1024.size a ≤ S32000x1024.size a := fun v381 k1_hw43 => k1_hw43

def k1_off87 (i : grid1.Coords) : Fin 1 → Nat :=
  let arg0 : BitVec 32 := BitVec.ofNat 32 (i 0).val
  let c128_i32 : BitVec 32 := 128#32
  let v0 : BitVec 32 := Scalar.muli arg0 c128_i32
  let c25_i32 : BitVec 32 := 25#32
  let v388 : BitVec 32 := Scalar.addi v0 c25_i32
  let v389 : Index := Scalar.indexCast v388
  ![v389.toNat]
def k1_off88 (v390 : BitVec 32) : Fin 2 → Nat :=
  let c0_i32_193 : BitVec 32 := 0#32
  ![v390.toNat, 0]

def k1_chk44 (v390 : BitVec 32) : Prop :=
  (∀ a, (k1_off88 v390) a + S1x1024.size a ≤ S32000x1024.size a)
instance k1_chk44.dec : ∀ (v390 : BitVec 32), Decidable (k1_chk44 v390) := fun v390 => decidable_of_iff' _ (Iff.of_eq (k1_chk44.eq_1 v390))
theorem k1_off88_inb : ∀ (v390 : BitVec 32) (k1_hw44 : k1_chk44 v390), ∀ a, (k1_off88 v390) a + S1x1024.size a ≤ S32000x1024.size a := fun v390 k1_hw44 => k1_hw44

def k1_off89 (i : grid1.Coords) : Fin 1 → Nat :=
  let arg0 : BitVec 32 := BitVec.ofNat 32 (i 0).val
  let c128_i32 : BitVec 32 := 128#32
  let v0 : BitVec 32 := Scalar.muli arg0 c128_i32
  let c18_i32_194 : BitVec 32 := 18#32
  let v397 : BitVec 32 := Scalar.addi v0 c18_i32_194
  let v398 : Index := Scalar.indexCast v397
  ![v398.toNat]
def k1_off90 (v399 : BitVec 32) : Fin 2 → Nat :=
  let c0_i32_198 : BitVec 32 := 0#32
  ![v399.toNat, 0]

def k1_chk45 (v399 : BitVec 32) : Prop :=
  (∀ a, (k1_off90 v399) a + S1x1024.size a ≤ S32000x1024.size a)
instance k1_chk45.dec : ∀ (v399 : BitVec 32), Decidable (k1_chk45 v399) := fun v399 => decidable_of_iff' _ (Iff.of_eq (k1_chk45.eq_1 v399))
theorem k1_off90_inb : ∀ (v399 : BitVec 32) (k1_hw45 : k1_chk45 v399), ∀ a, (k1_off90 v399) a + S1x1024.size a ≤ S32000x1024.size a := fun v399 k1_hw45 => k1_hw45

def k1_off91 (i : grid1.Coords) : Fin 1 → Nat :=
  let arg0 : BitVec 32 := BitVec.ofNat 32 (i 0).val
  let c128_i32 : BitVec 32 := 128#32
  let v0 : BitVec 32 := Scalar.muli arg0 c128_i32
  let c26_i32 : BitVec 32 := 26#32
  let v406 : BitVec 32 := Scalar.addi v0 c26_i32
  let v407 : Index := Scalar.indexCast v406
  ![v407.toNat]
def k1_off92 (v408 : BitVec 32) : Fin 2 → Nat :=
  let c0_i32_202 : BitVec 32 := 0#32
  ![v408.toNat, 0]

def k1_chk46 (v408 : BitVec 32) : Prop :=
  (∀ a, (k1_off92 v408) a + S1x1024.size a ≤ S32000x1024.size a)
instance k1_chk46.dec : ∀ (v408 : BitVec 32), Decidable (k1_chk46 v408) := fun v408 => decidable_of_iff' _ (Iff.of_eq (k1_chk46.eq_1 v408))
theorem k1_off92_inb : ∀ (v408 : BitVec 32) (k1_hw46 : k1_chk46 v408), ∀ a, (k1_off92 v408) a + S1x1024.size a ≤ S32000x1024.size a := fun v408 k1_hw46 => k1_hw46

def k1_off93 (i : grid1.Coords) : Fin 1 → Nat :=
  let arg0 : BitVec 32 := BitVec.ofNat 32 (i 0).val
  let c128_i32 : BitVec 32 := 128#32
  let v0 : BitVec 32 := Scalar.muli arg0 c128_i32
  let c19_i32_203 : BitVec 32 := 19#32
  let v415 : BitVec 32 := Scalar.addi v0 c19_i32_203
  let v416 : Index := Scalar.indexCast v415
  ![v416.toNat]
def k1_off94 (v417 : BitVec 32) : Fin 2 → Nat :=
  let c0_i32_207 : BitVec 32 := 0#32
  ![v417.toNat, 0]

def k1_chk47 (v417 : BitVec 32) : Prop :=
  (∀ a, (k1_off94 v417) a + S1x1024.size a ≤ S32000x1024.size a)
instance k1_chk47.dec : ∀ (v417 : BitVec 32), Decidable (k1_chk47 v417) := fun v417 => decidable_of_iff' _ (Iff.of_eq (k1_chk47.eq_1 v417))
theorem k1_off94_inb : ∀ (v417 : BitVec 32) (k1_hw47 : k1_chk47 v417), ∀ a, (k1_off94 v417) a + S1x1024.size a ≤ S32000x1024.size a := fun v417 k1_hw47 => k1_hw47

def k1_off95 (i : grid1.Coords) : Fin 1 → Nat :=
  let arg0 : BitVec 32 := BitVec.ofNat 32 (i 0).val
  let c128_i32 : BitVec 32 := 128#32
  let v0 : BitVec 32 := Scalar.muli arg0 c128_i32
  let c27_i32 : BitVec 32 := 27#32
  let v424 : BitVec 32 := Scalar.addi v0 c27_i32
  let v425 : Index := Scalar.indexCast v424
  ![v425.toNat]
def k1_off96 (v426 : BitVec 32) : Fin 2 → Nat :=
  let c0_i32_211 : BitVec 32 := 0#32
  ![v426.toNat, 0]

def k1_chk48 (v426 : BitVec 32) : Prop :=
  (∀ a, (k1_off96 v426) a + S1x1024.size a ≤ S32000x1024.size a)
instance k1_chk48.dec : ∀ (v426 : BitVec 32), Decidable (k1_chk48 v426) := fun v426 => decidable_of_iff' _ (Iff.of_eq (k1_chk48.eq_1 v426))
theorem k1_off96_inb : ∀ (v426 : BitVec 32) (k1_hw48 : k1_chk48 v426), ∀ a, (k1_off96 v426) a + S1x1024.size a ≤ S32000x1024.size a := fun v426 k1_hw48 => k1_hw48

def k1_off97 (i : grid1.Coords) : Fin 1 → Nat :=
  let arg0 : BitVec 32 := BitVec.ofNat 32 (i 0).val
  let c128_i32 : BitVec 32 := 128#32
  let v0 : BitVec 32 := Scalar.muli arg0 c128_i32
  let c20_i32_212 : BitVec 32 := 20#32
  let v433 : BitVec 32 := Scalar.addi v0 c20_i32_212
  let v434 : Index := Scalar.indexCast v433
  ![v434.toNat]
def k1_off98 (v435 : BitVec 32) : Fin 2 → Nat :=
  let c0_i32_216 : BitVec 32 := 0#32
  ![v435.toNat, 0]

def k1_chk49 (v435 : BitVec 32) : Prop :=
  (∀ a, (k1_off98 v435) a + S1x1024.size a ≤ S32000x1024.size a)
instance k1_chk49.dec : ∀ (v435 : BitVec 32), Decidable (k1_chk49 v435) := fun v435 => decidable_of_iff' _ (Iff.of_eq (k1_chk49.eq_1 v435))
theorem k1_off98_inb : ∀ (v435 : BitVec 32) (k1_hw49 : k1_chk49 v435), ∀ a, (k1_off98 v435) a + S1x1024.size a ≤ S32000x1024.size a := fun v435 k1_hw49 => k1_hw49

def k1_off99 (i : grid1.Coords) : Fin 1 → Nat :=
  let arg0 : BitVec 32 := BitVec.ofNat 32 (i 0).val
  let c128_i32 : BitVec 32 := 128#32
  let v0 : BitVec 32 := Scalar.muli arg0 c128_i32
  let c28_i32 : BitVec 32 := 28#32
  let v442 : BitVec 32 := Scalar.addi v0 c28_i32
  let v443 : Index := Scalar.indexCast v442
  ![v443.toNat]
def k1_off100 (v444 : BitVec 32) : Fin 2 → Nat :=
  let c0_i32_220 : BitVec 32 := 0#32
  ![v444.toNat, 0]

def k1_chk50 (v444 : BitVec 32) : Prop :=
  (∀ a, (k1_off100 v444) a + S1x1024.size a ≤ S32000x1024.size a)
instance k1_chk50.dec : ∀ (v444 : BitVec 32), Decidable (k1_chk50 v444) := fun v444 => decidable_of_iff' _ (Iff.of_eq (k1_chk50.eq_1 v444))
theorem k1_off100_inb : ∀ (v444 : BitVec 32) (k1_hw50 : k1_chk50 v444), ∀ a, (k1_off100 v444) a + S1x1024.size a ≤ S32000x1024.size a := fun v444 k1_hw50 => k1_hw50

def k1_off101 (i : grid1.Coords) : Fin 1 → Nat :=
  let arg0 : BitVec 32 := BitVec.ofNat 32 (i 0).val
  let c128_i32 : BitVec 32 := 128#32
  let v0 : BitVec 32 := Scalar.muli arg0 c128_i32
  let c21_i32_221 : BitVec 32 := 21#32
  let v451 : BitVec 32 := Scalar.addi v0 c21_i32_221
  let v452 : Index := Scalar.indexCast v451
  ![v452.toNat]
def k1_off102 (v453 : BitVec 32) : Fin 2 → Nat :=
  let c0_i32_225 : BitVec 32 := 0#32
  ![v453.toNat, 0]

def k1_chk51 (v453 : BitVec 32) : Prop :=
  (∀ a, (k1_off102 v453) a + S1x1024.size a ≤ S32000x1024.size a)
instance k1_chk51.dec : ∀ (v453 : BitVec 32), Decidable (k1_chk51 v453) := fun v453 => decidable_of_iff' _ (Iff.of_eq (k1_chk51.eq_1 v453))
theorem k1_off102_inb : ∀ (v453 : BitVec 32) (k1_hw51 : k1_chk51 v453), ∀ a, (k1_off102 v453) a + S1x1024.size a ≤ S32000x1024.size a := fun v453 k1_hw51 => k1_hw51

def k1_off103 (i : grid1.Coords) : Fin 1 → Nat :=
  let arg0 : BitVec 32 := BitVec.ofNat 32 (i 0).val
  let c128_i32 : BitVec 32 := 128#32
  let v0 : BitVec 32 := Scalar.muli arg0 c128_i32
  let c29_i32 : BitVec 32 := 29#32
  let v460 : BitVec 32 := Scalar.addi v0 c29_i32
  let v461 : Index := Scalar.indexCast v460
  ![v461.toNat]
def k1_off104 (v462 : BitVec 32) : Fin 2 → Nat :=
  let c0_i32_229 : BitVec 32 := 0#32
  ![v462.toNat, 0]

def k1_chk52 (v462 : BitVec 32) : Prop :=
  (∀ a, (k1_off104 v462) a + S1x1024.size a ≤ S32000x1024.size a)
instance k1_chk52.dec : ∀ (v462 : BitVec 32), Decidable (k1_chk52 v462) := fun v462 => decidable_of_iff' _ (Iff.of_eq (k1_chk52.eq_1 v462))
theorem k1_off104_inb : ∀ (v462 : BitVec 32) (k1_hw52 : k1_chk52 v462), ∀ a, (k1_off104 v462) a + S1x1024.size a ≤ S32000x1024.size a := fun v462 k1_hw52 => k1_hw52

def k1_off105 (i : grid1.Coords) : Fin 1 → Nat :=
  let arg0 : BitVec 32 := BitVec.ofNat 32 (i 0).val
  let c128_i32 : BitVec 32 := 128#32
  let v0 : BitVec 32 := Scalar.muli arg0 c128_i32
  let c22_i32_230 : BitVec 32 := 22#32
  let v469 : BitVec 32 := Scalar.addi v0 c22_i32_230
  let v470 : Index := Scalar.indexCast v469
  ![v470.toNat]
def k1_off106 (v471 : BitVec 32) : Fin 2 → Nat :=
  let c0_i32_234 : BitVec 32 := 0#32
  ![v471.toNat, 0]

def k1_chk53 (v471 : BitVec 32) : Prop :=
  (∀ a, (k1_off106 v471) a + S1x1024.size a ≤ S32000x1024.size a)
instance k1_chk53.dec : ∀ (v471 : BitVec 32), Decidable (k1_chk53 v471) := fun v471 => decidable_of_iff' _ (Iff.of_eq (k1_chk53.eq_1 v471))
theorem k1_off106_inb : ∀ (v471 : BitVec 32) (k1_hw53 : k1_chk53 v471), ∀ a, (k1_off106 v471) a + S1x1024.size a ≤ S32000x1024.size a := fun v471 k1_hw53 => k1_hw53

def k1_off107 (i : grid1.Coords) : Fin 1 → Nat :=
  let arg0 : BitVec 32 := BitVec.ofNat 32 (i 0).val
  let c128_i32 : BitVec 32 := 128#32
  let v0 : BitVec 32 := Scalar.muli arg0 c128_i32
  let c30_i32 : BitVec 32 := 30#32
  let v478 : BitVec 32 := Scalar.addi v0 c30_i32
  let v479 : Index := Scalar.indexCast v478
  ![v479.toNat]
def k1_off108 (v480 : BitVec 32) : Fin 2 → Nat :=
  let c0_i32_238 : BitVec 32 := 0#32
  ![v480.toNat, 0]

def k1_chk54 (v480 : BitVec 32) : Prop :=
  (∀ a, (k1_off108 v480) a + S1x1024.size a ≤ S32000x1024.size a)
instance k1_chk54.dec : ∀ (v480 : BitVec 32), Decidable (k1_chk54 v480) := fun v480 => decidable_of_iff' _ (Iff.of_eq (k1_chk54.eq_1 v480))
theorem k1_off108_inb : ∀ (v480 : BitVec 32) (k1_hw54 : k1_chk54 v480), ∀ a, (k1_off108 v480) a + S1x1024.size a ≤ S32000x1024.size a := fun v480 k1_hw54 => k1_hw54

def k1_off109 (i : grid1.Coords) : Fin 1 → Nat :=
  let arg0 : BitVec 32 := BitVec.ofNat 32 (i 0).val
  let c128_i32 : BitVec 32 := 128#32
  let v0 : BitVec 32 := Scalar.muli arg0 c128_i32
  let c23_i32_239 : BitVec 32 := 23#32
  let v487 : BitVec 32 := Scalar.addi v0 c23_i32_239
  let v488 : Index := Scalar.indexCast v487
  ![v488.toNat]
def k1_off110 (v489 : BitVec 32) : Fin 2 → Nat :=
  let c0_i32_243 : BitVec 32 := 0#32
  ![v489.toNat, 0]

def k1_chk55 (v489 : BitVec 32) : Prop :=
  (∀ a, (k1_off110 v489) a + S1x1024.size a ≤ S32000x1024.size a)
instance k1_chk55.dec : ∀ (v489 : BitVec 32), Decidable (k1_chk55 v489) := fun v489 => decidable_of_iff' _ (Iff.of_eq (k1_chk55.eq_1 v489))
theorem k1_off110_inb : ∀ (v489 : BitVec 32) (k1_hw55 : k1_chk55 v489), ∀ a, (k1_off110 v489) a + S1x1024.size a ≤ S32000x1024.size a := fun v489 k1_hw55 => k1_hw55

def k1_off111 (i : grid1.Coords) : Fin 1 → Nat :=
  let arg0 : BitVec 32 := BitVec.ofNat 32 (i 0).val
  let c128_i32 : BitVec 32 := 128#32
  let v0 : BitVec 32 := Scalar.muli arg0 c128_i32
  let c31_i32 : BitVec 32 := 31#32
  let v496 : BitVec 32 := Scalar.addi v0 c31_i32
  let v497 : Index := Scalar.indexCast v496
  ![v497.toNat]
def k1_off112 (v498 : BitVec 32) : Fin 2 → Nat :=
  let c0_i32_247 : BitVec 32 := 0#32
  ![v498.toNat, 0]

def k1_chk56 (v498 : BitVec 32) : Prop :=
  (∀ a, (k1_off112 v498) a + S1x1024.size a ≤ S32000x1024.size a)
instance k1_chk56.dec : ∀ (v498 : BitVec 32), Decidable (k1_chk56 v498) := fun v498 => decidable_of_iff' _ (Iff.of_eq (k1_chk56.eq_1 v498))
theorem k1_off112_inb : ∀ (v498 : BitVec 32) (k1_hw56 : k1_chk56 v498), ∀ a, (k1_off112 v498) a + S1x1024.size a ≤ S32000x1024.size a := fun v498 k1_hw56 => k1_hw56

def k1_off113 (i : grid1.Coords) : Fin 1 → Nat :=
  let arg0 : BitVec 32 := BitVec.ofNat 32 (i 0).val
  let c128_i32 : BitVec 32 := 128#32
  let v0 : BitVec 32 := Scalar.muli arg0 c128_i32
  let c24_i32_248 : BitVec 32 := 24#32
  let v505 : BitVec 32 := Scalar.addi v0 c24_i32_248
  let v506 : Index := Scalar.indexCast v505
  ![v506.toNat]
def k1_off114 (v507 : BitVec 32) : Fin 2 → Nat :=
  let c0_i32_252 : BitVec 32 := 0#32
  ![v507.toNat, 0]

def k1_chk57 (v507 : BitVec 32) : Prop :=
  (∀ a, (k1_off114 v507) a + S1x1024.size a ≤ S32000x1024.size a)
instance k1_chk57.dec : ∀ (v507 : BitVec 32), Decidable (k1_chk57 v507) := fun v507 => decidable_of_iff' _ (Iff.of_eq (k1_chk57.eq_1 v507))
theorem k1_off114_inb : ∀ (v507 : BitVec 32) (k1_hw57 : k1_chk57 v507), ∀ a, (k1_off114 v507) a + S1x1024.size a ≤ S32000x1024.size a := fun v507 k1_hw57 => k1_hw57

def k1_off115 (i : grid1.Coords) : Fin 1 → Nat :=
  let arg0 : BitVec 32 := BitVec.ofNat 32 (i 0).val
  let c128_i32 : BitVec 32 := 128#32
  let v0 : BitVec 32 := Scalar.muli arg0 c128_i32
  let c32_i32 : BitVec 32 := 32#32
  let v514 : BitVec 32 := Scalar.addi v0 c32_i32
  let v515 : Index := Scalar.indexCast v514
  ![v515.toNat]
def k1_off116 (v516 : BitVec 32) : Fin 2 → Nat :=
  let c0_i32_256 : BitVec 32 := 0#32
  ![v516.toNat, 0]

def k1_chk58 (v516 : BitVec 32) : Prop :=
  (∀ a, (k1_off116 v516) a + S1x1024.size a ≤ S32000x1024.size a)
instance k1_chk58.dec : ∀ (v516 : BitVec 32), Decidable (k1_chk58 v516) := fun v516 => decidable_of_iff' _ (Iff.of_eq (k1_chk58.eq_1 v516))
theorem k1_off116_inb : ∀ (v516 : BitVec 32) (k1_hw58 : k1_chk58 v516), ∀ a, (k1_off116 v516) a + S1x1024.size a ≤ S32000x1024.size a := fun v516 k1_hw58 => k1_hw58

def k1_off117 (i : grid1.Coords) : Fin 1 → Nat :=
  let arg0 : BitVec 32 := BitVec.ofNat 32 (i 0).val
  let c128_i32 : BitVec 32 := 128#32
  let v0 : BitVec 32 := Scalar.muli arg0 c128_i32
  let c25_i32_257 : BitVec 32 := 25#32
  let v523 : BitVec 32 := Scalar.addi v0 c25_i32_257
  let v524 : Index := Scalar.indexCast v523
  ![v524.toNat]
def k1_off118 (v525 : BitVec 32) : Fin 2 → Nat :=
  let c0_i32_261 : BitVec 32 := 0#32
  ![v525.toNat, 0]

def k1_chk59 (v525 : BitVec 32) : Prop :=
  (∀ a, (k1_off118 v525) a + S1x1024.size a ≤ S32000x1024.size a)
instance k1_chk59.dec : ∀ (v525 : BitVec 32), Decidable (k1_chk59 v525) := fun v525 => decidable_of_iff' _ (Iff.of_eq (k1_chk59.eq_1 v525))
theorem k1_off118_inb : ∀ (v525 : BitVec 32) (k1_hw59 : k1_chk59 v525), ∀ a, (k1_off118 v525) a + S1x1024.size a ≤ S32000x1024.size a := fun v525 k1_hw59 => k1_hw59

def k1_off119 (i : grid1.Coords) : Fin 1 → Nat :=
  let arg0 : BitVec 32 := BitVec.ofNat 32 (i 0).val
  let c128_i32 : BitVec 32 := 128#32
  let v0 : BitVec 32 := Scalar.muli arg0 c128_i32
  let c33_i32 : BitVec 32 := 33#32
  let v532 : BitVec 32 := Scalar.addi v0 c33_i32
  let v533 : Index := Scalar.indexCast v532
  ![v533.toNat]
def k1_off120 (v534 : BitVec 32) : Fin 2 → Nat :=
  let c0_i32_265 : BitVec 32 := 0#32
  ![v534.toNat, 0]

def k1_chk60 (v534 : BitVec 32) : Prop :=
  (∀ a, (k1_off120 v534) a + S1x1024.size a ≤ S32000x1024.size a)
instance k1_chk60.dec : ∀ (v534 : BitVec 32), Decidable (k1_chk60 v534) := fun v534 => decidable_of_iff' _ (Iff.of_eq (k1_chk60.eq_1 v534))
theorem k1_off120_inb : ∀ (v534 : BitVec 32) (k1_hw60 : k1_chk60 v534), ∀ a, (k1_off120 v534) a + S1x1024.size a ≤ S32000x1024.size a := fun v534 k1_hw60 => k1_hw60

def k1_off121 (i : grid1.Coords) : Fin 1 → Nat :=
  let arg0 : BitVec 32 := BitVec.ofNat 32 (i 0).val
  let c128_i32 : BitVec 32 := 128#32
  let v0 : BitVec 32 := Scalar.muli arg0 c128_i32
  let c26_i32_266 : BitVec 32 := 26#32
  let v541 : BitVec 32 := Scalar.addi v0 c26_i32_266
  let v542 : Index := Scalar.indexCast v541
  ![v542.toNat]
def k1_off122 (v543 : BitVec 32) : Fin 2 → Nat :=
  let c0_i32_270 : BitVec 32 := 0#32
  ![v543.toNat, 0]

def k1_chk61 (v543 : BitVec 32) : Prop :=
  (∀ a, (k1_off122 v543) a + S1x1024.size a ≤ S32000x1024.size a)
instance k1_chk61.dec : ∀ (v543 : BitVec 32), Decidable (k1_chk61 v543) := fun v543 => decidable_of_iff' _ (Iff.of_eq (k1_chk61.eq_1 v543))
theorem k1_off122_inb : ∀ (v543 : BitVec 32) (k1_hw61 : k1_chk61 v543), ∀ a, (k1_off122 v543) a + S1x1024.size a ≤ S32000x1024.size a := fun v543 k1_hw61 => k1_hw61

def k1_off123 (i : grid1.Coords) : Fin 1 → Nat :=
  let arg0 : BitVec 32 := BitVec.ofNat 32 (i 0).val
  let c128_i32 : BitVec 32 := 128#32
  let v0 : BitVec 32 := Scalar.muli arg0 c128_i32
  let c34_i32 : BitVec 32 := 34#32
  let v550 : BitVec 32 := Scalar.addi v0 c34_i32
  let v551 : Index := Scalar.indexCast v550
  ![v551.toNat]
def k1_off124 (v552 : BitVec 32) : Fin 2 → Nat :=
  let c0_i32_274 : BitVec 32 := 0#32
  ![v552.toNat, 0]

def k1_chk62 (v552 : BitVec 32) : Prop :=
  (∀ a, (k1_off124 v552) a + S1x1024.size a ≤ S32000x1024.size a)
instance k1_chk62.dec : ∀ (v552 : BitVec 32), Decidable (k1_chk62 v552) := fun v552 => decidable_of_iff' _ (Iff.of_eq (k1_chk62.eq_1 v552))
theorem k1_off124_inb : ∀ (v552 : BitVec 32) (k1_hw62 : k1_chk62 v552), ∀ a, (k1_off124 v552) a + S1x1024.size a ≤ S32000x1024.size a := fun v552 k1_hw62 => k1_hw62

def k1_off125 (i : grid1.Coords) : Fin 1 → Nat :=
  let arg0 : BitVec 32 := BitVec.ofNat 32 (i 0).val
  let c128_i32 : BitVec 32 := 128#32
  let v0 : BitVec 32 := Scalar.muli arg0 c128_i32
  let c27_i32_275 : BitVec 32 := 27#32
  let v559 : BitVec 32 := Scalar.addi v0 c27_i32_275
  let v560 : Index := Scalar.indexCast v559
  ![v560.toNat]
def k1_off126 (v561 : BitVec 32) : Fin 2 → Nat :=
  let c0_i32_279 : BitVec 32 := 0#32
  ![v561.toNat, 0]

def k1_chk63 (v561 : BitVec 32) : Prop :=
  (∀ a, (k1_off126 v561) a + S1x1024.size a ≤ S32000x1024.size a)
instance k1_chk63.dec : ∀ (v561 : BitVec 32), Decidable (k1_chk63 v561) := fun v561 => decidable_of_iff' _ (Iff.of_eq (k1_chk63.eq_1 v561))
theorem k1_off126_inb : ∀ (v561 : BitVec 32) (k1_hw63 : k1_chk63 v561), ∀ a, (k1_off126 v561) a + S1x1024.size a ≤ S32000x1024.size a := fun v561 k1_hw63 => k1_hw63

def k1_off127 (i : grid1.Coords) : Fin 1 → Nat :=
  let arg0 : BitVec 32 := BitVec.ofNat 32 (i 0).val
  let c128_i32 : BitVec 32 := 128#32
  let v0 : BitVec 32 := Scalar.muli arg0 c128_i32
  let c35_i32 : BitVec 32 := 35#32
  let v568 : BitVec 32 := Scalar.addi v0 c35_i32
  let v569 : Index := Scalar.indexCast v568
  ![v569.toNat]
def k1_off128 (v570 : BitVec 32) : Fin 2 → Nat :=
  let c0_i32_283 : BitVec 32 := 0#32
  ![v570.toNat, 0]

def k1_chk64 (v570 : BitVec 32) : Prop :=
  (∀ a, (k1_off128 v570) a + S1x1024.size a ≤ S32000x1024.size a)
instance k1_chk64.dec : ∀ (v570 : BitVec 32), Decidable (k1_chk64 v570) := fun v570 => decidable_of_iff' _ (Iff.of_eq (k1_chk64.eq_1 v570))
theorem k1_off128_inb : ∀ (v570 : BitVec 32) (k1_hw64 : k1_chk64 v570), ∀ a, (k1_off128 v570) a + S1x1024.size a ≤ S32000x1024.size a := fun v570 k1_hw64 => k1_hw64

def k1_off129 (i : grid1.Coords) : Fin 1 → Nat :=
  let arg0 : BitVec 32 := BitVec.ofNat 32 (i 0).val
  let c128_i32 : BitVec 32 := 128#32
  let v0 : BitVec 32 := Scalar.muli arg0 c128_i32
  let c28_i32_284 : BitVec 32 := 28#32
  let v577 : BitVec 32 := Scalar.addi v0 c28_i32_284
  let v578 : Index := Scalar.indexCast v577
  ![v578.toNat]
def k1_off130 (v579 : BitVec 32) : Fin 2 → Nat :=
  let c0_i32_288 : BitVec 32 := 0#32
  ![v579.toNat, 0]

def k1_chk65 (v579 : BitVec 32) : Prop :=
  (∀ a, (k1_off130 v579) a + S1x1024.size a ≤ S32000x1024.size a)
instance k1_chk65.dec : ∀ (v579 : BitVec 32), Decidable (k1_chk65 v579) := fun v579 => decidable_of_iff' _ (Iff.of_eq (k1_chk65.eq_1 v579))
theorem k1_off130_inb : ∀ (v579 : BitVec 32) (k1_hw65 : k1_chk65 v579), ∀ a, (k1_off130 v579) a + S1x1024.size a ≤ S32000x1024.size a := fun v579 k1_hw65 => k1_hw65

def k1_off131 (i : grid1.Coords) : Fin 1 → Nat :=
  let arg0 : BitVec 32 := BitVec.ofNat 32 (i 0).val
  let c128_i32 : BitVec 32 := 128#32
  let v0 : BitVec 32 := Scalar.muli arg0 c128_i32
  let c36_i32 : BitVec 32 := 36#32
  let v586 : BitVec 32 := Scalar.addi v0 c36_i32
  let v587 : Index := Scalar.indexCast v586
  ![v587.toNat]
def k1_off132 (v588 : BitVec 32) : Fin 2 → Nat :=
  let c0_i32_292 : BitVec 32 := 0#32
  ![v588.toNat, 0]

def k1_chk66 (v588 : BitVec 32) : Prop :=
  (∀ a, (k1_off132 v588) a + S1x1024.size a ≤ S32000x1024.size a)
instance k1_chk66.dec : ∀ (v588 : BitVec 32), Decidable (k1_chk66 v588) := fun v588 => decidable_of_iff' _ (Iff.of_eq (k1_chk66.eq_1 v588))
theorem k1_off132_inb : ∀ (v588 : BitVec 32) (k1_hw66 : k1_chk66 v588), ∀ a, (k1_off132 v588) a + S1x1024.size a ≤ S32000x1024.size a := fun v588 k1_hw66 => k1_hw66

def k1_off133 (i : grid1.Coords) : Fin 1 → Nat :=
  let arg0 : BitVec 32 := BitVec.ofNat 32 (i 0).val
  let c128_i32 : BitVec 32 := 128#32
  let v0 : BitVec 32 := Scalar.muli arg0 c128_i32
  let c29_i32_293 : BitVec 32 := 29#32
  let v595 : BitVec 32 := Scalar.addi v0 c29_i32_293
  let v596 : Index := Scalar.indexCast v595
  ![v596.toNat]
def k1_off134 (v597 : BitVec 32) : Fin 2 → Nat :=
  let c0_i32_297 : BitVec 32 := 0#32
  ![v597.toNat, 0]

def k1_chk67 (v597 : BitVec 32) : Prop :=
  (∀ a, (k1_off134 v597) a + S1x1024.size a ≤ S32000x1024.size a)
instance k1_chk67.dec : ∀ (v597 : BitVec 32), Decidable (k1_chk67 v597) := fun v597 => decidable_of_iff' _ (Iff.of_eq (k1_chk67.eq_1 v597))
theorem k1_off134_inb : ∀ (v597 : BitVec 32) (k1_hw67 : k1_chk67 v597), ∀ a, (k1_off134 v597) a + S1x1024.size a ≤ S32000x1024.size a := fun v597 k1_hw67 => k1_hw67

def k1_off135 (i : grid1.Coords) : Fin 1 → Nat :=
  let arg0 : BitVec 32 := BitVec.ofNat 32 (i 0).val
  let c128_i32 : BitVec 32 := 128#32
  let v0 : BitVec 32 := Scalar.muli arg0 c128_i32
  let c37_i32 : BitVec 32 := 37#32
  let v604 : BitVec 32 := Scalar.addi v0 c37_i32
  let v605 : Index := Scalar.indexCast v604
  ![v605.toNat]
def k1_off136 (v606 : BitVec 32) : Fin 2 → Nat :=
  let c0_i32_301 : BitVec 32 := 0#32
  ![v606.toNat, 0]

def k1_chk68 (v606 : BitVec 32) : Prop :=
  (∀ a, (k1_off136 v606) a + S1x1024.size a ≤ S32000x1024.size a)
instance k1_chk68.dec : ∀ (v606 : BitVec 32), Decidable (k1_chk68 v606) := fun v606 => decidable_of_iff' _ (Iff.of_eq (k1_chk68.eq_1 v606))
theorem k1_off136_inb : ∀ (v606 : BitVec 32) (k1_hw68 : k1_chk68 v606), ∀ a, (k1_off136 v606) a + S1x1024.size a ≤ S32000x1024.size a := fun v606 k1_hw68 => k1_hw68

def k1_off137 (i : grid1.Coords) : Fin 1 → Nat :=
  let arg0 : BitVec 32 := BitVec.ofNat 32 (i 0).val
  let c128_i32 : BitVec 32 := 128#32
  let v0 : BitVec 32 := Scalar.muli arg0 c128_i32
  let c30_i32_302 : BitVec 32 := 30#32
  let v613 : BitVec 32 := Scalar.addi v0 c30_i32_302
  let v614 : Index := Scalar.indexCast v613
  ![v614.toNat]
def k1_off138 (v615 : BitVec 32) : Fin 2 → Nat :=
  let c0_i32_306 : BitVec 32 := 0#32
  ![v615.toNat, 0]

def k1_chk69 (v615 : BitVec 32) : Prop :=
  (∀ a, (k1_off138 v615) a + S1x1024.size a ≤ S32000x1024.size a)
instance k1_chk69.dec : ∀ (v615 : BitVec 32), Decidable (k1_chk69 v615) := fun v615 => decidable_of_iff' _ (Iff.of_eq (k1_chk69.eq_1 v615))
theorem k1_off138_inb : ∀ (v615 : BitVec 32) (k1_hw69 : k1_chk69 v615), ∀ a, (k1_off138 v615) a + S1x1024.size a ≤ S32000x1024.size a := fun v615 k1_hw69 => k1_hw69

def k1_off139 (i : grid1.Coords) : Fin 1 → Nat :=
  let arg0 : BitVec 32 := BitVec.ofNat 32 (i 0).val
  let c128_i32 : BitVec 32 := 128#32
  let v0 : BitVec 32 := Scalar.muli arg0 c128_i32
  let c38_i32 : BitVec 32 := 38#32
  let v622 : BitVec 32 := Scalar.addi v0 c38_i32
  let v623 : Index := Scalar.indexCast v622
  ![v623.toNat]
def k1_off140 (v624 : BitVec 32) : Fin 2 → Nat :=
  let c0_i32_310 : BitVec 32 := 0#32
  ![v624.toNat, 0]

def k1_chk70 (v624 : BitVec 32) : Prop :=
  (∀ a, (k1_off140 v624) a + S1x1024.size a ≤ S32000x1024.size a)
instance k1_chk70.dec : ∀ (v624 : BitVec 32), Decidable (k1_chk70 v624) := fun v624 => decidable_of_iff' _ (Iff.of_eq (k1_chk70.eq_1 v624))
theorem k1_off140_inb : ∀ (v624 : BitVec 32) (k1_hw70 : k1_chk70 v624), ∀ a, (k1_off140 v624) a + S1x1024.size a ≤ S32000x1024.size a := fun v624 k1_hw70 => k1_hw70

def k1_off141 (i : grid1.Coords) : Fin 1 → Nat :=
  let arg0 : BitVec 32 := BitVec.ofNat 32 (i 0).val
  let c128_i32 : BitVec 32 := 128#32
  let v0 : BitVec 32 := Scalar.muli arg0 c128_i32
  let c31_i32_311 : BitVec 32 := 31#32
  let v631 : BitVec 32 := Scalar.addi v0 c31_i32_311
  let v632 : Index := Scalar.indexCast v631
  ![v632.toNat]
def k1_off142 (v633 : BitVec 32) : Fin 2 → Nat :=
  let c0_i32_315 : BitVec 32 := 0#32
  ![v633.toNat, 0]

def k1_chk71 (v633 : BitVec 32) : Prop :=
  (∀ a, (k1_off142 v633) a + S1x1024.size a ≤ S32000x1024.size a)
instance k1_chk71.dec : ∀ (v633 : BitVec 32), Decidable (k1_chk71 v633) := fun v633 => decidable_of_iff' _ (Iff.of_eq (k1_chk71.eq_1 v633))
theorem k1_off142_inb : ∀ (v633 : BitVec 32) (k1_hw71 : k1_chk71 v633), ∀ a, (k1_off142 v633) a + S1x1024.size a ≤ S32000x1024.size a := fun v633 k1_hw71 => k1_hw71

def k1_off143 (i : grid1.Coords) : Fin 1 → Nat :=
  let arg0 : BitVec 32 := BitVec.ofNat 32 (i 0).val
  let c128_i32 : BitVec 32 := 128#32
  let v0 : BitVec 32 := Scalar.muli arg0 c128_i32
  let c39_i32 : BitVec 32 := 39#32
  let v640 : BitVec 32 := Scalar.addi v0 c39_i32
  let v641 : Index := Scalar.indexCast v640
  ![v641.toNat]
def k1_off144 (v642 : BitVec 32) : Fin 2 → Nat :=
  let c0_i32_319 : BitVec 32 := 0#32
  ![v642.toNat, 0]

def k1_chk72 (v642 : BitVec 32) : Prop :=
  (∀ a, (k1_off144 v642) a + S1x1024.size a ≤ S32000x1024.size a)
instance k1_chk72.dec : ∀ (v642 : BitVec 32), Decidable (k1_chk72 v642) := fun v642 => decidable_of_iff' _ (Iff.of_eq (k1_chk72.eq_1 v642))
theorem k1_off144_inb : ∀ (v642 : BitVec 32) (k1_hw72 : k1_chk72 v642), ∀ a, (k1_off144 v642) a + S1x1024.size a ≤ S32000x1024.size a := fun v642 k1_hw72 => k1_hw72

def k1_off145 (i : grid1.Coords) : Fin 1 → Nat :=
  let arg0 : BitVec 32 := BitVec.ofNat 32 (i 0).val
  let c128_i32 : BitVec 32 := 128#32
  let v0 : BitVec 32 := Scalar.muli arg0 c128_i32
  let c32_i32_320 : BitVec 32 := 32#32
  let v649 : BitVec 32 := Scalar.addi v0 c32_i32_320
  let v650 : Index := Scalar.indexCast v649
  ![v650.toNat]
def k1_off146 (v651 : BitVec 32) : Fin 2 → Nat :=
  let c0_i32_324 : BitVec 32 := 0#32
  ![v651.toNat, 0]

def k1_chk73 (v651 : BitVec 32) : Prop :=
  (∀ a, (k1_off146 v651) a + S1x1024.size a ≤ S32000x1024.size a)
instance k1_chk73.dec : ∀ (v651 : BitVec 32), Decidable (k1_chk73 v651) := fun v651 => decidable_of_iff' _ (Iff.of_eq (k1_chk73.eq_1 v651))
theorem k1_off146_inb : ∀ (v651 : BitVec 32) (k1_hw73 : k1_chk73 v651), ∀ a, (k1_off146 v651) a + S1x1024.size a ≤ S32000x1024.size a := fun v651 k1_hw73 => k1_hw73

def k1_off147 (i : grid1.Coords) : Fin 1 → Nat :=
  let arg0 : BitVec 32 := BitVec.ofNat 32 (i 0).val
  let c128_i32 : BitVec 32 := 128#32
  let v0 : BitVec 32 := Scalar.muli arg0 c128_i32
  let c40_i32 : BitVec 32 := 40#32
  let v658 : BitVec 32 := Scalar.addi v0 c40_i32
  let v659 : Index := Scalar.indexCast v658
  ![v659.toNat]
def k1_off148 (v660 : BitVec 32) : Fin 2 → Nat :=
  let c0_i32_328 : BitVec 32 := 0#32
  ![v660.toNat, 0]

def k1_chk74 (v660 : BitVec 32) : Prop :=
  (∀ a, (k1_off148 v660) a + S1x1024.size a ≤ S32000x1024.size a)
instance k1_chk74.dec : ∀ (v660 : BitVec 32), Decidable (k1_chk74 v660) := fun v660 => decidable_of_iff' _ (Iff.of_eq (k1_chk74.eq_1 v660))
theorem k1_off148_inb : ∀ (v660 : BitVec 32) (k1_hw74 : k1_chk74 v660), ∀ a, (k1_off148 v660) a + S1x1024.size a ≤ S32000x1024.size a := fun v660 k1_hw74 => k1_hw74

def k1_off149 (i : grid1.Coords) : Fin 1 → Nat :=
  let arg0 : BitVec 32 := BitVec.ofNat 32 (i 0).val
  let c128_i32 : BitVec 32 := 128#32
  let v0 : BitVec 32 := Scalar.muli arg0 c128_i32
  let c33_i32_329 : BitVec 32 := 33#32
  let v667 : BitVec 32 := Scalar.addi v0 c33_i32_329
  let v668 : Index := Scalar.indexCast v667
  ![v668.toNat]
def k1_off150 (v669 : BitVec 32) : Fin 2 → Nat :=
  let c0_i32_333 : BitVec 32 := 0#32
  ![v669.toNat, 0]

def k1_chk75 (v669 : BitVec 32) : Prop :=
  (∀ a, (k1_off150 v669) a + S1x1024.size a ≤ S32000x1024.size a)
instance k1_chk75.dec : ∀ (v669 : BitVec 32), Decidable (k1_chk75 v669) := fun v669 => decidable_of_iff' _ (Iff.of_eq (k1_chk75.eq_1 v669))
theorem k1_off150_inb : ∀ (v669 : BitVec 32) (k1_hw75 : k1_chk75 v669), ∀ a, (k1_off150 v669) a + S1x1024.size a ≤ S32000x1024.size a := fun v669 k1_hw75 => k1_hw75

def k1_off151 (i : grid1.Coords) : Fin 1 → Nat :=
  let arg0 : BitVec 32 := BitVec.ofNat 32 (i 0).val
  let c128_i32 : BitVec 32 := 128#32
  let v0 : BitVec 32 := Scalar.muli arg0 c128_i32
  let c41_i32 : BitVec 32 := 41#32
  let v676 : BitVec 32 := Scalar.addi v0 c41_i32
  let v677 : Index := Scalar.indexCast v676
  ![v677.toNat]
def k1_off152 (v678 : BitVec 32) : Fin 2 → Nat :=
  let c0_i32_337 : BitVec 32 := 0#32
  ![v678.toNat, 0]

def k1_chk76 (v678 : BitVec 32) : Prop :=
  (∀ a, (k1_off152 v678) a + S1x1024.size a ≤ S32000x1024.size a)
instance k1_chk76.dec : ∀ (v678 : BitVec 32), Decidable (k1_chk76 v678) := fun v678 => decidable_of_iff' _ (Iff.of_eq (k1_chk76.eq_1 v678))
theorem k1_off152_inb : ∀ (v678 : BitVec 32) (k1_hw76 : k1_chk76 v678), ∀ a, (k1_off152 v678) a + S1x1024.size a ≤ S32000x1024.size a := fun v678 k1_hw76 => k1_hw76

def k1_off153 (i : grid1.Coords) : Fin 1 → Nat :=
  let arg0 : BitVec 32 := BitVec.ofNat 32 (i 0).val
  let c128_i32 : BitVec 32 := 128#32
  let v0 : BitVec 32 := Scalar.muli arg0 c128_i32
  let c34_i32_338 : BitVec 32 := 34#32
  let v685 : BitVec 32 := Scalar.addi v0 c34_i32_338
  let v686 : Index := Scalar.indexCast v685
  ![v686.toNat]
def k1_off154 (v687 : BitVec 32) : Fin 2 → Nat :=
  let c0_i32_342 : BitVec 32 := 0#32
  ![v687.toNat, 0]

def k1_chk77 (v687 : BitVec 32) : Prop :=
  (∀ a, (k1_off154 v687) a + S1x1024.size a ≤ S32000x1024.size a)
instance k1_chk77.dec : ∀ (v687 : BitVec 32), Decidable (k1_chk77 v687) := fun v687 => decidable_of_iff' _ (Iff.of_eq (k1_chk77.eq_1 v687))
theorem k1_off154_inb : ∀ (v687 : BitVec 32) (k1_hw77 : k1_chk77 v687), ∀ a, (k1_off154 v687) a + S1x1024.size a ≤ S32000x1024.size a := fun v687 k1_hw77 => k1_hw77

def k1_off155 (i : grid1.Coords) : Fin 1 → Nat :=
  let arg0 : BitVec 32 := BitVec.ofNat 32 (i 0).val
  let c128_i32 : BitVec 32 := 128#32
  let v0 : BitVec 32 := Scalar.muli arg0 c128_i32
  let c42_i32 : BitVec 32 := 42#32
  let v694 : BitVec 32 := Scalar.addi v0 c42_i32
  let v695 : Index := Scalar.indexCast v694
  ![v695.toNat]
def k1_off156 (v696 : BitVec 32) : Fin 2 → Nat :=
  let c0_i32_346 : BitVec 32 := 0#32
  ![v696.toNat, 0]

def k1_chk78 (v696 : BitVec 32) : Prop :=
  (∀ a, (k1_off156 v696) a + S1x1024.size a ≤ S32000x1024.size a)
instance k1_chk78.dec : ∀ (v696 : BitVec 32), Decidable (k1_chk78 v696) := fun v696 => decidable_of_iff' _ (Iff.of_eq (k1_chk78.eq_1 v696))
theorem k1_off156_inb : ∀ (v696 : BitVec 32) (k1_hw78 : k1_chk78 v696), ∀ a, (k1_off156 v696) a + S1x1024.size a ≤ S32000x1024.size a := fun v696 k1_hw78 => k1_hw78

def k1_off157 (i : grid1.Coords) : Fin 1 → Nat :=
  let arg0 : BitVec 32 := BitVec.ofNat 32 (i 0).val
  let c128_i32 : BitVec 32 := 128#32
  let v0 : BitVec 32 := Scalar.muli arg0 c128_i32
  let c35_i32_347 : BitVec 32 := 35#32
  let v703 : BitVec 32 := Scalar.addi v0 c35_i32_347
  let v704 : Index := Scalar.indexCast v703
  ![v704.toNat]
def k1_off158 (v705 : BitVec 32) : Fin 2 → Nat :=
  let c0_i32_351 : BitVec 32 := 0#32
  ![v705.toNat, 0]

def k1_chk79 (v705 : BitVec 32) : Prop :=
  (∀ a, (k1_off158 v705) a + S1x1024.size a ≤ S32000x1024.size a)
instance k1_chk79.dec : ∀ (v705 : BitVec 32), Decidable (k1_chk79 v705) := fun v705 => decidable_of_iff' _ (Iff.of_eq (k1_chk79.eq_1 v705))
theorem k1_off158_inb : ∀ (v705 : BitVec 32) (k1_hw79 : k1_chk79 v705), ∀ a, (k1_off158 v705) a + S1x1024.size a ≤ S32000x1024.size a := fun v705 k1_hw79 => k1_hw79

def k1_off159 (i : grid1.Coords) : Fin 1 → Nat :=
  let arg0 : BitVec 32 := BitVec.ofNat 32 (i 0).val
  let c128_i32 : BitVec 32 := 128#32
  let v0 : BitVec 32 := Scalar.muli arg0 c128_i32
  let c43_i32 : BitVec 32 := 43#32
  let v712 : BitVec 32 := Scalar.addi v0 c43_i32
  let v713 : Index := Scalar.indexCast v712
  ![v713.toNat]
def k1_off160 (v714 : BitVec 32) : Fin 2 → Nat :=
  let c0_i32_355 : BitVec 32 := 0#32
  ![v714.toNat, 0]

def k1_chk80 (v714 : BitVec 32) : Prop :=
  (∀ a, (k1_off160 v714) a + S1x1024.size a ≤ S32000x1024.size a)
instance k1_chk80.dec : ∀ (v714 : BitVec 32), Decidable (k1_chk80 v714) := fun v714 => decidable_of_iff' _ (Iff.of_eq (k1_chk80.eq_1 v714))
theorem k1_off160_inb : ∀ (v714 : BitVec 32) (k1_hw80 : k1_chk80 v714), ∀ a, (k1_off160 v714) a + S1x1024.size a ≤ S32000x1024.size a := fun v714 k1_hw80 => k1_hw80

def k1_off161 (i : grid1.Coords) : Fin 1 → Nat :=
  let arg0 : BitVec 32 := BitVec.ofNat 32 (i 0).val
  let c128_i32 : BitVec 32 := 128#32
  let v0 : BitVec 32 := Scalar.muli arg0 c128_i32
  let c36_i32_356 : BitVec 32 := 36#32
  let v721 : BitVec 32 := Scalar.addi v0 c36_i32_356
  let v722 : Index := Scalar.indexCast v721
  ![v722.toNat]
def k1_off162 (v723 : BitVec 32) : Fin 2 → Nat :=
  let c0_i32_360 : BitVec 32 := 0#32
  ![v723.toNat, 0]

def k1_chk81 (v723 : BitVec 32) : Prop :=
  (∀ a, (k1_off162 v723) a + S1x1024.size a ≤ S32000x1024.size a)
instance k1_chk81.dec : ∀ (v723 : BitVec 32), Decidable (k1_chk81 v723) := fun v723 => decidable_of_iff' _ (Iff.of_eq (k1_chk81.eq_1 v723))
theorem k1_off162_inb : ∀ (v723 : BitVec 32) (k1_hw81 : k1_chk81 v723), ∀ a, (k1_off162 v723) a + S1x1024.size a ≤ S32000x1024.size a := fun v723 k1_hw81 => k1_hw81

def k1_off163 (i : grid1.Coords) : Fin 1 → Nat :=
  let arg0 : BitVec 32 := BitVec.ofNat 32 (i 0).val
  let c128_i32 : BitVec 32 := 128#32
  let v0 : BitVec 32 := Scalar.muli arg0 c128_i32
  let c44_i32 : BitVec 32 := 44#32
  let v730 : BitVec 32 := Scalar.addi v0 c44_i32
  let v731 : Index := Scalar.indexCast v730
  ![v731.toNat]
def k1_off164 (v732 : BitVec 32) : Fin 2 → Nat :=
  let c0_i32_364 : BitVec 32 := 0#32
  ![v732.toNat, 0]

def k1_chk82 (v732 : BitVec 32) : Prop :=
  (∀ a, (k1_off164 v732) a + S1x1024.size a ≤ S32000x1024.size a)
instance k1_chk82.dec : ∀ (v732 : BitVec 32), Decidable (k1_chk82 v732) := fun v732 => decidable_of_iff' _ (Iff.of_eq (k1_chk82.eq_1 v732))
theorem k1_off164_inb : ∀ (v732 : BitVec 32) (k1_hw82 : k1_chk82 v732), ∀ a, (k1_off164 v732) a + S1x1024.size a ≤ S32000x1024.size a := fun v732 k1_hw82 => k1_hw82

def k1_off165 (i : grid1.Coords) : Fin 1 → Nat :=
  let arg0 : BitVec 32 := BitVec.ofNat 32 (i 0).val
  let c128_i32 : BitVec 32 := 128#32
  let v0 : BitVec 32 := Scalar.muli arg0 c128_i32
  let c37_i32_365 : BitVec 32 := 37#32
  let v739 : BitVec 32 := Scalar.addi v0 c37_i32_365
  let v740 : Index := Scalar.indexCast v739
  ![v740.toNat]
def k1_off166 (v741 : BitVec 32) : Fin 2 → Nat :=
  let c0_i32_369 : BitVec 32 := 0#32
  ![v741.toNat, 0]

def k1_chk83 (v741 : BitVec 32) : Prop :=
  (∀ a, (k1_off166 v741) a + S1x1024.size a ≤ S32000x1024.size a)
instance k1_chk83.dec : ∀ (v741 : BitVec 32), Decidable (k1_chk83 v741) := fun v741 => decidable_of_iff' _ (Iff.of_eq (k1_chk83.eq_1 v741))
theorem k1_off166_inb : ∀ (v741 : BitVec 32) (k1_hw83 : k1_chk83 v741), ∀ a, (k1_off166 v741) a + S1x1024.size a ≤ S32000x1024.size a := fun v741 k1_hw83 => k1_hw83

def k1_off167 (i : grid1.Coords) : Fin 1 → Nat :=
  let arg0 : BitVec 32 := BitVec.ofNat 32 (i 0).val
  let c128_i32 : BitVec 32 := 128#32
  let v0 : BitVec 32 := Scalar.muli arg0 c128_i32
  let c45_i32 : BitVec 32 := 45#32
  let v748 : BitVec 32 := Scalar.addi v0 c45_i32
  let v749 : Index := Scalar.indexCast v748
  ![v749.toNat]
def k1_off168 (v750 : BitVec 32) : Fin 2 → Nat :=
  let c0_i32_373 : BitVec 32 := 0#32
  ![v750.toNat, 0]

def k1_chk84 (v750 : BitVec 32) : Prop :=
  (∀ a, (k1_off168 v750) a + S1x1024.size a ≤ S32000x1024.size a)
instance k1_chk84.dec : ∀ (v750 : BitVec 32), Decidable (k1_chk84 v750) := fun v750 => decidable_of_iff' _ (Iff.of_eq (k1_chk84.eq_1 v750))
theorem k1_off168_inb : ∀ (v750 : BitVec 32) (k1_hw84 : k1_chk84 v750), ∀ a, (k1_off168 v750) a + S1x1024.size a ≤ S32000x1024.size a := fun v750 k1_hw84 => k1_hw84

def k1_off169 (i : grid1.Coords) : Fin 1 → Nat :=
  let arg0 : BitVec 32 := BitVec.ofNat 32 (i 0).val
  let c128_i32 : BitVec 32 := 128#32
  let v0 : BitVec 32 := Scalar.muli arg0 c128_i32
  let c38_i32_374 : BitVec 32 := 38#32
  let v757 : BitVec 32 := Scalar.addi v0 c38_i32_374
  let v758 : Index := Scalar.indexCast v757
  ![v758.toNat]
def k1_off170 (v759 : BitVec 32) : Fin 2 → Nat :=
  let c0_i32_378 : BitVec 32 := 0#32
  ![v759.toNat, 0]

def k1_chk85 (v759 : BitVec 32) : Prop :=
  (∀ a, (k1_off170 v759) a + S1x1024.size a ≤ S32000x1024.size a)
instance k1_chk85.dec : ∀ (v759 : BitVec 32), Decidable (k1_chk85 v759) := fun v759 => decidable_of_iff' _ (Iff.of_eq (k1_chk85.eq_1 v759))
theorem k1_off170_inb : ∀ (v759 : BitVec 32) (k1_hw85 : k1_chk85 v759), ∀ a, (k1_off170 v759) a + S1x1024.size a ≤ S32000x1024.size a := fun v759 k1_hw85 => k1_hw85

def k1_off171 (i : grid1.Coords) : Fin 1 → Nat :=
  let arg0 : BitVec 32 := BitVec.ofNat 32 (i 0).val
  let c128_i32 : BitVec 32 := 128#32
  let v0 : BitVec 32 := Scalar.muli arg0 c128_i32
  let c46_i32 : BitVec 32 := 46#32
  let v766 : BitVec 32 := Scalar.addi v0 c46_i32
  let v767 : Index := Scalar.indexCast v766
  ![v767.toNat]
def k1_off172 (v768 : BitVec 32) : Fin 2 → Nat :=
  let c0_i32_382 : BitVec 32 := 0#32
  ![v768.toNat, 0]

def k1_chk86 (v768 : BitVec 32) : Prop :=
  (∀ a, (k1_off172 v768) a + S1x1024.size a ≤ S32000x1024.size a)
instance k1_chk86.dec : ∀ (v768 : BitVec 32), Decidable (k1_chk86 v768) := fun v768 => decidable_of_iff' _ (Iff.of_eq (k1_chk86.eq_1 v768))
theorem k1_off172_inb : ∀ (v768 : BitVec 32) (k1_hw86 : k1_chk86 v768), ∀ a, (k1_off172 v768) a + S1x1024.size a ≤ S32000x1024.size a := fun v768 k1_hw86 => k1_hw86

def k1_off173 (i : grid1.Coords) : Fin 1 → Nat :=
  let arg0 : BitVec 32 := BitVec.ofNat 32 (i 0).val
  let c128_i32 : BitVec 32 := 128#32
  let v0 : BitVec 32 := Scalar.muli arg0 c128_i32
  let c39_i32_383 : BitVec 32 := 39#32
  let v775 : BitVec 32 := Scalar.addi v0 c39_i32_383
  let v776 : Index := Scalar.indexCast v775
  ![v776.toNat]
def k1_off174 (v777 : BitVec 32) : Fin 2 → Nat :=
  let c0_i32_387 : BitVec 32 := 0#32
  ![v777.toNat, 0]

def k1_chk87 (v777 : BitVec 32) : Prop :=
  (∀ a, (k1_off174 v777) a + S1x1024.size a ≤ S32000x1024.size a)
instance k1_chk87.dec : ∀ (v777 : BitVec 32), Decidable (k1_chk87 v777) := fun v777 => decidable_of_iff' _ (Iff.of_eq (k1_chk87.eq_1 v777))
theorem k1_off174_inb : ∀ (v777 : BitVec 32) (k1_hw87 : k1_chk87 v777), ∀ a, (k1_off174 v777) a + S1x1024.size a ≤ S32000x1024.size a := fun v777 k1_hw87 => k1_hw87

def k1_off175 (i : grid1.Coords) : Fin 1 → Nat :=
  let arg0 : BitVec 32 := BitVec.ofNat 32 (i 0).val
  let c128_i32 : BitVec 32 := 128#32
  let v0 : BitVec 32 := Scalar.muli arg0 c128_i32
  let c47_i32 : BitVec 32 := 47#32
  let v784 : BitVec 32 := Scalar.addi v0 c47_i32
  let v785 : Index := Scalar.indexCast v784
  ![v785.toNat]
def k1_off176 (v786 : BitVec 32) : Fin 2 → Nat :=
  let c0_i32_391 : BitVec 32 := 0#32
  ![v786.toNat, 0]

def k1_chk88 (v786 : BitVec 32) : Prop :=
  (∀ a, (k1_off176 v786) a + S1x1024.size a ≤ S32000x1024.size a)
instance k1_chk88.dec : ∀ (v786 : BitVec 32), Decidable (k1_chk88 v786) := fun v786 => decidable_of_iff' _ (Iff.of_eq (k1_chk88.eq_1 v786))
theorem k1_off176_inb : ∀ (v786 : BitVec 32) (k1_hw88 : k1_chk88 v786), ∀ a, (k1_off176 v786) a + S1x1024.size a ≤ S32000x1024.size a := fun v786 k1_hw88 => k1_hw88

def k1_off177 (i : grid1.Coords) : Fin 1 → Nat :=
  let arg0 : BitVec 32 := BitVec.ofNat 32 (i 0).val
  let c128_i32 : BitVec 32 := 128#32
  let v0 : BitVec 32 := Scalar.muli arg0 c128_i32
  let c40_i32_392 : BitVec 32 := 40#32
  let v793 : BitVec 32 := Scalar.addi v0 c40_i32_392
  let v794 : Index := Scalar.indexCast v793
  ![v794.toNat]
def k1_off178 (v795 : BitVec 32) : Fin 2 → Nat :=
  let c0_i32_396 : BitVec 32 := 0#32
  ![v795.toNat, 0]

def k1_chk89 (v795 : BitVec 32) : Prop :=
  (∀ a, (k1_off178 v795) a + S1x1024.size a ≤ S32000x1024.size a)
instance k1_chk89.dec : ∀ (v795 : BitVec 32), Decidable (k1_chk89 v795) := fun v795 => decidable_of_iff' _ (Iff.of_eq (k1_chk89.eq_1 v795))
theorem k1_off178_inb : ∀ (v795 : BitVec 32) (k1_hw89 : k1_chk89 v795), ∀ a, (k1_off178 v795) a + S1x1024.size a ≤ S32000x1024.size a := fun v795 k1_hw89 => k1_hw89

def k1_off179 (i : grid1.Coords) : Fin 1 → Nat :=
  let arg0 : BitVec 32 := BitVec.ofNat 32 (i 0).val
  let c128_i32 : BitVec 32 := 128#32
  let v0 : BitVec 32 := Scalar.muli arg0 c128_i32
  let c48_i32 : BitVec 32 := 48#32
  let v802 : BitVec 32 := Scalar.addi v0 c48_i32
  let v803 : Index := Scalar.indexCast v802
  ![v803.toNat]
def k1_off180 (v804 : BitVec 32) : Fin 2 → Nat :=
  let c0_i32_400 : BitVec 32 := 0#32
  ![v804.toNat, 0]

def k1_chk90 (v804 : BitVec 32) : Prop :=
  (∀ a, (k1_off180 v804) a + S1x1024.size a ≤ S32000x1024.size a)
instance k1_chk90.dec : ∀ (v804 : BitVec 32), Decidable (k1_chk90 v804) := fun v804 => decidable_of_iff' _ (Iff.of_eq (k1_chk90.eq_1 v804))
theorem k1_off180_inb : ∀ (v804 : BitVec 32) (k1_hw90 : k1_chk90 v804), ∀ a, (k1_off180 v804) a + S1x1024.size a ≤ S32000x1024.size a := fun v804 k1_hw90 => k1_hw90

def k1_off181 (i : grid1.Coords) : Fin 1 → Nat :=
  let arg0 : BitVec 32 := BitVec.ofNat 32 (i 0).val
  let c128_i32 : BitVec 32 := 128#32
  let v0 : BitVec 32 := Scalar.muli arg0 c128_i32
  let c41_i32_401 : BitVec 32 := 41#32
  let v811 : BitVec 32 := Scalar.addi v0 c41_i32_401
  let v812 : Index := Scalar.indexCast v811
  ![v812.toNat]
def k1_off182 (v813 : BitVec 32) : Fin 2 → Nat :=
  let c0_i32_405 : BitVec 32 := 0#32
  ![v813.toNat, 0]

def k1_chk91 (v813 : BitVec 32) : Prop :=
  (∀ a, (k1_off182 v813) a + S1x1024.size a ≤ S32000x1024.size a)
instance k1_chk91.dec : ∀ (v813 : BitVec 32), Decidable (k1_chk91 v813) := fun v813 => decidable_of_iff' _ (Iff.of_eq (k1_chk91.eq_1 v813))
theorem k1_off182_inb : ∀ (v813 : BitVec 32) (k1_hw91 : k1_chk91 v813), ∀ a, (k1_off182 v813) a + S1x1024.size a ≤ S32000x1024.size a := fun v813 k1_hw91 => k1_hw91

def k1_off183 (i : grid1.Coords) : Fin 1 → Nat :=
  let arg0 : BitVec 32 := BitVec.ofNat 32 (i 0).val
  let c128_i32 : BitVec 32 := 128#32
  let v0 : BitVec 32 := Scalar.muli arg0 c128_i32
  let c49_i32 : BitVec 32 := 49#32
  let v820 : BitVec 32 := Scalar.addi v0 c49_i32
  let v821 : Index := Scalar.indexCast v820
  ![v821.toNat]
def k1_off184 (v822 : BitVec 32) : Fin 2 → Nat :=
  let c0_i32_409 : BitVec 32 := 0#32
  ![v822.toNat, 0]

def k1_chk92 (v822 : BitVec 32) : Prop :=
  (∀ a, (k1_off184 v822) a + S1x1024.size a ≤ S32000x1024.size a)
instance k1_chk92.dec : ∀ (v822 : BitVec 32), Decidable (k1_chk92 v822) := fun v822 => decidable_of_iff' _ (Iff.of_eq (k1_chk92.eq_1 v822))
theorem k1_off184_inb : ∀ (v822 : BitVec 32) (k1_hw92 : k1_chk92 v822), ∀ a, (k1_off184 v822) a + S1x1024.size a ≤ S32000x1024.size a := fun v822 k1_hw92 => k1_hw92

def k1_off185 (i : grid1.Coords) : Fin 1 → Nat :=
  let arg0 : BitVec 32 := BitVec.ofNat 32 (i 0).val
  let c128_i32 : BitVec 32 := 128#32
  let v0 : BitVec 32 := Scalar.muli arg0 c128_i32
  let c42_i32_410 : BitVec 32 := 42#32
  let v829 : BitVec 32 := Scalar.addi v0 c42_i32_410
  let v830 : Index := Scalar.indexCast v829
  ![v830.toNat]
def k1_off186 (v831 : BitVec 32) : Fin 2 → Nat :=
  let c0_i32_414 : BitVec 32 := 0#32
  ![v831.toNat, 0]

def k1_chk93 (v831 : BitVec 32) : Prop :=
  (∀ a, (k1_off186 v831) a + S1x1024.size a ≤ S32000x1024.size a)
instance k1_chk93.dec : ∀ (v831 : BitVec 32), Decidable (k1_chk93 v831) := fun v831 => decidable_of_iff' _ (Iff.of_eq (k1_chk93.eq_1 v831))
theorem k1_off186_inb : ∀ (v831 : BitVec 32) (k1_hw93 : k1_chk93 v831), ∀ a, (k1_off186 v831) a + S1x1024.size a ≤ S32000x1024.size a := fun v831 k1_hw93 => k1_hw93

def k1_off187 (i : grid1.Coords) : Fin 1 → Nat :=
  let arg0 : BitVec 32 := BitVec.ofNat 32 (i 0).val
  let c128_i32 : BitVec 32 := 128#32
  let v0 : BitVec 32 := Scalar.muli arg0 c128_i32
  let c50_i32 : BitVec 32 := 50#32
  let v838 : BitVec 32 := Scalar.addi v0 c50_i32
  let v839 : Index := Scalar.indexCast v838
  ![v839.toNat]
def k1_off188 (v840 : BitVec 32) : Fin 2 → Nat :=
  let c0_i32_418 : BitVec 32 := 0#32
  ![v840.toNat, 0]

def k1_chk94 (v840 : BitVec 32) : Prop :=
  (∀ a, (k1_off188 v840) a + S1x1024.size a ≤ S32000x1024.size a)
instance k1_chk94.dec : ∀ (v840 : BitVec 32), Decidable (k1_chk94 v840) := fun v840 => decidable_of_iff' _ (Iff.of_eq (k1_chk94.eq_1 v840))
theorem k1_off188_inb : ∀ (v840 : BitVec 32) (k1_hw94 : k1_chk94 v840), ∀ a, (k1_off188 v840) a + S1x1024.size a ≤ S32000x1024.size a := fun v840 k1_hw94 => k1_hw94

def k1_off189 (i : grid1.Coords) : Fin 1 → Nat :=
  let arg0 : BitVec 32 := BitVec.ofNat 32 (i 0).val
  let c128_i32 : BitVec 32 := 128#32
  let v0 : BitVec 32 := Scalar.muli arg0 c128_i32
  let c43_i32_419 : BitVec 32 := 43#32
  let v847 : BitVec 32 := Scalar.addi v0 c43_i32_419
  let v848 : Index := Scalar.indexCast v847
  ![v848.toNat]
def k1_off190 (v849 : BitVec 32) : Fin 2 → Nat :=
  let c0_i32_423 : BitVec 32 := 0#32
  ![v849.toNat, 0]

def k1_chk95 (v849 : BitVec 32) : Prop :=
  (∀ a, (k1_off190 v849) a + S1x1024.size a ≤ S32000x1024.size a)
instance k1_chk95.dec : ∀ (v849 : BitVec 32), Decidable (k1_chk95 v849) := fun v849 => decidable_of_iff' _ (Iff.of_eq (k1_chk95.eq_1 v849))
theorem k1_off190_inb : ∀ (v849 : BitVec 32) (k1_hw95 : k1_chk95 v849), ∀ a, (k1_off190 v849) a + S1x1024.size a ≤ S32000x1024.size a := fun v849 k1_hw95 => k1_hw95

def k1_off191 (i : grid1.Coords) : Fin 1 → Nat :=
  let arg0 : BitVec 32 := BitVec.ofNat 32 (i 0).val
  let c128_i32 : BitVec 32 := 128#32
  let v0 : BitVec 32 := Scalar.muli arg0 c128_i32
  let c51_i32 : BitVec 32 := 51#32
  let v856 : BitVec 32 := Scalar.addi v0 c51_i32
  let v857 : Index := Scalar.indexCast v856
  ![v857.toNat]
def k1_off192 (v858 : BitVec 32) : Fin 2 → Nat :=
  let c0_i32_427 : BitVec 32 := 0#32
  ![v858.toNat, 0]

def k1_chk96 (v858 : BitVec 32) : Prop :=
  (∀ a, (k1_off192 v858) a + S1x1024.size a ≤ S32000x1024.size a)
instance k1_chk96.dec : ∀ (v858 : BitVec 32), Decidable (k1_chk96 v858) := fun v858 => decidable_of_iff' _ (Iff.of_eq (k1_chk96.eq_1 v858))
theorem k1_off192_inb : ∀ (v858 : BitVec 32) (k1_hw96 : k1_chk96 v858), ∀ a, (k1_off192 v858) a + S1x1024.size a ≤ S32000x1024.size a := fun v858 k1_hw96 => k1_hw96

def k1_off193 (i : grid1.Coords) : Fin 1 → Nat :=
  let arg0 : BitVec 32 := BitVec.ofNat 32 (i 0).val
  let c128_i32 : BitVec 32 := 128#32
  let v0 : BitVec 32 := Scalar.muli arg0 c128_i32
  let c44_i32_428 : BitVec 32 := 44#32
  let v865 : BitVec 32 := Scalar.addi v0 c44_i32_428
  let v866 : Index := Scalar.indexCast v865
  ![v866.toNat]
def k1_off194 (v867 : BitVec 32) : Fin 2 → Nat :=
  let c0_i32_432 : BitVec 32 := 0#32
  ![v867.toNat, 0]

def k1_chk97 (v867 : BitVec 32) : Prop :=
  (∀ a, (k1_off194 v867) a + S1x1024.size a ≤ S32000x1024.size a)
instance k1_chk97.dec : ∀ (v867 : BitVec 32), Decidable (k1_chk97 v867) := fun v867 => decidable_of_iff' _ (Iff.of_eq (k1_chk97.eq_1 v867))
theorem k1_off194_inb : ∀ (v867 : BitVec 32) (k1_hw97 : k1_chk97 v867), ∀ a, (k1_off194 v867) a + S1x1024.size a ≤ S32000x1024.size a := fun v867 k1_hw97 => k1_hw97

def k1_off195 (i : grid1.Coords) : Fin 1 → Nat :=
  let arg0 : BitVec 32 := BitVec.ofNat 32 (i 0).val
  let c128_i32 : BitVec 32 := 128#32
  let v0 : BitVec 32 := Scalar.muli arg0 c128_i32
  let c52_i32 : BitVec 32 := 52#32
  let v874 : BitVec 32 := Scalar.addi v0 c52_i32
  let v875 : Index := Scalar.indexCast v874
  ![v875.toNat]
def k1_off196 (v876 : BitVec 32) : Fin 2 → Nat :=
  let c0_i32_436 : BitVec 32 := 0#32
  ![v876.toNat, 0]

def k1_chk98 (v876 : BitVec 32) : Prop :=
  (∀ a, (k1_off196 v876) a + S1x1024.size a ≤ S32000x1024.size a)
instance k1_chk98.dec : ∀ (v876 : BitVec 32), Decidable (k1_chk98 v876) := fun v876 => decidable_of_iff' _ (Iff.of_eq (k1_chk98.eq_1 v876))
theorem k1_off196_inb : ∀ (v876 : BitVec 32) (k1_hw98 : k1_chk98 v876), ∀ a, (k1_off196 v876) a + S1x1024.size a ≤ S32000x1024.size a := fun v876 k1_hw98 => k1_hw98

def k1_off197 (i : grid1.Coords) : Fin 1 → Nat :=
  let arg0 : BitVec 32 := BitVec.ofNat 32 (i 0).val
  let c128_i32 : BitVec 32 := 128#32
  let v0 : BitVec 32 := Scalar.muli arg0 c128_i32
  let c45_i32_437 : BitVec 32 := 45#32
  let v883 : BitVec 32 := Scalar.addi v0 c45_i32_437
  let v884 : Index := Scalar.indexCast v883
  ![v884.toNat]
def k1_off198 (v885 : BitVec 32) : Fin 2 → Nat :=
  let c0_i32_441 : BitVec 32 := 0#32
  ![v885.toNat, 0]

def k1_chk99 (v885 : BitVec 32) : Prop :=
  (∀ a, (k1_off198 v885) a + S1x1024.size a ≤ S32000x1024.size a)
instance k1_chk99.dec : ∀ (v885 : BitVec 32), Decidable (k1_chk99 v885) := fun v885 => decidable_of_iff' _ (Iff.of_eq (k1_chk99.eq_1 v885))
theorem k1_off198_inb : ∀ (v885 : BitVec 32) (k1_hw99 : k1_chk99 v885), ∀ a, (k1_off198 v885) a + S1x1024.size a ≤ S32000x1024.size a := fun v885 k1_hw99 => k1_hw99

def k1_off199 (i : grid1.Coords) : Fin 1 → Nat :=
  let arg0 : BitVec 32 := BitVec.ofNat 32 (i 0).val
  let c128_i32 : BitVec 32 := 128#32
  let v0 : BitVec 32 := Scalar.muli arg0 c128_i32
  let c53_i32 : BitVec 32 := 53#32
  let v892 : BitVec 32 := Scalar.addi v0 c53_i32
  let v893 : Index := Scalar.indexCast v892
  ![v893.toNat]
def k1_off200 (v894 : BitVec 32) : Fin 2 → Nat :=
  let c0_i32_445 : BitVec 32 := 0#32
  ![v894.toNat, 0]

def k1_chk100 (v894 : BitVec 32) : Prop :=
  (∀ a, (k1_off200 v894) a + S1x1024.size a ≤ S32000x1024.size a)
instance k1_chk100.dec : ∀ (v894 : BitVec 32), Decidable (k1_chk100 v894) := fun v894 => decidable_of_iff' _ (Iff.of_eq (k1_chk100.eq_1 v894))
theorem k1_off200_inb : ∀ (v894 : BitVec 32) (k1_hw100 : k1_chk100 v894), ∀ a, (k1_off200 v894) a + S1x1024.size a ≤ S32000x1024.size a := fun v894 k1_hw100 => k1_hw100

def k1_off201 (i : grid1.Coords) : Fin 1 → Nat :=
  let arg0 : BitVec 32 := BitVec.ofNat 32 (i 0).val
  let c128_i32 : BitVec 32 := 128#32
  let v0 : BitVec 32 := Scalar.muli arg0 c128_i32
  let c46_i32_446 : BitVec 32 := 46#32
  let v901 : BitVec 32 := Scalar.addi v0 c46_i32_446
  let v902 : Index := Scalar.indexCast v901
  ![v902.toNat]
def k1_off202 (v903 : BitVec 32) : Fin 2 → Nat :=
  let c0_i32_450 : BitVec 32 := 0#32
  ![v903.toNat, 0]

def k1_chk101 (v903 : BitVec 32) : Prop :=
  (∀ a, (k1_off202 v903) a + S1x1024.size a ≤ S32000x1024.size a)
instance k1_chk101.dec : ∀ (v903 : BitVec 32), Decidable (k1_chk101 v903) := fun v903 => decidable_of_iff' _ (Iff.of_eq (k1_chk101.eq_1 v903))
theorem k1_off202_inb : ∀ (v903 : BitVec 32) (k1_hw101 : k1_chk101 v903), ∀ a, (k1_off202 v903) a + S1x1024.size a ≤ S32000x1024.size a := fun v903 k1_hw101 => k1_hw101

def k1_off203 (i : grid1.Coords) : Fin 1 → Nat :=
  let arg0 : BitVec 32 := BitVec.ofNat 32 (i 0).val
  let c128_i32 : BitVec 32 := 128#32
  let v0 : BitVec 32 := Scalar.muli arg0 c128_i32
  let c54_i32 : BitVec 32 := 54#32
  let v910 : BitVec 32 := Scalar.addi v0 c54_i32
  let v911 : Index := Scalar.indexCast v910
  ![v911.toNat]
def k1_off204 (v912 : BitVec 32) : Fin 2 → Nat :=
  let c0_i32_454 : BitVec 32 := 0#32
  ![v912.toNat, 0]

def k1_chk102 (v912 : BitVec 32) : Prop :=
  (∀ a, (k1_off204 v912) a + S1x1024.size a ≤ S32000x1024.size a)
instance k1_chk102.dec : ∀ (v912 : BitVec 32), Decidable (k1_chk102 v912) := fun v912 => decidable_of_iff' _ (Iff.of_eq (k1_chk102.eq_1 v912))
theorem k1_off204_inb : ∀ (v912 : BitVec 32) (k1_hw102 : k1_chk102 v912), ∀ a, (k1_off204 v912) a + S1x1024.size a ≤ S32000x1024.size a := fun v912 k1_hw102 => k1_hw102

def k1_off205 (i : grid1.Coords) : Fin 1 → Nat :=
  let arg0 : BitVec 32 := BitVec.ofNat 32 (i 0).val
  let c128_i32 : BitVec 32 := 128#32
  let v0 : BitVec 32 := Scalar.muli arg0 c128_i32
  let c47_i32_455 : BitVec 32 := 47#32
  let v919 : BitVec 32 := Scalar.addi v0 c47_i32_455
  let v920 : Index := Scalar.indexCast v919
  ![v920.toNat]
def k1_off206 (v921 : BitVec 32) : Fin 2 → Nat :=
  let c0_i32_459 : BitVec 32 := 0#32
  ![v921.toNat, 0]

def k1_chk103 (v921 : BitVec 32) : Prop :=
  (∀ a, (k1_off206 v921) a + S1x1024.size a ≤ S32000x1024.size a)
instance k1_chk103.dec : ∀ (v921 : BitVec 32), Decidable (k1_chk103 v921) := fun v921 => decidable_of_iff' _ (Iff.of_eq (k1_chk103.eq_1 v921))
theorem k1_off206_inb : ∀ (v921 : BitVec 32) (k1_hw103 : k1_chk103 v921), ∀ a, (k1_off206 v921) a + S1x1024.size a ≤ S32000x1024.size a := fun v921 k1_hw103 => k1_hw103

def k1_off207 (i : grid1.Coords) : Fin 1 → Nat :=
  let arg0 : BitVec 32 := BitVec.ofNat 32 (i 0).val
  let c128_i32 : BitVec 32 := 128#32
  let v0 : BitVec 32 := Scalar.muli arg0 c128_i32
  let c55_i32 : BitVec 32 := 55#32
  let v928 : BitVec 32 := Scalar.addi v0 c55_i32
  let v929 : Index := Scalar.indexCast v928
  ![v929.toNat]
def k1_off208 (v930 : BitVec 32) : Fin 2 → Nat :=
  let c0_i32_463 : BitVec 32 := 0#32
  ![v930.toNat, 0]

def k1_chk104 (v930 : BitVec 32) : Prop :=
  (∀ a, (k1_off208 v930) a + S1x1024.size a ≤ S32000x1024.size a)
instance k1_chk104.dec : ∀ (v930 : BitVec 32), Decidable (k1_chk104 v930) := fun v930 => decidable_of_iff' _ (Iff.of_eq (k1_chk104.eq_1 v930))
theorem k1_off208_inb : ∀ (v930 : BitVec 32) (k1_hw104 : k1_chk104 v930), ∀ a, (k1_off208 v930) a + S1x1024.size a ≤ S32000x1024.size a := fun v930 k1_hw104 => k1_hw104

def k1_off209 (i : grid1.Coords) : Fin 1 → Nat :=
  let arg0 : BitVec 32 := BitVec.ofNat 32 (i 0).val
  let c128_i32 : BitVec 32 := 128#32
  let v0 : BitVec 32 := Scalar.muli arg0 c128_i32
  let c48_i32_464 : BitVec 32 := 48#32
  let v937 : BitVec 32 := Scalar.addi v0 c48_i32_464
  let v938 : Index := Scalar.indexCast v937
  ![v938.toNat]
def k1_off210 (v939 : BitVec 32) : Fin 2 → Nat :=
  let c0_i32_468 : BitVec 32 := 0#32
  ![v939.toNat, 0]

def k1_chk105 (v939 : BitVec 32) : Prop :=
  (∀ a, (k1_off210 v939) a + S1x1024.size a ≤ S32000x1024.size a)
instance k1_chk105.dec : ∀ (v939 : BitVec 32), Decidable (k1_chk105 v939) := fun v939 => decidable_of_iff' _ (Iff.of_eq (k1_chk105.eq_1 v939))
theorem k1_off210_inb : ∀ (v939 : BitVec 32) (k1_hw105 : k1_chk105 v939), ∀ a, (k1_off210 v939) a + S1x1024.size a ≤ S32000x1024.size a := fun v939 k1_hw105 => k1_hw105

def k1_off211 (i : grid1.Coords) : Fin 1 → Nat :=
  let arg0 : BitVec 32 := BitVec.ofNat 32 (i 0).val
  let c128_i32 : BitVec 32 := 128#32
  let v0 : BitVec 32 := Scalar.muli arg0 c128_i32
  let c56_i32 : BitVec 32 := 56#32
  let v946 : BitVec 32 := Scalar.addi v0 c56_i32
  let v947 : Index := Scalar.indexCast v946
  ![v947.toNat]
def k1_off212 (v948 : BitVec 32) : Fin 2 → Nat :=
  let c0_i32_472 : BitVec 32 := 0#32
  ![v948.toNat, 0]

def k1_chk106 (v948 : BitVec 32) : Prop :=
  (∀ a, (k1_off212 v948) a + S1x1024.size a ≤ S32000x1024.size a)
instance k1_chk106.dec : ∀ (v948 : BitVec 32), Decidable (k1_chk106 v948) := fun v948 => decidable_of_iff' _ (Iff.of_eq (k1_chk106.eq_1 v948))
theorem k1_off212_inb : ∀ (v948 : BitVec 32) (k1_hw106 : k1_chk106 v948), ∀ a, (k1_off212 v948) a + S1x1024.size a ≤ S32000x1024.size a := fun v948 k1_hw106 => k1_hw106

def k1_off213 (i : grid1.Coords) : Fin 1 → Nat :=
  let arg0 : BitVec 32 := BitVec.ofNat 32 (i 0).val
  let c128_i32 : BitVec 32 := 128#32
  let v0 : BitVec 32 := Scalar.muli arg0 c128_i32
  let c49_i32_473 : BitVec 32 := 49#32
  let v955 : BitVec 32 := Scalar.addi v0 c49_i32_473
  let v956 : Index := Scalar.indexCast v955
  ![v956.toNat]
def k1_off214 (v957 : BitVec 32) : Fin 2 → Nat :=
  let c0_i32_477 : BitVec 32 := 0#32
  ![v957.toNat, 0]

def k1_chk107 (v957 : BitVec 32) : Prop :=
  (∀ a, (k1_off214 v957) a + S1x1024.size a ≤ S32000x1024.size a)
instance k1_chk107.dec : ∀ (v957 : BitVec 32), Decidable (k1_chk107 v957) := fun v957 => decidable_of_iff' _ (Iff.of_eq (k1_chk107.eq_1 v957))
theorem k1_off214_inb : ∀ (v957 : BitVec 32) (k1_hw107 : k1_chk107 v957), ∀ a, (k1_off214 v957) a + S1x1024.size a ≤ S32000x1024.size a := fun v957 k1_hw107 => k1_hw107

def k1_off215 (i : grid1.Coords) : Fin 1 → Nat :=
  let arg0 : BitVec 32 := BitVec.ofNat 32 (i 0).val
  let c128_i32 : BitVec 32 := 128#32
  let v0 : BitVec 32 := Scalar.muli arg0 c128_i32
  let c57_i32 : BitVec 32 := 57#32
  let v964 : BitVec 32 := Scalar.addi v0 c57_i32
  let v965 : Index := Scalar.indexCast v964
  ![v965.toNat]
def k1_off216 (v966 : BitVec 32) : Fin 2 → Nat :=
  let c0_i32_481 : BitVec 32 := 0#32
  ![v966.toNat, 0]

def k1_chk108 (v966 : BitVec 32) : Prop :=
  (∀ a, (k1_off216 v966) a + S1x1024.size a ≤ S32000x1024.size a)
instance k1_chk108.dec : ∀ (v966 : BitVec 32), Decidable (k1_chk108 v966) := fun v966 => decidable_of_iff' _ (Iff.of_eq (k1_chk108.eq_1 v966))
theorem k1_off216_inb : ∀ (v966 : BitVec 32) (k1_hw108 : k1_chk108 v966), ∀ a, (k1_off216 v966) a + S1x1024.size a ≤ S32000x1024.size a := fun v966 k1_hw108 => k1_hw108

def k1_off217 (i : grid1.Coords) : Fin 1 → Nat :=
  let arg0 : BitVec 32 := BitVec.ofNat 32 (i 0).val
  let c128_i32 : BitVec 32 := 128#32
  let v0 : BitVec 32 := Scalar.muli arg0 c128_i32
  let c50_i32_482 : BitVec 32 := 50#32
  let v973 : BitVec 32 := Scalar.addi v0 c50_i32_482
  let v974 : Index := Scalar.indexCast v973
  ![v974.toNat]
def k1_off218 (v975 : BitVec 32) : Fin 2 → Nat :=
  let c0_i32_486 : BitVec 32 := 0#32
  ![v975.toNat, 0]

def k1_chk109 (v975 : BitVec 32) : Prop :=
  (∀ a, (k1_off218 v975) a + S1x1024.size a ≤ S32000x1024.size a)
instance k1_chk109.dec : ∀ (v975 : BitVec 32), Decidable (k1_chk109 v975) := fun v975 => decidable_of_iff' _ (Iff.of_eq (k1_chk109.eq_1 v975))
theorem k1_off218_inb : ∀ (v975 : BitVec 32) (k1_hw109 : k1_chk109 v975), ∀ a, (k1_off218 v975) a + S1x1024.size a ≤ S32000x1024.size a := fun v975 k1_hw109 => k1_hw109

def k1_off219 (i : grid1.Coords) : Fin 1 → Nat :=
  let arg0 : BitVec 32 := BitVec.ofNat 32 (i 0).val
  let c128_i32 : BitVec 32 := 128#32
  let v0 : BitVec 32 := Scalar.muli arg0 c128_i32
  let c58_i32 : BitVec 32 := 58#32
  let v982 : BitVec 32 := Scalar.addi v0 c58_i32
  let v983 : Index := Scalar.indexCast v982
  ![v983.toNat]
def k1_off220 (v984 : BitVec 32) : Fin 2 → Nat :=
  let c0_i32_490 : BitVec 32 := 0#32
  ![v984.toNat, 0]

def k1_chk110 (v984 : BitVec 32) : Prop :=
  (∀ a, (k1_off220 v984) a + S1x1024.size a ≤ S32000x1024.size a)
instance k1_chk110.dec : ∀ (v984 : BitVec 32), Decidable (k1_chk110 v984) := fun v984 => decidable_of_iff' _ (Iff.of_eq (k1_chk110.eq_1 v984))
theorem k1_off220_inb : ∀ (v984 : BitVec 32) (k1_hw110 : k1_chk110 v984), ∀ a, (k1_off220 v984) a + S1x1024.size a ≤ S32000x1024.size a := fun v984 k1_hw110 => k1_hw110

def k1_off221 (i : grid1.Coords) : Fin 1 → Nat :=
  let arg0 : BitVec 32 := BitVec.ofNat 32 (i 0).val
  let c128_i32 : BitVec 32 := 128#32
  let v0 : BitVec 32 := Scalar.muli arg0 c128_i32
  let c51_i32_491 : BitVec 32 := 51#32
  let v991 : BitVec 32 := Scalar.addi v0 c51_i32_491
  let v992 : Index := Scalar.indexCast v991
  ![v992.toNat]
def k1_off222 (v993 : BitVec 32) : Fin 2 → Nat :=
  let c0_i32_495 : BitVec 32 := 0#32
  ![v993.toNat, 0]

def k1_chk111 (v993 : BitVec 32) : Prop :=
  (∀ a, (k1_off222 v993) a + S1x1024.size a ≤ S32000x1024.size a)
instance k1_chk111.dec : ∀ (v993 : BitVec 32), Decidable (k1_chk111 v993) := fun v993 => decidable_of_iff' _ (Iff.of_eq (k1_chk111.eq_1 v993))
theorem k1_off222_inb : ∀ (v993 : BitVec 32) (k1_hw111 : k1_chk111 v993), ∀ a, (k1_off222 v993) a + S1x1024.size a ≤ S32000x1024.size a := fun v993 k1_hw111 => k1_hw111

def k1_off223 (i : grid1.Coords) : Fin 1 → Nat :=
  let arg0 : BitVec 32 := BitVec.ofNat 32 (i 0).val
  let c128_i32 : BitVec 32 := 128#32
  let v0 : BitVec 32 := Scalar.muli arg0 c128_i32
  let c59_i32 : BitVec 32 := 59#32
  let v1000 : BitVec 32 := Scalar.addi v0 c59_i32
  let v1001 : Index := Scalar.indexCast v1000
  ![v1001.toNat]
def k1_off224 (v1002 : BitVec 32) : Fin 2 → Nat :=
  let c0_i32_499 : BitVec 32 := 0#32
  ![v1002.toNat, 0]

def k1_chk112 (v1002 : BitVec 32) : Prop :=
  (∀ a, (k1_off224 v1002) a + S1x1024.size a ≤ S32000x1024.size a)
instance k1_chk112.dec : ∀ (v1002 : BitVec 32), Decidable (k1_chk112 v1002) := fun v1002 => decidable_of_iff' _ (Iff.of_eq (k1_chk112.eq_1 v1002))
theorem k1_off224_inb : ∀ (v1002 : BitVec 32) (k1_hw112 : k1_chk112 v1002), ∀ a, (k1_off224 v1002) a + S1x1024.size a ≤ S32000x1024.size a := fun v1002 k1_hw112 => k1_hw112

def k1_off225 (i : grid1.Coords) : Fin 1 → Nat :=
  let arg0 : BitVec 32 := BitVec.ofNat 32 (i 0).val
  let c128_i32 : BitVec 32 := 128#32
  let v0 : BitVec 32 := Scalar.muli arg0 c128_i32
  let c52_i32_500 : BitVec 32 := 52#32
  let v1009 : BitVec 32 := Scalar.addi v0 c52_i32_500
  let v1010 : Index := Scalar.indexCast v1009
  ![v1010.toNat]
def k1_off226 (v1011 : BitVec 32) : Fin 2 → Nat :=
  let c0_i32_504 : BitVec 32 := 0#32
  ![v1011.toNat, 0]

def k1_chk113 (v1011 : BitVec 32) : Prop :=
  (∀ a, (k1_off226 v1011) a + S1x1024.size a ≤ S32000x1024.size a)
instance k1_chk113.dec : ∀ (v1011 : BitVec 32), Decidable (k1_chk113 v1011) := fun v1011 => decidable_of_iff' _ (Iff.of_eq (k1_chk113.eq_1 v1011))
theorem k1_off226_inb : ∀ (v1011 : BitVec 32) (k1_hw113 : k1_chk113 v1011), ∀ a, (k1_off226 v1011) a + S1x1024.size a ≤ S32000x1024.size a := fun v1011 k1_hw113 => k1_hw113

def k1_off227 (i : grid1.Coords) : Fin 1 → Nat :=
  let arg0 : BitVec 32 := BitVec.ofNat 32 (i 0).val
  let c128_i32 : BitVec 32 := 128#32
  let v0 : BitVec 32 := Scalar.muli arg0 c128_i32
  let c60_i32 : BitVec 32 := 60#32
  let v1018 : BitVec 32 := Scalar.addi v0 c60_i32
  let v1019 : Index := Scalar.indexCast v1018
  ![v1019.toNat]
def k1_off228 (v1020 : BitVec 32) : Fin 2 → Nat :=
  let c0_i32_508 : BitVec 32 := 0#32
  ![v1020.toNat, 0]

def k1_chk114 (v1020 : BitVec 32) : Prop :=
  (∀ a, (k1_off228 v1020) a + S1x1024.size a ≤ S32000x1024.size a)
instance k1_chk114.dec : ∀ (v1020 : BitVec 32), Decidable (k1_chk114 v1020) := fun v1020 => decidable_of_iff' _ (Iff.of_eq (k1_chk114.eq_1 v1020))
theorem k1_off228_inb : ∀ (v1020 : BitVec 32) (k1_hw114 : k1_chk114 v1020), ∀ a, (k1_off228 v1020) a + S1x1024.size a ≤ S32000x1024.size a := fun v1020 k1_hw114 => k1_hw114

def k1_off229 (i : grid1.Coords) : Fin 1 → Nat :=
  let arg0 : BitVec 32 := BitVec.ofNat 32 (i 0).val
  let c128_i32 : BitVec 32 := 128#32
  let v0 : BitVec 32 := Scalar.muli arg0 c128_i32
  let c53_i32_509 : BitVec 32 := 53#32
  let v1027 : BitVec 32 := Scalar.addi v0 c53_i32_509
  let v1028 : Index := Scalar.indexCast v1027
  ![v1028.toNat]
def k1_off230 (v1029 : BitVec 32) : Fin 2 → Nat :=
  let c0_i32_513 : BitVec 32 := 0#32
  ![v1029.toNat, 0]

def k1_chk115 (v1029 : BitVec 32) : Prop :=
  (∀ a, (k1_off230 v1029) a + S1x1024.size a ≤ S32000x1024.size a)
instance k1_chk115.dec : ∀ (v1029 : BitVec 32), Decidable (k1_chk115 v1029) := fun v1029 => decidable_of_iff' _ (Iff.of_eq (k1_chk115.eq_1 v1029))
theorem k1_off230_inb : ∀ (v1029 : BitVec 32) (k1_hw115 : k1_chk115 v1029), ∀ a, (k1_off230 v1029) a + S1x1024.size a ≤ S32000x1024.size a := fun v1029 k1_hw115 => k1_hw115

def k1_off231 (i : grid1.Coords) : Fin 1 → Nat :=
  let arg0 : BitVec 32 := BitVec.ofNat 32 (i 0).val
  let c128_i32 : BitVec 32 := 128#32
  let v0 : BitVec 32 := Scalar.muli arg0 c128_i32
  let c61_i32 : BitVec 32 := 61#32
  let v1036 : BitVec 32 := Scalar.addi v0 c61_i32
  let v1037 : Index := Scalar.indexCast v1036
  ![v1037.toNat]
def k1_off232 (v1038 : BitVec 32) : Fin 2 → Nat :=
  let c0_i32_517 : BitVec 32 := 0#32
  ![v1038.toNat, 0]

def k1_chk116 (v1038 : BitVec 32) : Prop :=
  (∀ a, (k1_off232 v1038) a + S1x1024.size a ≤ S32000x1024.size a)
instance k1_chk116.dec : ∀ (v1038 : BitVec 32), Decidable (k1_chk116 v1038) := fun v1038 => decidable_of_iff' _ (Iff.of_eq (k1_chk116.eq_1 v1038))
theorem k1_off232_inb : ∀ (v1038 : BitVec 32) (k1_hw116 : k1_chk116 v1038), ∀ a, (k1_off232 v1038) a + S1x1024.size a ≤ S32000x1024.size a := fun v1038 k1_hw116 => k1_hw116

def k1_off233 (i : grid1.Coords) : Fin 1 → Nat :=
  let arg0 : BitVec 32 := BitVec.ofNat 32 (i 0).val
  let c128_i32 : BitVec 32 := 128#32
  let v0 : BitVec 32 := Scalar.muli arg0 c128_i32
  let c54_i32_518 : BitVec 32 := 54#32
  let v1045 : BitVec 32 := Scalar.addi v0 c54_i32_518
  let v1046 : Index := Scalar.indexCast v1045
  ![v1046.toNat]
def k1_off234 (v1047 : BitVec 32) : Fin 2 → Nat :=
  let c0_i32_522 : BitVec 32 := 0#32
  ![v1047.toNat, 0]

def k1_chk117 (v1047 : BitVec 32) : Prop :=
  (∀ a, (k1_off234 v1047) a + S1x1024.size a ≤ S32000x1024.size a)
instance k1_chk117.dec : ∀ (v1047 : BitVec 32), Decidable (k1_chk117 v1047) := fun v1047 => decidable_of_iff' _ (Iff.of_eq (k1_chk117.eq_1 v1047))
theorem k1_off234_inb : ∀ (v1047 : BitVec 32) (k1_hw117 : k1_chk117 v1047), ∀ a, (k1_off234 v1047) a + S1x1024.size a ≤ S32000x1024.size a := fun v1047 k1_hw117 => k1_hw117

def k1_off235 (i : grid1.Coords) : Fin 1 → Nat :=
  let arg0 : BitVec 32 := BitVec.ofNat 32 (i 0).val
  let c128_i32 : BitVec 32 := 128#32
  let v0 : BitVec 32 := Scalar.muli arg0 c128_i32
  let c62_i32 : BitVec 32 := 62#32
  let v1054 : BitVec 32 := Scalar.addi v0 c62_i32
  let v1055 : Index := Scalar.indexCast v1054
  ![v1055.toNat]
def k1_off236 (v1056 : BitVec 32) : Fin 2 → Nat :=
  let c0_i32_526 : BitVec 32 := 0#32
  ![v1056.toNat, 0]

def k1_chk118 (v1056 : BitVec 32) : Prop :=
  (∀ a, (k1_off236 v1056) a + S1x1024.size a ≤ S32000x1024.size a)
instance k1_chk118.dec : ∀ (v1056 : BitVec 32), Decidable (k1_chk118 v1056) := fun v1056 => decidable_of_iff' _ (Iff.of_eq (k1_chk118.eq_1 v1056))
theorem k1_off236_inb : ∀ (v1056 : BitVec 32) (k1_hw118 : k1_chk118 v1056), ∀ a, (k1_off236 v1056) a + S1x1024.size a ≤ S32000x1024.size a := fun v1056 k1_hw118 => k1_hw118

def k1_off237 (i : grid1.Coords) : Fin 1 → Nat :=
  let arg0 : BitVec 32 := BitVec.ofNat 32 (i 0).val
  let c128_i32 : BitVec 32 := 128#32
  let v0 : BitVec 32 := Scalar.muli arg0 c128_i32
  let c55_i32_527 : BitVec 32 := 55#32
  let v1063 : BitVec 32 := Scalar.addi v0 c55_i32_527
  let v1064 : Index := Scalar.indexCast v1063
  ![v1064.toNat]
def k1_off238 (v1065 : BitVec 32) : Fin 2 → Nat :=
  let c0_i32_531 : BitVec 32 := 0#32
  ![v1065.toNat, 0]

def k1_chk119 (v1065 : BitVec 32) : Prop :=
  (∀ a, (k1_off238 v1065) a + S1x1024.size a ≤ S32000x1024.size a)
instance k1_chk119.dec : ∀ (v1065 : BitVec 32), Decidable (k1_chk119 v1065) := fun v1065 => decidable_of_iff' _ (Iff.of_eq (k1_chk119.eq_1 v1065))
theorem k1_off238_inb : ∀ (v1065 : BitVec 32) (k1_hw119 : k1_chk119 v1065), ∀ a, (k1_off238 v1065) a + S1x1024.size a ≤ S32000x1024.size a := fun v1065 k1_hw119 => k1_hw119

def k1_off239 (i : grid1.Coords) : Fin 1 → Nat :=
  let arg0 : BitVec 32 := BitVec.ofNat 32 (i 0).val
  let c128_i32 : BitVec 32 := 128#32
  let v0 : BitVec 32 := Scalar.muli arg0 c128_i32
  let c63_i32 : BitVec 32 := 63#32
  let v1072 : BitVec 32 := Scalar.addi v0 c63_i32
  let v1073 : Index := Scalar.indexCast v1072
  ![v1073.toNat]
def k1_off240 (v1074 : BitVec 32) : Fin 2 → Nat :=
  let c0_i32_535 : BitVec 32 := 0#32
  ![v1074.toNat, 0]

def k1_chk120 (v1074 : BitVec 32) : Prop :=
  (∀ a, (k1_off240 v1074) a + S1x1024.size a ≤ S32000x1024.size a)
instance k1_chk120.dec : ∀ (v1074 : BitVec 32), Decidable (k1_chk120 v1074) := fun v1074 => decidable_of_iff' _ (Iff.of_eq (k1_chk120.eq_1 v1074))
theorem k1_off240_inb : ∀ (v1074 : BitVec 32) (k1_hw120 : k1_chk120 v1074), ∀ a, (k1_off240 v1074) a + S1x1024.size a ≤ S32000x1024.size a := fun v1074 k1_hw120 => k1_hw120

def k1_off241 (i : grid1.Coords) : Fin 1 → Nat :=
  let arg0 : BitVec 32 := BitVec.ofNat 32 (i 0).val
  let c128_i32 : BitVec 32 := 128#32
  let v0 : BitVec 32 := Scalar.muli arg0 c128_i32
  let c56_i32_536 : BitVec 32 := 56#32
  let v1081 : BitVec 32 := Scalar.addi v0 c56_i32_536
  let v1082 : Index := Scalar.indexCast v1081
  ![v1082.toNat]
def k1_off242 (v1083 : BitVec 32) : Fin 2 → Nat :=
  let c0_i32_540 : BitVec 32 := 0#32
  ![v1083.toNat, 0]

def k1_chk121 (v1083 : BitVec 32) : Prop :=
  (∀ a, (k1_off242 v1083) a + S1x1024.size a ≤ S32000x1024.size a)
instance k1_chk121.dec : ∀ (v1083 : BitVec 32), Decidable (k1_chk121 v1083) := fun v1083 => decidable_of_iff' _ (Iff.of_eq (k1_chk121.eq_1 v1083))
theorem k1_off242_inb : ∀ (v1083 : BitVec 32) (k1_hw121 : k1_chk121 v1083), ∀ a, (k1_off242 v1083) a + S1x1024.size a ≤ S32000x1024.size a := fun v1083 k1_hw121 => k1_hw121

def k1_off243 (i : grid1.Coords) : Fin 1 → Nat :=
  let arg0 : BitVec 32 := BitVec.ofNat 32 (i 0).val
  let c128_i32 : BitVec 32 := 128#32
  let v0 : BitVec 32 := Scalar.muli arg0 c128_i32
  let c64_i32 : BitVec 32 := 64#32
  let v1090 : BitVec 32 := Scalar.addi v0 c64_i32
  let v1091 : Index := Scalar.indexCast v1090
  ![v1091.toNat]
def k1_off244 (v1092 : BitVec 32) : Fin 2 → Nat :=
  let c0_i32_544 : BitVec 32 := 0#32
  ![v1092.toNat, 0]

def k1_chk122 (v1092 : BitVec 32) : Prop :=
  (∀ a, (k1_off244 v1092) a + S1x1024.size a ≤ S32000x1024.size a)
instance k1_chk122.dec : ∀ (v1092 : BitVec 32), Decidable (k1_chk122 v1092) := fun v1092 => decidable_of_iff' _ (Iff.of_eq (k1_chk122.eq_1 v1092))
theorem k1_off244_inb : ∀ (v1092 : BitVec 32) (k1_hw122 : k1_chk122 v1092), ∀ a, (k1_off244 v1092) a + S1x1024.size a ≤ S32000x1024.size a := fun v1092 k1_hw122 => k1_hw122

def k1_off245 (i : grid1.Coords) : Fin 1 → Nat :=
  let arg0 : BitVec 32 := BitVec.ofNat 32 (i 0).val
  let c128_i32 : BitVec 32 := 128#32
  let v0 : BitVec 32 := Scalar.muli arg0 c128_i32
  let c57_i32_545 : BitVec 32 := 57#32
  let v1099 : BitVec 32 := Scalar.addi v0 c57_i32_545
  let v1100 : Index := Scalar.indexCast v1099
  ![v1100.toNat]
def k1_off246 (v1101 : BitVec 32) : Fin 2 → Nat :=
  let c0_i32_549 : BitVec 32 := 0#32
  ![v1101.toNat, 0]

def k1_chk123 (v1101 : BitVec 32) : Prop :=
  (∀ a, (k1_off246 v1101) a + S1x1024.size a ≤ S32000x1024.size a)
instance k1_chk123.dec : ∀ (v1101 : BitVec 32), Decidable (k1_chk123 v1101) := fun v1101 => decidable_of_iff' _ (Iff.of_eq (k1_chk123.eq_1 v1101))
theorem k1_off246_inb : ∀ (v1101 : BitVec 32) (k1_hw123 : k1_chk123 v1101), ∀ a, (k1_off246 v1101) a + S1x1024.size a ≤ S32000x1024.size a := fun v1101 k1_hw123 => k1_hw123

def k1_off247 (i : grid1.Coords) : Fin 1 → Nat :=
  let arg0 : BitVec 32 := BitVec.ofNat 32 (i 0).val
  let c128_i32 : BitVec 32 := 128#32
  let v0 : BitVec 32 := Scalar.muli arg0 c128_i32
  let c65_i32 : BitVec 32 := 65#32
  let v1108 : BitVec 32 := Scalar.addi v0 c65_i32
  let v1109 : Index := Scalar.indexCast v1108
  ![v1109.toNat]
def k1_off248 (v1110 : BitVec 32) : Fin 2 → Nat :=
  let c0_i32_553 : BitVec 32 := 0#32
  ![v1110.toNat, 0]

def k1_chk124 (v1110 : BitVec 32) : Prop :=
  (∀ a, (k1_off248 v1110) a + S1x1024.size a ≤ S32000x1024.size a)
instance k1_chk124.dec : ∀ (v1110 : BitVec 32), Decidable (k1_chk124 v1110) := fun v1110 => decidable_of_iff' _ (Iff.of_eq (k1_chk124.eq_1 v1110))
theorem k1_off248_inb : ∀ (v1110 : BitVec 32) (k1_hw124 : k1_chk124 v1110), ∀ a, (k1_off248 v1110) a + S1x1024.size a ≤ S32000x1024.size a := fun v1110 k1_hw124 => k1_hw124

def k1_off249 (i : grid1.Coords) : Fin 1 → Nat :=
  let arg0 : BitVec 32 := BitVec.ofNat 32 (i 0).val
  let c128_i32 : BitVec 32 := 128#32
  let v0 : BitVec 32 := Scalar.muli arg0 c128_i32
  let c58_i32_554 : BitVec 32 := 58#32
  let v1117 : BitVec 32 := Scalar.addi v0 c58_i32_554
  let v1118 : Index := Scalar.indexCast v1117
  ![v1118.toNat]
def k1_off250 (v1119 : BitVec 32) : Fin 2 → Nat :=
  let c0_i32_558 : BitVec 32 := 0#32
  ![v1119.toNat, 0]

def k1_chk125 (v1119 : BitVec 32) : Prop :=
  (∀ a, (k1_off250 v1119) a + S1x1024.size a ≤ S32000x1024.size a)
instance k1_chk125.dec : ∀ (v1119 : BitVec 32), Decidable (k1_chk125 v1119) := fun v1119 => decidable_of_iff' _ (Iff.of_eq (k1_chk125.eq_1 v1119))
theorem k1_off250_inb : ∀ (v1119 : BitVec 32) (k1_hw125 : k1_chk125 v1119), ∀ a, (k1_off250 v1119) a + S1x1024.size a ≤ S32000x1024.size a := fun v1119 k1_hw125 => k1_hw125

def k1_off251 (i : grid1.Coords) : Fin 1 → Nat :=
  let arg0 : BitVec 32 := BitVec.ofNat 32 (i 0).val
  let c128_i32 : BitVec 32 := 128#32
  let v0 : BitVec 32 := Scalar.muli arg0 c128_i32
  let c66_i32 : BitVec 32 := 66#32
  let v1126 : BitVec 32 := Scalar.addi v0 c66_i32
  let v1127 : Index := Scalar.indexCast v1126
  ![v1127.toNat]
def k1_off252 (v1128 : BitVec 32) : Fin 2 → Nat :=
  let c0_i32_562 : BitVec 32 := 0#32
  ![v1128.toNat, 0]

def k1_chk126 (v1128 : BitVec 32) : Prop :=
  (∀ a, (k1_off252 v1128) a + S1x1024.size a ≤ S32000x1024.size a)
instance k1_chk126.dec : ∀ (v1128 : BitVec 32), Decidable (k1_chk126 v1128) := fun v1128 => decidable_of_iff' _ (Iff.of_eq (k1_chk126.eq_1 v1128))
theorem k1_off252_inb : ∀ (v1128 : BitVec 32) (k1_hw126 : k1_chk126 v1128), ∀ a, (k1_off252 v1128) a + S1x1024.size a ≤ S32000x1024.size a := fun v1128 k1_hw126 => k1_hw126

def k1_off253 (i : grid1.Coords) : Fin 1 → Nat :=
  let arg0 : BitVec 32 := BitVec.ofNat 32 (i 0).val
  let c128_i32 : BitVec 32 := 128#32
  let v0 : BitVec 32 := Scalar.muli arg0 c128_i32
  let c59_i32_563 : BitVec 32 := 59#32
  let v1135 : BitVec 32 := Scalar.addi v0 c59_i32_563
  let v1136 : Index := Scalar.indexCast v1135
  ![v1136.toNat]
def k1_off254 (v1137 : BitVec 32) : Fin 2 → Nat :=
  let c0_i32_567 : BitVec 32 := 0#32
  ![v1137.toNat, 0]

def k1_chk127 (v1137 : BitVec 32) : Prop :=
  (∀ a, (k1_off254 v1137) a + S1x1024.size a ≤ S32000x1024.size a)
instance k1_chk127.dec : ∀ (v1137 : BitVec 32), Decidable (k1_chk127 v1137) := fun v1137 => decidable_of_iff' _ (Iff.of_eq (k1_chk127.eq_1 v1137))
theorem k1_off254_inb : ∀ (v1137 : BitVec 32) (k1_hw127 : k1_chk127 v1137), ∀ a, (k1_off254 v1137) a + S1x1024.size a ≤ S32000x1024.size a := fun v1137 k1_hw127 => k1_hw127

def k1_off255 (i : grid1.Coords) : Fin 1 → Nat :=
  let arg0 : BitVec 32 := BitVec.ofNat 32 (i 0).val
  let c128_i32 : BitVec 32 := 128#32
  let v0 : BitVec 32 := Scalar.muli arg0 c128_i32
  let c67_i32 : BitVec 32 := 67#32
  let v1144 : BitVec 32 := Scalar.addi v0 c67_i32
  let v1145 : Index := Scalar.indexCast v1144
  ![v1145.toNat]
def k1_off256 (v1146 : BitVec 32) : Fin 2 → Nat :=
  let c0_i32_571 : BitVec 32 := 0#32
  ![v1146.toNat, 0]

def k1_chk128 (v1146 : BitVec 32) : Prop :=
  (∀ a, (k1_off256 v1146) a + S1x1024.size a ≤ S32000x1024.size a)
instance k1_chk128.dec : ∀ (v1146 : BitVec 32), Decidable (k1_chk128 v1146) := fun v1146 => decidable_of_iff' _ (Iff.of_eq (k1_chk128.eq_1 v1146))
theorem k1_off256_inb : ∀ (v1146 : BitVec 32) (k1_hw128 : k1_chk128 v1146), ∀ a, (k1_off256 v1146) a + S1x1024.size a ≤ S32000x1024.size a := fun v1146 k1_hw128 => k1_hw128

def k1_off257 (i : grid1.Coords) : Fin 1 → Nat :=
  let arg0 : BitVec 32 := BitVec.ofNat 32 (i 0).val
  let c128_i32 : BitVec 32 := 128#32
  let v0 : BitVec 32 := Scalar.muli arg0 c128_i32
  let c60_i32_572 : BitVec 32 := 60#32
  let v1153 : BitVec 32 := Scalar.addi v0 c60_i32_572
  let v1154 : Index := Scalar.indexCast v1153
  ![v1154.toNat]
def k1_off258 (v1155 : BitVec 32) : Fin 2 → Nat :=
  let c0_i32_576 : BitVec 32 := 0#32
  ![v1155.toNat, 0]

def k1_chk129 (v1155 : BitVec 32) : Prop :=
  (∀ a, (k1_off258 v1155) a + S1x1024.size a ≤ S32000x1024.size a)
instance k1_chk129.dec : ∀ (v1155 : BitVec 32), Decidable (k1_chk129 v1155) := fun v1155 => decidable_of_iff' _ (Iff.of_eq (k1_chk129.eq_1 v1155))
theorem k1_off258_inb : ∀ (v1155 : BitVec 32) (k1_hw129 : k1_chk129 v1155), ∀ a, (k1_off258 v1155) a + S1x1024.size a ≤ S32000x1024.size a := fun v1155 k1_hw129 => k1_hw129

def k1_off259 (i : grid1.Coords) : Fin 1 → Nat :=
  let arg0 : BitVec 32 := BitVec.ofNat 32 (i 0).val
  let c128_i32 : BitVec 32 := 128#32
  let v0 : BitVec 32 := Scalar.muli arg0 c128_i32
  let c68_i32 : BitVec 32 := 68#32
  let v1162 : BitVec 32 := Scalar.addi v0 c68_i32
  let v1163 : Index := Scalar.indexCast v1162
  ![v1163.toNat]
def k1_off260 (v1164 : BitVec 32) : Fin 2 → Nat :=
  let c0_i32_580 : BitVec 32 := 0#32
  ![v1164.toNat, 0]

def k1_chk130 (v1164 : BitVec 32) : Prop :=
  (∀ a, (k1_off260 v1164) a + S1x1024.size a ≤ S32000x1024.size a)
instance k1_chk130.dec : ∀ (v1164 : BitVec 32), Decidable (k1_chk130 v1164) := fun v1164 => decidable_of_iff' _ (Iff.of_eq (k1_chk130.eq_1 v1164))
theorem k1_off260_inb : ∀ (v1164 : BitVec 32) (k1_hw130 : k1_chk130 v1164), ∀ a, (k1_off260 v1164) a + S1x1024.size a ≤ S32000x1024.size a := fun v1164 k1_hw130 => k1_hw130

def k1_off261 (i : grid1.Coords) : Fin 1 → Nat :=
  let arg0 : BitVec 32 := BitVec.ofNat 32 (i 0).val
  let c128_i32 : BitVec 32 := 128#32
  let v0 : BitVec 32 := Scalar.muli arg0 c128_i32
  let c61_i32_581 : BitVec 32 := 61#32
  let v1171 : BitVec 32 := Scalar.addi v0 c61_i32_581
  let v1172 : Index := Scalar.indexCast v1171
  ![v1172.toNat]
def k1_off262 (v1173 : BitVec 32) : Fin 2 → Nat :=
  let c0_i32_585 : BitVec 32 := 0#32
  ![v1173.toNat, 0]

def k1_chk131 (v1173 : BitVec 32) : Prop :=
  (∀ a, (k1_off262 v1173) a + S1x1024.size a ≤ S32000x1024.size a)
instance k1_chk131.dec : ∀ (v1173 : BitVec 32), Decidable (k1_chk131 v1173) := fun v1173 => decidable_of_iff' _ (Iff.of_eq (k1_chk131.eq_1 v1173))
theorem k1_off262_inb : ∀ (v1173 : BitVec 32) (k1_hw131 : k1_chk131 v1173), ∀ a, (k1_off262 v1173) a + S1x1024.size a ≤ S32000x1024.size a := fun v1173 k1_hw131 => k1_hw131

def k1_off263 (i : grid1.Coords) : Fin 1 → Nat :=
  let arg0 : BitVec 32 := BitVec.ofNat 32 (i 0).val
  let c128_i32 : BitVec 32 := 128#32
  let v0 : BitVec 32 := Scalar.muli arg0 c128_i32
  let c69_i32 : BitVec 32 := 69#32
  let v1180 : BitVec 32 := Scalar.addi v0 c69_i32
  let v1181 : Index := Scalar.indexCast v1180
  ![v1181.toNat]
def k1_off264 (v1182 : BitVec 32) : Fin 2 → Nat :=
  let c0_i32_589 : BitVec 32 := 0#32
  ![v1182.toNat, 0]

def k1_chk132 (v1182 : BitVec 32) : Prop :=
  (∀ a, (k1_off264 v1182) a + S1x1024.size a ≤ S32000x1024.size a)
instance k1_chk132.dec : ∀ (v1182 : BitVec 32), Decidable (k1_chk132 v1182) := fun v1182 => decidable_of_iff' _ (Iff.of_eq (k1_chk132.eq_1 v1182))
theorem k1_off264_inb : ∀ (v1182 : BitVec 32) (k1_hw132 : k1_chk132 v1182), ∀ a, (k1_off264 v1182) a + S1x1024.size a ≤ S32000x1024.size a := fun v1182 k1_hw132 => k1_hw132

def k1_off265 (i : grid1.Coords) : Fin 1 → Nat :=
  let arg0 : BitVec 32 := BitVec.ofNat 32 (i 0).val
  let c128_i32 : BitVec 32 := 128#32
  let v0 : BitVec 32 := Scalar.muli arg0 c128_i32
  let c62_i32_590 : BitVec 32 := 62#32
  let v1189 : BitVec 32 := Scalar.addi v0 c62_i32_590
  let v1190 : Index := Scalar.indexCast v1189
  ![v1190.toNat]
def k1_off266 (v1191 : BitVec 32) : Fin 2 → Nat :=
  let c0_i32_594 : BitVec 32 := 0#32
  ![v1191.toNat, 0]

def k1_chk133 (v1191 : BitVec 32) : Prop :=
  (∀ a, (k1_off266 v1191) a + S1x1024.size a ≤ S32000x1024.size a)
instance k1_chk133.dec : ∀ (v1191 : BitVec 32), Decidable (k1_chk133 v1191) := fun v1191 => decidable_of_iff' _ (Iff.of_eq (k1_chk133.eq_1 v1191))
theorem k1_off266_inb : ∀ (v1191 : BitVec 32) (k1_hw133 : k1_chk133 v1191), ∀ a, (k1_off266 v1191) a + S1x1024.size a ≤ S32000x1024.size a := fun v1191 k1_hw133 => k1_hw133

def k1_off267 (i : grid1.Coords) : Fin 1 → Nat :=
  let arg0 : BitVec 32 := BitVec.ofNat 32 (i 0).val
  let c128_i32 : BitVec 32 := 128#32
  let v0 : BitVec 32 := Scalar.muli arg0 c128_i32
  let c70_i32 : BitVec 32 := 70#32
  let v1198 : BitVec 32 := Scalar.addi v0 c70_i32
  let v1199 : Index := Scalar.indexCast v1198
  ![v1199.toNat]
def k1_off268 (v1200 : BitVec 32) : Fin 2 → Nat :=
  let c0_i32_598 : BitVec 32 := 0#32
  ![v1200.toNat, 0]

def k1_chk134 (v1200 : BitVec 32) : Prop :=
  (∀ a, (k1_off268 v1200) a + S1x1024.size a ≤ S32000x1024.size a)
instance k1_chk134.dec : ∀ (v1200 : BitVec 32), Decidable (k1_chk134 v1200) := fun v1200 => decidable_of_iff' _ (Iff.of_eq (k1_chk134.eq_1 v1200))
theorem k1_off268_inb : ∀ (v1200 : BitVec 32) (k1_hw134 : k1_chk134 v1200), ∀ a, (k1_off268 v1200) a + S1x1024.size a ≤ S32000x1024.size a := fun v1200 k1_hw134 => k1_hw134

def k1_off269 (i : grid1.Coords) : Fin 1 → Nat :=
  let arg0 : BitVec 32 := BitVec.ofNat 32 (i 0).val
  let c128_i32 : BitVec 32 := 128#32
  let v0 : BitVec 32 := Scalar.muli arg0 c128_i32
  let c63_i32_599 : BitVec 32 := 63#32
  let v1207 : BitVec 32 := Scalar.addi v0 c63_i32_599
  let v1208 : Index := Scalar.indexCast v1207
  ![v1208.toNat]
def k1_off270 (v1209 : BitVec 32) : Fin 2 → Nat :=
  let c0_i32_603 : BitVec 32 := 0#32
  ![v1209.toNat, 0]

def k1_chk135 (v1209 : BitVec 32) : Prop :=
  (∀ a, (k1_off270 v1209) a + S1x1024.size a ≤ S32000x1024.size a)
instance k1_chk135.dec : ∀ (v1209 : BitVec 32), Decidable (k1_chk135 v1209) := fun v1209 => decidable_of_iff' _ (Iff.of_eq (k1_chk135.eq_1 v1209))
theorem k1_off270_inb : ∀ (v1209 : BitVec 32) (k1_hw135 : k1_chk135 v1209), ∀ a, (k1_off270 v1209) a + S1x1024.size a ≤ S32000x1024.size a := fun v1209 k1_hw135 => k1_hw135

def k1_off271 (i : grid1.Coords) : Fin 1 → Nat :=
  let arg0 : BitVec 32 := BitVec.ofNat 32 (i 0).val
  let c128_i32 : BitVec 32 := 128#32
  let v0 : BitVec 32 := Scalar.muli arg0 c128_i32
  let c71_i32 : BitVec 32 := 71#32
  let v1216 : BitVec 32 := Scalar.addi v0 c71_i32
  let v1217 : Index := Scalar.indexCast v1216
  ![v1217.toNat]
def k1_off272 (v1218 : BitVec 32) : Fin 2 → Nat :=
  let c0_i32_607 : BitVec 32 := 0#32
  ![v1218.toNat, 0]

def k1_chk136 (v1218 : BitVec 32) : Prop :=
  (∀ a, (k1_off272 v1218) a + S1x1024.size a ≤ S32000x1024.size a)
instance k1_chk136.dec : ∀ (v1218 : BitVec 32), Decidable (k1_chk136 v1218) := fun v1218 => decidable_of_iff' _ (Iff.of_eq (k1_chk136.eq_1 v1218))
theorem k1_off272_inb : ∀ (v1218 : BitVec 32) (k1_hw136 : k1_chk136 v1218), ∀ a, (k1_off272 v1218) a + S1x1024.size a ≤ S32000x1024.size a := fun v1218 k1_hw136 => k1_hw136

def k1_off273 (i : grid1.Coords) : Fin 1 → Nat :=
  let arg0 : BitVec 32 := BitVec.ofNat 32 (i 0).val
  let c128_i32 : BitVec 32 := 128#32
  let v0 : BitVec 32 := Scalar.muli arg0 c128_i32
  let c64_i32_608 : BitVec 32 := 64#32
  let v1225 : BitVec 32 := Scalar.addi v0 c64_i32_608
  let v1226 : Index := Scalar.indexCast v1225
  ![v1226.toNat]
def k1_off274 (v1227 : BitVec 32) : Fin 2 → Nat :=
  let c0_i32_612 : BitVec 32 := 0#32
  ![v1227.toNat, 0]

def k1_chk137 (v1227 : BitVec 32) : Prop :=
  (∀ a, (k1_off274 v1227) a + S1x1024.size a ≤ S32000x1024.size a)
instance k1_chk137.dec : ∀ (v1227 : BitVec 32), Decidable (k1_chk137 v1227) := fun v1227 => decidable_of_iff' _ (Iff.of_eq (k1_chk137.eq_1 v1227))
theorem k1_off274_inb : ∀ (v1227 : BitVec 32) (k1_hw137 : k1_chk137 v1227), ∀ a, (k1_off274 v1227) a + S1x1024.size a ≤ S32000x1024.size a := fun v1227 k1_hw137 => k1_hw137

def k1_off275 (i : grid1.Coords) : Fin 1 → Nat :=
  let arg0 : BitVec 32 := BitVec.ofNat 32 (i 0).val
  let c128_i32 : BitVec 32 := 128#32
  let v0 : BitVec 32 := Scalar.muli arg0 c128_i32
  let c72_i32 : BitVec 32 := 72#32
  let v1234 : BitVec 32 := Scalar.addi v0 c72_i32
  let v1235 : Index := Scalar.indexCast v1234
  ![v1235.toNat]
def k1_off276 (v1236 : BitVec 32) : Fin 2 → Nat :=
  let c0_i32_616 : BitVec 32 := 0#32
  ![v1236.toNat, 0]

def k1_chk138 (v1236 : BitVec 32) : Prop :=
  (∀ a, (k1_off276 v1236) a + S1x1024.size a ≤ S32000x1024.size a)
instance k1_chk138.dec : ∀ (v1236 : BitVec 32), Decidable (k1_chk138 v1236) := fun v1236 => decidable_of_iff' _ (Iff.of_eq (k1_chk138.eq_1 v1236))
theorem k1_off276_inb : ∀ (v1236 : BitVec 32) (k1_hw138 : k1_chk138 v1236), ∀ a, (k1_off276 v1236) a + S1x1024.size a ≤ S32000x1024.size a := fun v1236 k1_hw138 => k1_hw138

def k1_off277 (i : grid1.Coords) : Fin 1 → Nat :=
  let arg0 : BitVec 32 := BitVec.ofNat 32 (i 0).val
  let c128_i32 : BitVec 32 := 128#32
  let v0 : BitVec 32 := Scalar.muli arg0 c128_i32
  let c65_i32_617 : BitVec 32 := 65#32
  let v1243 : BitVec 32 := Scalar.addi v0 c65_i32_617
  let v1244 : Index := Scalar.indexCast v1243
  ![v1244.toNat]
def k1_off278 (v1245 : BitVec 32) : Fin 2 → Nat :=
  let c0_i32_621 : BitVec 32 := 0#32
  ![v1245.toNat, 0]

def k1_chk139 (v1245 : BitVec 32) : Prop :=
  (∀ a, (k1_off278 v1245) a + S1x1024.size a ≤ S32000x1024.size a)
instance k1_chk139.dec : ∀ (v1245 : BitVec 32), Decidable (k1_chk139 v1245) := fun v1245 => decidable_of_iff' _ (Iff.of_eq (k1_chk139.eq_1 v1245))
theorem k1_off278_inb : ∀ (v1245 : BitVec 32) (k1_hw139 : k1_chk139 v1245), ∀ a, (k1_off278 v1245) a + S1x1024.size a ≤ S32000x1024.size a := fun v1245 k1_hw139 => k1_hw139

def k1_off279 (i : grid1.Coords) : Fin 1 → Nat :=
  let arg0 : BitVec 32 := BitVec.ofNat 32 (i 0).val
  let c128_i32 : BitVec 32 := 128#32
  let v0 : BitVec 32 := Scalar.muli arg0 c128_i32
  let c73_i32 : BitVec 32 := 73#32
  let v1252 : BitVec 32 := Scalar.addi v0 c73_i32
  let v1253 : Index := Scalar.indexCast v1252
  ![v1253.toNat]
def k1_off280 (v1254 : BitVec 32) : Fin 2 → Nat :=
  let c0_i32_625 : BitVec 32 := 0#32
  ![v1254.toNat, 0]

def k1_chk140 (v1254 : BitVec 32) : Prop :=
  (∀ a, (k1_off280 v1254) a + S1x1024.size a ≤ S32000x1024.size a)
instance k1_chk140.dec : ∀ (v1254 : BitVec 32), Decidable (k1_chk140 v1254) := fun v1254 => decidable_of_iff' _ (Iff.of_eq (k1_chk140.eq_1 v1254))
theorem k1_off280_inb : ∀ (v1254 : BitVec 32) (k1_hw140 : k1_chk140 v1254), ∀ a, (k1_off280 v1254) a + S1x1024.size a ≤ S32000x1024.size a := fun v1254 k1_hw140 => k1_hw140

def k1_off281 (i : grid1.Coords) : Fin 1 → Nat :=
  let arg0 : BitVec 32 := BitVec.ofNat 32 (i 0).val
  let c128_i32 : BitVec 32 := 128#32
  let v0 : BitVec 32 := Scalar.muli arg0 c128_i32
  let c66_i32_626 : BitVec 32 := 66#32
  let v1261 : BitVec 32 := Scalar.addi v0 c66_i32_626
  let v1262 : Index := Scalar.indexCast v1261
  ![v1262.toNat]
def k1_off282 (v1263 : BitVec 32) : Fin 2 → Nat :=
  let c0_i32_630 : BitVec 32 := 0#32
  ![v1263.toNat, 0]

def k1_chk141 (v1263 : BitVec 32) : Prop :=
  (∀ a, (k1_off282 v1263) a + S1x1024.size a ≤ S32000x1024.size a)
instance k1_chk141.dec : ∀ (v1263 : BitVec 32), Decidable (k1_chk141 v1263) := fun v1263 => decidable_of_iff' _ (Iff.of_eq (k1_chk141.eq_1 v1263))
theorem k1_off282_inb : ∀ (v1263 : BitVec 32) (k1_hw141 : k1_chk141 v1263), ∀ a, (k1_off282 v1263) a + S1x1024.size a ≤ S32000x1024.size a := fun v1263 k1_hw141 => k1_hw141

def k1_off283 (i : grid1.Coords) : Fin 1 → Nat :=
  let arg0 : BitVec 32 := BitVec.ofNat 32 (i 0).val
  let c128_i32 : BitVec 32 := 128#32
  let v0 : BitVec 32 := Scalar.muli arg0 c128_i32
  let c74_i32 : BitVec 32 := 74#32
  let v1270 : BitVec 32 := Scalar.addi v0 c74_i32
  let v1271 : Index := Scalar.indexCast v1270
  ![v1271.toNat]
def k1_off284 (v1272 : BitVec 32) : Fin 2 → Nat :=
  let c0_i32_634 : BitVec 32 := 0#32
  ![v1272.toNat, 0]

def k1_chk142 (v1272 : BitVec 32) : Prop :=
  (∀ a, (k1_off284 v1272) a + S1x1024.size a ≤ S32000x1024.size a)
instance k1_chk142.dec : ∀ (v1272 : BitVec 32), Decidable (k1_chk142 v1272) := fun v1272 => decidable_of_iff' _ (Iff.of_eq (k1_chk142.eq_1 v1272))
theorem k1_off284_inb : ∀ (v1272 : BitVec 32) (k1_hw142 : k1_chk142 v1272), ∀ a, (k1_off284 v1272) a + S1x1024.size a ≤ S32000x1024.size a := fun v1272 k1_hw142 => k1_hw142

def k1_off285 (i : grid1.Coords) : Fin 1 → Nat :=
  let arg0 : BitVec 32 := BitVec.ofNat 32 (i 0).val
  let c128_i32 : BitVec 32 := 128#32
  let v0 : BitVec 32 := Scalar.muli arg0 c128_i32
  let c67_i32_635 : BitVec 32 := 67#32
  let v1279 : BitVec 32 := Scalar.addi v0 c67_i32_635
  let v1280 : Index := Scalar.indexCast v1279
  ![v1280.toNat]
def k1_off286 (v1281 : BitVec 32) : Fin 2 → Nat :=
  let c0_i32_639 : BitVec 32 := 0#32
  ![v1281.toNat, 0]

def k1_chk143 (v1281 : BitVec 32) : Prop :=
  (∀ a, (k1_off286 v1281) a + S1x1024.size a ≤ S32000x1024.size a)
instance k1_chk143.dec : ∀ (v1281 : BitVec 32), Decidable (k1_chk143 v1281) := fun v1281 => decidable_of_iff' _ (Iff.of_eq (k1_chk143.eq_1 v1281))
theorem k1_off286_inb : ∀ (v1281 : BitVec 32) (k1_hw143 : k1_chk143 v1281), ∀ a, (k1_off286 v1281) a + S1x1024.size a ≤ S32000x1024.size a := fun v1281 k1_hw143 => k1_hw143

def k1_off287 (i : grid1.Coords) : Fin 1 → Nat :=
  let arg0 : BitVec 32 := BitVec.ofNat 32 (i 0).val
  let c128_i32 : BitVec 32 := 128#32
  let v0 : BitVec 32 := Scalar.muli arg0 c128_i32
  let c75_i32 : BitVec 32 := 75#32
  let v1288 : BitVec 32 := Scalar.addi v0 c75_i32
  let v1289 : Index := Scalar.indexCast v1288
  ![v1289.toNat]
def k1_off288 (v1290 : BitVec 32) : Fin 2 → Nat :=
  let c0_i32_643 : BitVec 32 := 0#32
  ![v1290.toNat, 0]

def k1_chk144 (v1290 : BitVec 32) : Prop :=
  (∀ a, (k1_off288 v1290) a + S1x1024.size a ≤ S32000x1024.size a)
instance k1_chk144.dec : ∀ (v1290 : BitVec 32), Decidable (k1_chk144 v1290) := fun v1290 => decidable_of_iff' _ (Iff.of_eq (k1_chk144.eq_1 v1290))
theorem k1_off288_inb : ∀ (v1290 : BitVec 32) (k1_hw144 : k1_chk144 v1290), ∀ a, (k1_off288 v1290) a + S1x1024.size a ≤ S32000x1024.size a := fun v1290 k1_hw144 => k1_hw144

def k1_off289 (i : grid1.Coords) : Fin 1 → Nat :=
  let arg0 : BitVec 32 := BitVec.ofNat 32 (i 0).val
  let c128_i32 : BitVec 32 := 128#32
  let v0 : BitVec 32 := Scalar.muli arg0 c128_i32
  let c68_i32_644 : BitVec 32 := 68#32
  let v1297 : BitVec 32 := Scalar.addi v0 c68_i32_644
  let v1298 : Index := Scalar.indexCast v1297
  ![v1298.toNat]
def k1_off290 (v1299 : BitVec 32) : Fin 2 → Nat :=
  let c0_i32_648 : BitVec 32 := 0#32
  ![v1299.toNat, 0]

def k1_chk145 (v1299 : BitVec 32) : Prop :=
  (∀ a, (k1_off290 v1299) a + S1x1024.size a ≤ S32000x1024.size a)
instance k1_chk145.dec : ∀ (v1299 : BitVec 32), Decidable (k1_chk145 v1299) := fun v1299 => decidable_of_iff' _ (Iff.of_eq (k1_chk145.eq_1 v1299))
theorem k1_off290_inb : ∀ (v1299 : BitVec 32) (k1_hw145 : k1_chk145 v1299), ∀ a, (k1_off290 v1299) a + S1x1024.size a ≤ S32000x1024.size a := fun v1299 k1_hw145 => k1_hw145

def k1_off291 (i : grid1.Coords) : Fin 1 → Nat :=
  let arg0 : BitVec 32 := BitVec.ofNat 32 (i 0).val
  let c128_i32 : BitVec 32 := 128#32
  let v0 : BitVec 32 := Scalar.muli arg0 c128_i32
  let c76_i32 : BitVec 32 := 76#32
  let v1306 : BitVec 32 := Scalar.addi v0 c76_i32
  let v1307 : Index := Scalar.indexCast v1306
  ![v1307.toNat]
def k1_off292 (v1308 : BitVec 32) : Fin 2 → Nat :=
  let c0_i32_652 : BitVec 32 := 0#32
  ![v1308.toNat, 0]

def k1_chk146 (v1308 : BitVec 32) : Prop :=
  (∀ a, (k1_off292 v1308) a + S1x1024.size a ≤ S32000x1024.size a)
instance k1_chk146.dec : ∀ (v1308 : BitVec 32), Decidable (k1_chk146 v1308) := fun v1308 => decidable_of_iff' _ (Iff.of_eq (k1_chk146.eq_1 v1308))
theorem k1_off292_inb : ∀ (v1308 : BitVec 32) (k1_hw146 : k1_chk146 v1308), ∀ a, (k1_off292 v1308) a + S1x1024.size a ≤ S32000x1024.size a := fun v1308 k1_hw146 => k1_hw146

def k1_off293 (i : grid1.Coords) : Fin 1 → Nat :=
  let arg0 : BitVec 32 := BitVec.ofNat 32 (i 0).val
  let c128_i32 : BitVec 32 := 128#32
  let v0 : BitVec 32 := Scalar.muli arg0 c128_i32
  let c69_i32_653 : BitVec 32 := 69#32
  let v1315 : BitVec 32 := Scalar.addi v0 c69_i32_653
  let v1316 : Index := Scalar.indexCast v1315
  ![v1316.toNat]
def k1_off294 (v1317 : BitVec 32) : Fin 2 → Nat :=
  let c0_i32_657 : BitVec 32 := 0#32
  ![v1317.toNat, 0]

def k1_chk147 (v1317 : BitVec 32) : Prop :=
  (∀ a, (k1_off294 v1317) a + S1x1024.size a ≤ S32000x1024.size a)
instance k1_chk147.dec : ∀ (v1317 : BitVec 32), Decidable (k1_chk147 v1317) := fun v1317 => decidable_of_iff' _ (Iff.of_eq (k1_chk147.eq_1 v1317))
theorem k1_off294_inb : ∀ (v1317 : BitVec 32) (k1_hw147 : k1_chk147 v1317), ∀ a, (k1_off294 v1317) a + S1x1024.size a ≤ S32000x1024.size a := fun v1317 k1_hw147 => k1_hw147

def k1_off295 (i : grid1.Coords) : Fin 1 → Nat :=
  let arg0 : BitVec 32 := BitVec.ofNat 32 (i 0).val
  let c128_i32 : BitVec 32 := 128#32
  let v0 : BitVec 32 := Scalar.muli arg0 c128_i32
  let c77_i32 : BitVec 32 := 77#32
  let v1324 : BitVec 32 := Scalar.addi v0 c77_i32
  let v1325 : Index := Scalar.indexCast v1324
  ![v1325.toNat]
def k1_off296 (v1326 : BitVec 32) : Fin 2 → Nat :=
  let c0_i32_661 : BitVec 32 := 0#32
  ![v1326.toNat, 0]

def k1_chk148 (v1326 : BitVec 32) : Prop :=
  (∀ a, (k1_off296 v1326) a + S1x1024.size a ≤ S32000x1024.size a)
instance k1_chk148.dec : ∀ (v1326 : BitVec 32), Decidable (k1_chk148 v1326) := fun v1326 => decidable_of_iff' _ (Iff.of_eq (k1_chk148.eq_1 v1326))
theorem k1_off296_inb : ∀ (v1326 : BitVec 32) (k1_hw148 : k1_chk148 v1326), ∀ a, (k1_off296 v1326) a + S1x1024.size a ≤ S32000x1024.size a := fun v1326 k1_hw148 => k1_hw148

def k1_off297 (i : grid1.Coords) : Fin 1 → Nat :=
  let arg0 : BitVec 32 := BitVec.ofNat 32 (i 0).val
  let c128_i32 : BitVec 32 := 128#32
  let v0 : BitVec 32 := Scalar.muli arg0 c128_i32
  let c70_i32_662 : BitVec 32 := 70#32
  let v1333 : BitVec 32 := Scalar.addi v0 c70_i32_662
  let v1334 : Index := Scalar.indexCast v1333
  ![v1334.toNat]
def k1_off298 (v1335 : BitVec 32) : Fin 2 → Nat :=
  let c0_i32_666 : BitVec 32 := 0#32
  ![v1335.toNat, 0]

def k1_chk149 (v1335 : BitVec 32) : Prop :=
  (∀ a, (k1_off298 v1335) a + S1x1024.size a ≤ S32000x1024.size a)
instance k1_chk149.dec : ∀ (v1335 : BitVec 32), Decidable (k1_chk149 v1335) := fun v1335 => decidable_of_iff' _ (Iff.of_eq (k1_chk149.eq_1 v1335))
theorem k1_off298_inb : ∀ (v1335 : BitVec 32) (k1_hw149 : k1_chk149 v1335), ∀ a, (k1_off298 v1335) a + S1x1024.size a ≤ S32000x1024.size a := fun v1335 k1_hw149 => k1_hw149

def k1_off299 (i : grid1.Coords) : Fin 1 → Nat :=
  let arg0 : BitVec 32 := BitVec.ofNat 32 (i 0).val
  let c128_i32 : BitVec 32 := 128#32
  let v0 : BitVec 32 := Scalar.muli arg0 c128_i32
  let c78_i32 : BitVec 32 := 78#32
  let v1342 : BitVec 32 := Scalar.addi v0 c78_i32
  let v1343 : Index := Scalar.indexCast v1342
  ![v1343.toNat]
def k1_off300 (v1344 : BitVec 32) : Fin 2 → Nat :=
  let c0_i32_670 : BitVec 32 := 0#32
  ![v1344.toNat, 0]

def k1_chk150 (v1344 : BitVec 32) : Prop :=
  (∀ a, (k1_off300 v1344) a + S1x1024.size a ≤ S32000x1024.size a)
instance k1_chk150.dec : ∀ (v1344 : BitVec 32), Decidable (k1_chk150 v1344) := fun v1344 => decidable_of_iff' _ (Iff.of_eq (k1_chk150.eq_1 v1344))
theorem k1_off300_inb : ∀ (v1344 : BitVec 32) (k1_hw150 : k1_chk150 v1344), ∀ a, (k1_off300 v1344) a + S1x1024.size a ≤ S32000x1024.size a := fun v1344 k1_hw150 => k1_hw150

def k1_off301 (i : grid1.Coords) : Fin 1 → Nat :=
  let arg0 : BitVec 32 := BitVec.ofNat 32 (i 0).val
  let c128_i32 : BitVec 32 := 128#32
  let v0 : BitVec 32 := Scalar.muli arg0 c128_i32
  let c71_i32_671 : BitVec 32 := 71#32
  let v1351 : BitVec 32 := Scalar.addi v0 c71_i32_671
  let v1352 : Index := Scalar.indexCast v1351
  ![v1352.toNat]
def k1_off302 (v1353 : BitVec 32) : Fin 2 → Nat :=
  let c0_i32_675 : BitVec 32 := 0#32
  ![v1353.toNat, 0]

def k1_chk151 (v1353 : BitVec 32) : Prop :=
  (∀ a, (k1_off302 v1353) a + S1x1024.size a ≤ S32000x1024.size a)
instance k1_chk151.dec : ∀ (v1353 : BitVec 32), Decidable (k1_chk151 v1353) := fun v1353 => decidable_of_iff' _ (Iff.of_eq (k1_chk151.eq_1 v1353))
theorem k1_off302_inb : ∀ (v1353 : BitVec 32) (k1_hw151 : k1_chk151 v1353), ∀ a, (k1_off302 v1353) a + S1x1024.size a ≤ S32000x1024.size a := fun v1353 k1_hw151 => k1_hw151

def k1_off303 (i : grid1.Coords) : Fin 1 → Nat :=
  let arg0 : BitVec 32 := BitVec.ofNat 32 (i 0).val
  let c128_i32 : BitVec 32 := 128#32
  let v0 : BitVec 32 := Scalar.muli arg0 c128_i32
  let c79_i32 : BitVec 32 := 79#32
  let v1360 : BitVec 32 := Scalar.addi v0 c79_i32
  let v1361 : Index := Scalar.indexCast v1360
  ![v1361.toNat]
def k1_off304 (v1362 : BitVec 32) : Fin 2 → Nat :=
  let c0_i32_679 : BitVec 32 := 0#32
  ![v1362.toNat, 0]

def k1_chk152 (v1362 : BitVec 32) : Prop :=
  (∀ a, (k1_off304 v1362) a + S1x1024.size a ≤ S32000x1024.size a)
instance k1_chk152.dec : ∀ (v1362 : BitVec 32), Decidable (k1_chk152 v1362) := fun v1362 => decidable_of_iff' _ (Iff.of_eq (k1_chk152.eq_1 v1362))
theorem k1_off304_inb : ∀ (v1362 : BitVec 32) (k1_hw152 : k1_chk152 v1362), ∀ a, (k1_off304 v1362) a + S1x1024.size a ≤ S32000x1024.size a := fun v1362 k1_hw152 => k1_hw152

def k1_off305 (i : grid1.Coords) : Fin 1 → Nat :=
  let arg0 : BitVec 32 := BitVec.ofNat 32 (i 0).val
  let c128_i32 : BitVec 32 := 128#32
  let v0 : BitVec 32 := Scalar.muli arg0 c128_i32
  let c72_i32_680 : BitVec 32 := 72#32
  let v1369 : BitVec 32 := Scalar.addi v0 c72_i32_680
  let v1370 : Index := Scalar.indexCast v1369
  ![v1370.toNat]
def k1_off306 (v1371 : BitVec 32) : Fin 2 → Nat :=
  let c0_i32_684 : BitVec 32 := 0#32
  ![v1371.toNat, 0]

def k1_chk153 (v1371 : BitVec 32) : Prop :=
  (∀ a, (k1_off306 v1371) a + S1x1024.size a ≤ S32000x1024.size a)
instance k1_chk153.dec : ∀ (v1371 : BitVec 32), Decidable (k1_chk153 v1371) := fun v1371 => decidable_of_iff' _ (Iff.of_eq (k1_chk153.eq_1 v1371))
theorem k1_off306_inb : ∀ (v1371 : BitVec 32) (k1_hw153 : k1_chk153 v1371), ∀ a, (k1_off306 v1371) a + S1x1024.size a ≤ S32000x1024.size a := fun v1371 k1_hw153 => k1_hw153

def k1_off307 (i : grid1.Coords) : Fin 1 → Nat :=
  let arg0 : BitVec 32 := BitVec.ofNat 32 (i 0).val
  let c128_i32 : BitVec 32 := 128#32
  let v0 : BitVec 32 := Scalar.muli arg0 c128_i32
  let c80_i32 : BitVec 32 := 80#32
  let v1378 : BitVec 32 := Scalar.addi v0 c80_i32
  let v1379 : Index := Scalar.indexCast v1378
  ![v1379.toNat]
def k1_off308 (v1380 : BitVec 32) : Fin 2 → Nat :=
  let c0_i32_688 : BitVec 32 := 0#32
  ![v1380.toNat, 0]

def k1_chk154 (v1380 : BitVec 32) : Prop :=
  (∀ a, (k1_off308 v1380) a + S1x1024.size a ≤ S32000x1024.size a)
instance k1_chk154.dec : ∀ (v1380 : BitVec 32), Decidable (k1_chk154 v1380) := fun v1380 => decidable_of_iff' _ (Iff.of_eq (k1_chk154.eq_1 v1380))
theorem k1_off308_inb : ∀ (v1380 : BitVec 32) (k1_hw154 : k1_chk154 v1380), ∀ a, (k1_off308 v1380) a + S1x1024.size a ≤ S32000x1024.size a := fun v1380 k1_hw154 => k1_hw154

def k1_off309 (i : grid1.Coords) : Fin 1 → Nat :=
  let arg0 : BitVec 32 := BitVec.ofNat 32 (i 0).val
  let c128_i32 : BitVec 32 := 128#32
  let v0 : BitVec 32 := Scalar.muli arg0 c128_i32
  let c73_i32_689 : BitVec 32 := 73#32
  let v1387 : BitVec 32 := Scalar.addi v0 c73_i32_689
  let v1388 : Index := Scalar.indexCast v1387
  ![v1388.toNat]
def k1_off310 (v1389 : BitVec 32) : Fin 2 → Nat :=
  let c0_i32_693 : BitVec 32 := 0#32
  ![v1389.toNat, 0]

def k1_chk155 (v1389 : BitVec 32) : Prop :=
  (∀ a, (k1_off310 v1389) a + S1x1024.size a ≤ S32000x1024.size a)
instance k1_chk155.dec : ∀ (v1389 : BitVec 32), Decidable (k1_chk155 v1389) := fun v1389 => decidable_of_iff' _ (Iff.of_eq (k1_chk155.eq_1 v1389))
theorem k1_off310_inb : ∀ (v1389 : BitVec 32) (k1_hw155 : k1_chk155 v1389), ∀ a, (k1_off310 v1389) a + S1x1024.size a ≤ S32000x1024.size a := fun v1389 k1_hw155 => k1_hw155

def k1_off311 (i : grid1.Coords) : Fin 1 → Nat :=
  let arg0 : BitVec 32 := BitVec.ofNat 32 (i 0).val
  let c128_i32 : BitVec 32 := 128#32
  let v0 : BitVec 32 := Scalar.muli arg0 c128_i32
  let c81_i32 : BitVec 32 := 81#32
  let v1396 : BitVec 32 := Scalar.addi v0 c81_i32
  let v1397 : Index := Scalar.indexCast v1396
  ![v1397.toNat]
def k1_off312 (v1398 : BitVec 32) : Fin 2 → Nat :=
  let c0_i32_697 : BitVec 32 := 0#32
  ![v1398.toNat, 0]

def k1_chk156 (v1398 : BitVec 32) : Prop :=
  (∀ a, (k1_off312 v1398) a + S1x1024.size a ≤ S32000x1024.size a)
instance k1_chk156.dec : ∀ (v1398 : BitVec 32), Decidable (k1_chk156 v1398) := fun v1398 => decidable_of_iff' _ (Iff.of_eq (k1_chk156.eq_1 v1398))
theorem k1_off312_inb : ∀ (v1398 : BitVec 32) (k1_hw156 : k1_chk156 v1398), ∀ a, (k1_off312 v1398) a + S1x1024.size a ≤ S32000x1024.size a := fun v1398 k1_hw156 => k1_hw156

def k1_off313 (i : grid1.Coords) : Fin 1 → Nat :=
  let arg0 : BitVec 32 := BitVec.ofNat 32 (i 0).val
  let c128_i32 : BitVec 32 := 128#32
  let v0 : BitVec 32 := Scalar.muli arg0 c128_i32
  let c74_i32_698 : BitVec 32 := 74#32
  let v1405 : BitVec 32 := Scalar.addi v0 c74_i32_698
  let v1406 : Index := Scalar.indexCast v1405
  ![v1406.toNat]
def k1_off314 (v1407 : BitVec 32) : Fin 2 → Nat :=
  let c0_i32_702 : BitVec 32 := 0#32
  ![v1407.toNat, 0]

def k1_chk157 (v1407 : BitVec 32) : Prop :=
  (∀ a, (k1_off314 v1407) a + S1x1024.size a ≤ S32000x1024.size a)
instance k1_chk157.dec : ∀ (v1407 : BitVec 32), Decidable (k1_chk157 v1407) := fun v1407 => decidable_of_iff' _ (Iff.of_eq (k1_chk157.eq_1 v1407))
theorem k1_off314_inb : ∀ (v1407 : BitVec 32) (k1_hw157 : k1_chk157 v1407), ∀ a, (k1_off314 v1407) a + S1x1024.size a ≤ S32000x1024.size a := fun v1407 k1_hw157 => k1_hw157

def k1_off315 (i : grid1.Coords) : Fin 1 → Nat :=
  let arg0 : BitVec 32 := BitVec.ofNat 32 (i 0).val
  let c128_i32 : BitVec 32 := 128#32
  let v0 : BitVec 32 := Scalar.muli arg0 c128_i32
  let c82_i32 : BitVec 32 := 82#32
  let v1414 : BitVec 32 := Scalar.addi v0 c82_i32
  let v1415 : Index := Scalar.indexCast v1414
  ![v1415.toNat]
def k1_off316 (v1416 : BitVec 32) : Fin 2 → Nat :=
  let c0_i32_706 : BitVec 32 := 0#32
  ![v1416.toNat, 0]

def k1_chk158 (v1416 : BitVec 32) : Prop :=
  (∀ a, (k1_off316 v1416) a + S1x1024.size a ≤ S32000x1024.size a)
instance k1_chk158.dec : ∀ (v1416 : BitVec 32), Decidable (k1_chk158 v1416) := fun v1416 => decidable_of_iff' _ (Iff.of_eq (k1_chk158.eq_1 v1416))
theorem k1_off316_inb : ∀ (v1416 : BitVec 32) (k1_hw158 : k1_chk158 v1416), ∀ a, (k1_off316 v1416) a + S1x1024.size a ≤ S32000x1024.size a := fun v1416 k1_hw158 => k1_hw158

def k1_off317 (i : grid1.Coords) : Fin 1 → Nat :=
  let arg0 : BitVec 32 := BitVec.ofNat 32 (i 0).val
  let c128_i32 : BitVec 32 := 128#32
  let v0 : BitVec 32 := Scalar.muli arg0 c128_i32
  let c75_i32_707 : BitVec 32 := 75#32
  let v1423 : BitVec 32 := Scalar.addi v0 c75_i32_707
  let v1424 : Index := Scalar.indexCast v1423
  ![v1424.toNat]
def k1_off318 (v1425 : BitVec 32) : Fin 2 → Nat :=
  let c0_i32_711 : BitVec 32 := 0#32
  ![v1425.toNat, 0]

def k1_chk159 (v1425 : BitVec 32) : Prop :=
  (∀ a, (k1_off318 v1425) a + S1x1024.size a ≤ S32000x1024.size a)
instance k1_chk159.dec : ∀ (v1425 : BitVec 32), Decidable (k1_chk159 v1425) := fun v1425 => decidable_of_iff' _ (Iff.of_eq (k1_chk159.eq_1 v1425))
theorem k1_off318_inb : ∀ (v1425 : BitVec 32) (k1_hw159 : k1_chk159 v1425), ∀ a, (k1_off318 v1425) a + S1x1024.size a ≤ S32000x1024.size a := fun v1425 k1_hw159 => k1_hw159

def k1_off319 (i : grid1.Coords) : Fin 1 → Nat :=
  let arg0 : BitVec 32 := BitVec.ofNat 32 (i 0).val
  let c128_i32 : BitVec 32 := 128#32
  let v0 : BitVec 32 := Scalar.muli arg0 c128_i32
  let c83_i32 : BitVec 32 := 83#32
  let v1432 : BitVec 32 := Scalar.addi v0 c83_i32
  let v1433 : Index := Scalar.indexCast v1432
  ![v1433.toNat]
def k1_off320 (v1434 : BitVec 32) : Fin 2 → Nat :=
  let c0_i32_715 : BitVec 32 := 0#32
  ![v1434.toNat, 0]

def k1_chk160 (v1434 : BitVec 32) : Prop :=
  (∀ a, (k1_off320 v1434) a + S1x1024.size a ≤ S32000x1024.size a)
instance k1_chk160.dec : ∀ (v1434 : BitVec 32), Decidable (k1_chk160 v1434) := fun v1434 => decidable_of_iff' _ (Iff.of_eq (k1_chk160.eq_1 v1434))
theorem k1_off320_inb : ∀ (v1434 : BitVec 32) (k1_hw160 : k1_chk160 v1434), ∀ a, (k1_off320 v1434) a + S1x1024.size a ≤ S32000x1024.size a := fun v1434 k1_hw160 => k1_hw160

def k1_off321 (i : grid1.Coords) : Fin 1 → Nat :=
  let arg0 : BitVec 32 := BitVec.ofNat 32 (i 0).val
  let c128_i32 : BitVec 32 := 128#32
  let v0 : BitVec 32 := Scalar.muli arg0 c128_i32
  let c76_i32_716 : BitVec 32 := 76#32
  let v1441 : BitVec 32 := Scalar.addi v0 c76_i32_716
  let v1442 : Index := Scalar.indexCast v1441
  ![v1442.toNat]
def k1_off322 (v1443 : BitVec 32) : Fin 2 → Nat :=
  let c0_i32_720 : BitVec 32 := 0#32
  ![v1443.toNat, 0]

def k1_chk161 (v1443 : BitVec 32) : Prop :=
  (∀ a, (k1_off322 v1443) a + S1x1024.size a ≤ S32000x1024.size a)
instance k1_chk161.dec : ∀ (v1443 : BitVec 32), Decidable (k1_chk161 v1443) := fun v1443 => decidable_of_iff' _ (Iff.of_eq (k1_chk161.eq_1 v1443))
theorem k1_off322_inb : ∀ (v1443 : BitVec 32) (k1_hw161 : k1_chk161 v1443), ∀ a, (k1_off322 v1443) a + S1x1024.size a ≤ S32000x1024.size a := fun v1443 k1_hw161 => k1_hw161

def k1_off323 (i : grid1.Coords) : Fin 1 → Nat :=
  let arg0 : BitVec 32 := BitVec.ofNat 32 (i 0).val
  let c128_i32 : BitVec 32 := 128#32
  let v0 : BitVec 32 := Scalar.muli arg0 c128_i32
  let c84_i32 : BitVec 32 := 84#32
  let v1450 : BitVec 32 := Scalar.addi v0 c84_i32
  let v1451 : Index := Scalar.indexCast v1450
  ![v1451.toNat]
def k1_off324 (v1452 : BitVec 32) : Fin 2 → Nat :=
  let c0_i32_724 : BitVec 32 := 0#32
  ![v1452.toNat, 0]

def k1_chk162 (v1452 : BitVec 32) : Prop :=
  (∀ a, (k1_off324 v1452) a + S1x1024.size a ≤ S32000x1024.size a)
instance k1_chk162.dec : ∀ (v1452 : BitVec 32), Decidable (k1_chk162 v1452) := fun v1452 => decidable_of_iff' _ (Iff.of_eq (k1_chk162.eq_1 v1452))
theorem k1_off324_inb : ∀ (v1452 : BitVec 32) (k1_hw162 : k1_chk162 v1452), ∀ a, (k1_off324 v1452) a + S1x1024.size a ≤ S32000x1024.size a := fun v1452 k1_hw162 => k1_hw162

def k1_off325 (i : grid1.Coords) : Fin 1 → Nat :=
  let arg0 : BitVec 32 := BitVec.ofNat 32 (i 0).val
  let c128_i32 : BitVec 32 := 128#32
  let v0 : BitVec 32 := Scalar.muli arg0 c128_i32
  let c77_i32_725 : BitVec 32 := 77#32
  let v1459 : BitVec 32 := Scalar.addi v0 c77_i32_725
  let v1460 : Index := Scalar.indexCast v1459
  ![v1460.toNat]
def k1_off326 (v1461 : BitVec 32) : Fin 2 → Nat :=
  let c0_i32_729 : BitVec 32 := 0#32
  ![v1461.toNat, 0]

def k1_chk163 (v1461 : BitVec 32) : Prop :=
  (∀ a, (k1_off326 v1461) a + S1x1024.size a ≤ S32000x1024.size a)
instance k1_chk163.dec : ∀ (v1461 : BitVec 32), Decidable (k1_chk163 v1461) := fun v1461 => decidable_of_iff' _ (Iff.of_eq (k1_chk163.eq_1 v1461))
theorem k1_off326_inb : ∀ (v1461 : BitVec 32) (k1_hw163 : k1_chk163 v1461), ∀ a, (k1_off326 v1461) a + S1x1024.size a ≤ S32000x1024.size a := fun v1461 k1_hw163 => k1_hw163

def k1_off327 (i : grid1.Coords) : Fin 1 → Nat :=
  let arg0 : BitVec 32 := BitVec.ofNat 32 (i 0).val
  let c128_i32 : BitVec 32 := 128#32
  let v0 : BitVec 32 := Scalar.muli arg0 c128_i32
  let c85_i32 : BitVec 32 := 85#32
  let v1468 : BitVec 32 := Scalar.addi v0 c85_i32
  let v1469 : Index := Scalar.indexCast v1468
  ![v1469.toNat]
def k1_off328 (v1470 : BitVec 32) : Fin 2 → Nat :=
  let c0_i32_733 : BitVec 32 := 0#32
  ![v1470.toNat, 0]

def k1_chk164 (v1470 : BitVec 32) : Prop :=
  (∀ a, (k1_off328 v1470) a + S1x1024.size a ≤ S32000x1024.size a)
instance k1_chk164.dec : ∀ (v1470 : BitVec 32), Decidable (k1_chk164 v1470) := fun v1470 => decidable_of_iff' _ (Iff.of_eq (k1_chk164.eq_1 v1470))
theorem k1_off328_inb : ∀ (v1470 : BitVec 32) (k1_hw164 : k1_chk164 v1470), ∀ a, (k1_off328 v1470) a + S1x1024.size a ≤ S32000x1024.size a := fun v1470 k1_hw164 => k1_hw164

def k1_off329 (i : grid1.Coords) : Fin 1 → Nat :=
  let arg0 : BitVec 32 := BitVec.ofNat 32 (i 0).val
  let c128_i32 : BitVec 32 := 128#32
  let v0 : BitVec 32 := Scalar.muli arg0 c128_i32
  let c78_i32_734 : BitVec 32 := 78#32
  let v1477 : BitVec 32 := Scalar.addi v0 c78_i32_734
  let v1478 : Index := Scalar.indexCast v1477
  ![v1478.toNat]
def k1_off330 (v1479 : BitVec 32) : Fin 2 → Nat :=
  let c0_i32_738 : BitVec 32 := 0#32
  ![v1479.toNat, 0]

def k1_chk165 (v1479 : BitVec 32) : Prop :=
  (∀ a, (k1_off330 v1479) a + S1x1024.size a ≤ S32000x1024.size a)
instance k1_chk165.dec : ∀ (v1479 : BitVec 32), Decidable (k1_chk165 v1479) := fun v1479 => decidable_of_iff' _ (Iff.of_eq (k1_chk165.eq_1 v1479))
theorem k1_off330_inb : ∀ (v1479 : BitVec 32) (k1_hw165 : k1_chk165 v1479), ∀ a, (k1_off330 v1479) a + S1x1024.size a ≤ S32000x1024.size a := fun v1479 k1_hw165 => k1_hw165

def k1_off331 (i : grid1.Coords) : Fin 1 → Nat :=
  let arg0 : BitVec 32 := BitVec.ofNat 32 (i 0).val
  let c128_i32 : BitVec 32 := 128#32
  let v0 : BitVec 32 := Scalar.muli arg0 c128_i32
  let c86_i32 : BitVec 32 := 86#32
  let v1486 : BitVec 32 := Scalar.addi v0 c86_i32
  let v1487 : Index := Scalar.indexCast v1486
  ![v1487.toNat]
def k1_off332 (v1488 : BitVec 32) : Fin 2 → Nat :=
  let c0_i32_742 : BitVec 32 := 0#32
  ![v1488.toNat, 0]

def k1_chk166 (v1488 : BitVec 32) : Prop :=
  (∀ a, (k1_off332 v1488) a + S1x1024.size a ≤ S32000x1024.size a)
instance k1_chk166.dec : ∀ (v1488 : BitVec 32), Decidable (k1_chk166 v1488) := fun v1488 => decidable_of_iff' _ (Iff.of_eq (k1_chk166.eq_1 v1488))
theorem k1_off332_inb : ∀ (v1488 : BitVec 32) (k1_hw166 : k1_chk166 v1488), ∀ a, (k1_off332 v1488) a + S1x1024.size a ≤ S32000x1024.size a := fun v1488 k1_hw166 => k1_hw166

def k1_off333 (i : grid1.Coords) : Fin 1 → Nat :=
  let arg0 : BitVec 32 := BitVec.ofNat 32 (i 0).val
  let c128_i32 : BitVec 32 := 128#32
  let v0 : BitVec 32 := Scalar.muli arg0 c128_i32
  let c79_i32_743 : BitVec 32 := 79#32
  let v1495 : BitVec 32 := Scalar.addi v0 c79_i32_743
  let v1496 : Index := Scalar.indexCast v1495
  ![v1496.toNat]
def k1_off334 (v1497 : BitVec 32) : Fin 2 → Nat :=
  let c0_i32_747 : BitVec 32 := 0#32
  ![v1497.toNat, 0]

def k1_chk167 (v1497 : BitVec 32) : Prop :=
  (∀ a, (k1_off334 v1497) a + S1x1024.size a ≤ S32000x1024.size a)
instance k1_chk167.dec : ∀ (v1497 : BitVec 32), Decidable (k1_chk167 v1497) := fun v1497 => decidable_of_iff' _ (Iff.of_eq (k1_chk167.eq_1 v1497))
theorem k1_off334_inb : ∀ (v1497 : BitVec 32) (k1_hw167 : k1_chk167 v1497), ∀ a, (k1_off334 v1497) a + S1x1024.size a ≤ S32000x1024.size a := fun v1497 k1_hw167 => k1_hw167

def k1_off335 (i : grid1.Coords) : Fin 1 → Nat :=
  let arg0 : BitVec 32 := BitVec.ofNat 32 (i 0).val
  let c128_i32 : BitVec 32 := 128#32
  let v0 : BitVec 32 := Scalar.muli arg0 c128_i32
  let c87_i32 : BitVec 32 := 87#32
  let v1504 : BitVec 32 := Scalar.addi v0 c87_i32
  let v1505 : Index := Scalar.indexCast v1504
  ![v1505.toNat]
def k1_off336 (v1506 : BitVec 32) : Fin 2 → Nat :=
  let c0_i32_751 : BitVec 32 := 0#32
  ![v1506.toNat, 0]

def k1_chk168 (v1506 : BitVec 32) : Prop :=
  (∀ a, (k1_off336 v1506) a + S1x1024.size a ≤ S32000x1024.size a)
instance k1_chk168.dec : ∀ (v1506 : BitVec 32), Decidable (k1_chk168 v1506) := fun v1506 => decidable_of_iff' _ (Iff.of_eq (k1_chk168.eq_1 v1506))
theorem k1_off336_inb : ∀ (v1506 : BitVec 32) (k1_hw168 : k1_chk168 v1506), ∀ a, (k1_off336 v1506) a + S1x1024.size a ≤ S32000x1024.size a := fun v1506 k1_hw168 => k1_hw168

def k1_off337 (i : grid1.Coords) : Fin 1 → Nat :=
  let arg0 : BitVec 32 := BitVec.ofNat 32 (i 0).val
  let c128_i32 : BitVec 32 := 128#32
  let v0 : BitVec 32 := Scalar.muli arg0 c128_i32
  let c80_i32_752 : BitVec 32 := 80#32
  let v1513 : BitVec 32 := Scalar.addi v0 c80_i32_752
  let v1514 : Index := Scalar.indexCast v1513
  ![v1514.toNat]
def k1_off338 (v1515 : BitVec 32) : Fin 2 → Nat :=
  let c0_i32_756 : BitVec 32 := 0#32
  ![v1515.toNat, 0]

def k1_chk169 (v1515 : BitVec 32) : Prop :=
  (∀ a, (k1_off338 v1515) a + S1x1024.size a ≤ S32000x1024.size a)
instance k1_chk169.dec : ∀ (v1515 : BitVec 32), Decidable (k1_chk169 v1515) := fun v1515 => decidable_of_iff' _ (Iff.of_eq (k1_chk169.eq_1 v1515))
theorem k1_off338_inb : ∀ (v1515 : BitVec 32) (k1_hw169 : k1_chk169 v1515), ∀ a, (k1_off338 v1515) a + S1x1024.size a ≤ S32000x1024.size a := fun v1515 k1_hw169 => k1_hw169

def k1_off339 (i : grid1.Coords) : Fin 1 → Nat :=
  let arg0 : BitVec 32 := BitVec.ofNat 32 (i 0).val
  let c128_i32 : BitVec 32 := 128#32
  let v0 : BitVec 32 := Scalar.muli arg0 c128_i32
  let c88_i32 : BitVec 32 := 88#32
  let v1522 : BitVec 32 := Scalar.addi v0 c88_i32
  let v1523 : Index := Scalar.indexCast v1522
  ![v1523.toNat]
def k1_off340 (v1524 : BitVec 32) : Fin 2 → Nat :=
  let c0_i32_760 : BitVec 32 := 0#32
  ![v1524.toNat, 0]

def k1_chk170 (v1524 : BitVec 32) : Prop :=
  (∀ a, (k1_off340 v1524) a + S1x1024.size a ≤ S32000x1024.size a)
instance k1_chk170.dec : ∀ (v1524 : BitVec 32), Decidable (k1_chk170 v1524) := fun v1524 => decidable_of_iff' _ (Iff.of_eq (k1_chk170.eq_1 v1524))
theorem k1_off340_inb : ∀ (v1524 : BitVec 32) (k1_hw170 : k1_chk170 v1524), ∀ a, (k1_off340 v1524) a + S1x1024.size a ≤ S32000x1024.size a := fun v1524 k1_hw170 => k1_hw170

def k1_off341 (i : grid1.Coords) : Fin 1 → Nat :=
  let arg0 : BitVec 32 := BitVec.ofNat 32 (i 0).val
  let c128_i32 : BitVec 32 := 128#32
  let v0 : BitVec 32 := Scalar.muli arg0 c128_i32
  let c81_i32_761 : BitVec 32 := 81#32
  let v1531 : BitVec 32 := Scalar.addi v0 c81_i32_761
  let v1532 : Index := Scalar.indexCast v1531
  ![v1532.toNat]
def k1_off342 (v1533 : BitVec 32) : Fin 2 → Nat :=
  let c0_i32_765 : BitVec 32 := 0#32
  ![v1533.toNat, 0]

def k1_chk171 (v1533 : BitVec 32) : Prop :=
  (∀ a, (k1_off342 v1533) a + S1x1024.size a ≤ S32000x1024.size a)
instance k1_chk171.dec : ∀ (v1533 : BitVec 32), Decidable (k1_chk171 v1533) := fun v1533 => decidable_of_iff' _ (Iff.of_eq (k1_chk171.eq_1 v1533))
theorem k1_off342_inb : ∀ (v1533 : BitVec 32) (k1_hw171 : k1_chk171 v1533), ∀ a, (k1_off342 v1533) a + S1x1024.size a ≤ S32000x1024.size a := fun v1533 k1_hw171 => k1_hw171

def k1_off343 (i : grid1.Coords) : Fin 1 → Nat :=
  let arg0 : BitVec 32 := BitVec.ofNat 32 (i 0).val
  let c128_i32 : BitVec 32 := 128#32
  let v0 : BitVec 32 := Scalar.muli arg0 c128_i32
  let c89_i32 : BitVec 32 := 89#32
  let v1540 : BitVec 32 := Scalar.addi v0 c89_i32
  let v1541 : Index := Scalar.indexCast v1540
  ![v1541.toNat]
def k1_off344 (v1542 : BitVec 32) : Fin 2 → Nat :=
  let c0_i32_769 : BitVec 32 := 0#32
  ![v1542.toNat, 0]

def k1_chk172 (v1542 : BitVec 32) : Prop :=
  (∀ a, (k1_off344 v1542) a + S1x1024.size a ≤ S32000x1024.size a)
instance k1_chk172.dec : ∀ (v1542 : BitVec 32), Decidable (k1_chk172 v1542) := fun v1542 => decidable_of_iff' _ (Iff.of_eq (k1_chk172.eq_1 v1542))
theorem k1_off344_inb : ∀ (v1542 : BitVec 32) (k1_hw172 : k1_chk172 v1542), ∀ a, (k1_off344 v1542) a + S1x1024.size a ≤ S32000x1024.size a := fun v1542 k1_hw172 => k1_hw172

def k1_off345 (i : grid1.Coords) : Fin 1 → Nat :=
  let arg0 : BitVec 32 := BitVec.ofNat 32 (i 0).val
  let c128_i32 : BitVec 32 := 128#32
  let v0 : BitVec 32 := Scalar.muli arg0 c128_i32
  let c82_i32_770 : BitVec 32 := 82#32
  let v1549 : BitVec 32 := Scalar.addi v0 c82_i32_770
  let v1550 : Index := Scalar.indexCast v1549
  ![v1550.toNat]
def k1_off346 (v1551 : BitVec 32) : Fin 2 → Nat :=
  let c0_i32_774 : BitVec 32 := 0#32
  ![v1551.toNat, 0]

def k1_chk173 (v1551 : BitVec 32) : Prop :=
  (∀ a, (k1_off346 v1551) a + S1x1024.size a ≤ S32000x1024.size a)
instance k1_chk173.dec : ∀ (v1551 : BitVec 32), Decidable (k1_chk173 v1551) := fun v1551 => decidable_of_iff' _ (Iff.of_eq (k1_chk173.eq_1 v1551))
theorem k1_off346_inb : ∀ (v1551 : BitVec 32) (k1_hw173 : k1_chk173 v1551), ∀ a, (k1_off346 v1551) a + S1x1024.size a ≤ S32000x1024.size a := fun v1551 k1_hw173 => k1_hw173

def k1_off347 (i : grid1.Coords) : Fin 1 → Nat :=
  let arg0 : BitVec 32 := BitVec.ofNat 32 (i 0).val
  let c128_i32 : BitVec 32 := 128#32
  let v0 : BitVec 32 := Scalar.muli arg0 c128_i32
  let c90_i32 : BitVec 32 := 90#32
  let v1558 : BitVec 32 := Scalar.addi v0 c90_i32
  let v1559 : Index := Scalar.indexCast v1558
  ![v1559.toNat]
def k1_off348 (v1560 : BitVec 32) : Fin 2 → Nat :=
  let c0_i32_778 : BitVec 32 := 0#32
  ![v1560.toNat, 0]

def k1_chk174 (v1560 : BitVec 32) : Prop :=
  (∀ a, (k1_off348 v1560) a + S1x1024.size a ≤ S32000x1024.size a)
instance k1_chk174.dec : ∀ (v1560 : BitVec 32), Decidable (k1_chk174 v1560) := fun v1560 => decidable_of_iff' _ (Iff.of_eq (k1_chk174.eq_1 v1560))
theorem k1_off348_inb : ∀ (v1560 : BitVec 32) (k1_hw174 : k1_chk174 v1560), ∀ a, (k1_off348 v1560) a + S1x1024.size a ≤ S32000x1024.size a := fun v1560 k1_hw174 => k1_hw174

def k1_off349 (i : grid1.Coords) : Fin 1 → Nat :=
  let arg0 : BitVec 32 := BitVec.ofNat 32 (i 0).val
  let c128_i32 : BitVec 32 := 128#32
  let v0 : BitVec 32 := Scalar.muli arg0 c128_i32
  let c83_i32_779 : BitVec 32 := 83#32
  let v1567 : BitVec 32 := Scalar.addi v0 c83_i32_779
  let v1568 : Index := Scalar.indexCast v1567
  ![v1568.toNat]
def k1_off350 (v1569 : BitVec 32) : Fin 2 → Nat :=
  let c0_i32_783 : BitVec 32 := 0#32
  ![v1569.toNat, 0]

def k1_chk175 (v1569 : BitVec 32) : Prop :=
  (∀ a, (k1_off350 v1569) a + S1x1024.size a ≤ S32000x1024.size a)
instance k1_chk175.dec : ∀ (v1569 : BitVec 32), Decidable (k1_chk175 v1569) := fun v1569 => decidable_of_iff' _ (Iff.of_eq (k1_chk175.eq_1 v1569))
theorem k1_off350_inb : ∀ (v1569 : BitVec 32) (k1_hw175 : k1_chk175 v1569), ∀ a, (k1_off350 v1569) a + S1x1024.size a ≤ S32000x1024.size a := fun v1569 k1_hw175 => k1_hw175

def k1_off351 (i : grid1.Coords) : Fin 1 → Nat :=
  let arg0 : BitVec 32 := BitVec.ofNat 32 (i 0).val
  let c128_i32 : BitVec 32 := 128#32
  let v0 : BitVec 32 := Scalar.muli arg0 c128_i32
  let c91_i32 : BitVec 32 := 91#32
  let v1576 : BitVec 32 := Scalar.addi v0 c91_i32
  let v1577 : Index := Scalar.indexCast v1576
  ![v1577.toNat]
def k1_off352 (v1578 : BitVec 32) : Fin 2 → Nat :=
  let c0_i32_787 : BitVec 32 := 0#32
  ![v1578.toNat, 0]

def k1_chk176 (v1578 : BitVec 32) : Prop :=
  (∀ a, (k1_off352 v1578) a + S1x1024.size a ≤ S32000x1024.size a)
instance k1_chk176.dec : ∀ (v1578 : BitVec 32), Decidable (k1_chk176 v1578) := fun v1578 => decidable_of_iff' _ (Iff.of_eq (k1_chk176.eq_1 v1578))
theorem k1_off352_inb : ∀ (v1578 : BitVec 32) (k1_hw176 : k1_chk176 v1578), ∀ a, (k1_off352 v1578) a + S1x1024.size a ≤ S32000x1024.size a := fun v1578 k1_hw176 => k1_hw176

def k1_off353 (i : grid1.Coords) : Fin 1 → Nat :=
  let arg0 : BitVec 32 := BitVec.ofNat 32 (i 0).val
  let c128_i32 : BitVec 32 := 128#32
  let v0 : BitVec 32 := Scalar.muli arg0 c128_i32
  let c84_i32_788 : BitVec 32 := 84#32
  let v1585 : BitVec 32 := Scalar.addi v0 c84_i32_788
  let v1586 : Index := Scalar.indexCast v1585
  ![v1586.toNat]
def k1_off354 (v1587 : BitVec 32) : Fin 2 → Nat :=
  let c0_i32_792 : BitVec 32 := 0#32
  ![v1587.toNat, 0]

def k1_chk177 (v1587 : BitVec 32) : Prop :=
  (∀ a, (k1_off354 v1587) a + S1x1024.size a ≤ S32000x1024.size a)
instance k1_chk177.dec : ∀ (v1587 : BitVec 32), Decidable (k1_chk177 v1587) := fun v1587 => decidable_of_iff' _ (Iff.of_eq (k1_chk177.eq_1 v1587))
theorem k1_off354_inb : ∀ (v1587 : BitVec 32) (k1_hw177 : k1_chk177 v1587), ∀ a, (k1_off354 v1587) a + S1x1024.size a ≤ S32000x1024.size a := fun v1587 k1_hw177 => k1_hw177

def k1_off355 (i : grid1.Coords) : Fin 1 → Nat :=
  let arg0 : BitVec 32 := BitVec.ofNat 32 (i 0).val
  let c128_i32 : BitVec 32 := 128#32
  let v0 : BitVec 32 := Scalar.muli arg0 c128_i32
  let c92_i32 : BitVec 32 := 92#32
  let v1594 : BitVec 32 := Scalar.addi v0 c92_i32
  let v1595 : Index := Scalar.indexCast v1594
  ![v1595.toNat]
def k1_off356 (v1596 : BitVec 32) : Fin 2 → Nat :=
  let c0_i32_796 : BitVec 32 := 0#32
  ![v1596.toNat, 0]

def k1_chk178 (v1596 : BitVec 32) : Prop :=
  (∀ a, (k1_off356 v1596) a + S1x1024.size a ≤ S32000x1024.size a)
instance k1_chk178.dec : ∀ (v1596 : BitVec 32), Decidable (k1_chk178 v1596) := fun v1596 => decidable_of_iff' _ (Iff.of_eq (k1_chk178.eq_1 v1596))
theorem k1_off356_inb : ∀ (v1596 : BitVec 32) (k1_hw178 : k1_chk178 v1596), ∀ a, (k1_off356 v1596) a + S1x1024.size a ≤ S32000x1024.size a := fun v1596 k1_hw178 => k1_hw178

def k1_off357 (i : grid1.Coords) : Fin 1 → Nat :=
  let arg0 : BitVec 32 := BitVec.ofNat 32 (i 0).val
  let c128_i32 : BitVec 32 := 128#32
  let v0 : BitVec 32 := Scalar.muli arg0 c128_i32
  let c85_i32_797 : BitVec 32 := 85#32
  let v1603 : BitVec 32 := Scalar.addi v0 c85_i32_797
  let v1604 : Index := Scalar.indexCast v1603
  ![v1604.toNat]
def k1_off358 (v1605 : BitVec 32) : Fin 2 → Nat :=
  let c0_i32_801 : BitVec 32 := 0#32
  ![v1605.toNat, 0]

def k1_chk179 (v1605 : BitVec 32) : Prop :=
  (∀ a, (k1_off358 v1605) a + S1x1024.size a ≤ S32000x1024.size a)
instance k1_chk179.dec : ∀ (v1605 : BitVec 32), Decidable (k1_chk179 v1605) := fun v1605 => decidable_of_iff' _ (Iff.of_eq (k1_chk179.eq_1 v1605))
theorem k1_off358_inb : ∀ (v1605 : BitVec 32) (k1_hw179 : k1_chk179 v1605), ∀ a, (k1_off358 v1605) a + S1x1024.size a ≤ S32000x1024.size a := fun v1605 k1_hw179 => k1_hw179

def k1_off359 (i : grid1.Coords) : Fin 1 → Nat :=
  let arg0 : BitVec 32 := BitVec.ofNat 32 (i 0).val
  let c128_i32 : BitVec 32 := 128#32
  let v0 : BitVec 32 := Scalar.muli arg0 c128_i32
  let c93_i32 : BitVec 32 := 93#32
  let v1612 : BitVec 32 := Scalar.addi v0 c93_i32
  let v1613 : Index := Scalar.indexCast v1612
  ![v1613.toNat]
def k1_off360 (v1614 : BitVec 32) : Fin 2 → Nat :=
  let c0_i32_805 : BitVec 32 := 0#32
  ![v1614.toNat, 0]

def k1_chk180 (v1614 : BitVec 32) : Prop :=
  (∀ a, (k1_off360 v1614) a + S1x1024.size a ≤ S32000x1024.size a)
instance k1_chk180.dec : ∀ (v1614 : BitVec 32), Decidable (k1_chk180 v1614) := fun v1614 => decidable_of_iff' _ (Iff.of_eq (k1_chk180.eq_1 v1614))
theorem k1_off360_inb : ∀ (v1614 : BitVec 32) (k1_hw180 : k1_chk180 v1614), ∀ a, (k1_off360 v1614) a + S1x1024.size a ≤ S32000x1024.size a := fun v1614 k1_hw180 => k1_hw180

def k1_off361 (i : grid1.Coords) : Fin 1 → Nat :=
  let arg0 : BitVec 32 := BitVec.ofNat 32 (i 0).val
  let c128_i32 : BitVec 32 := 128#32
  let v0 : BitVec 32 := Scalar.muli arg0 c128_i32
  let c86_i32_806 : BitVec 32 := 86#32
  let v1621 : BitVec 32 := Scalar.addi v0 c86_i32_806
  let v1622 : Index := Scalar.indexCast v1621
  ![v1622.toNat]
def k1_off362 (v1623 : BitVec 32) : Fin 2 → Nat :=
  let c0_i32_810 : BitVec 32 := 0#32
  ![v1623.toNat, 0]

def k1_chk181 (v1623 : BitVec 32) : Prop :=
  (∀ a, (k1_off362 v1623) a + S1x1024.size a ≤ S32000x1024.size a)
instance k1_chk181.dec : ∀ (v1623 : BitVec 32), Decidable (k1_chk181 v1623) := fun v1623 => decidable_of_iff' _ (Iff.of_eq (k1_chk181.eq_1 v1623))
theorem k1_off362_inb : ∀ (v1623 : BitVec 32) (k1_hw181 : k1_chk181 v1623), ∀ a, (k1_off362 v1623) a + S1x1024.size a ≤ S32000x1024.size a := fun v1623 k1_hw181 => k1_hw181

def k1_off363 (i : grid1.Coords) : Fin 1 → Nat :=
  let arg0 : BitVec 32 := BitVec.ofNat 32 (i 0).val
  let c128_i32 : BitVec 32 := 128#32
  let v0 : BitVec 32 := Scalar.muli arg0 c128_i32
  let c94_i32 : BitVec 32 := 94#32
  let v1630 : BitVec 32 := Scalar.addi v0 c94_i32
  let v1631 : Index := Scalar.indexCast v1630
  ![v1631.toNat]
def k1_off364 (v1632 : BitVec 32) : Fin 2 → Nat :=
  let c0_i32_814 : BitVec 32 := 0#32
  ![v1632.toNat, 0]

def k1_chk182 (v1632 : BitVec 32) : Prop :=
  (∀ a, (k1_off364 v1632) a + S1x1024.size a ≤ S32000x1024.size a)
instance k1_chk182.dec : ∀ (v1632 : BitVec 32), Decidable (k1_chk182 v1632) := fun v1632 => decidable_of_iff' _ (Iff.of_eq (k1_chk182.eq_1 v1632))
theorem k1_off364_inb : ∀ (v1632 : BitVec 32) (k1_hw182 : k1_chk182 v1632), ∀ a, (k1_off364 v1632) a + S1x1024.size a ≤ S32000x1024.size a := fun v1632 k1_hw182 => k1_hw182

def k1_off365 (i : grid1.Coords) : Fin 1 → Nat :=
  let arg0 : BitVec 32 := BitVec.ofNat 32 (i 0).val
  let c128_i32 : BitVec 32 := 128#32
  let v0 : BitVec 32 := Scalar.muli arg0 c128_i32
  let c87_i32_815 : BitVec 32 := 87#32
  let v1639 : BitVec 32 := Scalar.addi v0 c87_i32_815
  let v1640 : Index := Scalar.indexCast v1639
  ![v1640.toNat]
def k1_off366 (v1641 : BitVec 32) : Fin 2 → Nat :=
  let c0_i32_819 : BitVec 32 := 0#32
  ![v1641.toNat, 0]

def k1_chk183 (v1641 : BitVec 32) : Prop :=
  (∀ a, (k1_off366 v1641) a + S1x1024.size a ≤ S32000x1024.size a)
instance k1_chk183.dec : ∀ (v1641 : BitVec 32), Decidable (k1_chk183 v1641) := fun v1641 => decidable_of_iff' _ (Iff.of_eq (k1_chk183.eq_1 v1641))
theorem k1_off366_inb : ∀ (v1641 : BitVec 32) (k1_hw183 : k1_chk183 v1641), ∀ a, (k1_off366 v1641) a + S1x1024.size a ≤ S32000x1024.size a := fun v1641 k1_hw183 => k1_hw183

def k1_off367 (i : grid1.Coords) : Fin 1 → Nat :=
  let arg0 : BitVec 32 := BitVec.ofNat 32 (i 0).val
  let c128_i32 : BitVec 32 := 128#32
  let v0 : BitVec 32 := Scalar.muli arg0 c128_i32
  let c95_i32 : BitVec 32 := 95#32
  let v1648 : BitVec 32 := Scalar.addi v0 c95_i32
  let v1649 : Index := Scalar.indexCast v1648
  ![v1649.toNat]
def k1_off368 (v1650 : BitVec 32) : Fin 2 → Nat :=
  let c0_i32_823 : BitVec 32 := 0#32
  ![v1650.toNat, 0]

def k1_chk184 (v1650 : BitVec 32) : Prop :=
  (∀ a, (k1_off368 v1650) a + S1x1024.size a ≤ S32000x1024.size a)
instance k1_chk184.dec : ∀ (v1650 : BitVec 32), Decidable (k1_chk184 v1650) := fun v1650 => decidable_of_iff' _ (Iff.of_eq (k1_chk184.eq_1 v1650))
theorem k1_off368_inb : ∀ (v1650 : BitVec 32) (k1_hw184 : k1_chk184 v1650), ∀ a, (k1_off368 v1650) a + S1x1024.size a ≤ S32000x1024.size a := fun v1650 k1_hw184 => k1_hw184

def k1_off369 (i : grid1.Coords) : Fin 1 → Nat :=
  let arg0 : BitVec 32 := BitVec.ofNat 32 (i 0).val
  let c128_i32 : BitVec 32 := 128#32
  let v0 : BitVec 32 := Scalar.muli arg0 c128_i32
  let c88_i32_824 : BitVec 32 := 88#32
  let v1657 : BitVec 32 := Scalar.addi v0 c88_i32_824
  let v1658 : Index := Scalar.indexCast v1657
  ![v1658.toNat]
def k1_off370 (v1659 : BitVec 32) : Fin 2 → Nat :=
  let c0_i32_828 : BitVec 32 := 0#32
  ![v1659.toNat, 0]

def k1_chk185 (v1659 : BitVec 32) : Prop :=
  (∀ a, (k1_off370 v1659) a + S1x1024.size a ≤ S32000x1024.size a)
instance k1_chk185.dec : ∀ (v1659 : BitVec 32), Decidable (k1_chk185 v1659) := fun v1659 => decidable_of_iff' _ (Iff.of_eq (k1_chk185.eq_1 v1659))
theorem k1_off370_inb : ∀ (v1659 : BitVec 32) (k1_hw185 : k1_chk185 v1659), ∀ a, (k1_off370 v1659) a + S1x1024.size a ≤ S32000x1024.size a := fun v1659 k1_hw185 => k1_hw185

def k1_off371 (i : grid1.Coords) : Fin 1 → Nat :=
  let arg0 : BitVec 32 := BitVec.ofNat 32 (i 0).val
  let c128_i32 : BitVec 32 := 128#32
  let v0 : BitVec 32 := Scalar.muli arg0 c128_i32
  let c96_i32 : BitVec 32 := 96#32
  let v1666 : BitVec 32 := Scalar.addi v0 c96_i32
  let v1667 : Index := Scalar.indexCast v1666
  ![v1667.toNat]
def k1_off372 (v1668 : BitVec 32) : Fin 2 → Nat :=
  let c0_i32_832 : BitVec 32 := 0#32
  ![v1668.toNat, 0]

def k1_chk186 (v1668 : BitVec 32) : Prop :=
  (∀ a, (k1_off372 v1668) a + S1x1024.size a ≤ S32000x1024.size a)
instance k1_chk186.dec : ∀ (v1668 : BitVec 32), Decidable (k1_chk186 v1668) := fun v1668 => decidable_of_iff' _ (Iff.of_eq (k1_chk186.eq_1 v1668))
theorem k1_off372_inb : ∀ (v1668 : BitVec 32) (k1_hw186 : k1_chk186 v1668), ∀ a, (k1_off372 v1668) a + S1x1024.size a ≤ S32000x1024.size a := fun v1668 k1_hw186 => k1_hw186

def k1_off373 (i : grid1.Coords) : Fin 1 → Nat :=
  let arg0 : BitVec 32 := BitVec.ofNat 32 (i 0).val
  let c128_i32 : BitVec 32 := 128#32
  let v0 : BitVec 32 := Scalar.muli arg0 c128_i32
  let c89_i32_833 : BitVec 32 := 89#32
  let v1675 : BitVec 32 := Scalar.addi v0 c89_i32_833
  let v1676 : Index := Scalar.indexCast v1675
  ![v1676.toNat]
def k1_off374 (v1677 : BitVec 32) : Fin 2 → Nat :=
  let c0_i32_837 : BitVec 32 := 0#32
  ![v1677.toNat, 0]

def k1_chk187 (v1677 : BitVec 32) : Prop :=
  (∀ a, (k1_off374 v1677) a + S1x1024.size a ≤ S32000x1024.size a)
instance k1_chk187.dec : ∀ (v1677 : BitVec 32), Decidable (k1_chk187 v1677) := fun v1677 => decidable_of_iff' _ (Iff.of_eq (k1_chk187.eq_1 v1677))
theorem k1_off374_inb : ∀ (v1677 : BitVec 32) (k1_hw187 : k1_chk187 v1677), ∀ a, (k1_off374 v1677) a + S1x1024.size a ≤ S32000x1024.size a := fun v1677 k1_hw187 => k1_hw187

def k1_off375 (i : grid1.Coords) : Fin 1 → Nat :=
  let arg0 : BitVec 32 := BitVec.ofNat 32 (i 0).val
  let c128_i32 : BitVec 32 := 128#32
  let v0 : BitVec 32 := Scalar.muli arg0 c128_i32
  let c97_i32 : BitVec 32 := 97#32
  let v1684 : BitVec 32 := Scalar.addi v0 c97_i32
  let v1685 : Index := Scalar.indexCast v1684
  ![v1685.toNat]
def k1_off376 (v1686 : BitVec 32) : Fin 2 → Nat :=
  let c0_i32_841 : BitVec 32 := 0#32
  ![v1686.toNat, 0]

def k1_chk188 (v1686 : BitVec 32) : Prop :=
  (∀ a, (k1_off376 v1686) a + S1x1024.size a ≤ S32000x1024.size a)
instance k1_chk188.dec : ∀ (v1686 : BitVec 32), Decidable (k1_chk188 v1686) := fun v1686 => decidable_of_iff' _ (Iff.of_eq (k1_chk188.eq_1 v1686))
theorem k1_off376_inb : ∀ (v1686 : BitVec 32) (k1_hw188 : k1_chk188 v1686), ∀ a, (k1_off376 v1686) a + S1x1024.size a ≤ S32000x1024.size a := fun v1686 k1_hw188 => k1_hw188

def k1_off377 (i : grid1.Coords) : Fin 1 → Nat :=
  let arg0 : BitVec 32 := BitVec.ofNat 32 (i 0).val
  let c128_i32 : BitVec 32 := 128#32
  let v0 : BitVec 32 := Scalar.muli arg0 c128_i32
  let c90_i32_842 : BitVec 32 := 90#32
  let v1693 : BitVec 32 := Scalar.addi v0 c90_i32_842
  let v1694 : Index := Scalar.indexCast v1693
  ![v1694.toNat]
def k1_off378 (v1695 : BitVec 32) : Fin 2 → Nat :=
  let c0_i32_846 : BitVec 32 := 0#32
  ![v1695.toNat, 0]

def k1_chk189 (v1695 : BitVec 32) : Prop :=
  (∀ a, (k1_off378 v1695) a + S1x1024.size a ≤ S32000x1024.size a)
instance k1_chk189.dec : ∀ (v1695 : BitVec 32), Decidable (k1_chk189 v1695) := fun v1695 => decidable_of_iff' _ (Iff.of_eq (k1_chk189.eq_1 v1695))
theorem k1_off378_inb : ∀ (v1695 : BitVec 32) (k1_hw189 : k1_chk189 v1695), ∀ a, (k1_off378 v1695) a + S1x1024.size a ≤ S32000x1024.size a := fun v1695 k1_hw189 => k1_hw189

def k1_off379 (i : grid1.Coords) : Fin 1 → Nat :=
  let arg0 : BitVec 32 := BitVec.ofNat 32 (i 0).val
  let c128_i32 : BitVec 32 := 128#32
  let v0 : BitVec 32 := Scalar.muli arg0 c128_i32
  let c98_i32 : BitVec 32 := 98#32
  let v1702 : BitVec 32 := Scalar.addi v0 c98_i32
  let v1703 : Index := Scalar.indexCast v1702
  ![v1703.toNat]
def k1_off380 (v1704 : BitVec 32) : Fin 2 → Nat :=
  let c0_i32_850 : BitVec 32 := 0#32
  ![v1704.toNat, 0]

def k1_chk190 (v1704 : BitVec 32) : Prop :=
  (∀ a, (k1_off380 v1704) a + S1x1024.size a ≤ S32000x1024.size a)
instance k1_chk190.dec : ∀ (v1704 : BitVec 32), Decidable (k1_chk190 v1704) := fun v1704 => decidable_of_iff' _ (Iff.of_eq (k1_chk190.eq_1 v1704))
theorem k1_off380_inb : ∀ (v1704 : BitVec 32) (k1_hw190 : k1_chk190 v1704), ∀ a, (k1_off380 v1704) a + S1x1024.size a ≤ S32000x1024.size a := fun v1704 k1_hw190 => k1_hw190

def k1_off381 (i : grid1.Coords) : Fin 1 → Nat :=
  let arg0 : BitVec 32 := BitVec.ofNat 32 (i 0).val
  let c128_i32 : BitVec 32 := 128#32
  let v0 : BitVec 32 := Scalar.muli arg0 c128_i32
  let c91_i32_851 : BitVec 32 := 91#32
  let v1711 : BitVec 32 := Scalar.addi v0 c91_i32_851
  let v1712 : Index := Scalar.indexCast v1711
  ![v1712.toNat]
def k1_off382 (v1713 : BitVec 32) : Fin 2 → Nat :=
  let c0_i32_855 : BitVec 32 := 0#32
  ![v1713.toNat, 0]

def k1_chk191 (v1713 : BitVec 32) : Prop :=
  (∀ a, (k1_off382 v1713) a + S1x1024.size a ≤ S32000x1024.size a)
instance k1_chk191.dec : ∀ (v1713 : BitVec 32), Decidable (k1_chk191 v1713) := fun v1713 => decidable_of_iff' _ (Iff.of_eq (k1_chk191.eq_1 v1713))
theorem k1_off382_inb : ∀ (v1713 : BitVec 32) (k1_hw191 : k1_chk191 v1713), ∀ a, (k1_off382 v1713) a + S1x1024.size a ≤ S32000x1024.size a := fun v1713 k1_hw191 => k1_hw191

def k1_off383 (i : grid1.Coords) : Fin 1 → Nat :=
  let arg0 : BitVec 32 := BitVec.ofNat 32 (i 0).val
  let c128_i32 : BitVec 32 := 128#32
  let v0 : BitVec 32 := Scalar.muli arg0 c128_i32
  let c99_i32 : BitVec 32 := 99#32
  let v1720 : BitVec 32 := Scalar.addi v0 c99_i32
  let v1721 : Index := Scalar.indexCast v1720
  ![v1721.toNat]
def k1_off384 (v1722 : BitVec 32) : Fin 2 → Nat :=
  let c0_i32_859 : BitVec 32 := 0#32
  ![v1722.toNat, 0]

def k1_chk192 (v1722 : BitVec 32) : Prop :=
  (∀ a, (k1_off384 v1722) a + S1x1024.size a ≤ S32000x1024.size a)
instance k1_chk192.dec : ∀ (v1722 : BitVec 32), Decidable (k1_chk192 v1722) := fun v1722 => decidable_of_iff' _ (Iff.of_eq (k1_chk192.eq_1 v1722))
theorem k1_off384_inb : ∀ (v1722 : BitVec 32) (k1_hw192 : k1_chk192 v1722), ∀ a, (k1_off384 v1722) a + S1x1024.size a ≤ S32000x1024.size a := fun v1722 k1_hw192 => k1_hw192

def k1_off385 (i : grid1.Coords) : Fin 1 → Nat :=
  let arg0 : BitVec 32 := BitVec.ofNat 32 (i 0).val
  let c128_i32 : BitVec 32 := 128#32
  let v0 : BitVec 32 := Scalar.muli arg0 c128_i32
  let c92_i32_860 : BitVec 32 := 92#32
  let v1729 : BitVec 32 := Scalar.addi v0 c92_i32_860
  let v1730 : Index := Scalar.indexCast v1729
  ![v1730.toNat]
def k1_off386 (v1731 : BitVec 32) : Fin 2 → Nat :=
  let c0_i32_864 : BitVec 32 := 0#32
  ![v1731.toNat, 0]

def k1_chk193 (v1731 : BitVec 32) : Prop :=
  (∀ a, (k1_off386 v1731) a + S1x1024.size a ≤ S32000x1024.size a)
instance k1_chk193.dec : ∀ (v1731 : BitVec 32), Decidable (k1_chk193 v1731) := fun v1731 => decidable_of_iff' _ (Iff.of_eq (k1_chk193.eq_1 v1731))
theorem k1_off386_inb : ∀ (v1731 : BitVec 32) (k1_hw193 : k1_chk193 v1731), ∀ a, (k1_off386 v1731) a + S1x1024.size a ≤ S32000x1024.size a := fun v1731 k1_hw193 => k1_hw193

def k1_off387 (i : grid1.Coords) : Fin 1 → Nat :=
  let arg0 : BitVec 32 := BitVec.ofNat 32 (i 0).val
  let c128_i32 : BitVec 32 := 128#32
  let v0 : BitVec 32 := Scalar.muli arg0 c128_i32
  let c100_i32 : BitVec 32 := 100#32
  let v1738 : BitVec 32 := Scalar.addi v0 c100_i32
  let v1739 : Index := Scalar.indexCast v1738
  ![v1739.toNat]
def k1_off388 (v1740 : BitVec 32) : Fin 2 → Nat :=
  let c0_i32_868 : BitVec 32 := 0#32
  ![v1740.toNat, 0]

def k1_chk194 (v1740 : BitVec 32) : Prop :=
  (∀ a, (k1_off388 v1740) a + S1x1024.size a ≤ S32000x1024.size a)
instance k1_chk194.dec : ∀ (v1740 : BitVec 32), Decidable (k1_chk194 v1740) := fun v1740 => decidable_of_iff' _ (Iff.of_eq (k1_chk194.eq_1 v1740))
theorem k1_off388_inb : ∀ (v1740 : BitVec 32) (k1_hw194 : k1_chk194 v1740), ∀ a, (k1_off388 v1740) a + S1x1024.size a ≤ S32000x1024.size a := fun v1740 k1_hw194 => k1_hw194

def k1_off389 (i : grid1.Coords) : Fin 1 → Nat :=
  let arg0 : BitVec 32 := BitVec.ofNat 32 (i 0).val
  let c128_i32 : BitVec 32 := 128#32
  let v0 : BitVec 32 := Scalar.muli arg0 c128_i32
  let c93_i32_869 : BitVec 32 := 93#32
  let v1747 : BitVec 32 := Scalar.addi v0 c93_i32_869
  let v1748 : Index := Scalar.indexCast v1747
  ![v1748.toNat]
def k1_off390 (v1749 : BitVec 32) : Fin 2 → Nat :=
  let c0_i32_873 : BitVec 32 := 0#32
  ![v1749.toNat, 0]

def k1_chk195 (v1749 : BitVec 32) : Prop :=
  (∀ a, (k1_off390 v1749) a + S1x1024.size a ≤ S32000x1024.size a)
instance k1_chk195.dec : ∀ (v1749 : BitVec 32), Decidable (k1_chk195 v1749) := fun v1749 => decidable_of_iff' _ (Iff.of_eq (k1_chk195.eq_1 v1749))
theorem k1_off390_inb : ∀ (v1749 : BitVec 32) (k1_hw195 : k1_chk195 v1749), ∀ a, (k1_off390 v1749) a + S1x1024.size a ≤ S32000x1024.size a := fun v1749 k1_hw195 => k1_hw195

def k1_off391 (i : grid1.Coords) : Fin 1 → Nat :=
  let arg0 : BitVec 32 := BitVec.ofNat 32 (i 0).val
  let c128_i32 : BitVec 32 := 128#32
  let v0 : BitVec 32 := Scalar.muli arg0 c128_i32
  let c101_i32 : BitVec 32 := 101#32
  let v1756 : BitVec 32 := Scalar.addi v0 c101_i32
  let v1757 : Index := Scalar.indexCast v1756
  ![v1757.toNat]
def k1_off392 (v1758 : BitVec 32) : Fin 2 → Nat :=
  let c0_i32_877 : BitVec 32 := 0#32
  ![v1758.toNat, 0]

def k1_chk196 (v1758 : BitVec 32) : Prop :=
  (∀ a, (k1_off392 v1758) a + S1x1024.size a ≤ S32000x1024.size a)
instance k1_chk196.dec : ∀ (v1758 : BitVec 32), Decidable (k1_chk196 v1758) := fun v1758 => decidable_of_iff' _ (Iff.of_eq (k1_chk196.eq_1 v1758))
theorem k1_off392_inb : ∀ (v1758 : BitVec 32) (k1_hw196 : k1_chk196 v1758), ∀ a, (k1_off392 v1758) a + S1x1024.size a ≤ S32000x1024.size a := fun v1758 k1_hw196 => k1_hw196

def k1_off393 (i : grid1.Coords) : Fin 1 → Nat :=
  let arg0 : BitVec 32 := BitVec.ofNat 32 (i 0).val
  let c128_i32 : BitVec 32 := 128#32
  let v0 : BitVec 32 := Scalar.muli arg0 c128_i32
  let c94_i32_878 : BitVec 32 := 94#32
  let v1765 : BitVec 32 := Scalar.addi v0 c94_i32_878
  let v1766 : Index := Scalar.indexCast v1765
  ![v1766.toNat]
def k1_off394 (v1767 : BitVec 32) : Fin 2 → Nat :=
  let c0_i32_882 : BitVec 32 := 0#32
  ![v1767.toNat, 0]

def k1_chk197 (v1767 : BitVec 32) : Prop :=
  (∀ a, (k1_off394 v1767) a + S1x1024.size a ≤ S32000x1024.size a)
instance k1_chk197.dec : ∀ (v1767 : BitVec 32), Decidable (k1_chk197 v1767) := fun v1767 => decidable_of_iff' _ (Iff.of_eq (k1_chk197.eq_1 v1767))
theorem k1_off394_inb : ∀ (v1767 : BitVec 32) (k1_hw197 : k1_chk197 v1767), ∀ a, (k1_off394 v1767) a + S1x1024.size a ≤ S32000x1024.size a := fun v1767 k1_hw197 => k1_hw197

def k1_off395 (i : grid1.Coords) : Fin 1 → Nat :=
  let arg0 : BitVec 32 := BitVec.ofNat 32 (i 0).val
  let c128_i32 : BitVec 32 := 128#32
  let v0 : BitVec 32 := Scalar.muli arg0 c128_i32
  let c102_i32 : BitVec 32 := 102#32
  let v1774 : BitVec 32 := Scalar.addi v0 c102_i32
  let v1775 : Index := Scalar.indexCast v1774
  ![v1775.toNat]
def k1_off396 (v1776 : BitVec 32) : Fin 2 → Nat :=
  let c0_i32_886 : BitVec 32 := 0#32
  ![v1776.toNat, 0]

def k1_chk198 (v1776 : BitVec 32) : Prop :=
  (∀ a, (k1_off396 v1776) a + S1x1024.size a ≤ S32000x1024.size a)
instance k1_chk198.dec : ∀ (v1776 : BitVec 32), Decidable (k1_chk198 v1776) := fun v1776 => decidable_of_iff' _ (Iff.of_eq (k1_chk198.eq_1 v1776))
theorem k1_off396_inb : ∀ (v1776 : BitVec 32) (k1_hw198 : k1_chk198 v1776), ∀ a, (k1_off396 v1776) a + S1x1024.size a ≤ S32000x1024.size a := fun v1776 k1_hw198 => k1_hw198

def k1_off397 (i : grid1.Coords) : Fin 1 → Nat :=
  let arg0 : BitVec 32 := BitVec.ofNat 32 (i 0).val
  let c128_i32 : BitVec 32 := 128#32
  let v0 : BitVec 32 := Scalar.muli arg0 c128_i32
  let c95_i32_887 : BitVec 32 := 95#32
  let v1783 : BitVec 32 := Scalar.addi v0 c95_i32_887
  let v1784 : Index := Scalar.indexCast v1783
  ![v1784.toNat]
def k1_off398 (v1785 : BitVec 32) : Fin 2 → Nat :=
  let c0_i32_891 : BitVec 32 := 0#32
  ![v1785.toNat, 0]

def k1_chk199 (v1785 : BitVec 32) : Prop :=
  (∀ a, (k1_off398 v1785) a + S1x1024.size a ≤ S32000x1024.size a)
instance k1_chk199.dec : ∀ (v1785 : BitVec 32), Decidable (k1_chk199 v1785) := fun v1785 => decidable_of_iff' _ (Iff.of_eq (k1_chk199.eq_1 v1785))
theorem k1_off398_inb : ∀ (v1785 : BitVec 32) (k1_hw199 : k1_chk199 v1785), ∀ a, (k1_off398 v1785) a + S1x1024.size a ≤ S32000x1024.size a := fun v1785 k1_hw199 => k1_hw199

def k1_off399 (i : grid1.Coords) : Fin 1 → Nat :=
  let arg0 : BitVec 32 := BitVec.ofNat 32 (i 0).val
  let c128_i32 : BitVec 32 := 128#32
  let v0 : BitVec 32 := Scalar.muli arg0 c128_i32
  let c103_i32 : BitVec 32 := 103#32
  let v1792 : BitVec 32 := Scalar.addi v0 c103_i32
  let v1793 : Index := Scalar.indexCast v1792
  ![v1793.toNat]
def k1_off400 (v1794 : BitVec 32) : Fin 2 → Nat :=
  let c0_i32_895 : BitVec 32 := 0#32
  ![v1794.toNat, 0]

def k1_chk200 (v1794 : BitVec 32) : Prop :=
  (∀ a, (k1_off400 v1794) a + S1x1024.size a ≤ S32000x1024.size a)
instance k1_chk200.dec : ∀ (v1794 : BitVec 32), Decidable (k1_chk200 v1794) := fun v1794 => decidable_of_iff' _ (Iff.of_eq (k1_chk200.eq_1 v1794))
theorem k1_off400_inb : ∀ (v1794 : BitVec 32) (k1_hw200 : k1_chk200 v1794), ∀ a, (k1_off400 v1794) a + S1x1024.size a ≤ S32000x1024.size a := fun v1794 k1_hw200 => k1_hw200

def k1_off401 (i : grid1.Coords) : Fin 1 → Nat :=
  let arg0 : BitVec 32 := BitVec.ofNat 32 (i 0).val
  let c128_i32 : BitVec 32 := 128#32
  let v0 : BitVec 32 := Scalar.muli arg0 c128_i32
  let c96_i32_896 : BitVec 32 := 96#32
  let v1801 : BitVec 32 := Scalar.addi v0 c96_i32_896
  let v1802 : Index := Scalar.indexCast v1801
  ![v1802.toNat]
def k1_off402 (v1803 : BitVec 32) : Fin 2 → Nat :=
  let c0_i32_900 : BitVec 32 := 0#32
  ![v1803.toNat, 0]

def k1_chk201 (v1803 : BitVec 32) : Prop :=
  (∀ a, (k1_off402 v1803) a + S1x1024.size a ≤ S32000x1024.size a)
instance k1_chk201.dec : ∀ (v1803 : BitVec 32), Decidable (k1_chk201 v1803) := fun v1803 => decidable_of_iff' _ (Iff.of_eq (k1_chk201.eq_1 v1803))
theorem k1_off402_inb : ∀ (v1803 : BitVec 32) (k1_hw201 : k1_chk201 v1803), ∀ a, (k1_off402 v1803) a + S1x1024.size a ≤ S32000x1024.size a := fun v1803 k1_hw201 => k1_hw201

def k1_off403 (i : grid1.Coords) : Fin 1 → Nat :=
  let arg0 : BitVec 32 := BitVec.ofNat 32 (i 0).val
  let c128_i32 : BitVec 32 := 128#32
  let v0 : BitVec 32 := Scalar.muli arg0 c128_i32
  let c104_i32 : BitVec 32 := 104#32
  let v1810 : BitVec 32 := Scalar.addi v0 c104_i32
  let v1811 : Index := Scalar.indexCast v1810
  ![v1811.toNat]
def k1_off404 (v1812 : BitVec 32) : Fin 2 → Nat :=
  let c0_i32_904 : BitVec 32 := 0#32
  ![v1812.toNat, 0]

def k1_chk202 (v1812 : BitVec 32) : Prop :=
  (∀ a, (k1_off404 v1812) a + S1x1024.size a ≤ S32000x1024.size a)
instance k1_chk202.dec : ∀ (v1812 : BitVec 32), Decidable (k1_chk202 v1812) := fun v1812 => decidable_of_iff' _ (Iff.of_eq (k1_chk202.eq_1 v1812))
theorem k1_off404_inb : ∀ (v1812 : BitVec 32) (k1_hw202 : k1_chk202 v1812), ∀ a, (k1_off404 v1812) a + S1x1024.size a ≤ S32000x1024.size a := fun v1812 k1_hw202 => k1_hw202

def k1_off405 (i : grid1.Coords) : Fin 1 → Nat :=
  let arg0 : BitVec 32 := BitVec.ofNat 32 (i 0).val
  let c128_i32 : BitVec 32 := 128#32
  let v0 : BitVec 32 := Scalar.muli arg0 c128_i32
  let c97_i32_905 : BitVec 32 := 97#32
  let v1819 : BitVec 32 := Scalar.addi v0 c97_i32_905
  let v1820 : Index := Scalar.indexCast v1819
  ![v1820.toNat]
def k1_off406 (v1821 : BitVec 32) : Fin 2 → Nat :=
  let c0_i32_909 : BitVec 32 := 0#32
  ![v1821.toNat, 0]

def k1_chk203 (v1821 : BitVec 32) : Prop :=
  (∀ a, (k1_off406 v1821) a + S1x1024.size a ≤ S32000x1024.size a)
instance k1_chk203.dec : ∀ (v1821 : BitVec 32), Decidable (k1_chk203 v1821) := fun v1821 => decidable_of_iff' _ (Iff.of_eq (k1_chk203.eq_1 v1821))
theorem k1_off406_inb : ∀ (v1821 : BitVec 32) (k1_hw203 : k1_chk203 v1821), ∀ a, (k1_off406 v1821) a + S1x1024.size a ≤ S32000x1024.size a := fun v1821 k1_hw203 => k1_hw203

def k1_off407 (i : grid1.Coords) : Fin 1 → Nat :=
  let arg0 : BitVec 32 := BitVec.ofNat 32 (i 0).val
  let c128_i32 : BitVec 32 := 128#32
  let v0 : BitVec 32 := Scalar.muli arg0 c128_i32
  let c105_i32 : BitVec 32 := 105#32
  let v1828 : BitVec 32 := Scalar.addi v0 c105_i32
  let v1829 : Index := Scalar.indexCast v1828
  ![v1829.toNat]
def k1_off408 (v1830 : BitVec 32) : Fin 2 → Nat :=
  let c0_i32_913 : BitVec 32 := 0#32
  ![v1830.toNat, 0]

def k1_chk204 (v1830 : BitVec 32) : Prop :=
  (∀ a, (k1_off408 v1830) a + S1x1024.size a ≤ S32000x1024.size a)
instance k1_chk204.dec : ∀ (v1830 : BitVec 32), Decidable (k1_chk204 v1830) := fun v1830 => decidable_of_iff' _ (Iff.of_eq (k1_chk204.eq_1 v1830))
theorem k1_off408_inb : ∀ (v1830 : BitVec 32) (k1_hw204 : k1_chk204 v1830), ∀ a, (k1_off408 v1830) a + S1x1024.size a ≤ S32000x1024.size a := fun v1830 k1_hw204 => k1_hw204

def k1_off409 (i : grid1.Coords) : Fin 1 → Nat :=
  let arg0 : BitVec 32 := BitVec.ofNat 32 (i 0).val
  let c128_i32 : BitVec 32 := 128#32
  let v0 : BitVec 32 := Scalar.muli arg0 c128_i32
  let c98_i32_914 : BitVec 32 := 98#32
  let v1837 : BitVec 32 := Scalar.addi v0 c98_i32_914
  let v1838 : Index := Scalar.indexCast v1837
  ![v1838.toNat]
def k1_off410 (v1839 : BitVec 32) : Fin 2 → Nat :=
  let c0_i32_918 : BitVec 32 := 0#32
  ![v1839.toNat, 0]

def k1_chk205 (v1839 : BitVec 32) : Prop :=
  (∀ a, (k1_off410 v1839) a + S1x1024.size a ≤ S32000x1024.size a)
instance k1_chk205.dec : ∀ (v1839 : BitVec 32), Decidable (k1_chk205 v1839) := fun v1839 => decidable_of_iff' _ (Iff.of_eq (k1_chk205.eq_1 v1839))
theorem k1_off410_inb : ∀ (v1839 : BitVec 32) (k1_hw205 : k1_chk205 v1839), ∀ a, (k1_off410 v1839) a + S1x1024.size a ≤ S32000x1024.size a := fun v1839 k1_hw205 => k1_hw205

def k1_off411 (i : grid1.Coords) : Fin 1 → Nat :=
  let arg0 : BitVec 32 := BitVec.ofNat 32 (i 0).val
  let c128_i32 : BitVec 32 := 128#32
  let v0 : BitVec 32 := Scalar.muli arg0 c128_i32
  let c106_i32 : BitVec 32 := 106#32
  let v1846 : BitVec 32 := Scalar.addi v0 c106_i32
  let v1847 : Index := Scalar.indexCast v1846
  ![v1847.toNat]
def k1_off412 (v1848 : BitVec 32) : Fin 2 → Nat :=
  let c0_i32_922 : BitVec 32 := 0#32
  ![v1848.toNat, 0]

def k1_chk206 (v1848 : BitVec 32) : Prop :=
  (∀ a, (k1_off412 v1848) a + S1x1024.size a ≤ S32000x1024.size a)
instance k1_chk206.dec : ∀ (v1848 : BitVec 32), Decidable (k1_chk206 v1848) := fun v1848 => decidable_of_iff' _ (Iff.of_eq (k1_chk206.eq_1 v1848))
theorem k1_off412_inb : ∀ (v1848 : BitVec 32) (k1_hw206 : k1_chk206 v1848), ∀ a, (k1_off412 v1848) a + S1x1024.size a ≤ S32000x1024.size a := fun v1848 k1_hw206 => k1_hw206

def k1_off413 (i : grid1.Coords) : Fin 1 → Nat :=
  let arg0 : BitVec 32 := BitVec.ofNat 32 (i 0).val
  let c128_i32 : BitVec 32 := 128#32
  let v0 : BitVec 32 := Scalar.muli arg0 c128_i32
  let c99_i32_923 : BitVec 32 := 99#32
  let v1855 : BitVec 32 := Scalar.addi v0 c99_i32_923
  let v1856 : Index := Scalar.indexCast v1855
  ![v1856.toNat]
def k1_off414 (v1857 : BitVec 32) : Fin 2 → Nat :=
  let c0_i32_927 : BitVec 32 := 0#32
  ![v1857.toNat, 0]

def k1_chk207 (v1857 : BitVec 32) : Prop :=
  (∀ a, (k1_off414 v1857) a + S1x1024.size a ≤ S32000x1024.size a)
instance k1_chk207.dec : ∀ (v1857 : BitVec 32), Decidable (k1_chk207 v1857) := fun v1857 => decidable_of_iff' _ (Iff.of_eq (k1_chk207.eq_1 v1857))
theorem k1_off414_inb : ∀ (v1857 : BitVec 32) (k1_hw207 : k1_chk207 v1857), ∀ a, (k1_off414 v1857) a + S1x1024.size a ≤ S32000x1024.size a := fun v1857 k1_hw207 => k1_hw207

def k1_off415 (i : grid1.Coords) : Fin 1 → Nat :=
  let arg0 : BitVec 32 := BitVec.ofNat 32 (i 0).val
  let c128_i32 : BitVec 32 := 128#32
  let v0 : BitVec 32 := Scalar.muli arg0 c128_i32
  let c107_i32 : BitVec 32 := 107#32
  let v1864 : BitVec 32 := Scalar.addi v0 c107_i32
  let v1865 : Index := Scalar.indexCast v1864
  ![v1865.toNat]
def k1_off416 (v1866 : BitVec 32) : Fin 2 → Nat :=
  let c0_i32_931 : BitVec 32 := 0#32
  ![v1866.toNat, 0]

def k1_chk208 (v1866 : BitVec 32) : Prop :=
  (∀ a, (k1_off416 v1866) a + S1x1024.size a ≤ S32000x1024.size a)
instance k1_chk208.dec : ∀ (v1866 : BitVec 32), Decidable (k1_chk208 v1866) := fun v1866 => decidable_of_iff' _ (Iff.of_eq (k1_chk208.eq_1 v1866))
theorem k1_off416_inb : ∀ (v1866 : BitVec 32) (k1_hw208 : k1_chk208 v1866), ∀ a, (k1_off416 v1866) a + S1x1024.size a ≤ S32000x1024.size a := fun v1866 k1_hw208 => k1_hw208

def k1_off417 (i : grid1.Coords) : Fin 1 → Nat :=
  let arg0 : BitVec 32 := BitVec.ofNat 32 (i 0).val
  let c128_i32 : BitVec 32 := 128#32
  let v0 : BitVec 32 := Scalar.muli arg0 c128_i32
  let c100_i32_932 : BitVec 32 := 100#32
  let v1873 : BitVec 32 := Scalar.addi v0 c100_i32_932
  let v1874 : Index := Scalar.indexCast v1873
  ![v1874.toNat]
def k1_off418 (v1875 : BitVec 32) : Fin 2 → Nat :=
  let c0_i32_936 : BitVec 32 := 0#32
  ![v1875.toNat, 0]

def k1_chk209 (v1875 : BitVec 32) : Prop :=
  (∀ a, (k1_off418 v1875) a + S1x1024.size a ≤ S32000x1024.size a)
instance k1_chk209.dec : ∀ (v1875 : BitVec 32), Decidable (k1_chk209 v1875) := fun v1875 => decidable_of_iff' _ (Iff.of_eq (k1_chk209.eq_1 v1875))
theorem k1_off418_inb : ∀ (v1875 : BitVec 32) (k1_hw209 : k1_chk209 v1875), ∀ a, (k1_off418 v1875) a + S1x1024.size a ≤ S32000x1024.size a := fun v1875 k1_hw209 => k1_hw209

def k1_off419 (i : grid1.Coords) : Fin 1 → Nat :=
  let arg0 : BitVec 32 := BitVec.ofNat 32 (i 0).val
  let c128_i32 : BitVec 32 := 128#32
  let v0 : BitVec 32 := Scalar.muli arg0 c128_i32
  let c108_i32 : BitVec 32 := 108#32
  let v1882 : BitVec 32 := Scalar.addi v0 c108_i32
  let v1883 : Index := Scalar.indexCast v1882
  ![v1883.toNat]
def k1_off420 (v1884 : BitVec 32) : Fin 2 → Nat :=
  let c0_i32_940 : BitVec 32 := 0#32
  ![v1884.toNat, 0]

def k1_chk210 (v1884 : BitVec 32) : Prop :=
  (∀ a, (k1_off420 v1884) a + S1x1024.size a ≤ S32000x1024.size a)
instance k1_chk210.dec : ∀ (v1884 : BitVec 32), Decidable (k1_chk210 v1884) := fun v1884 => decidable_of_iff' _ (Iff.of_eq (k1_chk210.eq_1 v1884))
theorem k1_off420_inb : ∀ (v1884 : BitVec 32) (k1_hw210 : k1_chk210 v1884), ∀ a, (k1_off420 v1884) a + S1x1024.size a ≤ S32000x1024.size a := fun v1884 k1_hw210 => k1_hw210

def k1_off421 (i : grid1.Coords) : Fin 1 → Nat :=
  let arg0 : BitVec 32 := BitVec.ofNat 32 (i 0).val
  let c128_i32 : BitVec 32 := 128#32
  let v0 : BitVec 32 := Scalar.muli arg0 c128_i32
  let c101_i32_941 : BitVec 32 := 101#32
  let v1891 : BitVec 32 := Scalar.addi v0 c101_i32_941
  let v1892 : Index := Scalar.indexCast v1891
  ![v1892.toNat]
def k1_off422 (v1893 : BitVec 32) : Fin 2 → Nat :=
  let c0_i32_945 : BitVec 32 := 0#32
  ![v1893.toNat, 0]

def k1_chk211 (v1893 : BitVec 32) : Prop :=
  (∀ a, (k1_off422 v1893) a + S1x1024.size a ≤ S32000x1024.size a)
instance k1_chk211.dec : ∀ (v1893 : BitVec 32), Decidable (k1_chk211 v1893) := fun v1893 => decidable_of_iff' _ (Iff.of_eq (k1_chk211.eq_1 v1893))
theorem k1_off422_inb : ∀ (v1893 : BitVec 32) (k1_hw211 : k1_chk211 v1893), ∀ a, (k1_off422 v1893) a + S1x1024.size a ≤ S32000x1024.size a := fun v1893 k1_hw211 => k1_hw211

def k1_off423 (i : grid1.Coords) : Fin 1 → Nat :=
  let arg0 : BitVec 32 := BitVec.ofNat 32 (i 0).val
  let c128_i32 : BitVec 32 := 128#32
  let v0 : BitVec 32 := Scalar.muli arg0 c128_i32
  let c109_i32 : BitVec 32 := 109#32
  let v1900 : BitVec 32 := Scalar.addi v0 c109_i32
  let v1901 : Index := Scalar.indexCast v1900
  ![v1901.toNat]
def k1_off424 (v1902 : BitVec 32) : Fin 2 → Nat :=
  let c0_i32_949 : BitVec 32 := 0#32
  ![v1902.toNat, 0]

def k1_chk212 (v1902 : BitVec 32) : Prop :=
  (∀ a, (k1_off424 v1902) a + S1x1024.size a ≤ S32000x1024.size a)
instance k1_chk212.dec : ∀ (v1902 : BitVec 32), Decidable (k1_chk212 v1902) := fun v1902 => decidable_of_iff' _ (Iff.of_eq (k1_chk212.eq_1 v1902))
theorem k1_off424_inb : ∀ (v1902 : BitVec 32) (k1_hw212 : k1_chk212 v1902), ∀ a, (k1_off424 v1902) a + S1x1024.size a ≤ S32000x1024.size a := fun v1902 k1_hw212 => k1_hw212

def k1_off425 (i : grid1.Coords) : Fin 1 → Nat :=
  let arg0 : BitVec 32 := BitVec.ofNat 32 (i 0).val
  let c128_i32 : BitVec 32 := 128#32
  let v0 : BitVec 32 := Scalar.muli arg0 c128_i32
  let c102_i32_950 : BitVec 32 := 102#32
  let v1909 : BitVec 32 := Scalar.addi v0 c102_i32_950
  let v1910 : Index := Scalar.indexCast v1909
  ![v1910.toNat]
def k1_off426 (v1911 : BitVec 32) : Fin 2 → Nat :=
  let c0_i32_954 : BitVec 32 := 0#32
  ![v1911.toNat, 0]

def k1_chk213 (v1911 : BitVec 32) : Prop :=
  (∀ a, (k1_off426 v1911) a + S1x1024.size a ≤ S32000x1024.size a)
instance k1_chk213.dec : ∀ (v1911 : BitVec 32), Decidable (k1_chk213 v1911) := fun v1911 => decidable_of_iff' _ (Iff.of_eq (k1_chk213.eq_1 v1911))
theorem k1_off426_inb : ∀ (v1911 : BitVec 32) (k1_hw213 : k1_chk213 v1911), ∀ a, (k1_off426 v1911) a + S1x1024.size a ≤ S32000x1024.size a := fun v1911 k1_hw213 => k1_hw213

def k1_off427 (i : grid1.Coords) : Fin 1 → Nat :=
  let arg0 : BitVec 32 := BitVec.ofNat 32 (i 0).val
  let c128_i32 : BitVec 32 := 128#32
  let v0 : BitVec 32 := Scalar.muli arg0 c128_i32
  let c110_i32 : BitVec 32 := 110#32
  let v1918 : BitVec 32 := Scalar.addi v0 c110_i32
  let v1919 : Index := Scalar.indexCast v1918
  ![v1919.toNat]
def k1_off428 (v1920 : BitVec 32) : Fin 2 → Nat :=
  let c0_i32_958 : BitVec 32 := 0#32
  ![v1920.toNat, 0]

def k1_chk214 (v1920 : BitVec 32) : Prop :=
  (∀ a, (k1_off428 v1920) a + S1x1024.size a ≤ S32000x1024.size a)
instance k1_chk214.dec : ∀ (v1920 : BitVec 32), Decidable (k1_chk214 v1920) := fun v1920 => decidable_of_iff' _ (Iff.of_eq (k1_chk214.eq_1 v1920))
theorem k1_off428_inb : ∀ (v1920 : BitVec 32) (k1_hw214 : k1_chk214 v1920), ∀ a, (k1_off428 v1920) a + S1x1024.size a ≤ S32000x1024.size a := fun v1920 k1_hw214 => k1_hw214

def k1_off429 (i : grid1.Coords) : Fin 1 → Nat :=
  let arg0 : BitVec 32 := BitVec.ofNat 32 (i 0).val
  let c128_i32 : BitVec 32 := 128#32
  let v0 : BitVec 32 := Scalar.muli arg0 c128_i32
  let c103_i32_959 : BitVec 32 := 103#32
  let v1927 : BitVec 32 := Scalar.addi v0 c103_i32_959
  let v1928 : Index := Scalar.indexCast v1927
  ![v1928.toNat]
def k1_off430 (v1929 : BitVec 32) : Fin 2 → Nat :=
  let c0_i32_963 : BitVec 32 := 0#32
  ![v1929.toNat, 0]

def k1_chk215 (v1929 : BitVec 32) : Prop :=
  (∀ a, (k1_off430 v1929) a + S1x1024.size a ≤ S32000x1024.size a)
instance k1_chk215.dec : ∀ (v1929 : BitVec 32), Decidable (k1_chk215 v1929) := fun v1929 => decidable_of_iff' _ (Iff.of_eq (k1_chk215.eq_1 v1929))
theorem k1_off430_inb : ∀ (v1929 : BitVec 32) (k1_hw215 : k1_chk215 v1929), ∀ a, (k1_off430 v1929) a + S1x1024.size a ≤ S32000x1024.size a := fun v1929 k1_hw215 => k1_hw215

def k1_off431 (i : grid1.Coords) : Fin 1 → Nat :=
  let arg0 : BitVec 32 := BitVec.ofNat 32 (i 0).val
  let c128_i32 : BitVec 32 := 128#32
  let v0 : BitVec 32 := Scalar.muli arg0 c128_i32
  let c111_i32 : BitVec 32 := 111#32
  let v1936 : BitVec 32 := Scalar.addi v0 c111_i32
  let v1937 : Index := Scalar.indexCast v1936
  ![v1937.toNat]
def k1_off432 (v1938 : BitVec 32) : Fin 2 → Nat :=
  let c0_i32_967 : BitVec 32 := 0#32
  ![v1938.toNat, 0]

def k1_chk216 (v1938 : BitVec 32) : Prop :=
  (∀ a, (k1_off432 v1938) a + S1x1024.size a ≤ S32000x1024.size a)
instance k1_chk216.dec : ∀ (v1938 : BitVec 32), Decidable (k1_chk216 v1938) := fun v1938 => decidable_of_iff' _ (Iff.of_eq (k1_chk216.eq_1 v1938))
theorem k1_off432_inb : ∀ (v1938 : BitVec 32) (k1_hw216 : k1_chk216 v1938), ∀ a, (k1_off432 v1938) a + S1x1024.size a ≤ S32000x1024.size a := fun v1938 k1_hw216 => k1_hw216

def k1_off433 (i : grid1.Coords) : Fin 1 → Nat :=
  let arg0 : BitVec 32 := BitVec.ofNat 32 (i 0).val
  let c128_i32 : BitVec 32 := 128#32
  let v0 : BitVec 32 := Scalar.muli arg0 c128_i32
  let c104_i32_968 : BitVec 32 := 104#32
  let v1945 : BitVec 32 := Scalar.addi v0 c104_i32_968
  let v1946 : Index := Scalar.indexCast v1945
  ![v1946.toNat]
def k1_off434 (v1947 : BitVec 32) : Fin 2 → Nat :=
  let c0_i32_972 : BitVec 32 := 0#32
  ![v1947.toNat, 0]

def k1_chk217 (v1947 : BitVec 32) : Prop :=
  (∀ a, (k1_off434 v1947) a + S1x1024.size a ≤ S32000x1024.size a)
instance k1_chk217.dec : ∀ (v1947 : BitVec 32), Decidable (k1_chk217 v1947) := fun v1947 => decidable_of_iff' _ (Iff.of_eq (k1_chk217.eq_1 v1947))
theorem k1_off434_inb : ∀ (v1947 : BitVec 32) (k1_hw217 : k1_chk217 v1947), ∀ a, (k1_off434 v1947) a + S1x1024.size a ≤ S32000x1024.size a := fun v1947 k1_hw217 => k1_hw217

def k1_off435 (i : grid1.Coords) : Fin 1 → Nat :=
  let arg0 : BitVec 32 := BitVec.ofNat 32 (i 0).val
  let c128_i32 : BitVec 32 := 128#32
  let v0 : BitVec 32 := Scalar.muli arg0 c128_i32
  let c112_i32 : BitVec 32 := 112#32
  let v1954 : BitVec 32 := Scalar.addi v0 c112_i32
  let v1955 : Index := Scalar.indexCast v1954
  ![v1955.toNat]
def k1_off436 (v1956 : BitVec 32) : Fin 2 → Nat :=
  let c0_i32_976 : BitVec 32 := 0#32
  ![v1956.toNat, 0]

def k1_chk218 (v1956 : BitVec 32) : Prop :=
  (∀ a, (k1_off436 v1956) a + S1x1024.size a ≤ S32000x1024.size a)
instance k1_chk218.dec : ∀ (v1956 : BitVec 32), Decidable (k1_chk218 v1956) := fun v1956 => decidable_of_iff' _ (Iff.of_eq (k1_chk218.eq_1 v1956))
theorem k1_off436_inb : ∀ (v1956 : BitVec 32) (k1_hw218 : k1_chk218 v1956), ∀ a, (k1_off436 v1956) a + S1x1024.size a ≤ S32000x1024.size a := fun v1956 k1_hw218 => k1_hw218

def k1_off437 (i : grid1.Coords) : Fin 1 → Nat :=
  let arg0 : BitVec 32 := BitVec.ofNat 32 (i 0).val
  let c128_i32 : BitVec 32 := 128#32
  let v0 : BitVec 32 := Scalar.muli arg0 c128_i32
  let c105_i32_977 : BitVec 32 := 105#32
  let v1963 : BitVec 32 := Scalar.addi v0 c105_i32_977
  let v1964 : Index := Scalar.indexCast v1963
  ![v1964.toNat]
def k1_off438 (v1965 : BitVec 32) : Fin 2 → Nat :=
  let c0_i32_981 : BitVec 32 := 0#32
  ![v1965.toNat, 0]

def k1_chk219 (v1965 : BitVec 32) : Prop :=
  (∀ a, (k1_off438 v1965) a + S1x1024.size a ≤ S32000x1024.size a)
instance k1_chk219.dec : ∀ (v1965 : BitVec 32), Decidable (k1_chk219 v1965) := fun v1965 => decidable_of_iff' _ (Iff.of_eq (k1_chk219.eq_1 v1965))
theorem k1_off438_inb : ∀ (v1965 : BitVec 32) (k1_hw219 : k1_chk219 v1965), ∀ a, (k1_off438 v1965) a + S1x1024.size a ≤ S32000x1024.size a := fun v1965 k1_hw219 => k1_hw219

def k1_off439 (i : grid1.Coords) : Fin 1 → Nat :=
  let arg0 : BitVec 32 := BitVec.ofNat 32 (i 0).val
  let c128_i32 : BitVec 32 := 128#32
  let v0 : BitVec 32 := Scalar.muli arg0 c128_i32
  let c113_i32 : BitVec 32 := 113#32
  let v1972 : BitVec 32 := Scalar.addi v0 c113_i32
  let v1973 : Index := Scalar.indexCast v1972
  ![v1973.toNat]
def k1_off440 (v1974 : BitVec 32) : Fin 2 → Nat :=
  let c0_i32_985 : BitVec 32 := 0#32
  ![v1974.toNat, 0]

def k1_chk220 (v1974 : BitVec 32) : Prop :=
  (∀ a, (k1_off440 v1974) a + S1x1024.size a ≤ S32000x1024.size a)
instance k1_chk220.dec : ∀ (v1974 : BitVec 32), Decidable (k1_chk220 v1974) := fun v1974 => decidable_of_iff' _ (Iff.of_eq (k1_chk220.eq_1 v1974))
theorem k1_off440_inb : ∀ (v1974 : BitVec 32) (k1_hw220 : k1_chk220 v1974), ∀ a, (k1_off440 v1974) a + S1x1024.size a ≤ S32000x1024.size a := fun v1974 k1_hw220 => k1_hw220

def k1_off441 (i : grid1.Coords) : Fin 1 → Nat :=
  let arg0 : BitVec 32 := BitVec.ofNat 32 (i 0).val
  let c128_i32 : BitVec 32 := 128#32
  let v0 : BitVec 32 := Scalar.muli arg0 c128_i32
  let c106_i32_986 : BitVec 32 := 106#32
  let v1981 : BitVec 32 := Scalar.addi v0 c106_i32_986
  let v1982 : Index := Scalar.indexCast v1981
  ![v1982.toNat]
def k1_off442 (v1983 : BitVec 32) : Fin 2 → Nat :=
  let c0_i32_990 : BitVec 32 := 0#32
  ![v1983.toNat, 0]

def k1_chk221 (v1983 : BitVec 32) : Prop :=
  (∀ a, (k1_off442 v1983) a + S1x1024.size a ≤ S32000x1024.size a)
instance k1_chk221.dec : ∀ (v1983 : BitVec 32), Decidable (k1_chk221 v1983) := fun v1983 => decidable_of_iff' _ (Iff.of_eq (k1_chk221.eq_1 v1983))
theorem k1_off442_inb : ∀ (v1983 : BitVec 32) (k1_hw221 : k1_chk221 v1983), ∀ a, (k1_off442 v1983) a + S1x1024.size a ≤ S32000x1024.size a := fun v1983 k1_hw221 => k1_hw221

def k1_off443 (i : grid1.Coords) : Fin 1 → Nat :=
  let arg0 : BitVec 32 := BitVec.ofNat 32 (i 0).val
  let c128_i32 : BitVec 32 := 128#32
  let v0 : BitVec 32 := Scalar.muli arg0 c128_i32
  let c114_i32 : BitVec 32 := 114#32
  let v1990 : BitVec 32 := Scalar.addi v0 c114_i32
  let v1991 : Index := Scalar.indexCast v1990
  ![v1991.toNat]
def k1_off444 (v1992 : BitVec 32) : Fin 2 → Nat :=
  let c0_i32_994 : BitVec 32 := 0#32
  ![v1992.toNat, 0]

def k1_chk222 (v1992 : BitVec 32) : Prop :=
  (∀ a, (k1_off444 v1992) a + S1x1024.size a ≤ S32000x1024.size a)
instance k1_chk222.dec : ∀ (v1992 : BitVec 32), Decidable (k1_chk222 v1992) := fun v1992 => decidable_of_iff' _ (Iff.of_eq (k1_chk222.eq_1 v1992))
theorem k1_off444_inb : ∀ (v1992 : BitVec 32) (k1_hw222 : k1_chk222 v1992), ∀ a, (k1_off444 v1992) a + S1x1024.size a ≤ S32000x1024.size a := fun v1992 k1_hw222 => k1_hw222

def k1_off445 (i : grid1.Coords) : Fin 1 → Nat :=
  let arg0 : BitVec 32 := BitVec.ofNat 32 (i 0).val
  let c128_i32 : BitVec 32 := 128#32
  let v0 : BitVec 32 := Scalar.muli arg0 c128_i32
  let c107_i32_995 : BitVec 32 := 107#32
  let v1999 : BitVec 32 := Scalar.addi v0 c107_i32_995
  let v2000 : Index := Scalar.indexCast v1999
  ![v2000.toNat]
def k1_off446 (v2001 : BitVec 32) : Fin 2 → Nat :=
  let c0_i32_999 : BitVec 32 := 0#32
  ![v2001.toNat, 0]

def k1_chk223 (v2001 : BitVec 32) : Prop :=
  (∀ a, (k1_off446 v2001) a + S1x1024.size a ≤ S32000x1024.size a)
instance k1_chk223.dec : ∀ (v2001 : BitVec 32), Decidable (k1_chk223 v2001) := fun v2001 => decidable_of_iff' _ (Iff.of_eq (k1_chk223.eq_1 v2001))
theorem k1_off446_inb : ∀ (v2001 : BitVec 32) (k1_hw223 : k1_chk223 v2001), ∀ a, (k1_off446 v2001) a + S1x1024.size a ≤ S32000x1024.size a := fun v2001 k1_hw223 => k1_hw223

def k1_off447 (i : grid1.Coords) : Fin 1 → Nat :=
  let arg0 : BitVec 32 := BitVec.ofNat 32 (i 0).val
  let c128_i32 : BitVec 32 := 128#32
  let v0 : BitVec 32 := Scalar.muli arg0 c128_i32
  let c115_i32 : BitVec 32 := 115#32
  let v2008 : BitVec 32 := Scalar.addi v0 c115_i32
  let v2009 : Index := Scalar.indexCast v2008
  ![v2009.toNat]
def k1_off448 (v2010 : BitVec 32) : Fin 2 → Nat :=
  let c0_i32_1003 : BitVec 32 := 0#32
  ![v2010.toNat, 0]

def k1_chk224 (v2010 : BitVec 32) : Prop :=
  (∀ a, (k1_off448 v2010) a + S1x1024.size a ≤ S32000x1024.size a)
instance k1_chk224.dec : ∀ (v2010 : BitVec 32), Decidable (k1_chk224 v2010) := fun v2010 => decidable_of_iff' _ (Iff.of_eq (k1_chk224.eq_1 v2010))
theorem k1_off448_inb : ∀ (v2010 : BitVec 32) (k1_hw224 : k1_chk224 v2010), ∀ a, (k1_off448 v2010) a + S1x1024.size a ≤ S32000x1024.size a := fun v2010 k1_hw224 => k1_hw224

def k1_off449 (i : grid1.Coords) : Fin 1 → Nat :=
  let arg0 : BitVec 32 := BitVec.ofNat 32 (i 0).val
  let c128_i32 : BitVec 32 := 128#32
  let v0 : BitVec 32 := Scalar.muli arg0 c128_i32
  let c108_i32_1004 : BitVec 32 := 108#32
  let v2017 : BitVec 32 := Scalar.addi v0 c108_i32_1004
  let v2018 : Index := Scalar.indexCast v2017
  ![v2018.toNat]
def k1_off450 (v2019 : BitVec 32) : Fin 2 → Nat :=
  let c0_i32_1008 : BitVec 32 := 0#32
  ![v2019.toNat, 0]

def k1_chk225 (v2019 : BitVec 32) : Prop :=
  (∀ a, (k1_off450 v2019) a + S1x1024.size a ≤ S32000x1024.size a)
instance k1_chk225.dec : ∀ (v2019 : BitVec 32), Decidable (k1_chk225 v2019) := fun v2019 => decidable_of_iff' _ (Iff.of_eq (k1_chk225.eq_1 v2019))
theorem k1_off450_inb : ∀ (v2019 : BitVec 32) (k1_hw225 : k1_chk225 v2019), ∀ a, (k1_off450 v2019) a + S1x1024.size a ≤ S32000x1024.size a := fun v2019 k1_hw225 => k1_hw225

def k1_off451 (i : grid1.Coords) : Fin 1 → Nat :=
  let arg0 : BitVec 32 := BitVec.ofNat 32 (i 0).val
  let c128_i32 : BitVec 32 := 128#32
  let v0 : BitVec 32 := Scalar.muli arg0 c128_i32
  let c116_i32 : BitVec 32 := 116#32
  let v2026 : BitVec 32 := Scalar.addi v0 c116_i32
  let v2027 : Index := Scalar.indexCast v2026
  ![v2027.toNat]
def k1_off452 (v2028 : BitVec 32) : Fin 2 → Nat :=
  let c0_i32_1012 : BitVec 32 := 0#32
  ![v2028.toNat, 0]

def k1_chk226 (v2028 : BitVec 32) : Prop :=
  (∀ a, (k1_off452 v2028) a + S1x1024.size a ≤ S32000x1024.size a)
instance k1_chk226.dec : ∀ (v2028 : BitVec 32), Decidable (k1_chk226 v2028) := fun v2028 => decidable_of_iff' _ (Iff.of_eq (k1_chk226.eq_1 v2028))
theorem k1_off452_inb : ∀ (v2028 : BitVec 32) (k1_hw226 : k1_chk226 v2028), ∀ a, (k1_off452 v2028) a + S1x1024.size a ≤ S32000x1024.size a := fun v2028 k1_hw226 => k1_hw226

def k1_off453 (i : grid1.Coords) : Fin 1 → Nat :=
  let arg0 : BitVec 32 := BitVec.ofNat 32 (i 0).val
  let c128_i32 : BitVec 32 := 128#32
  let v0 : BitVec 32 := Scalar.muli arg0 c128_i32
  let c109_i32_1013 : BitVec 32 := 109#32
  let v2035 : BitVec 32 := Scalar.addi v0 c109_i32_1013
  let v2036 : Index := Scalar.indexCast v2035
  ![v2036.toNat]
def k1_off454 (v2037 : BitVec 32) : Fin 2 → Nat :=
  let c0_i32_1017 : BitVec 32 := 0#32
  ![v2037.toNat, 0]

def k1_chk227 (v2037 : BitVec 32) : Prop :=
  (∀ a, (k1_off454 v2037) a + S1x1024.size a ≤ S32000x1024.size a)
instance k1_chk227.dec : ∀ (v2037 : BitVec 32), Decidable (k1_chk227 v2037) := fun v2037 => decidable_of_iff' _ (Iff.of_eq (k1_chk227.eq_1 v2037))
theorem k1_off454_inb : ∀ (v2037 : BitVec 32) (k1_hw227 : k1_chk227 v2037), ∀ a, (k1_off454 v2037) a + S1x1024.size a ≤ S32000x1024.size a := fun v2037 k1_hw227 => k1_hw227

def k1_off455 (i : grid1.Coords) : Fin 1 → Nat :=
  let arg0 : BitVec 32 := BitVec.ofNat 32 (i 0).val
  let c128_i32 : BitVec 32 := 128#32
  let v0 : BitVec 32 := Scalar.muli arg0 c128_i32
  let c117_i32 : BitVec 32 := 117#32
  let v2044 : BitVec 32 := Scalar.addi v0 c117_i32
  let v2045 : Index := Scalar.indexCast v2044
  ![v2045.toNat]
def k1_off456 (v2046 : BitVec 32) : Fin 2 → Nat :=
  let c0_i32_1021 : BitVec 32 := 0#32
  ![v2046.toNat, 0]

def k1_chk228 (v2046 : BitVec 32) : Prop :=
  (∀ a, (k1_off456 v2046) a + S1x1024.size a ≤ S32000x1024.size a)
instance k1_chk228.dec : ∀ (v2046 : BitVec 32), Decidable (k1_chk228 v2046) := fun v2046 => decidable_of_iff' _ (Iff.of_eq (k1_chk228.eq_1 v2046))
theorem k1_off456_inb : ∀ (v2046 : BitVec 32) (k1_hw228 : k1_chk228 v2046), ∀ a, (k1_off456 v2046) a + S1x1024.size a ≤ S32000x1024.size a := fun v2046 k1_hw228 => k1_hw228

def k1_off457 (i : grid1.Coords) : Fin 1 → Nat :=
  let arg0 : BitVec 32 := BitVec.ofNat 32 (i 0).val
  let c128_i32 : BitVec 32 := 128#32
  let v0 : BitVec 32 := Scalar.muli arg0 c128_i32
  let c110_i32_1022 : BitVec 32 := 110#32
  let v2053 : BitVec 32 := Scalar.addi v0 c110_i32_1022
  let v2054 : Index := Scalar.indexCast v2053
  ![v2054.toNat]
def k1_off458 (v2055 : BitVec 32) : Fin 2 → Nat :=
  let c0_i32_1026 : BitVec 32 := 0#32
  ![v2055.toNat, 0]

def k1_chk229 (v2055 : BitVec 32) : Prop :=
  (∀ a, (k1_off458 v2055) a + S1x1024.size a ≤ S32000x1024.size a)
instance k1_chk229.dec : ∀ (v2055 : BitVec 32), Decidable (k1_chk229 v2055) := fun v2055 => decidable_of_iff' _ (Iff.of_eq (k1_chk229.eq_1 v2055))
theorem k1_off458_inb : ∀ (v2055 : BitVec 32) (k1_hw229 : k1_chk229 v2055), ∀ a, (k1_off458 v2055) a + S1x1024.size a ≤ S32000x1024.size a := fun v2055 k1_hw229 => k1_hw229

def k1_off459 (i : grid1.Coords) : Fin 1 → Nat :=
  let arg0 : BitVec 32 := BitVec.ofNat 32 (i 0).val
  let c128_i32 : BitVec 32 := 128#32
  let v0 : BitVec 32 := Scalar.muli arg0 c128_i32
  let c118_i32 : BitVec 32 := 118#32
  let v2062 : BitVec 32 := Scalar.addi v0 c118_i32
  let v2063 : Index := Scalar.indexCast v2062
  ![v2063.toNat]
def k1_off460 (v2064 : BitVec 32) : Fin 2 → Nat :=
  let c0_i32_1030 : BitVec 32 := 0#32
  ![v2064.toNat, 0]

def k1_chk230 (v2064 : BitVec 32) : Prop :=
  (∀ a, (k1_off460 v2064) a + S1x1024.size a ≤ S32000x1024.size a)
instance k1_chk230.dec : ∀ (v2064 : BitVec 32), Decidable (k1_chk230 v2064) := fun v2064 => decidable_of_iff' _ (Iff.of_eq (k1_chk230.eq_1 v2064))
theorem k1_off460_inb : ∀ (v2064 : BitVec 32) (k1_hw230 : k1_chk230 v2064), ∀ a, (k1_off460 v2064) a + S1x1024.size a ≤ S32000x1024.size a := fun v2064 k1_hw230 => k1_hw230

def k1_off461 (i : grid1.Coords) : Fin 1 → Nat :=
  let arg0 : BitVec 32 := BitVec.ofNat 32 (i 0).val
  let c128_i32 : BitVec 32 := 128#32
  let v0 : BitVec 32 := Scalar.muli arg0 c128_i32
  let c111_i32_1031 : BitVec 32 := 111#32
  let v2071 : BitVec 32 := Scalar.addi v0 c111_i32_1031
  let v2072 : Index := Scalar.indexCast v2071
  ![v2072.toNat]
def k1_off462 (v2073 : BitVec 32) : Fin 2 → Nat :=
  let c0_i32_1035 : BitVec 32 := 0#32
  ![v2073.toNat, 0]

def k1_chk231 (v2073 : BitVec 32) : Prop :=
  (∀ a, (k1_off462 v2073) a + S1x1024.size a ≤ S32000x1024.size a)
instance k1_chk231.dec : ∀ (v2073 : BitVec 32), Decidable (k1_chk231 v2073) := fun v2073 => decidable_of_iff' _ (Iff.of_eq (k1_chk231.eq_1 v2073))
theorem k1_off462_inb : ∀ (v2073 : BitVec 32) (k1_hw231 : k1_chk231 v2073), ∀ a, (k1_off462 v2073) a + S1x1024.size a ≤ S32000x1024.size a := fun v2073 k1_hw231 => k1_hw231

def k1_off463 (i : grid1.Coords) : Fin 1 → Nat :=
  let arg0 : BitVec 32 := BitVec.ofNat 32 (i 0).val
  let c128_i32 : BitVec 32 := 128#32
  let v0 : BitVec 32 := Scalar.muli arg0 c128_i32
  let c119_i32 : BitVec 32 := 119#32
  let v2080 : BitVec 32 := Scalar.addi v0 c119_i32
  let v2081 : Index := Scalar.indexCast v2080
  ![v2081.toNat]
def k1_off464 (v2082 : BitVec 32) : Fin 2 → Nat :=
  let c0_i32_1039 : BitVec 32 := 0#32
  ![v2082.toNat, 0]

def k1_chk232 (v2082 : BitVec 32) : Prop :=
  (∀ a, (k1_off464 v2082) a + S1x1024.size a ≤ S32000x1024.size a)
instance k1_chk232.dec : ∀ (v2082 : BitVec 32), Decidable (k1_chk232 v2082) := fun v2082 => decidable_of_iff' _ (Iff.of_eq (k1_chk232.eq_1 v2082))
theorem k1_off464_inb : ∀ (v2082 : BitVec 32) (k1_hw232 : k1_chk232 v2082), ∀ a, (k1_off464 v2082) a + S1x1024.size a ≤ S32000x1024.size a := fun v2082 k1_hw232 => k1_hw232

def k1_off465 (i : grid1.Coords) : Fin 1 → Nat :=
  let arg0 : BitVec 32 := BitVec.ofNat 32 (i 0).val
  let c128_i32 : BitVec 32 := 128#32
  let v0 : BitVec 32 := Scalar.muli arg0 c128_i32
  let c112_i32_1040 : BitVec 32 := 112#32
  let v2089 : BitVec 32 := Scalar.addi v0 c112_i32_1040
  let v2090 : Index := Scalar.indexCast v2089
  ![v2090.toNat]
def k1_off466 (v2091 : BitVec 32) : Fin 2 → Nat :=
  let c0_i32_1044 : BitVec 32 := 0#32
  ![v2091.toNat, 0]

def k1_chk233 (v2091 : BitVec 32) : Prop :=
  (∀ a, (k1_off466 v2091) a + S1x1024.size a ≤ S32000x1024.size a)
instance k1_chk233.dec : ∀ (v2091 : BitVec 32), Decidable (k1_chk233 v2091) := fun v2091 => decidable_of_iff' _ (Iff.of_eq (k1_chk233.eq_1 v2091))
theorem k1_off466_inb : ∀ (v2091 : BitVec 32) (k1_hw233 : k1_chk233 v2091), ∀ a, (k1_off466 v2091) a + S1x1024.size a ≤ S32000x1024.size a := fun v2091 k1_hw233 => k1_hw233

def k1_off467 (i : grid1.Coords) : Fin 1 → Nat :=
  let arg0 : BitVec 32 := BitVec.ofNat 32 (i 0).val
  let c128_i32 : BitVec 32 := 128#32
  let v0 : BitVec 32 := Scalar.muli arg0 c128_i32
  let c120_i32 : BitVec 32 := 120#32
  let v2098 : BitVec 32 := Scalar.addi v0 c120_i32
  let v2099 : Index := Scalar.indexCast v2098
  ![v2099.toNat]
def k1_off468 (v2100 : BitVec 32) : Fin 2 → Nat :=
  let c0_i32_1048 : BitVec 32 := 0#32
  ![v2100.toNat, 0]

def k1_chk234 (v2100 : BitVec 32) : Prop :=
  (∀ a, (k1_off468 v2100) a + S1x1024.size a ≤ S32000x1024.size a)
instance k1_chk234.dec : ∀ (v2100 : BitVec 32), Decidable (k1_chk234 v2100) := fun v2100 => decidable_of_iff' _ (Iff.of_eq (k1_chk234.eq_1 v2100))
theorem k1_off468_inb : ∀ (v2100 : BitVec 32) (k1_hw234 : k1_chk234 v2100), ∀ a, (k1_off468 v2100) a + S1x1024.size a ≤ S32000x1024.size a := fun v2100 k1_hw234 => k1_hw234

def k1_off469 (i : grid1.Coords) : Fin 1 → Nat :=
  let arg0 : BitVec 32 := BitVec.ofNat 32 (i 0).val
  let c128_i32 : BitVec 32 := 128#32
  let v0 : BitVec 32 := Scalar.muli arg0 c128_i32
  let c113_i32_1049 : BitVec 32 := 113#32
  let v2107 : BitVec 32 := Scalar.addi v0 c113_i32_1049
  let v2108 : Index := Scalar.indexCast v2107
  ![v2108.toNat]
def k1_off470 (v2109 : BitVec 32) : Fin 2 → Nat :=
  let c0_i32_1053 : BitVec 32 := 0#32
  ![v2109.toNat, 0]

def k1_chk235 (v2109 : BitVec 32) : Prop :=
  (∀ a, (k1_off470 v2109) a + S1x1024.size a ≤ S32000x1024.size a)
instance k1_chk235.dec : ∀ (v2109 : BitVec 32), Decidable (k1_chk235 v2109) := fun v2109 => decidable_of_iff' _ (Iff.of_eq (k1_chk235.eq_1 v2109))
theorem k1_off470_inb : ∀ (v2109 : BitVec 32) (k1_hw235 : k1_chk235 v2109), ∀ a, (k1_off470 v2109) a + S1x1024.size a ≤ S32000x1024.size a := fun v2109 k1_hw235 => k1_hw235

def k1_off471 (i : grid1.Coords) : Fin 1 → Nat :=
  let arg0 : BitVec 32 := BitVec.ofNat 32 (i 0).val
  let c128_i32 : BitVec 32 := 128#32
  let v0 : BitVec 32 := Scalar.muli arg0 c128_i32
  let c121_i32 : BitVec 32 := 121#32
  let v2116 : BitVec 32 := Scalar.addi v0 c121_i32
  let v2117 : Index := Scalar.indexCast v2116
  ![v2117.toNat]
def k1_off472 (v2118 : BitVec 32) : Fin 2 → Nat :=
  let c0_i32_1057 : BitVec 32 := 0#32
  ![v2118.toNat, 0]

def k1_chk236 (v2118 : BitVec 32) : Prop :=
  (∀ a, (k1_off472 v2118) a + S1x1024.size a ≤ S32000x1024.size a)
instance k1_chk236.dec : ∀ (v2118 : BitVec 32), Decidable (k1_chk236 v2118) := fun v2118 => decidable_of_iff' _ (Iff.of_eq (k1_chk236.eq_1 v2118))
theorem k1_off472_inb : ∀ (v2118 : BitVec 32) (k1_hw236 : k1_chk236 v2118), ∀ a, (k1_off472 v2118) a + S1x1024.size a ≤ S32000x1024.size a := fun v2118 k1_hw236 => k1_hw236

def k1_off473 (i : grid1.Coords) : Fin 1 → Nat :=
  let arg0 : BitVec 32 := BitVec.ofNat 32 (i 0).val
  let c128_i32 : BitVec 32 := 128#32
  let v0 : BitVec 32 := Scalar.muli arg0 c128_i32
  let c114_i32_1058 : BitVec 32 := 114#32
  let v2125 : BitVec 32 := Scalar.addi v0 c114_i32_1058
  let v2126 : Index := Scalar.indexCast v2125
  ![v2126.toNat]
def k1_off474 (v2127 : BitVec 32) : Fin 2 → Nat :=
  let c0_i32_1062 : BitVec 32 := 0#32
  ![v2127.toNat, 0]

def k1_chk237 (v2127 : BitVec 32) : Prop :=
  (∀ a, (k1_off474 v2127) a + S1x1024.size a ≤ S32000x1024.size a)
instance k1_chk237.dec : ∀ (v2127 : BitVec 32), Decidable (k1_chk237 v2127) := fun v2127 => decidable_of_iff' _ (Iff.of_eq (k1_chk237.eq_1 v2127))
theorem k1_off474_inb : ∀ (v2127 : BitVec 32) (k1_hw237 : k1_chk237 v2127), ∀ a, (k1_off474 v2127) a + S1x1024.size a ≤ S32000x1024.size a := fun v2127 k1_hw237 => k1_hw237

def k1_off475 (i : grid1.Coords) : Fin 1 → Nat :=
  let arg0 : BitVec 32 := BitVec.ofNat 32 (i 0).val
  let c128_i32 : BitVec 32 := 128#32
  let v0 : BitVec 32 := Scalar.muli arg0 c128_i32
  let c122_i32 : BitVec 32 := 122#32
  let v2134 : BitVec 32 := Scalar.addi v0 c122_i32
  let v2135 : Index := Scalar.indexCast v2134
  ![v2135.toNat]
def k1_off476 (v2136 : BitVec 32) : Fin 2 → Nat :=
  let c0_i32_1066 : BitVec 32 := 0#32
  ![v2136.toNat, 0]

def k1_chk238 (v2136 : BitVec 32) : Prop :=
  (∀ a, (k1_off476 v2136) a + S1x1024.size a ≤ S32000x1024.size a)
instance k1_chk238.dec : ∀ (v2136 : BitVec 32), Decidable (k1_chk238 v2136) := fun v2136 => decidable_of_iff' _ (Iff.of_eq (k1_chk238.eq_1 v2136))
theorem k1_off476_inb : ∀ (v2136 : BitVec 32) (k1_hw238 : k1_chk238 v2136), ∀ a, (k1_off476 v2136) a + S1x1024.size a ≤ S32000x1024.size a := fun v2136 k1_hw238 => k1_hw238

def k1_off477 (i : grid1.Coords) : Fin 1 → Nat :=
  let arg0 : BitVec 32 := BitVec.ofNat 32 (i 0).val
  let c128_i32 : BitVec 32 := 128#32
  let v0 : BitVec 32 := Scalar.muli arg0 c128_i32
  let c115_i32_1067 : BitVec 32 := 115#32
  let v2143 : BitVec 32 := Scalar.addi v0 c115_i32_1067
  let v2144 : Index := Scalar.indexCast v2143
  ![v2144.toNat]
def k1_off478 (v2145 : BitVec 32) : Fin 2 → Nat :=
  let c0_i32_1071 : BitVec 32 := 0#32
  ![v2145.toNat, 0]

def k1_chk239 (v2145 : BitVec 32) : Prop :=
  (∀ a, (k1_off478 v2145) a + S1x1024.size a ≤ S32000x1024.size a)
instance k1_chk239.dec : ∀ (v2145 : BitVec 32), Decidable (k1_chk239 v2145) := fun v2145 => decidable_of_iff' _ (Iff.of_eq (k1_chk239.eq_1 v2145))
theorem k1_off478_inb : ∀ (v2145 : BitVec 32) (k1_hw239 : k1_chk239 v2145), ∀ a, (k1_off478 v2145) a + S1x1024.size a ≤ S32000x1024.size a := fun v2145 k1_hw239 => k1_hw239

def k1_off479 (i : grid1.Coords) : Fin 1 → Nat :=
  let arg0 : BitVec 32 := BitVec.ofNat 32 (i 0).val
  let c128_i32 : BitVec 32 := 128#32
  let v0 : BitVec 32 := Scalar.muli arg0 c128_i32
  let c123_i32 : BitVec 32 := 123#32
  let v2152 : BitVec 32 := Scalar.addi v0 c123_i32
  let v2153 : Index := Scalar.indexCast v2152
  ![v2153.toNat]
def k1_off480 (v2154 : BitVec 32) : Fin 2 → Nat :=
  let c0_i32_1075 : BitVec 32 := 0#32
  ![v2154.toNat, 0]

def k1_chk240 (v2154 : BitVec 32) : Prop :=
  (∀ a, (k1_off480 v2154) a + S1x1024.size a ≤ S32000x1024.size a)
instance k1_chk240.dec : ∀ (v2154 : BitVec 32), Decidable (k1_chk240 v2154) := fun v2154 => decidable_of_iff' _ (Iff.of_eq (k1_chk240.eq_1 v2154))
theorem k1_off480_inb : ∀ (v2154 : BitVec 32) (k1_hw240 : k1_chk240 v2154), ∀ a, (k1_off480 v2154) a + S1x1024.size a ≤ S32000x1024.size a := fun v2154 k1_hw240 => k1_hw240

def k1_off481 (i : grid1.Coords) : Fin 1 → Nat :=
  let arg0 : BitVec 32 := BitVec.ofNat 32 (i 0).val
  let c128_i32 : BitVec 32 := 128#32
  let v0 : BitVec 32 := Scalar.muli arg0 c128_i32
  let c116_i32_1076 : BitVec 32 := 116#32
  let v2161 : BitVec 32 := Scalar.addi v0 c116_i32_1076
  let v2162 : Index := Scalar.indexCast v2161
  ![v2162.toNat]
def k1_off482 (v2163 : BitVec 32) : Fin 2 → Nat :=
  let c0_i32_1080 : BitVec 32 := 0#32
  ![v2163.toNat, 0]

def k1_chk241 (v2163 : BitVec 32) : Prop :=
  (∀ a, (k1_off482 v2163) a + S1x1024.size a ≤ S32000x1024.size a)
instance k1_chk241.dec : ∀ (v2163 : BitVec 32), Decidable (k1_chk241 v2163) := fun v2163 => decidable_of_iff' _ (Iff.of_eq (k1_chk241.eq_1 v2163))
theorem k1_off482_inb : ∀ (v2163 : BitVec 32) (k1_hw241 : k1_chk241 v2163), ∀ a, (k1_off482 v2163) a + S1x1024.size a ≤ S32000x1024.size a := fun v2163 k1_hw241 => k1_hw241

def k1_off483 (i : grid1.Coords) : Fin 1 → Nat :=
  let arg0 : BitVec 32 := BitVec.ofNat 32 (i 0).val
  let c128_i32 : BitVec 32 := 128#32
  let v0 : BitVec 32 := Scalar.muli arg0 c128_i32
  let c124_i32 : BitVec 32 := 124#32
  let v2170 : BitVec 32 := Scalar.addi v0 c124_i32
  let v2171 : Index := Scalar.indexCast v2170
  ![v2171.toNat]
def k1_off484 (v2172 : BitVec 32) : Fin 2 → Nat :=
  let c0_i32_1084 : BitVec 32 := 0#32
  ![v2172.toNat, 0]

def k1_chk242 (v2172 : BitVec 32) : Prop :=
  (∀ a, (k1_off484 v2172) a + S1x1024.size a ≤ S32000x1024.size a)
instance k1_chk242.dec : ∀ (v2172 : BitVec 32), Decidable (k1_chk242 v2172) := fun v2172 => decidable_of_iff' _ (Iff.of_eq (k1_chk242.eq_1 v2172))
theorem k1_off484_inb : ∀ (v2172 : BitVec 32) (k1_hw242 : k1_chk242 v2172), ∀ a, (k1_off484 v2172) a + S1x1024.size a ≤ S32000x1024.size a := fun v2172 k1_hw242 => k1_hw242

def k1_off485 (i : grid1.Coords) : Fin 1 → Nat :=
  let arg0 : BitVec 32 := BitVec.ofNat 32 (i 0).val
  let c128_i32 : BitVec 32 := 128#32
  let v0 : BitVec 32 := Scalar.muli arg0 c128_i32
  let c117_i32_1085 : BitVec 32 := 117#32
  let v2179 : BitVec 32 := Scalar.addi v0 c117_i32_1085
  let v2180 : Index := Scalar.indexCast v2179
  ![v2180.toNat]
def k1_off486 (v2181 : BitVec 32) : Fin 2 → Nat :=
  let c0_i32_1089 : BitVec 32 := 0#32
  ![v2181.toNat, 0]

def k1_chk243 (v2181 : BitVec 32) : Prop :=
  (∀ a, (k1_off486 v2181) a + S1x1024.size a ≤ S32000x1024.size a)
instance k1_chk243.dec : ∀ (v2181 : BitVec 32), Decidable (k1_chk243 v2181) := fun v2181 => decidable_of_iff' _ (Iff.of_eq (k1_chk243.eq_1 v2181))
theorem k1_off486_inb : ∀ (v2181 : BitVec 32) (k1_hw243 : k1_chk243 v2181), ∀ a, (k1_off486 v2181) a + S1x1024.size a ≤ S32000x1024.size a := fun v2181 k1_hw243 => k1_hw243

def k1_off487 (i : grid1.Coords) : Fin 1 → Nat :=
  let arg0 : BitVec 32 := BitVec.ofNat 32 (i 0).val
  let c128_i32 : BitVec 32 := 128#32
  let v0 : BitVec 32 := Scalar.muli arg0 c128_i32
  let c125_i32 : BitVec 32 := 125#32
  let v2188 : BitVec 32 := Scalar.addi v0 c125_i32
  let v2189 : Index := Scalar.indexCast v2188
  ![v2189.toNat]
def k1_off488 (v2190 : BitVec 32) : Fin 2 → Nat :=
  let c0_i32_1093 : BitVec 32 := 0#32
  ![v2190.toNat, 0]

def k1_chk244 (v2190 : BitVec 32) : Prop :=
  (∀ a, (k1_off488 v2190) a + S1x1024.size a ≤ S32000x1024.size a)
instance k1_chk244.dec : ∀ (v2190 : BitVec 32), Decidable (k1_chk244 v2190) := fun v2190 => decidable_of_iff' _ (Iff.of_eq (k1_chk244.eq_1 v2190))
theorem k1_off488_inb : ∀ (v2190 : BitVec 32) (k1_hw244 : k1_chk244 v2190), ∀ a, (k1_off488 v2190) a + S1x1024.size a ≤ S32000x1024.size a := fun v2190 k1_hw244 => k1_hw244

def k1_off489 (i : grid1.Coords) : Fin 1 → Nat :=
  let arg0 : BitVec 32 := BitVec.ofNat 32 (i 0).val
  let c128_i32 : BitVec 32 := 128#32
  let v0 : BitVec 32 := Scalar.muli arg0 c128_i32
  let c118_i32_1094 : BitVec 32 := 118#32
  let v2197 : BitVec 32 := Scalar.addi v0 c118_i32_1094
  let v2198 : Index := Scalar.indexCast v2197
  ![v2198.toNat]
def k1_off490 (v2199 : BitVec 32) : Fin 2 → Nat :=
  let c0_i32_1098 : BitVec 32 := 0#32
  ![v2199.toNat, 0]

def k1_chk245 (v2199 : BitVec 32) : Prop :=
  (∀ a, (k1_off490 v2199) a + S1x1024.size a ≤ S32000x1024.size a)
instance k1_chk245.dec : ∀ (v2199 : BitVec 32), Decidable (k1_chk245 v2199) := fun v2199 => decidable_of_iff' _ (Iff.of_eq (k1_chk245.eq_1 v2199))
theorem k1_off490_inb : ∀ (v2199 : BitVec 32) (k1_hw245 : k1_chk245 v2199), ∀ a, (k1_off490 v2199) a + S1x1024.size a ≤ S32000x1024.size a := fun v2199 k1_hw245 => k1_hw245

def k1_off491 (i : grid1.Coords) : Fin 1 → Nat :=
  let arg0 : BitVec 32 := BitVec.ofNat 32 (i 0).val
  let c128_i32 : BitVec 32 := 128#32
  let v0 : BitVec 32 := Scalar.muli arg0 c128_i32
  let c126_i32 : BitVec 32 := 126#32
  let v2206 : BitVec 32 := Scalar.addi v0 c126_i32
  let v2207 : Index := Scalar.indexCast v2206
  ![v2207.toNat]
def k1_off492 (v2208 : BitVec 32) : Fin 2 → Nat :=
  let c0_i32_1102 : BitVec 32 := 0#32
  ![v2208.toNat, 0]

def k1_chk246 (v2208 : BitVec 32) : Prop :=
  (∀ a, (k1_off492 v2208) a + S1x1024.size a ≤ S32000x1024.size a)
instance k1_chk246.dec : ∀ (v2208 : BitVec 32), Decidable (k1_chk246 v2208) := fun v2208 => decidable_of_iff' _ (Iff.of_eq (k1_chk246.eq_1 v2208))
theorem k1_off492_inb : ∀ (v2208 : BitVec 32) (k1_hw246 : k1_chk246 v2208), ∀ a, (k1_off492 v2208) a + S1x1024.size a ≤ S32000x1024.size a := fun v2208 k1_hw246 => k1_hw246

def k1_off493 (i : grid1.Coords) : Fin 1 → Nat :=
  let arg0 : BitVec 32 := BitVec.ofNat 32 (i 0).val
  let c128_i32 : BitVec 32 := 128#32
  let v0 : BitVec 32 := Scalar.muli arg0 c128_i32
  let c119_i32_1103 : BitVec 32 := 119#32
  let v2215 : BitVec 32 := Scalar.addi v0 c119_i32_1103
  let v2216 : Index := Scalar.indexCast v2215
  ![v2216.toNat]
def k1_off494 (v2217 : BitVec 32) : Fin 2 → Nat :=
  let c0_i32_1107 : BitVec 32 := 0#32
  ![v2217.toNat, 0]

def k1_chk247 (v2217 : BitVec 32) : Prop :=
  (∀ a, (k1_off494 v2217) a + S1x1024.size a ≤ S32000x1024.size a)
instance k1_chk247.dec : ∀ (v2217 : BitVec 32), Decidable (k1_chk247 v2217) := fun v2217 => decidable_of_iff' _ (Iff.of_eq (k1_chk247.eq_1 v2217))
theorem k1_off494_inb : ∀ (v2217 : BitVec 32) (k1_hw247 : k1_chk247 v2217), ∀ a, (k1_off494 v2217) a + S1x1024.size a ≤ S32000x1024.size a := fun v2217 k1_hw247 => k1_hw247

def k1_off495 (i : grid1.Coords) : Fin 1 → Nat :=
  let arg0 : BitVec 32 := BitVec.ofNat 32 (i 0).val
  let c128_i32 : BitVec 32 := 128#32
  let v0 : BitVec 32 := Scalar.muli arg0 c128_i32
  let c127_i32 : BitVec 32 := 127#32
  let v2224 : BitVec 32 := Scalar.addi v0 c127_i32
  let v2225 : Index := Scalar.indexCast v2224
  ![v2225.toNat]
def k1_off496 (v2226 : BitVec 32) : Fin 2 → Nat :=
  let c0_i32_1111 : BitVec 32 := 0#32
  ![v2226.toNat, 0]

def k1_chk248 (v2226 : BitVec 32) : Prop :=
  (∀ a, (k1_off496 v2226) a + S1x1024.size a ≤ S32000x1024.size a)
instance k1_chk248.dec : ∀ (v2226 : BitVec 32), Decidable (k1_chk248 v2226) := fun v2226 => decidable_of_iff' _ (Iff.of_eq (k1_chk248.eq_1 v2226))
theorem k1_off496_inb : ∀ (v2226 : BitVec 32) (k1_hw248 : k1_chk248 v2226), ∀ a, (k1_off496 v2226) a + S1x1024.size a ≤ S32000x1024.size a := fun v2226 k1_hw248 => k1_hw248

def k1_off497 (i : grid1.Coords) : Fin 1 → Nat :=
  let arg0 : BitVec 32 := BitVec.ofNat 32 (i 0).val
  let c128_i32 : BitVec 32 := 128#32
  let v0 : BitVec 32 := Scalar.muli arg0 c128_i32
  let c120_i32_1112 : BitVec 32 := 120#32
  let v2233 : BitVec 32 := Scalar.addi v0 c120_i32_1112
  let v2234 : Index := Scalar.indexCast v2233
  ![v2234.toNat]
def k1_off498 (v2235 : BitVec 32) : Fin 2 → Nat :=
  let c0_i32_1116 : BitVec 32 := 0#32
  ![v2235.toNat, 0]

def k1_chk249 (v2235 : BitVec 32) : Prop :=
  (∀ a, (k1_off498 v2235) a + S1x1024.size a ≤ S32000x1024.size a)
instance k1_chk249.dec : ∀ (v2235 : BitVec 32), Decidable (k1_chk249 v2235) := fun v2235 => decidable_of_iff' _ (Iff.of_eq (k1_chk249.eq_1 v2235))
theorem k1_off498_inb : ∀ (v2235 : BitVec 32) (k1_hw249 : k1_chk249 v2235), ∀ a, (k1_off498 v2235) a + S1x1024.size a ≤ S32000x1024.size a := fun v2235 k1_hw249 => k1_hw249

def k1_off499 (i : grid1.Coords) : Fin 1 → Nat :=
  let arg0 : BitVec 32 := BitVec.ofNat 32 (i 0).val
  let c128_i32 : BitVec 32 := 128#32
  let v0 : BitVec 32 := Scalar.muli arg0 c128_i32
  let c121_i32_1117 : BitVec 32 := 121#32
  let v2242 : BitVec 32 := Scalar.addi v0 c121_i32_1117
  let v2243 : Index := Scalar.indexCast v2242
  ![v2243.toNat]
def k1_off500 (v2244 : BitVec 32) : Fin 2 → Nat :=
  let c0_i32_1121 : BitVec 32 := 0#32
  ![v2244.toNat, 0]

def k1_chk250 (v2244 : BitVec 32) : Prop :=
  (∀ a, (k1_off500 v2244) a + S1x1024.size a ≤ S32000x1024.size a)
instance k1_chk250.dec : ∀ (v2244 : BitVec 32), Decidable (k1_chk250 v2244) := fun v2244 => decidable_of_iff' _ (Iff.of_eq (k1_chk250.eq_1 v2244))
theorem k1_off500_inb : ∀ (v2244 : BitVec 32) (k1_hw250 : k1_chk250 v2244), ∀ a, (k1_off500 v2244) a + S1x1024.size a ≤ S32000x1024.size a := fun v2244 k1_hw250 => k1_hw250

def k1_off501 (i : grid1.Coords) : Fin 1 → Nat :=
  let arg0 : BitVec 32 := BitVec.ofNat 32 (i 0).val
  let c128_i32 : BitVec 32 := 128#32
  let v0 : BitVec 32 := Scalar.muli arg0 c128_i32
  let c122_i32_1122 : BitVec 32 := 122#32
  let v2251 : BitVec 32 := Scalar.addi v0 c122_i32_1122
  let v2252 : Index := Scalar.indexCast v2251
  ![v2252.toNat]
def k1_off502 (v2253 : BitVec 32) : Fin 2 → Nat :=
  let c0_i32_1126 : BitVec 32 := 0#32
  ![v2253.toNat, 0]

def k1_chk251 (v2253 : BitVec 32) : Prop :=
  (∀ a, (k1_off502 v2253) a + S1x1024.size a ≤ S32000x1024.size a)
instance k1_chk251.dec : ∀ (v2253 : BitVec 32), Decidable (k1_chk251 v2253) := fun v2253 => decidable_of_iff' _ (Iff.of_eq (k1_chk251.eq_1 v2253))
theorem k1_off502_inb : ∀ (v2253 : BitVec 32) (k1_hw251 : k1_chk251 v2253), ∀ a, (k1_off502 v2253) a + S1x1024.size a ≤ S32000x1024.size a := fun v2253 k1_hw251 => k1_hw251

def k1_off503 (i : grid1.Coords) : Fin 1 → Nat :=
  let arg0 : BitVec 32 := BitVec.ofNat 32 (i 0).val
  let c128_i32 : BitVec 32 := 128#32
  let v0 : BitVec 32 := Scalar.muli arg0 c128_i32
  let c123_i32_1127 : BitVec 32 := 123#32
  let v2260 : BitVec 32 := Scalar.addi v0 c123_i32_1127
  let v2261 : Index := Scalar.indexCast v2260
  ![v2261.toNat]
def k1_off504 (v2262 : BitVec 32) : Fin 2 → Nat :=
  let c0_i32_1131 : BitVec 32 := 0#32
  ![v2262.toNat, 0]

def k1_chk252 (v2262 : BitVec 32) : Prop :=
  (∀ a, (k1_off504 v2262) a + S1x1024.size a ≤ S32000x1024.size a)
instance k1_chk252.dec : ∀ (v2262 : BitVec 32), Decidable (k1_chk252 v2262) := fun v2262 => decidable_of_iff' _ (Iff.of_eq (k1_chk252.eq_1 v2262))
theorem k1_off504_inb : ∀ (v2262 : BitVec 32) (k1_hw252 : k1_chk252 v2262), ∀ a, (k1_off504 v2262) a + S1x1024.size a ≤ S32000x1024.size a := fun v2262 k1_hw252 => k1_hw252

def k1_off505 (i : grid1.Coords) : Fin 1 → Nat :=
  let arg0 : BitVec 32 := BitVec.ofNat 32 (i 0).val
  let c128_i32 : BitVec 32 := 128#32
  let v0 : BitVec 32 := Scalar.muli arg0 c128_i32
  let c124_i32_1132 : BitVec 32 := 124#32
  let v2269 : BitVec 32 := Scalar.addi v0 c124_i32_1132
  let v2270 : Index := Scalar.indexCast v2269
  ![v2270.toNat]
def k1_off506 (v2271 : BitVec 32) : Fin 2 → Nat :=
  let c0_i32_1136 : BitVec 32 := 0#32
  ![v2271.toNat, 0]

def k1_chk253 (v2271 : BitVec 32) : Prop :=
  (∀ a, (k1_off506 v2271) a + S1x1024.size a ≤ S32000x1024.size a)
instance k1_chk253.dec : ∀ (v2271 : BitVec 32), Decidable (k1_chk253 v2271) := fun v2271 => decidable_of_iff' _ (Iff.of_eq (k1_chk253.eq_1 v2271))
theorem k1_off506_inb : ∀ (v2271 : BitVec 32) (k1_hw253 : k1_chk253 v2271), ∀ a, (k1_off506 v2271) a + S1x1024.size a ≤ S32000x1024.size a := fun v2271 k1_hw253 => k1_hw253

def k1_off507 (i : grid1.Coords) : Fin 1 → Nat :=
  let arg0 : BitVec 32 := BitVec.ofNat 32 (i 0).val
  let c128_i32 : BitVec 32 := 128#32
  let v0 : BitVec 32 := Scalar.muli arg0 c128_i32
  let c125_i32_1137 : BitVec 32 := 125#32
  let v2278 : BitVec 32 := Scalar.addi v0 c125_i32_1137
  let v2279 : Index := Scalar.indexCast v2278
  ![v2279.toNat]
def k1_off508 (v2280 : BitVec 32) : Fin 2 → Nat :=
  let c0_i32_1141 : BitVec 32 := 0#32
  ![v2280.toNat, 0]

def k1_chk254 (v2280 : BitVec 32) : Prop :=
  (∀ a, (k1_off508 v2280) a + S1x1024.size a ≤ S32000x1024.size a)
instance k1_chk254.dec : ∀ (v2280 : BitVec 32), Decidable (k1_chk254 v2280) := fun v2280 => decidable_of_iff' _ (Iff.of_eq (k1_chk254.eq_1 v2280))
theorem k1_off508_inb : ∀ (v2280 : BitVec 32) (k1_hw254 : k1_chk254 v2280), ∀ a, (k1_off508 v2280) a + S1x1024.size a ≤ S32000x1024.size a := fun v2280 k1_hw254 => k1_hw254

def k1_off509 (i : grid1.Coords) : Fin 1 → Nat :=
  let arg0 : BitVec 32 := BitVec.ofNat 32 (i 0).val
  let c128_i32 : BitVec 32 := 128#32
  let v0 : BitVec 32 := Scalar.muli arg0 c128_i32
  let c126_i32_1142 : BitVec 32 := 126#32
  let v2287 : BitVec 32 := Scalar.addi v0 c126_i32_1142
  let v2288 : Index := Scalar.indexCast v2287
  ![v2288.toNat]
def k1_off510 (v2289 : BitVec 32) : Fin 2 → Nat :=
  let c0_i32_1146 : BitVec 32 := 0#32
  ![v2289.toNat, 0]

def k1_chk255 (v2289 : BitVec 32) : Prop :=
  (∀ a, (k1_off510 v2289) a + S1x1024.size a ≤ S32000x1024.size a)
instance k1_chk255.dec : ∀ (v2289 : BitVec 32), Decidable (k1_chk255 v2289) := fun v2289 => decidable_of_iff' _ (Iff.of_eq (k1_chk255.eq_1 v2289))
theorem k1_off510_inb : ∀ (v2289 : BitVec 32) (k1_hw255 : k1_chk255 v2289), ∀ a, (k1_off510 v2289) a + S1x1024.size a ≤ S32000x1024.size a := fun v2289 k1_hw255 => k1_hw255

def k1_off511 (i : grid1.Coords) : Fin 1 → Nat :=
  let arg0 : BitVec 32 := BitVec.ofNat 32 (i 0).val
  let c128_i32 : BitVec 32 := 128#32
  let v0 : BitVec 32 := Scalar.muli arg0 c128_i32
  let c127_i32_1147 : BitVec 32 := 127#32
  let v2296 : BitVec 32 := Scalar.addi v0 c127_i32_1147
  let v2297 : Index := Scalar.indexCast v2296
  ![v2297.toNat]
def k1_off512 (v2298 : BitVec 32) : Fin 2 → Nat :=
  let c0_i32_1151 : BitVec 32 := 0#32
  ![v2298.toNat, 0]

def k1_chk256 (v2298 : BitVec 32) : Prop :=
  (∀ a, (k1_off512 v2298) a + S1x1024.size a ≤ S32000x1024.size a)
instance k1_chk256.dec : ∀ (v2298 : BitVec 32), Decidable (k1_chk256 v2298) := fun v2298 => decidable_of_iff' _ (Iff.of_eq (k1_chk256.eq_1 v2298))
theorem k1_off512_inb : ∀ (v2298 : BitVec 32) (k1_hw256 : k1_chk256 v2298), ∀ a, (k1_off512 v2298) a + S1x1024.size a ≤ S32000x1024.size a := fun v2298 k1_hw256 => k1_hw256

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

class Facts₀ : Prop where
  inb_S1024x1280_S1024x1280_0_0 : ∀ a, (![0, 0] : Fin 2 → Nat) a + S1024x1280.size a ≤ S1024x1280.size a
  h_S1024x1280 : 0 < S1024x1280.numel
  transposes_S1024x1280_p1_0_S1280x1024 : S1024x1280.Transposes [1, 0] S1280x1024
  inb_S1280x1024_S1280x1024_0_0 : ∀ a, (![0, 0] : Fin 2 → Nat) a + S1280x1024.size a ≤ S1280x1024.size a
  h_S1280x1024 : 0 < S1280x1024.numel
  shapeCasts_S8x4096_S32768 : S8x4096.ShapeCasts S32768
  numel1_S1 : S1.numel = 1
  inb_S8_S1_0 : ∀ a, (![0] : Fin 1 → Nat) a + S1.size a ≤ S8.size a
  squeezes_S1_S_ : S1.Squeezes S_
  inb_S128x1024_S1x1024_0_0 : ∀ a, (![0, 0] : Fin 2 → Nat) a + S1x1024.size a ≤ S128x1024.size a
  squeezes_S1x1024_S1024 : S1x1024.Squeezes S1024
  inb_S8_S1_1 : ∀ a, (![1] : Fin 1 → Nat) a + S1.size a ≤ S8.size a
  inb_S128x1024_S1x1024_1_0 : ∀ a, (![1, 0] : Fin 2 → Nat) a + S1x1024.size a ≤ S128x1024.size a
  inb_S8_S1_2 : ∀ a, (![2] : Fin 1 → Nat) a + S1.size a ≤ S8.size a
  inb_S128x1024_S1x1024_2_0 : ∀ a, (![2, 0] : Fin 2 → Nat) a + S1x1024.size a ≤ S128x1024.size a
  inb_S8_S1_3 : ∀ a, (![3] : Fin 1 → Nat) a + S1.size a ≤ S8.size a
  inb_S128x1024_S1x1024_3_0 : ∀ a, (![3, 0] : Fin 2 → Nat) a + S1x1024.size a ≤ S128x1024.size a
  inb_S8_S1_4 : ∀ a, (![4] : Fin 1 → Nat) a + S1.size a ≤ S8.size a
  inb_S128x1024_S1x1024_4_0 : ∀ a, (![4, 0] : Fin 2 → Nat) a + S1x1024.size a ≤ S128x1024.size a
  inb_S8_S1_5 : ∀ a, (![5] : Fin 1 → Nat) a + S1.size a ≤ S8.size a
  inb_S128x1024_S1x1024_5_0 : ∀ a, (![5, 0] : Fin 2 → Nat) a + S1x1024.size a ≤ S128x1024.size a
  inb_S8_S1_6 : ∀ a, (![6] : Fin 1 → Nat) a + S1.size a ≤ S8.size a
  inb_S128x1024_S1x1024_6_0 : ∀ a, (![6, 0] : Fin 2 → Nat) a + S1x1024.size a ≤ S128x1024.size a
  inb_S8_S1_7 : ∀ a, (![7] : Fin 1 → Nat) a + S1.size a ≤ S8.size a
  inb_S128x1024_S1x1024_7_0 : ∀ a, (![7, 0] : Fin 2 → Nat) a + S1x1024.size a ≤ S128x1024.size a
  inb_S128x1024_S1x1024_8_0 : ∀ a, (![8, 0] : Fin 2 → Nat) a + S1x1024.size a ≤ S128x1024.size a
  inb_S128x1024_S1x1024_9_0 : ∀ a, (![9, 0] : Fin 2 → Nat) a + S1x1024.size a ≤ S128x1024.size a
  inb_S128x1024_S1x1024_10_0 : ∀ a, (![10, 0] : Fin 2 → Nat) a + S1x1024.size a ≤ S128x1024.size a
  inb_S128x1024_S1x1024_11_0 : ∀ a, (![11, 0] : Fin 2 → Nat) a + S1x1024.size a ≤ S128x1024.size a
  inb_S128x1024_S1x1024_12_0 : ∀ a, (![12, 0] : Fin 2 → Nat) a + S1x1024.size a ≤ S128x1024.size a
  inb_S128x1024_S1x1024_13_0 : ∀ a, (![13, 0] : Fin 2 → Nat) a + S1x1024.size a ≤ S128x1024.size a
  inb_S128x1024_S1x1024_14_0 : ∀ a, (![14, 0] : Fin 2 → Nat) a + S1x1024.size a ≤ S128x1024.size a
  inb_S128x1024_S1x1024_15_0 : ∀ a, (![15, 0] : Fin 2 → Nat) a + S1x1024.size a ≤ S128x1024.size a
  inb_S128x1024_S1x1024_16_0 : ∀ a, (![16, 0] : Fin 2 → Nat) a + S1x1024.size a ≤ S128x1024.size a
  inb_S128x1024_S1x1024_17_0 : ∀ a, (![17, 0] : Fin 2 → Nat) a + S1x1024.size a ≤ S128x1024.size a
  inb_S128x1024_S1x1024_18_0 : ∀ a, (![18, 0] : Fin 2 → Nat) a + S1x1024.size a ≤ S128x1024.size a
  inb_S128x1024_S1x1024_19_0 : ∀ a, (![19, 0] : Fin 2 → Nat) a + S1x1024.size a ≤ S128x1024.size a
  inb_S128x1024_S1x1024_20_0 : ∀ a, (![20, 0] : Fin 2 → Nat) a + S1x1024.size a ≤ S128x1024.size a
  inb_S128x1024_S1x1024_21_0 : ∀ a, (![21, 0] : Fin 2 → Nat) a + S1x1024.size a ≤ S128x1024.size a
  inb_S128x1024_S1x1024_22_0 : ∀ a, (![22, 0] : Fin 2 → Nat) a + S1x1024.size a ≤ S128x1024.size a
  inb_S128x1024_S1x1024_23_0 : ∀ a, (![23, 0] : Fin 2 → Nat) a + S1x1024.size a ≤ S128x1024.size a
  inb_S128x1024_S1x1024_24_0 : ∀ a, (![24, 0] : Fin 2 → Nat) a + S1x1024.size a ≤ S128x1024.size a
  inb_S128x1024_S1x1024_25_0 : ∀ a, (![25, 0] : Fin 2 → Nat) a + S1x1024.size a ≤ S128x1024.size a
  inb_S128x1024_S1x1024_26_0 : ∀ a, (![26, 0] : Fin 2 → Nat) a + S1x1024.size a ≤ S128x1024.size a
  inb_S128x1024_S1x1024_27_0 : ∀ a, (![27, 0] : Fin 2 → Nat) a + S1x1024.size a ≤ S128x1024.size a
  inb_S128x1024_S1x1024_28_0 : ∀ a, (![28, 0] : Fin 2 → Nat) a + S1x1024.size a ≤ S128x1024.size a
  inb_S128x1024_S1x1024_29_0 : ∀ a, (![29, 0] : Fin 2 → Nat) a + S1x1024.size a ≤ S128x1024.size a
  inb_S128x1024_S1x1024_30_0 : ∀ a, (![30, 0] : Fin 2 → Nat) a + S1x1024.size a ≤ S128x1024.size a
  inb_S128x1024_S1x1024_31_0 : ∀ a, (![31, 0] : Fin 2 → Nat) a + S1x1024.size a ≤ S128x1024.size a
  inb_S128x1024_S1x1024_32_0 : ∀ a, (![32, 0] : Fin 2 → Nat) a + S1x1024.size a ≤ S128x1024.size a
  inb_S128x1024_S1x1024_33_0 : ∀ a, (![33, 0] : Fin 2 → Nat) a + S1x1024.size a ≤ S128x1024.size a
  inb_S128x1024_S1x1024_34_0 : ∀ a, (![34, 0] : Fin 2 → Nat) a + S1x1024.size a ≤ S128x1024.size a
  inb_S128x1024_S1x1024_35_0 : ∀ a, (![35, 0] : Fin 2 → Nat) a + S1x1024.size a ≤ S128x1024.size a
  inb_S128x1024_S1x1024_36_0 : ∀ a, (![36, 0] : Fin 2 → Nat) a + S1x1024.size a ≤ S128x1024.size a
  inb_S128x1024_S1x1024_37_0 : ∀ a, (![37, 0] : Fin 2 → Nat) a + S1x1024.size a ≤ S128x1024.size a
  inb_S128x1024_S1x1024_38_0 : ∀ a, (![38, 0] : Fin 2 → Nat) a + S1x1024.size a ≤ S128x1024.size a
  inb_S128x1024_S1x1024_39_0 : ∀ a, (![39, 0] : Fin 2 → Nat) a + S1x1024.size a ≤ S128x1024.size a
  inb_S128x1024_S1x1024_40_0 : ∀ a, (![40, 0] : Fin 2 → Nat) a + S1x1024.size a ≤ S128x1024.size a
  inb_S128x1024_S1x1024_41_0 : ∀ a, (![41, 0] : Fin 2 → Nat) a + S1x1024.size a ≤ S128x1024.size a
  inb_S128x1024_S1x1024_42_0 : ∀ a, (![42, 0] : Fin 2 → Nat) a + S1x1024.size a ≤ S128x1024.size a
  inb_S128x1024_S1x1024_43_0 : ∀ a, (![43, 0] : Fin 2 → Nat) a + S1x1024.size a ≤ S128x1024.size a
  inb_S128x1024_S1x1024_44_0 : ∀ a, (![44, 0] : Fin 2 → Nat) a + S1x1024.size a ≤ S128x1024.size a
  inb_S128x1024_S1x1024_45_0 : ∀ a, (![45, 0] : Fin 2 → Nat) a + S1x1024.size a ≤ S128x1024.size a
  inb_S128x1024_S1x1024_46_0 : ∀ a, (![46, 0] : Fin 2 → Nat) a + S1x1024.size a ≤ S128x1024.size a
  inb_S128x1024_S1x1024_47_0 : ∀ a, (![47, 0] : Fin 2 → Nat) a + S1x1024.size a ≤ S128x1024.size a
  inb_S128x1024_S1x1024_48_0 : ∀ a, (![48, 0] : Fin 2 → Nat) a + S1x1024.size a ≤ S128x1024.size a
  inb_S128x1024_S1x1024_49_0 : ∀ a, (![49, 0] : Fin 2 → Nat) a + S1x1024.size a ≤ S128x1024.size a
  inb_S128x1024_S1x1024_50_0 : ∀ a, (![50, 0] : Fin 2 → Nat) a + S1x1024.size a ≤ S128x1024.size a
  inb_S128x1024_S1x1024_51_0 : ∀ a, (![51, 0] : Fin 2 → Nat) a + S1x1024.size a ≤ S128x1024.size a
  inb_S128x1024_S1x1024_52_0 : ∀ a, (![52, 0] : Fin 2 → Nat) a + S1x1024.size a ≤ S128x1024.size a
  inb_S128x1024_S1x1024_53_0 : ∀ a, (![53, 0] : Fin 2 → Nat) a + S1x1024.size a ≤ S128x1024.size a
  inb_S128x1024_S1x1024_54_0 : ∀ a, (![54, 0] : Fin 2 → Nat) a + S1x1024.size a ≤ S128x1024.size a
  inb_S128x1024_S1x1024_55_0 : ∀ a, (![55, 0] : Fin 2 → Nat) a + S1x1024.size a ≤ S128x1024.size a
  inb_S128x1024_S1x1024_56_0 : ∀ a, (![56, 0] : Fin 2 → Nat) a + S1x1024.size a ≤ S128x1024.size a
  inb_S128x1024_S1x1024_57_0 : ∀ a, (![57, 0] : Fin 2 → Nat) a + S1x1024.size a ≤ S128x1024.size a
  inb_S128x1024_S1x1024_58_0 : ∀ a, (![58, 0] : Fin 2 → Nat) a + S1x1024.size a ≤ S128x1024.size a
  inb_S128x1024_S1x1024_59_0 : ∀ a, (![59, 0] : Fin 2 → Nat) a + S1x1024.size a ≤ S128x1024.size a
  inb_S128x1024_S1x1024_60_0 : ∀ a, (![60, 0] : Fin 2 → Nat) a + S1x1024.size a ≤ S128x1024.size a
  inb_S128x1024_S1x1024_61_0 : ∀ a, (![61, 0] : Fin 2 → Nat) a + S1x1024.size a ≤ S128x1024.size a
  inb_S128x1024_S1x1024_62_0 : ∀ a, (![62, 0] : Fin 2 → Nat) a + S1x1024.size a ≤ S128x1024.size a
  inb_S128x1024_S1x1024_63_0 : ∀ a, (![63, 0] : Fin 2 → Nat) a + S1x1024.size a ≤ S128x1024.size a
  inb_S128x1024_S1x1024_64_0 : ∀ a, (![64, 0] : Fin 2 → Nat) a + S1x1024.size a ≤ S128x1024.size a
  inb_S128x1024_S1x1024_65_0 : ∀ a, (![65, 0] : Fin 2 → Nat) a + S1x1024.size a ≤ S128x1024.size a
  inb_S128x1024_S1x1024_66_0 : ∀ a, (![66, 0] : Fin 2 → Nat) a + S1x1024.size a ≤ S128x1024.size a
  inb_S128x1024_S1x1024_67_0 : ∀ a, (![67, 0] : Fin 2 → Nat) a + S1x1024.size a ≤ S128x1024.size a
  inb_S128x1024_S1x1024_68_0 : ∀ a, (![68, 0] : Fin 2 → Nat) a + S1x1024.size a ≤ S128x1024.size a
  inb_S128x1024_S1x1024_69_0 : ∀ a, (![69, 0] : Fin 2 → Nat) a + S1x1024.size a ≤ S128x1024.size a
  inb_S128x1024_S1x1024_70_0 : ∀ a, (![70, 0] : Fin 2 → Nat) a + S1x1024.size a ≤ S128x1024.size a
  inb_S128x1024_S1x1024_71_0 : ∀ a, (![71, 0] : Fin 2 → Nat) a + S1x1024.size a ≤ S128x1024.size a
  inb_S128x1024_S1x1024_72_0 : ∀ a, (![72, 0] : Fin 2 → Nat) a + S1x1024.size a ≤ S128x1024.size a
  inb_S128x1024_S1x1024_73_0 : ∀ a, (![73, 0] : Fin 2 → Nat) a + S1x1024.size a ≤ S128x1024.size a
  inb_S128x1024_S1x1024_74_0 : ∀ a, (![74, 0] : Fin 2 → Nat) a + S1x1024.size a ≤ S128x1024.size a
  inb_S128x1024_S1x1024_75_0 : ∀ a, (![75, 0] : Fin 2 → Nat) a + S1x1024.size a ≤ S128x1024.size a
  inb_S128x1024_S1x1024_76_0 : ∀ a, (![76, 0] : Fin 2 → Nat) a + S1x1024.size a ≤ S128x1024.size a
  inb_S128x1024_S1x1024_77_0 : ∀ a, (![77, 0] : Fin 2 → Nat) a + S1x1024.size a ≤ S128x1024.size a
  inb_S128x1024_S1x1024_78_0 : ∀ a, (![78, 0] : Fin 2 → Nat) a + S1x1024.size a ≤ S128x1024.size a
  inb_S128x1024_S1x1024_79_0 : ∀ a, (![79, 0] : Fin 2 → Nat) a + S1x1024.size a ≤ S128x1024.size a
  inb_S128x1024_S1x1024_80_0 : ∀ a, (![80, 0] : Fin 2 → Nat) a + S1x1024.size a ≤ S128x1024.size a
  inb_S128x1024_S1x1024_81_0 : ∀ a, (![81, 0] : Fin 2 → Nat) a + S1x1024.size a ≤ S128x1024.size a
  inb_S128x1024_S1x1024_82_0 : ∀ a, (![82, 0] : Fin 2 → Nat) a + S1x1024.size a ≤ S128x1024.size a
  inb_S128x1024_S1x1024_83_0 : ∀ a, (![83, 0] : Fin 2 → Nat) a + S1x1024.size a ≤ S128x1024.size a
  inb_S128x1024_S1x1024_84_0 : ∀ a, (![84, 0] : Fin 2 → Nat) a + S1x1024.size a ≤ S128x1024.size a
  inb_S128x1024_S1x1024_85_0 : ∀ a, (![85, 0] : Fin 2 → Nat) a + S1x1024.size a ≤ S128x1024.size a
  inb_S128x1024_S1x1024_86_0 : ∀ a, (![86, 0] : Fin 2 → Nat) a + S1x1024.size a ≤ S128x1024.size a
  inb_S128x1024_S1x1024_87_0 : ∀ a, (![87, 0] : Fin 2 → Nat) a + S1x1024.size a ≤ S128x1024.size a
  inb_S128x1024_S1x1024_88_0 : ∀ a, (![88, 0] : Fin 2 → Nat) a + S1x1024.size a ≤ S128x1024.size a
  inb_S128x1024_S1x1024_89_0 : ∀ a, (![89, 0] : Fin 2 → Nat) a + S1x1024.size a ≤ S128x1024.size a
  inb_S128x1024_S1x1024_90_0 : ∀ a, (![90, 0] : Fin 2 → Nat) a + S1x1024.size a ≤ S128x1024.size a
  inb_S128x1024_S1x1024_91_0 : ∀ a, (![91, 0] : Fin 2 → Nat) a + S1x1024.size a ≤ S128x1024.size a
  inb_S128x1024_S1x1024_92_0 : ∀ a, (![92, 0] : Fin 2 → Nat) a + S1x1024.size a ≤ S128x1024.size a
  inb_S128x1024_S1x1024_93_0 : ∀ a, (![93, 0] : Fin 2 → Nat) a + S1x1024.size a ≤ S128x1024.size a
  inb_S128x1024_S1x1024_94_0 : ∀ a, (![94, 0] : Fin 2 → Nat) a + S1x1024.size a ≤ S128x1024.size a
  inb_S128x1024_S1x1024_95_0 : ∀ a, (![95, 0] : Fin 2 → Nat) a + S1x1024.size a ≤ S128x1024.size a
  inb_S128x1024_S1x1024_96_0 : ∀ a, (![96, 0] : Fin 2 → Nat) a + S1x1024.size a ≤ S128x1024.size a
  inb_S128x1024_S1x1024_97_0 : ∀ a, (![97, 0] : Fin 2 → Nat) a + S1x1024.size a ≤ S128x1024.size a
  inb_S128x1024_S1x1024_98_0 : ∀ a, (![98, 0] : Fin 2 → Nat) a + S1x1024.size a ≤ S128x1024.size a
  inb_S128x1024_S1x1024_99_0 : ∀ a, (![99, 0] : Fin 2 → Nat) a + S1x1024.size a ≤ S128x1024.size a
  inb_S128x1024_S1x1024_100_0 : ∀ a, (![100, 0] : Fin 2 → Nat) a + S1x1024.size a ≤ S128x1024.size a
  inb_S128x1024_S1x1024_101_0 : ∀ a, (![101, 0] : Fin 2 → Nat) a + S1x1024.size a ≤ S128x1024.size a
  inb_S128x1024_S1x1024_102_0 : ∀ a, (![102, 0] : Fin 2 → Nat) a + S1x1024.size a ≤ S128x1024.size a
  inb_S128x1024_S1x1024_103_0 : ∀ a, (![103, 0] : Fin 2 → Nat) a + S1x1024.size a ≤ S128x1024.size a
  inb_S128x1024_S1x1024_104_0 : ∀ a, (![104, 0] : Fin 2 → Nat) a + S1x1024.size a ≤ S128x1024.size a
  inb_S128x1024_S1x1024_105_0 : ∀ a, (![105, 0] : Fin 2 → Nat) a + S1x1024.size a ≤ S128x1024.size a
  inb_S128x1024_S1x1024_106_0 : ∀ a, (![106, 0] : Fin 2 → Nat) a + S1x1024.size a ≤ S128x1024.size a
  inb_S128x1024_S1x1024_107_0 : ∀ a, (![107, 0] : Fin 2 → Nat) a + S1x1024.size a ≤ S128x1024.size a
  inb_S128x1024_S1x1024_108_0 : ∀ a, (![108, 0] : Fin 2 → Nat) a + S1x1024.size a ≤ S128x1024.size a
  inb_S128x1024_S1x1024_109_0 : ∀ a, (![109, 0] : Fin 2 → Nat) a + S1x1024.size a ≤ S128x1024.size a
  inb_S128x1024_S1x1024_110_0 : ∀ a, (![110, 0] : Fin 2 → Nat) a + S1x1024.size a ≤ S128x1024.size a
  inb_S128x1024_S1x1024_111_0 : ∀ a, (![111, 0] : Fin 2 → Nat) a + S1x1024.size a ≤ S128x1024.size a
  inb_S128x1024_S1x1024_112_0 : ∀ a, (![112, 0] : Fin 2 → Nat) a + S1x1024.size a ≤ S128x1024.size a
  inb_S128x1024_S1x1024_113_0 : ∀ a, (![113, 0] : Fin 2 → Nat) a + S1x1024.size a ≤ S128x1024.size a
  inb_S128x1024_S1x1024_114_0 : ∀ a, (![114, 0] : Fin 2 → Nat) a + S1x1024.size a ≤ S128x1024.size a
  inb_S128x1024_S1x1024_115_0 : ∀ a, (![115, 0] : Fin 2 → Nat) a + S1x1024.size a ≤ S128x1024.size a
  inb_S128x1024_S1x1024_116_0 : ∀ a, (![116, 0] : Fin 2 → Nat) a + S1x1024.size a ≤ S128x1024.size a
  inb_S128x1024_S1x1024_117_0 : ∀ a, (![117, 0] : Fin 2 → Nat) a + S1x1024.size a ≤ S128x1024.size a
  inb_S128x1024_S1x1024_118_0 : ∀ a, (![118, 0] : Fin 2 → Nat) a + S1x1024.size a ≤ S128x1024.size a
  inb_S128x1024_S1x1024_119_0 : ∀ a, (![119, 0] : Fin 2 → Nat) a + S1x1024.size a ≤ S128x1024.size a
  inb_S128x1024_S1x1024_120_0 : ∀ a, (![120, 0] : Fin 2 → Nat) a + S1x1024.size a ≤ S128x1024.size a
  inb_S128x1024_S1x1024_121_0 : ∀ a, (![121, 0] : Fin 2 → Nat) a + S1x1024.size a ≤ S128x1024.size a
  inb_S128x1024_S1x1024_122_0 : ∀ a, (![122, 0] : Fin 2 → Nat) a + S1x1024.size a ≤ S128x1024.size a
  inb_S128x1024_S1x1024_123_0 : ∀ a, (![123, 0] : Fin 2 → Nat) a + S1x1024.size a ≤ S128x1024.size a
  inb_S128x1024_S1x1024_124_0 : ∀ a, (![124, 0] : Fin 2 → Nat) a + S1x1024.size a ≤ S128x1024.size a
  inb_S128x1024_S1x1024_125_0 : ∀ a, (![125, 0] : Fin 2 → Nat) a + S1x1024.size a ≤ S128x1024.size a
  inb_S128x1024_S1x1024_126_0 : ∀ a, (![126, 0] : Fin 2 → Nat) a + S1x1024.size a ≤ S128x1024.size a
  inb_S128x1024_S1x1024_127_0 : ∀ a, (![127, 0] : Fin 2 → Nat) a + S1x1024.size a ≤ S128x1024.size a
  shapeCasts_S32768x1024_S8x4096x1024 : S32768x1024.ShapeCasts S8x4096x1024
  hcc1_scratch0 : 6 + S8.numel ≤ 14
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1280.size a ≤ S1024x32000.size a
  hwx0_0 : ∀ i : grid0.Coords, EltTy.bits .f32 = 32 ∨ (Rect.block (s := S1024x32000) S1024x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x1024.size a ≤ S32000x1024.size a
  hwx0_1 : ∀ i : grid0.Coords, EltTy.bits .f32 = 32 ∨ (Rect.block (s := S32000x1024) S1280x1024.size (cc0_transform_1 i) (hinb0_1 i)).WholeWords (EltTy.packing .f32)
  hrank1 : 0 < grid1.rank
  k1_off1_inb : ∀ i : grid1.Coords, ∀ a, (k1_off1 i) a + S1.size a ≤ S32768.size a
  k1_off3_inb : ∀ i : grid1.Coords, ∀ a, (k1_off3 i) a + S1.size a ≤ S32768.size a
  k1_off5_inb : ∀ i : grid1.Coords, ∀ a, (k1_off5 i) a + S1.size a ≤ S32768.size a
  k1_off7_inb : ∀ i : grid1.Coords, ∀ a, (k1_off7 i) a + S1.size a ≤ S32768.size a
  k1_off9_inb : ∀ i : grid1.Coords, ∀ a, (k1_off9 i) a + S1.size a ≤ S32768.size a
  k1_off11_inb : ∀ i : grid1.Coords, ∀ a, (k1_off11 i) a + S1.size a ≤ S32768.size a
  k1_off13_inb : ∀ i : grid1.Coords, ∀ a, (k1_off13 i) a + S1.size a ≤ S32768.size a
  k1_off15_inb : ∀ i : grid1.Coords, ∀ a, (k1_off15 i) a + S1.size a ≤ S32768.size a
  k1_off17_inb : ∀ i : grid1.Coords, ∀ a, (k1_off17 i) a + S1.size a ≤ S32768.size a
  k1_off19_inb : ∀ i : grid1.Coords, ∀ a, (k1_off19 i) a + S1.size a ≤ S32768.size a
  k1_off21_inb : ∀ i : grid1.Coords, ∀ a, (k1_off21 i) a + S1.size a ≤ S32768.size a
  k1_off23_inb : ∀ i : grid1.Coords, ∀ a, (k1_off23 i) a + S1.size a ≤ S32768.size a
  k1_off25_inb : ∀ i : grid1.Coords, ∀ a, (k1_off25 i) a + S1.size a ≤ S32768.size a
  k1_off27_inb : ∀ i : grid1.Coords, ∀ a, (k1_off27 i) a + S1.size a ≤ S32768.size a
  k1_off29_inb : ∀ i : grid1.Coords, ∀ a, (k1_off29 i) a + S1.size a ≤ S32768.size a
  k1_off31_inb : ∀ i : grid1.Coords, ∀ a, (k1_off31 i) a + S1.size a ≤ S32768.size a
  k1_off33_inb : ∀ i : grid1.Coords, ∀ a, (k1_off33 i) a + S1.size a ≤ S32768.size a
  k1_off35_inb : ∀ i : grid1.Coords, ∀ a, (k1_off35 i) a + S1.size a ≤ S32768.size a
  k1_off37_inb : ∀ i : grid1.Coords, ∀ a, (k1_off37 i) a + S1.size a ≤ S32768.size a
  k1_off39_inb : ∀ i : grid1.Coords, ∀ a, (k1_off39 i) a + S1.size a ≤ S32768.size a
  k1_off41_inb : ∀ i : grid1.Coords, ∀ a, (k1_off41 i) a + S1.size a ≤ S32768.size a
  k1_off43_inb : ∀ i : grid1.Coords, ∀ a, (k1_off43 i) a + S1.size a ≤ S32768.size a
  k1_off45_inb : ∀ i : grid1.Coords, ∀ a, (k1_off45 i) a + S1.size a ≤ S32768.size a
  k1_off47_inb : ∀ i : grid1.Coords, ∀ a, (k1_off47 i) a + S1.size a ≤ S32768.size a
  k1_off49_inb : ∀ i : grid1.Coords, ∀ a, (k1_off49 i) a + S1.size a ≤ S32768.size a
  k1_off51_inb : ∀ i : grid1.Coords, ∀ a, (k1_off51 i) a + S1.size a ≤ S32768.size a
  k1_off53_inb : ∀ i : grid1.Coords, ∀ a, (k1_off53 i) a + S1.size a ≤ S32768.size a
  k1_off55_inb : ∀ i : grid1.Coords, ∀ a, (k1_off55 i) a + S1.size a ≤ S32768.size a
  k1_off57_inb : ∀ i : grid1.Coords, ∀ a, (k1_off57 i) a + S1.size a ≤ S32768.size a
  k1_off59_inb : ∀ i : grid1.Coords, ∀ a, (k1_off59 i) a + S1.size a ≤ S32768.size a
  k1_off61_inb : ∀ i : grid1.Coords, ∀ a, (k1_off61 i) a + S1.size a ≤ S32768.size a
  k1_off63_inb : ∀ i : grid1.Coords, ∀ a, (k1_off63 i) a + S1.size a ≤ S32768.size a
  k1_off65_inb : ∀ i : grid1.Coords, ∀ a, (k1_off65 i) a + S1.size a ≤ S32768.size a
  k1_off67_inb : ∀ i : grid1.Coords, ∀ a, (k1_off67 i) a + S1.size a ≤ S32768.size a
  k1_off69_inb : ∀ i : grid1.Coords, ∀ a, (k1_off69 i) a + S1.size a ≤ S32768.size a
  k1_off71_inb : ∀ i : grid1.Coords, ∀ a, (k1_off71 i) a + S1.size a ≤ S32768.size a
  k1_off73_inb : ∀ i : grid1.Coords, ∀ a, (k1_off73 i) a + S1.size a ≤ S32768.size a
  k1_off75_inb : ∀ i : grid1.Coords, ∀ a, (k1_off75 i) a + S1.size a ≤ S32768.size a
  k1_off77_inb : ∀ i : grid1.Coords, ∀ a, (k1_off77 i) a + S1.size a ≤ S32768.size a
  k1_off79_inb : ∀ i : grid1.Coords, ∀ a, (k1_off79 i) a + S1.size a ≤ S32768.size a
  k1_off81_inb : ∀ i : grid1.Coords, ∀ a, (k1_off81 i) a + S1.size a ≤ S32768.size a
  k1_off83_inb : ∀ i : grid1.Coords, ∀ a, (k1_off83 i) a + S1.size a ≤ S32768.size a
  k1_off85_inb : ∀ i : grid1.Coords, ∀ a, (k1_off85 i) a + S1.size a ≤ S32768.size a
  k1_off87_inb : ∀ i : grid1.Coords, ∀ a, (k1_off87 i) a + S1.size a ≤ S32768.size a
  k1_off89_inb : ∀ i : grid1.Coords, ∀ a, (k1_off89 i) a + S1.size a ≤ S32768.size a
  k1_off91_inb : ∀ i : grid1.Coords, ∀ a, (k1_off91 i) a + S1.size a ≤ S32768.size a
  k1_off93_inb : ∀ i : grid1.Coords, ∀ a, (k1_off93 i) a + S1.size a ≤ S32768.size a
  k1_off95_inb : ∀ i : grid1.Coords, ∀ a, (k1_off95 i) a + S1.size a ≤ S32768.size a
  k1_off97_inb : ∀ i : grid1.Coords, ∀ a, (k1_off97 i) a + S1.size a ≤ S32768.size a
  k1_off99_inb : ∀ i : grid1.Coords, ∀ a, (k1_off99 i) a + S1.size a ≤ S32768.size a
  k1_off101_inb : ∀ i : grid1.Coords, ∀ a, (k1_off101 i) a + S1.size a ≤ S32768.size a
  k1_off103_inb : ∀ i : grid1.Coords, ∀ a, (k1_off103 i) a + S1.size a ≤ S32768.size a
  k1_off105_inb : ∀ i : grid1.Coords, ∀ a, (k1_off105 i) a + S1.size a ≤ S32768.size a
  k1_off107_inb : ∀ i : grid1.Coords, ∀ a, (k1_off107 i) a + S1.size a ≤ S32768.size a
  k1_off109_inb : ∀ i : grid1.Coords, ∀ a, (k1_off109 i) a + S1.size a ≤ S32768.size a
  k1_off111_inb : ∀ i : grid1.Coords, ∀ a, (k1_off111 i) a + S1.size a ≤ S32768.size a
  k1_off113_inb : ∀ i : grid1.Coords, ∀ a, (k1_off113 i) a + S1.size a ≤ S32768.size a
  k1_off115_inb : ∀ i : grid1.Coords, ∀ a, (k1_off115 i) a + S1.size a ≤ S32768.size a
  k1_off117_inb : ∀ i : grid1.Coords, ∀ a, (k1_off117 i) a + S1.size a ≤ S32768.size a
  k1_off119_inb : ∀ i : grid1.Coords, ∀ a, (k1_off119 i) a + S1.size a ≤ S32768.size a
  k1_off121_inb : ∀ i : grid1.Coords, ∀ a, (k1_off121 i) a + S1.size a ≤ S32768.size a
  k1_off123_inb : ∀ i : grid1.Coords, ∀ a, (k1_off123 i) a + S1.size a ≤ S32768.size a
  k1_off125_inb : ∀ i : grid1.Coords, ∀ a, (k1_off125 i) a + S1.size a ≤ S32768.size a
  k1_off127_inb : ∀ i : grid1.Coords, ∀ a, (k1_off127 i) a + S1.size a ≤ S32768.size a
  k1_off129_inb : ∀ i : grid1.Coords, ∀ a, (k1_off129 i) a + S1.size a ≤ S32768.size a
  k1_off131_inb : ∀ i : grid1.Coords, ∀ a, (k1_off131 i) a + S1.size a ≤ S32768.size a
  k1_off133_inb : ∀ i : grid1.Coords, ∀ a, (k1_off133 i) a + S1.size a ≤ S32768.size a
  k1_off135_inb : ∀ i : grid1.Coords, ∀ a, (k1_off135 i) a + S1.size a ≤ S32768.size a
  k1_off137_inb : ∀ i : grid1.Coords, ∀ a, (k1_off137 i) a + S1.size a ≤ S32768.size a
  k1_off139_inb : ∀ i : grid1.Coords, ∀ a, (k1_off139 i) a + S1.size a ≤ S32768.size a
  k1_off141_inb : ∀ i : grid1.Coords, ∀ a, (k1_off141 i) a + S1.size a ≤ S32768.size a
  k1_off143_inb : ∀ i : grid1.Coords, ∀ a, (k1_off143 i) a + S1.size a ≤ S32768.size a
  k1_off145_inb : ∀ i : grid1.Coords, ∀ a, (k1_off145 i) a + S1.size a ≤ S32768.size a
  k1_off147_inb : ∀ i : grid1.Coords, ∀ a, (k1_off147 i) a + S1.size a ≤ S32768.size a
  k1_off149_inb : ∀ i : grid1.Coords, ∀ a, (k1_off149 i) a + S1.size a ≤ S32768.size a
  k1_off151_inb : ∀ i : grid1.Coords, ∀ a, (k1_off151 i) a + S1.size a ≤ S32768.size a
  k1_off153_inb : ∀ i : grid1.Coords, ∀ a, (k1_off153 i) a + S1.size a ≤ S32768.size a
  k1_off155_inb : ∀ i : grid1.Coords, ∀ a, (k1_off155 i) a + S1.size a ≤ S32768.size a
  k1_off157_inb : ∀ i : grid1.Coords, ∀ a, (k1_off157 i) a + S1.size a ≤ S32768.size a
  k1_off159_inb : ∀ i : grid1.Coords, ∀ a, (k1_off159 i) a + S1.size a ≤ S32768.size a
  k1_off161_inb : ∀ i : grid1.Coords, ∀ a, (k1_off161 i) a + S1.size a ≤ S32768.size a
  k1_off163_inb : ∀ i : grid1.Coords, ∀ a, (k1_off163 i) a + S1.size a ≤ S32768.size a
  k1_off165_inb : ∀ i : grid1.Coords, ∀ a, (k1_off165 i) a + S1.size a ≤ S32768.size a
  k1_off167_inb : ∀ i : grid1.Coords, ∀ a, (k1_off167 i) a + S1.size a ≤ S32768.size a
  k1_off169_inb : ∀ i : grid1.Coords, ∀ a, (k1_off169 i) a + S1.size a ≤ S32768.size a
  k1_off171_inb : ∀ i : grid1.Coords, ∀ a, (k1_off171 i) a + S1.size a ≤ S32768.size a
  k1_off173_inb : ∀ i : grid1.Coords, ∀ a, (k1_off173 i) a + S1.size a ≤ S32768.size a
  k1_off175_inb : ∀ i : grid1.Coords, ∀ a, (k1_off175 i) a + S1.size a ≤ S32768.size a
  k1_off177_inb : ∀ i : grid1.Coords, ∀ a, (k1_off177 i) a + S1.size a ≤ S32768.size a
  k1_off179_inb : ∀ i : grid1.Coords, ∀ a, (k1_off179 i) a + S1.size a ≤ S32768.size a
  k1_off181_inb : ∀ i : grid1.Coords, ∀ a, (k1_off181 i) a + S1.size a ≤ S32768.size a
  k1_off183_inb : ∀ i : grid1.Coords, ∀ a, (k1_off183 i) a + S1.size a ≤ S32768.size a
  k1_off185_inb : ∀ i : grid1.Coords, ∀ a, (k1_off185 i) a + S1.size a ≤ S32768.size a
  k1_off187_inb : ∀ i : grid1.Coords, ∀ a, (k1_off187 i) a + S1.size a ≤ S32768.size a
  k1_off189_inb : ∀ i : grid1.Coords, ∀ a, (k1_off189 i) a + S1.size a ≤ S32768.size a
  k1_off191_inb : ∀ i : grid1.Coords, ∀ a, (k1_off191 i) a + S1.size a ≤ S32768.size a
  k1_off193_inb : ∀ i : grid1.Coords, ∀ a, (k1_off193 i) a + S1.size a ≤ S32768.size a
  k1_off195_inb : ∀ i : grid1.Coords, ∀ a, (k1_off195 i) a + S1.size a ≤ S32768.size a
  k1_off197_inb : ∀ i : grid1.Coords, ∀ a, (k1_off197 i) a + S1.size a ≤ S32768.size a
  k1_off199_inb : ∀ i : grid1.Coords, ∀ a, (k1_off199 i) a + S1.size a ≤ S32768.size a
  k1_off201_inb : ∀ i : grid1.Coords, ∀ a, (k1_off201 i) a + S1.size a ≤ S32768.size a
  k1_off203_inb : ∀ i : grid1.Coords, ∀ a, (k1_off203 i) a + S1.size a ≤ S32768.size a
  k1_off205_inb : ∀ i : grid1.Coords, ∀ a, (k1_off205 i) a + S1.size a ≤ S32768.size a
  k1_off207_inb : ∀ i : grid1.Coords, ∀ a, (k1_off207 i) a + S1.size a ≤ S32768.size a
  k1_off209_inb : ∀ i : grid1.Coords, ∀ a, (k1_off209 i) a + S1.size a ≤ S32768.size a
  k1_off211_inb : ∀ i : grid1.Coords, ∀ a, (k1_off211 i) a + S1.size a ≤ S32768.size a
  k1_off213_inb : ∀ i : grid1.Coords, ∀ a, (k1_off213 i) a + S1.size a ≤ S32768.size a
  k1_off215_inb : ∀ i : grid1.Coords, ∀ a, (k1_off215 i) a + S1.size a ≤ S32768.size a
  k1_off217_inb : ∀ i : grid1.Coords, ∀ a, (k1_off217 i) a + S1.size a ≤ S32768.size a
  k1_off219_inb : ∀ i : grid1.Coords, ∀ a, (k1_off219 i) a + S1.size a ≤ S32768.size a
  k1_off221_inb : ∀ i : grid1.Coords, ∀ a, (k1_off221 i) a + S1.size a ≤ S32768.size a
  k1_off223_inb : ∀ i : grid1.Coords, ∀ a, (k1_off223 i) a + S1.size a ≤ S32768.size a
  k1_off225_inb : ∀ i : grid1.Coords, ∀ a, (k1_off225 i) a + S1.size a ≤ S32768.size a
  k1_off227_inb : ∀ i : grid1.Coords, ∀ a, (k1_off227 i) a + S1.size a ≤ S32768.size a
  k1_off229_inb : ∀ i : grid1.Coords, ∀ a, (k1_off229 i) a + S1.size a ≤ S32768.size a
  k1_off231_inb : ∀ i : grid1.Coords, ∀ a, (k1_off231 i) a + S1.size a ≤ S32768.size a
  k1_off233_inb : ∀ i : grid1.Coords, ∀ a, (k1_off233 i) a + S1.size a ≤ S32768.size a
  k1_off235_inb : ∀ i : grid1.Coords, ∀ a, (k1_off235 i) a + S1.size a ≤ S32768.size a
  k1_off237_inb : ∀ i : grid1.Coords, ∀ a, (k1_off237 i) a + S1.size a ≤ S32768.size a
  k1_off239_inb : ∀ i : grid1.Coords, ∀ a, (k1_off239 i) a + S1.size a ≤ S32768.size a
  k1_off241_inb : ∀ i : grid1.Coords, ∀ a, (k1_off241 i) a + S1.size a ≤ S32768.size a
  k1_off243_inb : ∀ i : grid1.Coords, ∀ a, (k1_off243 i) a + S1.size a ≤ S32768.size a
  k1_off245_inb : ∀ i : grid1.Coords, ∀ a, (k1_off245 i) a + S1.size a ≤ S32768.size a
  k1_off247_inb : ∀ i : grid1.Coords, ∀ a, (k1_off247 i) a + S1.size a ≤ S32768.size a
  k1_off249_inb : ∀ i : grid1.Coords, ∀ a, (k1_off249 i) a + S1.size a ≤ S32768.size a
  k1_off251_inb : ∀ i : grid1.Coords, ∀ a, (k1_off251 i) a + S1.size a ≤ S32768.size a
  k1_off253_inb : ∀ i : grid1.Coords, ∀ a, (k1_off253 i) a + S1.size a ≤ S32768.size a
  k1_off255_inb : ∀ i : grid1.Coords, ∀ a, (k1_off255 i) a + S1.size a ≤ S32768.size a
  k1_off257_inb : ∀ i : grid1.Coords, ∀ a, (k1_off257 i) a + S1.size a ≤ S32768.size a
  k1_off259_inb : ∀ i : grid1.Coords, ∀ a, (k1_off259 i) a + S1.size a ≤ S32768.size a
  k1_off261_inb : ∀ i : grid1.Coords, ∀ a, (k1_off261 i) a + S1.size a ≤ S32768.size a
  k1_off263_inb : ∀ i : grid1.Coords, ∀ a, (k1_off263 i) a + S1.size a ≤ S32768.size a
  k1_off265_inb : ∀ i : grid1.Coords, ∀ a, (k1_off265 i) a + S1.size a ≤ S32768.size a
  k1_off267_inb : ∀ i : grid1.Coords, ∀ a, (k1_off267 i) a + S1.size a ≤ S32768.size a
  k1_off269_inb : ∀ i : grid1.Coords, ∀ a, (k1_off269 i) a + S1.size a ≤ S32768.size a
  k1_off271_inb : ∀ i : grid1.Coords, ∀ a, (k1_off271 i) a + S1.size a ≤ S32768.size a
  k1_off273_inb : ∀ i : grid1.Coords, ∀ a, (k1_off273 i) a + S1.size a ≤ S32768.size a
  k1_off275_inb : ∀ i : grid1.Coords, ∀ a, (k1_off275 i) a + S1.size a ≤ S32768.size a
  k1_off277_inb : ∀ i : grid1.Coords, ∀ a, (k1_off277 i) a + S1.size a ≤ S32768.size a
  k1_off279_inb : ∀ i : grid1.Coords, ∀ a, (k1_off279 i) a + S1.size a ≤ S32768.size a
  k1_off281_inb : ∀ i : grid1.Coords, ∀ a, (k1_off281 i) a + S1.size a ≤ S32768.size a
  k1_off283_inb : ∀ i : grid1.Coords, ∀ a, (k1_off283 i) a + S1.size a ≤ S32768.size a
  k1_off285_inb : ∀ i : grid1.Coords, ∀ a, (k1_off285 i) a + S1.size a ≤ S32768.size a
  k1_off287_inb : ∀ i : grid1.Coords, ∀ a, (k1_off287 i) a + S1.size a ≤ S32768.size a
  k1_off289_inb : ∀ i : grid1.Coords, ∀ a, (k1_off289 i) a + S1.size a ≤ S32768.size a
  k1_off291_inb : ∀ i : grid1.Coords, ∀ a, (k1_off291 i) a + S1.size a ≤ S32768.size a
  k1_off293_inb : ∀ i : grid1.Coords, ∀ a, (k1_off293 i) a + S1.size a ≤ S32768.size a
  k1_off295_inb : ∀ i : grid1.Coords, ∀ a, (k1_off295 i) a + S1.size a ≤ S32768.size a
  k1_off297_inb : ∀ i : grid1.Coords, ∀ a, (k1_off297 i) a + S1.size a ≤ S32768.size a
  k1_off299_inb : ∀ i : grid1.Coords, ∀ a, (k1_off299 i) a + S1.size a ≤ S32768.size a
  k1_off301_inb : ∀ i : grid1.Coords, ∀ a, (k1_off301 i) a + S1.size a ≤ S32768.size a
  k1_off303_inb : ∀ i : grid1.Coords, ∀ a, (k1_off303 i) a + S1.size a ≤ S32768.size a
  k1_off305_inb : ∀ i : grid1.Coords, ∀ a, (k1_off305 i) a + S1.size a ≤ S32768.size a
  k1_off307_inb : ∀ i : grid1.Coords, ∀ a, (k1_off307 i) a + S1.size a ≤ S32768.size a
  k1_off309_inb : ∀ i : grid1.Coords, ∀ a, (k1_off309 i) a + S1.size a ≤ S32768.size a
  k1_off311_inb : ∀ i : grid1.Coords, ∀ a, (k1_off311 i) a + S1.size a ≤ S32768.size a
  k1_off313_inb : ∀ i : grid1.Coords, ∀ a, (k1_off313 i) a + S1.size a ≤ S32768.size a
  k1_off315_inb : ∀ i : grid1.Coords, ∀ a, (k1_off315 i) a + S1.size a ≤ S32768.size a
  k1_off317_inb : ∀ i : grid1.Coords, ∀ a, (k1_off317 i) a + S1.size a ≤ S32768.size a
  k1_off319_inb : ∀ i : grid1.Coords, ∀ a, (k1_off319 i) a + S1.size a ≤ S32768.size a
  k1_off321_inb : ∀ i : grid1.Coords, ∀ a, (k1_off321 i) a + S1.size a ≤ S32768.size a
  k1_off323_inb : ∀ i : grid1.Coords, ∀ a, (k1_off323 i) a + S1.size a ≤ S32768.size a
  k1_off325_inb : ∀ i : grid1.Coords, ∀ a, (k1_off325 i) a + S1.size a ≤ S32768.size a
  k1_off327_inb : ∀ i : grid1.Coords, ∀ a, (k1_off327 i) a + S1.size a ≤ S32768.size a
  k1_off329_inb : ∀ i : grid1.Coords, ∀ a, (k1_off329 i) a + S1.size a ≤ S32768.size a
  k1_off331_inb : ∀ i : grid1.Coords, ∀ a, (k1_off331 i) a + S1.size a ≤ S32768.size a
  k1_off333_inb : ∀ i : grid1.Coords, ∀ a, (k1_off333 i) a + S1.size a ≤ S32768.size a
  k1_off335_inb : ∀ i : grid1.Coords, ∀ a, (k1_off335 i) a + S1.size a ≤ S32768.size a
  k1_off337_inb : ∀ i : grid1.Coords, ∀ a, (k1_off337 i) a + S1.size a ≤ S32768.size a
  k1_off339_inb : ∀ i : grid1.Coords, ∀ a, (k1_off339 i) a + S1.size a ≤ S32768.size a
  k1_off341_inb : ∀ i : grid1.Coords, ∀ a, (k1_off341 i) a + S1.size a ≤ S32768.size a
  k1_off343_inb : ∀ i : grid1.Coords, ∀ a, (k1_off343 i) a + S1.size a ≤ S32768.size a
  k1_off345_inb : ∀ i : grid1.Coords, ∀ a, (k1_off345 i) a + S1.size a ≤ S32768.size a
  k1_off347_inb : ∀ i : grid1.Coords, ∀ a, (k1_off347 i) a + S1.size a ≤ S32768.size a
  k1_off349_inb : ∀ i : grid1.Coords, ∀ a, (k1_off349 i) a + S1.size a ≤ S32768.size a
  k1_off351_inb : ∀ i : grid1.Coords, ∀ a, (k1_off351 i) a + S1.size a ≤ S32768.size a
  k1_off353_inb : ∀ i : grid1.Coords, ∀ a, (k1_off353 i) a + S1.size a ≤ S32768.size a
  k1_off355_inb : ∀ i : grid1.Coords, ∀ a, (k1_off355 i) a + S1.size a ≤ S32768.size a
  k1_off357_inb : ∀ i : grid1.Coords, ∀ a, (k1_off357 i) a + S1.size a ≤ S32768.size a
  k1_off359_inb : ∀ i : grid1.Coords, ∀ a, (k1_off359 i) a + S1.size a ≤ S32768.size a
  k1_off361_inb : ∀ i : grid1.Coords, ∀ a, (k1_off361 i) a + S1.size a ≤ S32768.size a
  k1_off363_inb : ∀ i : grid1.Coords, ∀ a, (k1_off363 i) a + S1.size a ≤ S32768.size a
  k1_off365_inb : ∀ i : grid1.Coords, ∀ a, (k1_off365 i) a + S1.size a ≤ S32768.size a
  k1_off367_inb : ∀ i : grid1.Coords, ∀ a, (k1_off367 i) a + S1.size a ≤ S32768.size a
  k1_off369_inb : ∀ i : grid1.Coords, ∀ a, (k1_off369 i) a + S1.size a ≤ S32768.size a
  k1_off371_inb : ∀ i : grid1.Coords, ∀ a, (k1_off371 i) a + S1.size a ≤ S32768.size a
  k1_off373_inb : ∀ i : grid1.Coords, ∀ a, (k1_off373 i) a + S1.size a ≤ S32768.size a
  k1_off375_inb : ∀ i : grid1.Coords, ∀ a, (k1_off375 i) a + S1.size a ≤ S32768.size a
  k1_off377_inb : ∀ i : grid1.Coords, ∀ a, (k1_off377 i) a + S1.size a ≤ S32768.size a
  k1_off379_inb : ∀ i : grid1.Coords, ∀ a, (k1_off379 i) a + S1.size a ≤ S32768.size a
  k1_off381_inb : ∀ i : grid1.Coords, ∀ a, (k1_off381 i) a + S1.size a ≤ S32768.size a
  k1_off383_inb : ∀ i : grid1.Coords, ∀ a, (k1_off383 i) a + S1.size a ≤ S32768.size a
  k1_off385_inb : ∀ i : grid1.Coords, ∀ a, (k1_off385 i) a + S1.size a ≤ S32768.size a
  k1_off387_inb : ∀ i : grid1.Coords, ∀ a, (k1_off387 i) a + S1.size a ≤ S32768.size a
  k1_off389_inb : ∀ i : grid1.Coords, ∀ a, (k1_off389 i) a + S1.size a ≤ S32768.size a
  k1_off391_inb : ∀ i : grid1.Coords, ∀ a, (k1_off391 i) a + S1.size a ≤ S32768.size a
  k1_off393_inb : ∀ i : grid1.Coords, ∀ a, (k1_off393 i) a + S1.size a ≤ S32768.size a
  k1_off395_inb : ∀ i : grid1.Coords, ∀ a, (k1_off395 i) a + S1.size a ≤ S32768.size a
  k1_off397_inb : ∀ i : grid1.Coords, ∀ a, (k1_off397 i) a + S1.size a ≤ S32768.size a
  k1_off399_inb : ∀ i : grid1.Coords, ∀ a, (k1_off399 i) a + S1.size a ≤ S32768.size a
  k1_off401_inb : ∀ i : grid1.Coords, ∀ a, (k1_off401 i) a + S1.size a ≤ S32768.size a
  k1_off403_inb : ∀ i : grid1.Coords, ∀ a, (k1_off403 i) a + S1.size a ≤ S32768.size a
  k1_off405_inb : ∀ i : grid1.Coords, ∀ a, (k1_off405 i) a + S1.size a ≤ S32768.size a
  k1_off407_inb : ∀ i : grid1.Coords, ∀ a, (k1_off407 i) a + S1.size a ≤ S32768.size a
  k1_off409_inb : ∀ i : grid1.Coords, ∀ a, (k1_off409 i) a + S1.size a ≤ S32768.size a
  k1_off411_inb : ∀ i : grid1.Coords, ∀ a, (k1_off411 i) a + S1.size a ≤ S32768.size a
  k1_off413_inb : ∀ i : grid1.Coords, ∀ a, (k1_off413 i) a + S1.size a ≤ S32768.size a
  k1_off415_inb : ∀ i : grid1.Coords, ∀ a, (k1_off415 i) a + S1.size a ≤ S32768.size a
  k1_off417_inb : ∀ i : grid1.Coords, ∀ a, (k1_off417 i) a + S1.size a ≤ S32768.size a
  k1_off419_inb : ∀ i : grid1.Coords, ∀ a, (k1_off419 i) a + S1.size a ≤ S32768.size a
  k1_off421_inb : ∀ i : grid1.Coords, ∀ a, (k1_off421 i) a + S1.size a ≤ S32768.size a
  k1_off423_inb : ∀ i : grid1.Coords, ∀ a, (k1_off423 i) a + S1.size a ≤ S32768.size a
  k1_off425_inb : ∀ i : grid1.Coords, ∀ a, (k1_off425 i) a + S1.size a ≤ S32768.size a
  k1_off427_inb : ∀ i : grid1.Coords, ∀ a, (k1_off427 i) a + S1.size a ≤ S32768.size a
  k1_off429_inb : ∀ i : grid1.Coords, ∀ a, (k1_off429 i) a + S1.size a ≤ S32768.size a
  k1_off431_inb : ∀ i : grid1.Coords, ∀ a, (k1_off431 i) a + S1.size a ≤ S32768.size a
  k1_off433_inb : ∀ i : grid1.Coords, ∀ a, (k1_off433 i) a + S1.size a ≤ S32768.size a
  k1_off435_inb : ∀ i : grid1.Coords, ∀ a, (k1_off435 i) a + S1.size a ≤ S32768.size a
  k1_off437_inb : ∀ i : grid1.Coords, ∀ a, (k1_off437 i) a + S1.size a ≤ S32768.size a
  k1_off439_inb : ∀ i : grid1.Coords, ∀ a, (k1_off439 i) a + S1.size a ≤ S32768.size a
  k1_off441_inb : ∀ i : grid1.Coords, ∀ a, (k1_off441 i) a + S1.size a ≤ S32768.size a
  k1_off443_inb : ∀ i : grid1.Coords, ∀ a, (k1_off443 i) a + S1.size a ≤ S32768.size a
  k1_off445_inb : ∀ i : grid1.Coords, ∀ a, (k1_off445 i) a + S1.size a ≤ S32768.size a
  k1_off447_inb : ∀ i : grid1.Coords, ∀ a, (k1_off447 i) a + S1.size a ≤ S32768.size a
  k1_off449_inb : ∀ i : grid1.Coords, ∀ a, (k1_off449 i) a + S1.size a ≤ S32768.size a
  k1_off451_inb : ∀ i : grid1.Coords, ∀ a, (k1_off451 i) a + S1.size a ≤ S32768.size a
  k1_off453_inb : ∀ i : grid1.Coords, ∀ a, (k1_off453 i) a + S1.size a ≤ S32768.size a
  k1_off455_inb : ∀ i : grid1.Coords, ∀ a, (k1_off455 i) a + S1.size a ≤ S32768.size a
  k1_off457_inb : ∀ i : grid1.Coords, ∀ a, (k1_off457 i) a + S1.size a ≤ S32768.size a
  k1_off459_inb : ∀ i : grid1.Coords, ∀ a, (k1_off459 i) a + S1.size a ≤ S32768.size a
  k1_off461_inb : ∀ i : grid1.Coords, ∀ a, (k1_off461 i) a + S1.size a ≤ S32768.size a
  k1_off463_inb : ∀ i : grid1.Coords, ∀ a, (k1_off463 i) a + S1.size a ≤ S32768.size a
  k1_off465_inb : ∀ i : grid1.Coords, ∀ a, (k1_off465 i) a + S1.size a ≤ S32768.size a
  k1_off467_inb : ∀ i : grid1.Coords, ∀ a, (k1_off467 i) a + S1.size a ≤ S32768.size a
  k1_off469_inb : ∀ i : grid1.Coords, ∀ a, (k1_off469 i) a + S1.size a ≤ S32768.size a
  k1_off471_inb : ∀ i : grid1.Coords, ∀ a, (k1_off471 i) a + S1.size a ≤ S32768.size a
  k1_off473_inb : ∀ i : grid1.Coords, ∀ a, (k1_off473 i) a + S1.size a ≤ S32768.size a
  k1_off475_inb : ∀ i : grid1.Coords, ∀ a, (k1_off475 i) a + S1.size a ≤ S32768.size a
  k1_off477_inb : ∀ i : grid1.Coords, ∀ a, (k1_off477 i) a + S1.size a ≤ S32768.size a
  k1_off479_inb : ∀ i : grid1.Coords, ∀ a, (k1_off479 i) a + S1.size a ≤ S32768.size a
  k1_off481_inb : ∀ i : grid1.Coords, ∀ a, (k1_off481 i) a + S1.size a ≤ S32768.size a
  k1_off483_inb : ∀ i : grid1.Coords, ∀ a, (k1_off483 i) a + S1.size a ≤ S32768.size a
  k1_off485_inb : ∀ i : grid1.Coords, ∀ a, (k1_off485 i) a + S1.size a ≤ S32768.size a
  k1_off487_inb : ∀ i : grid1.Coords, ∀ a, (k1_off487 i) a + S1.size a ≤ S32768.size a
  k1_off489_inb : ∀ i : grid1.Coords, ∀ a, (k1_off489 i) a + S1.size a ≤ S32768.size a
  k1_off491_inb : ∀ i : grid1.Coords, ∀ a, (k1_off491 i) a + S1.size a ≤ S32768.size a
  k1_off493_inb : ∀ i : grid1.Coords, ∀ a, (k1_off493 i) a + S1.size a ≤ S32768.size a
  k1_off495_inb : ∀ i : grid1.Coords, ∀ a, (k1_off495 i) a + S1.size a ≤ S32768.size a
  k1_off497_inb : ∀ i : grid1.Coords, ∀ a, (k1_off497 i) a + S1.size a ≤ S32768.size a
  k1_off499_inb : ∀ i : grid1.Coords, ∀ a, (k1_off499 i) a + S1.size a ≤ S32768.size a
  k1_off501_inb : ∀ i : grid1.Coords, ∀ a, (k1_off501 i) a + S1.size a ≤ S32768.size a
  k1_off503_inb : ∀ i : grid1.Coords, ∀ a, (k1_off503 i) a + S1.size a ≤ S32768.size a
  k1_off505_inb : ∀ i : grid1.Coords, ∀ a, (k1_off505 i) a + S1.size a ≤ S32768.size a
  k1_off507_inb : ∀ i : grid1.Coords, ∀ a, (k1_off507 i) a + S1.size a ≤ S32768.size a
  k1_off509_inb : ∀ i : grid1.Coords, ∀ a, (k1_off509 i) a + S1.size a ≤ S32768.size a
  k1_off511_inb : ∀ i : grid1.Coords, ∀ a, (k1_off511 i) a + S1.size a ≤ S32768.size a
  hstage1_0 : ∀ j, (stage1_0 j).IsWhole
  nbuf1_0 : grid1.bufCount reads1_0 false = 2
  hreads1_0 : ∀ i i' : grid1.Coords, (∀ a, reads1_0 a = true → i a = i' a) → cc1_transform_1 i = cc1_transform_1 i'
  hinb1_0 : ∀ (i : grid1.Coords) a, (cc1_transform_1 i a + 1) * S128x1024.size a ≤ S32768x1024.size a
  hwx1_0 : ∀ i : grid1.Coords, EltTy.bits .f32 = 32 ∨ (Rect.block (s := S32768x1024) S128x1024.size (cc1_transform_1 i) (hinb1_0 i)).WholeWords (EltTy.packing .f32)

variable [Facts₀]

abbrev cc1_scratch0 : DmaSems sig S8 := SemArray.consecutive 6 S8 hcc1_scratch0

abbrev win0_0 : Pipeline.Window sig grid0 :=
  Pipeline.Window.ofSpec (Memref.whole main_arg1) S1024x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1280x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev spec1_0 : Pipeline.WinSpec sig grid1.rank :=
  Pipeline.WinSpec.ofSpec (Memref.whole main_v2) S128x1024.size reads1_0 true false 2 stage1_0 sem1_0 nbuf1_0 hstage1_0

abbrev spec1 : Fin 1 → Pipeline.WinSpec sig grid1.rank := fun | 0 => spec1_0 | ⟨_ + 1, h⟩ => absurd h (Nat.not_lt.2 (Nat.le_add_left _ _))
theorem hcount1 : ∀ w, grid1.bufCount (spec1 w).reads (spec1 w).sync = (spec1 w).nbuf := fun | 0 => nbuf1_0 | ⟨_ + 1, h⟩ => absurd h (Nat.not_lt.2 (Nat.le_add_left _ _))
abbrev ix1 (pf : pre1.Contents (Elt F)) : (w : Fin 1) → grid1.Coords → Fin (spec1 w).shape.rank → Nat := fun | 0 => cc1_transform_1 | ⟨_ + 1, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | ⟨_ + 1, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | ⟨_ + 1, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | ⟨_ + 1, h⟩ => absurd h (Nat.not_lt.2 (Nat.le_add_left _ _))

class Facts : Prop extends Facts₀ where
  harr1 : ∀ w, (spec1 w).arr.IsWhole

variable [Facts]
-- ==== ReferenceIdeal.lean ====
abbrev S8x4096 : Shape := ⟨2, ![8, 4096]⟩
abbrev S1024x32000 : Shape := ⟨2, ![1024, 32000]⟩
abbrev S32000x1024 : Shape := ⟨2, ![32000, 1024]⟩
abbrev S_ : Shape := ⟨0, ![]⟩
abbrev S8x4096x1 : Shape := ⟨3, ![8, 4096, 1]⟩
abbrev S8x4096x1024 : Shape := ⟨3, ![8, 4096, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8x4096, .i32⟩
  | .hbm, ⟨1, _⟩ => ⟨S1024x32000, .f32⟩
  | .hbm, ⟨2, _⟩ => ⟨S32000x1024, .f32⟩
  | .hbm, ⟨3, _⟩ => ⟨S_, .i32⟩
  | .hbm, ⟨4, _⟩ => ⟨S8x4096, .i32⟩
  | .hbm, ⟨5, _⟩ => ⟨S8x4096, .i1⟩
  | .hbm, ⟨6, _⟩ => ⟨S_, .i32⟩
  | .hbm, ⟨7, _⟩ => ⟨S8x4096, .i32⟩
  | .hbm, ⟨8, _⟩ => ⟨S8x4096, .i32⟩
  | .hbm, ⟨9, _⟩ => ⟨S8x4096, .i32⟩
  | .hbm, ⟨10, _⟩ => ⟨S8x4096x1, .i32⟩
  | .hbm, ⟨11, _⟩ => ⟨S8x4096x1024, .f32⟩
  | _, _ => ⟨S8x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  transposes_S1024x32000_S32000x1024_1_0 : S1024x32000.Transposes [1, 0] S32000x1024
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  gather_S32000x1024_S8x4096x1_S8x4096x1024_2_0_n_n_0_2_11024_wf : GatherDims.WF S32000x1024 S8x4096x1 S8x4096x1024 [2] [0] [] [0] [] 2 ![1, 1024]

variable [Facts₀]

def gather_S32000x1024_S8x4096x1_S8x4096x1024_2_0_n_n_0_2_11024 : GatherDims S32000x1024 S8x4096x1 S8x4096x1024 where
  offsetDims := [2]
  collapsedSliceDims := [0]
  operandBatchingDims := []
  startIndicesBatchingDims := []
  startIndexMap := [0]
  indexVectorDim := 2
  sliceSizes := ![1, 1024]
  wf := gather_S32000x1024_S8x4096x1_S8x4096x1024_2_0_n_n_0_2_11024_wf

class Facts : Prop extends Facts₀ where

variable [Facts]
-- ==== Proof.Spec.lean ====
/-
  What both programs compute, as functions of the two arguments.

  The table `W` has one column per vocabulary entry; the result's entry (b, s, e) is entry e of column
  `tokens[b, s]`. The kernel gets there in stages: it transposes the table (`wt`), reads the tokens as one
  vector of 32768 words, copies for each word the row it names (`rows`), and reads the 32768 rows as 8 × 4096.
-/
import Idealize.ShloMosaic.PureOps.Ideal
import Idealize.ShloMosaic.Lib.ValueIdx

namespace Cert.Spec

open Idealize.ShloMosaic Idealize.ShloMosaic.ValueIdx

variable {α : Type}

/-- The table transposed: entry (r, e) of the result is entry (e, r) of the table. -/
def wt (X : (⟨2, ![1024, 32000]⟩ : Shape).Idx → α) : (⟨2, ![32000, 1024]⟩ : Shape).Idx → α :=
  fun y => X (ix2 (y 1 : Fin 1024) (y 0 : Fin 32000))

/-- The row of the transposed table a word names; a word past the last row names the last
    (no such word is met where every token is below 32000). -/
def rowOf (w : BitVec 32) : Fin 32000 := ⟨min w.toNat 31999, by omega⟩

theorem rowOf_val_of_lt {w : BitVec 32} (h : w.toNat < 32000) : (rowOf w).val = w.toNat := by
  unfold rowOf; simp only; omega

/-- The gathered rows: row r is the row of `Y` that word r of `T` names. -/
def rows (T : (⟨1, ![32768]⟩ : Shape).Idx → BitVec 32) (Y : (⟨2, ![32000, 1024]⟩ : Shape).Idx → α) :
    (⟨2, ![32768, 1024]⟩ : Shape).Idx → α :=
  fun y => Y (ix2 (rowOf (T (ix1 (y 0 : Fin 32768)))) (y 1 : Fin 1024))

/-- The result: entry (b, s, e) is entry e of the table's column `tokens[b, s]`. -/
def result (tok : (⟨2, ![8, 4096]⟩ : Shape).Idx → BitVec 32) (W : (⟨2, ![1024, 32000]⟩ : Shape).Idx → α) :
    (⟨3, ![8, 4096, 1024]⟩ : Shape).Idx → α :=
  fun y => W (ix2 (y 2 : Fin 1024) (rowOf (tok (ix2 (y 0 : Fin 8) (y 1 : Fin 4096)))))

/-- The stages compose to the result: tokens read row-major as one vector `T`, the rows gathered from the
    transposed table, the rows read row-major as 8 × 4096. -/
theorem result_of_stages (tok : (⟨2, ![8, 4096]⟩ : Shape).Idx → BitVec 32) (W : (⟨2, ![1024, 32000]⟩ : Shape).Idx → α)
    (T : (⟨1, ![32768]⟩ : Shape).Idx → BitVec 32)
    (hT : ∀ (b : Fin 8) (s : Fin 4096), T (ix1 ⟨b.val * 4096 + s.val, by omega⟩) = tok (ix2 b s))
    (R : (⟨3, ![8, 4096, 1024]⟩ : Shape).Idx → α)
    (hR : ∀ (b : Fin 8) (s : Fin 4096) (e : Fin 1024), R (ix3 b s e) = rows T (wt W) (ix2 ⟨b.val * 4096 + s.val, by omega⟩ e)) :
    R = result tok W := by
  funext y
  obtain ⟨b, s, e, rfl⟩ : ∃ (b : Fin 8) (s : Fin 4096) (e : Fin 1024), y = ix3 b s e := ⟨y 0, y 1, y 2, eq_ix3 y⟩
  rw [hR b s e]
  unfold rows wt result
  exact congrArg W (congrArg (ix2 e) (congrArg rowOf (hT b s)))

end Cert.Spec
-- ==== Proof.Kernel.Region0.lean ====
/-
  The first call: the table transposed, block by block.

  The table `W` is 1024 × 32000. Point t of the 25 reads the block of columns 1280 t … 1280 t + 1279 whole
  into a staging buffer, transposes it, and stores the 1280 × 1024 result whole into the output's staging
  buffer, which the pipeline writes back as rows 1280 t … 1280 t + 1279 of the 32000 × 1024 output.

  Stated here: the pipeline's proof data for this call at any contents `V` of the buffers on entry (each
  input block as read off `V`, each output block its transpose), the body's obligation at every point, and
  the arrays after the 25 points: the input as it was, the output the transposed table
  (entry (r, e) is entry (e, r) of `W`), whatever it held before.
-/
import proofs.«406021_j30614526886303_1_alg».proof.Proof.Gen.Kernel.Launch
import proofs.«406021_j30614526886303_1_alg».proof.Proof.Gen.Kernel.Skeleton
import proofs.«406021_j30614526886303_1_alg».proof.Proof.Gen.Kernel.Points
import proofs.«406021_j30614526886303_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.WholeRead

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffers' contents when the call is entered
variable (V : (c : Dev nD) → (b : Ref sig .tc) → Buf (Elt F) ((c : Thread nD τ).loc b))

/-! ## The windows' blocks -/

/-- Window `w`'s block at point `t`, read off its array as the call finds it. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's current staging buffer holds the table's block of point `t` at every point, for any proof data
    whose input array is `V`'s and whose body leaves the block in place: the block is fetched at every point. -/
theorem before_in0_of {c : Dev nD} (dat : Dat τ (Elt F) Unit ℕ (Pipeline.UD sig nD τ) ℕ cfg0 c) (hA : dat.A 0 = V c (Pipeline.arrRef spec0 0))
    (hafter : ∀ t, dat.after 0 t = blockAt0 V c 0 t) (t : Fin cfg0.N) (d) : dat.before 0 t d = blockAt0 V c 0 t :=
  (dat.before_in_eq_fetched 0 rfl (fun _ => rfl) (fun _ _ _ => rfl) (fun t => by rw [hafter]; unfold Dat.blockOf blockAt0; rw [hA]; try rfl) t d).trans
    (by unfold Dat.fetched Dat.blockOf blockAt0; rw [hA]; try rfl)

/-! ## The body: one load of the whole input block, its transpose stored over the whole output block -/

/-- The whole 1024 × 1280 input block, and the whole 1280 × 1024 output block. -/
abbrev rIn0 : Rect S1024x1280 := Rect.unit (s := S1024x1280) ![0, 0] S1024x1280.size inb_S1024x1280_S1024x1280_0_0
abbrev rOut0 : Rect S1280x1024 := Rect.unit (s := S1280x1024) ![0, 0] S1280x1024.size inb_S1280x1024_S1280x1024_0_0

/-- The output's staging buffer after the body, from the input block `x0`: the one store, of the transpose of
    what the load read. -/
def outBlock0 (x0 : Vec F S1024x1280 .f32) : Vec F S1280x1024 .f32 :=
  View.canon [⟨rOut0, k0_pay1 (View.ld x0 rIn0)⟩]

/-- The one store is of the whole block, so it covers the buffer. -/
theorem store_covers0 (p0 : Vec F S1280x1024 .f32) (y : S1280x1024.Idx) :
    ∃ pc ∈ ([⟨rOut0, p0⟩] : List (View.Piece (Elt F) S1280x1024 .f32)), y ∈ pc.1.set :=
  View.cover_of_tiled [⟨rOut0, p0⟩] S1280x1024.size (by rfl) y

set_option maxHeartbeats 1000000 in
/-- The body on whole staging memrefs, the input's at contents `x0` and the output's at anything, runs to its
    end holding the input's as it was and the output's at `outBlock0 x0`. (The body also reads the output's
    buffer before it overwrites it; nothing depends on what it read.) -/
theorem sound_kernel0 (c : Dev nD) (E : Set ℕ) (i : grid0.Coords) (arg1 : Memref sig .tc .vmem S1024x1280 .f32) (harg1 : arg1.IsWhole) (arg2 : Memref sig .tc .vmem S1280x1024 .f32) (harg2 : arg2.IsWhole)
    (x0 : Vec F S1024x1280 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outBlock0 x0)) -∗ K ⟨⟩))
      ⊢ wp frame (wpE (defs₀ (F := F)) Variants.none c none) E (cc0__transpose_kernel i arg1 harg1 arg2 harg2) K := by
  simp only [cc0__transpose_kernel_eq_skeleton]; unfold cc0__transpose_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (store_covers0 _)

/-! ## The pipeline's proof data -/

/-- The proof data of the call on core `c`: the arrays as the call finds them; after the body at point `t`
    the input's buffer at the table's block and the output's at its transpose; the untouched rest as the
    invariant; nothing owed; full shares. -/
def dat0 (c : Dev nD) : Dat τ (Elt F) Unit ℕ (Pipeline.UD sig nD τ) ℕ cfg0 c where
  A w := V c (Pipeline.arrRef spec0 w)
  after w t := match w with
    | ⟨0, _⟩ => blockAt0 V c 0 t
    | ⟨1, _⟩ => outBlock0 (blockAt0 V c 0 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_in (c : Dev nD) (t : Fin cfg0.N) : (dat0 V c).after 0 t = blockAt0 V c 0 t := by dsimp only [dat0]
theorem after0_out (c : Dev nD) (t : Fin cfg0.N) : (dat0 V c).after 1 t = outBlock0 (blockAt0 V c 0 t) := by dsimp only [dat0]

/-- The input's current staging buffer holds the table's block at every point. -/
theorem before0_in (c : Dev nD) (t : Fin cfg0.N) (d) : (dat0 V c).before 0 t d = blockAt0 V c 0 t :=
  before_in0_of V (dat0 V c) (A_eq0 V c 0) (after0_in V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds the table's block, so the body's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_in]
  rw [show (dat0 V c).Φ t.succ = (dat0 V c).Φ t.castSucc from rfl,
    show (dat0 V c).owesAt () t.succ = (dat0 V c).owesAt () t.castSucc from rfl,
    after0_in, after0_out]
  iintro ⟨HΦ, Ho, ⟨%d0, H0⟩, ⟨%d1, H1⟩⟩
  iapply (sound_kernel0 c Set.univ (grid0.coords t) _ _ _ _ (blockAt0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

/-- The input array is never written. -/
theorem arr0_in (c : Dev nD) : (dat0 V c).arrAt 0 cfg0.N = V c main_arg1 :=
  ((dat0 V c).arrAt_in 0 rfl _).trans (A_eq0 V c 0)

/-! ## From blocks to the array -/

open Idealize.ShloMosaic.ValueIdx in
/-- The body's stored value at an index: entry (p, q) of the transposed block is entry (q, p) of the block. -/
theorem transposed_apply (x0 : Vec F S1024x1280 .f32) (y : S1280x1024.Idx) (k : S1024x1280.Idx)
    (h0 : (k 0).val = (y 1).val) (h1 : (k 1).val = (y 0).val) : k0_pay1 x0 y = x0 k := by
  unfold k0_pay1
  exact transpose_apply [1, 0] x0 transposes_S1024x1280_p1_0_S1280x1024 y k
    (fun b => by match b with | ⟨0, _⟩ => exact h1 | ⟨1, _⟩ => exact h0)

/-- The zero offsets, however spelt. -/
theorem zero_off0 : (![0, 0] : Fin 2 → Nat) = fun _ => 0 := funext fun a => by fin_cases a <;> rfl

/-- The printed index maps over the grid: the input's block is column-block t of the table, the output's
    row-block t of the result. -/
theorem index_facts0 : ∀ t : Fin cfg0.N, win0_0.index t (0 : Fin 2) = 0
    ∧ win0_0.index t (1 : Fin 2) = t.val
    ∧ win0_1.index t (0 : Fin 2) = t.val
    ∧ win0_1.index t (1 : Fin 2) = 0 :=
  (by decide +kernel : ∀ t : Fin grid0.N, _)

open Idealize.ShloMosaic.ValueIdx in
/-- What point `t` writes back is block `t` of the transposed table: entry (p, q) of the stored block is entry
    (q, p) of the input block, which is entry (q, 1280 t + p) of the table — entry (1280 t + p, q) of its transpose. -/
theorem flushed_out0 (c : Dev nD) (t : Fin cfg0.N) :
    (dat0 V c).flushed 1 t = ((cfg0.win 1).blk t).view.read (Elt F) (Cert.Spec.wt (V c main_arg1) : S32000x1024.Idx → Elt F .f32) := by
  show (cfg0.win 1).cut (grid0.coords t) ((dat0 V c).after 1 t) = _
  rw [after0_out]
  unfold outBlock0
  rw [View.canon_unit_zero zero_off0]
  simp only [View.ld_unit_zero (S := S1024x1280) zero_off0]
  obtain ⟨e0, e1, e2, e3⟩ := index_facts0 t
  funext j
  have hj0 : (j 0).val < 1280 := (j 0).isLt
  have hj1 : (j 1).val < 1024 := (j 1).isLt
  show k0_pay1 (blockAt0 V c 0 t) ((win0 1).xinj (grid0.coords t) j) = Cert.Spec.wt (V c main_arg1) (((cfg0.win 1).blk t).view.emb j)
  refine (transposed_apply (blockAt0 V c 0 t) _ (ix2 (⟨(j 1).val, hj1⟩ : Fin 1024) (⟨(j 0).val, hj0⟩ : Fin 1280)) rfl rfl).trans ?_
  show (V c main_arg1 : S1024x32000.Idx → Elt F .f32) (((cfg0.win 0).blk t).view.emb (ix2 (⟨(j 1).val, hj1⟩ : Fin 1024) (⟨(j 0).val, hj0⟩ : Fin 1280)))
    = (V c main_arg1 : S1024x32000.Idx → Elt F .f32) (ix2 ((((cfg0.win 1).blk t).view.emb j) 1 : Fin 1024) ((((cfg0.win 1).blk t).view.emb j) 0 : Fin 32000))
  refine congrArg (V c main_arg1 : S1024x32000.Idx → Elt F .f32) (funext fun a => Fin.ext ?_)
  match a with
  | ⟨0, _⟩ => show win0_0.index t (0 : Fin 2) * 1024 + 1 * (j 1).val = win0_1.index t (1 : Fin 2) * 1024 + 1 * (j 1).val; omega
  | ⟨1, _⟩ => show win0_0.index t (1 : Fin 2) * 1280 + 1 * (j 0).val = win0_1.index t (0 : Fin 2) * 1280 + 1 * (j 0).val; omega

/-- An index of the result is in point `t`'s block iff each coordinate is in the block's range on its axis. -/
theorem mem_block_out0 (t : Fin cfg0.N) (i : S32000x1024.Idx) :
    i ∈ ((cfg0.win 1).blk t).view.set ↔ ∀ a : Fin 2, win0_1.index t a * S1280x1024.size a ≤ (i a).val ∧ (i a).val < win0_1.index t a * S1280x1024.size a + S1280x1024.size a := by
  show i ∈ ((View.whole main_v0).slice (win0_1.rect t)).set ↔ _
  rw [View.set_slice_whole, Rect.mem_set_unit]
  exact Iff.rfl

/-- The 25 blocks of 1280 rows tile the 32000 rows: row r is in the block of point r / 1280. -/
theorem covered_out0 (i : S32000x1024.Idx) :
    ∃ t : Fin cfg0.N, (cfg0.win 1).flush t = true ∧ i ∈ ((cfg0.win 1).blk t).view.set := by
  have hi0 : (i 0).val < 32000 := (i 0).isLt
  have hi1 : (i 1).val < 1024 := (i 1).isLt
  have hN : cfg0.N = 25 := N_0
  obtain ⟨t, ht⟩ : ∃ t : Fin cfg0.N, t.val = (i 0).val / 1280 := ⟨⟨(i 0).val / 1280, by rw [hN]; omega⟩, rfl⟩
  obtain ⟨e0, e1, e2, e3⟩ := index_facts0 t
  refine ⟨t, flush0_1 t, ?_⟩
  rw [mem_block_out0]
  intro a
  match a with
  | ⟨0, _⟩ => show win0_1.index t (0 : Fin 2) * 1280 ≤ (i 0).val ∧ (i 0).val < win0_1.index t (0 : Fin 2) * 1280 + 1280; omega
  | ⟨1, _⟩ => show win0_1.index t (1 : Fin 2) * 1024 ≤ (i 1).val ∧ (i 1).val < win0_1.index t (1 : Fin 2) * 1024 + 1024; omega

/-- The output array after the 25 write-backs is the transposed table, whatever it held before. -/
theorem arr0_out (c : Dev nD) : (dat0 V c).arrAt 1 cfg0.N = (Cert.Spec.wt (V c main_arg1) : S32000x1024.Idx → Elt F .f32) :=
  (dat0 V c).arrAt_eq_of_cover 1 (Cert.Spec.wt (V c main_arg1) : S32000x1024.Idx → Elt F .f32) (fun t _ => flushed_out0 V c t) covered_out0

end Cert.Kernel.Hand

end
-- ==== Proof.Kernel.GatherRun.lean ====
/-
  The gather body, run once on any staging buffer.

  The body of the second call fills the 128 rows of its output block one by one: row j is copied from
  row tok[128·i + j] of the transposed table, which stays in HBM, by a transfer of the kernel's own on
  semaphore j mod 8, eight transfers in flight at a time, each waited for before its semaphore is used
  again. Every row number is a word of the token table; the body may only run where that word names a
  row of the table, which holds when every token is below 32000.

  Stated here: on a whole staging buffer at any contents, the token table held whole, the transposed
  table held as one read share per semaphore, the eight semaphores at zero and nothing owed, the body
  runs to its end and gives all of that back, the staging buffer at contents the run finds.
-/
import proofs.«406021_j30614526886303_1_alg».proof.Proof.Gen.Kernel.Launch
import proofs.«406021_j30614526886303_1_alg».proof.Proof.Gen.Kernel.Skeleton
import proofs.«406021_j30614526886303_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WholeRead

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The transposed table, left in HBM, and the token table, in scalar memory, as the body is handed them. -/
abbrev hbM : Memref sig .tc .hbm S32000x1024 .f32 := Memref.whole main_v0
abbrev tbM : Memref sig .tc .smem S32768 .i32 := Memref.whole main_v1

/-- A memref's buffer on core `c`, and that buffer held whole at the read share of semaphore `k`. -/
abbrev HbBuf (c : Dev nD) {sp : Space} {S : Shape} {e : EltTy} (M : Memref sig .tc sp S e) : Type := Buf (Elt F) (M.view.loc (c : Thread nD τ))
abbrev hbTok (c : Dev nD) {sp : Space} {S : Shape} {e : EltTy} (M : Memref sig .tc sp S e) (k : ℕ) (f : HbBuf (F := F) c M) : sProp 𝕄 :=
  M.view.loc (c : Thread nD τ) ↦{Transfers.shareTokN fullShare k} f

/-- A word below 32000 names a row of the transposed table: the row's slice lies inside it. -/
theorem chk_of (v : BitVec 32) (h : v.toNat < 32000) : ∀ a : Fin 2, (![v.toNat, 0] : Fin 2 → Nat) a + S1x1024.size a ≤ S32000x1024.size a := by
  intro a
  match a with
  | ⟨0, _⟩ => show v.toNat + 1 ≤ 32000; omega
  | ⟨1, _⟩ => show 0 + 1024 ≤ 1024; omega

/-- A load of the token table, held at the contents that read `x0`, reads an entry of `x0`: below 32000 when all are. -/
theorem word_lt (x0 : Vec F S32768 .i32) (hx0 : ∀ y, (x0 y).toNat < 32000) (B : LoadRect S32768) (x : B.shape.Idx) :
    (View.readAt (Elt F) tbM.view B ((Memref.isWhole_whole main_v1).unread x0) x).toNat < 32000 := by
  rw [(Memref.isWhole_whole main_v1).readAt_unread x0 B x]; exact hx0 _

set_option maxHeartbeats 40000000 in
/-- The body on a whole staging buffer at contents `f1`: what it leaves there, with the proof that it runs to its
    end from the resources above and gives them back. -/
noncomputable def gatherRun (c : Dev nD) (i : grid1.Coords) (arg3 : Memref sig .tc .vmem S128x1024 .f32) (harg3 : arg3.IsWhole)
    (x0 : Vec F S32768 .i32) (hx0 : ∀ y, (x0 y).toNat < 32000) (fh : HbBuf (F := F) c hbM) (f1 : arg3.view.ty.Contents (Elt F)) :
    { g : arg3.view.ty.Contents (Elt F) //
      ∀ (W : Waits sig Unit) (K : PUnit → sProp 𝕄),
        iprop(owns (c : Thread nD τ) tbM fullShare x0 ∗ (arg3.view.loc (c : Thread nD τ) ↦[arg3.view.set]{fullShare} f1)
            ∗ hbTok c hbM 6 fh ∗ hbTok c hbM 7 fh ∗ hbTok c hbM 8 fh ∗ hbTok c hbM 9 fh ∗ hbTok c hbM 10 fh ∗ hbTok c hbM 11 fh ∗ hbTok c hbM 12 fh ∗ hbTok c hbM 13 fh
            ∗ semVal ((c : Thread nD τ), SemLoc.dma 6) 0 ∗ semVal ((c : Thread nD τ), SemLoc.dma 7) 0
            ∗ semVal ((c : Thread nD τ), SemLoc.dma 8) 0 ∗ semVal ((c : Thread nD τ), SemLoc.dma 9) 0
            ∗ semVal ((c : Thread nD τ), SemLoc.dma 10) 0 ∗ semVal ((c : Thread nD τ), SemLoc.dma 11) 0
            ∗ semVal ((c : Thread nD τ), SemLoc.dma 12) 0 ∗ semVal ((c : Thread nD τ), SemLoc.dma 13) 0
            ∗ owes (c : Thread nD τ) 0 W
            ∗ (iprop(owns (c : Thread nD τ) tbM fullShare x0 ∗ (arg3.view.loc (c : Thread nD τ) ↦[arg3.view.set]{fullShare} g)
                ∗ hbTok c hbM 6 fh ∗ hbTok c hbM 7 fh ∗ hbTok c hbM 8 fh ∗ hbTok c hbM 9 fh ∗ hbTok c hbM 10 fh ∗ hbTok c hbM 11 fh ∗ hbTok c hbM 12 fh ∗ hbTok c hbM 13 fh
                ∗ semVal ((c : Thread nD τ), SemLoc.dma 6) 0 ∗ semVal ((c : Thread nD τ), SemLoc.dma 7) 0
                ∗ semVal ((c : Thread nD τ), SemLoc.dma 8) 0 ∗ semVal ((c : Thread nD τ), SemLoc.dma 9) 0
                ∗ semVal ((c : Thread nD τ), SemLoc.dma 10) 0 ∗ semVal ((c : Thread nD τ), SemLoc.dma 11) 0
                ∗ semVal ((c : Thread nD τ), SemLoc.dma 12) 0 ∗ semVal ((c : Thread nD τ), SemLoc.dma 13) 0
                ∗ (∃ W', owes (c : Thread nD τ) 0 W')) -∗ K ⟨⟩))
          ⊢ wp frame (wpE (defs₀ (F := F)) Variants.none c none) Set.univ (cc1__gather_kernel i tbM (Memref.isWhole_whole _) hbM (Memref.isWhole_whole _) arg3 harg3 cc1_scratch0) K } := by
  refine ⟨?_, fun W K => ?run⟩
  case run =>
    simp only [cc1__gather_kernel_eq_skeleton]; unfold cc1__gather_kernel_skel
    unfold owns
    iintro ⟨⟨%f0, %hf0, H0⟩, H1, Ht0, Ht1, Ht2, Ht3, Ht4, Ht5, Ht6, Ht7, Hq0, Hq1, Hq2, Hq3, Hq4, Hq5, Hq6, Hq7, HW, Hk⟩
    obtain rfl := (Memref.isWhole_whole main_v1).eq_unread hf0
    set_option sl_exec.dmaWindowSet true in
    set_option sl_exec.dmaWindow true in
    set_option sl_exec.dmaWindowLent true in
    sl_exec (disch := (exact chk_of _ (word_lt x0 hx0 _ _)))
    sl_step
    iapply Hk
    isplitl [H0]
    · iexists _; isplitr; · ipureintro; exact (Memref.isWhole_whole main_v1).read_unread _
      iexact H0
    isplitl [H1]; · iexact H1
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    iexists _; iexact HW

end Cert.Kernel.Hand

end
-- ==== Proof.LibRowWrite.lean ====
/-
  Whole rows of a rank-2 buffer, written and read through a row's own rank-1 view.

  A kernel that fills a buffer of shape [R, C] one row at a time addresses row k as the rectangle of that one row
  (offsets (k, 0), sizes (1, C)), re-indexed as the vector [C]. Through the buffer's own view, contents written through
  that row view read, in row k, as the payload, and in every other row as before; and the row view itself reads row k of
  what the buffer's view reads. From the first two facts a tower of row writes is read by an invariant: once rows
  0 … k − 1 have each been written with the matching row of a function B, and whatever else was written before them, the
  buffer reads as B on those rows; at k = R it reads as B.
-/
import Idealize.ShloMosaic.Signature.Memref
import Idealize.ShloMosaic.Lib.ValueIdx

namespace Idealize.ShloMosaic

open ValueIdx

variable {sig : RefSig} {κ : Kind} {sp : Space} {e : EltTy} {Val : EltTy → Type}

/-- Where the rectangle of row k, re-indexed as a vector, places entry q of the vector: at (k, q). The vector's index
    and the rectangle's have the same row-major position, and the rectangle has the one row. -/
theorem Rect.emb_row_reshape {R C : Nat} {off size : Fin 2 → Nat} (k : Fin R) (hoff : off = ![k.val, 0])
    (hsize : size = ![1, C]) (inb : ∀ a, off a + size a ≤ (⟨2, ![R, C]⟩ : Shape).size a)
    (hn : (⟨1, ![C]⟩ : Shape).numel = (Rect.unit (s := ⟨2, ![R, C]⟩) off size inb).shape.numel) (q : Fin C) :
    (Rect.unit (s := ⟨2, ![R, C]⟩) off size inb).emb (Shape.reshapeEquiv hn (ix1 q)) = ix2 k q := by
  subst hoff hsize
  have hz := Shape.rowMajor_reshapeEquiv hn (ix1 q)
  rw [Shape.rowMajor_val_two, Shape.rowMajor_val_one] at hz
  have h0 : ((Shape.reshapeEquiv hn (ix1 q)) (0 : Fin 2)).val < 1 := ((Shape.reshapeEquiv hn (ix1 q)) (0 : Fin 2)).isLt
  have hz' : ((Shape.reshapeEquiv hn (ix1 q)) (0 : Fin 2)).val * C + ((Shape.reshapeEquiv hn (ix1 q)) (1 : Fin 2)).val = q.val := hz
  funext a
  refine Fin.ext ?_
  match a with
  | ⟨0, _⟩ =>
    show k.val + 1 * ((Shape.reshapeEquiv hn (ix1 q)) (0 : Fin 2)).val = k.val
    omega
  | ⟨1, _⟩ =>
    show 0 + 1 * ((Shape.reshapeEquiv hn (ix1 q)) (1 : Fin 2)).val = q.val
    have : ((Shape.reshapeEquiv hn (ix1 q)) (0 : Fin 2)).val = 0 := by omega
    rw [this] at hz'
    omega

/-- An index in another row than k lies outside the rectangle of row k. -/
theorem Rect.not_mem_row {R C : Nat} {off size : Fin 2 → Nat} (k : Nat) (hoff : off = ![k, 0])
    (hsize : size = ![1, C]) (inb : ∀ a, off a + size a ≤ (⟨2, ![R, C]⟩ : Shape).size a) (j : Fin R) (q : Fin C)
    (hj : j.val ≠ k) : ix2 j q ∉ (Rect.unit (s := ⟨2, ![R, C]⟩) off size inb).set := by
  subst hoff hsize
  rw [Rect.mem_set_unit]
  intro h
  have h0 := h (0 : Fin 2)
  have h0' : k ≤ j.val ∧ j.val < k + 1 := h0
  omega

namespace View

variable {s : Shape}

/-- A rectangle of a view, re-indexed by another shape, reads the view at the rectangle's placement of the matched
    index. -/
theorem read_reshape_slice (v : View sig κ sp s e) (r : Rect s) {s' : Shape} (hn : s'.numel = r.shape.numel)
    (f : v.ty.Contents Val) (x : s'.Idx) :
    ((v.slice r).reshape s' hn).read Val f x = v.read Val f (r.emb (Shape.reshapeEquiv hn x)) := rfl

/-- Read through the view after a write through a re-indexed rectangle of it: at an element the write reached, the
    payload; -/
theorem read_write_reshape_slice_emb (v : View sig κ sp s e) (r : Rect s) {s' : Shape} (hn : s'.numel = r.shape.numel)
    (f : v.ty.Contents Val) (w : s'.Idx → Val e) {M : Finset s'.Idx} {x : s'.Idx} (h : x ∈ M) :
    v.read Val (((v.slice r).reshape s' hn).write Val f w M) (r.emb (Shape.reshapeEquiv hn x)) = w x := by
  rw [read_apply, show v.emb (r.emb (Shape.reshapeEquiv hn x)) = ((v.slice r).reshape s' hn).emb x from rfl,
    write_emb_of_mem _ _ h, cast_cast, cast_eq]

/-- at an index outside the rectangle, the old contents. -/
theorem read_write_reshape_slice_of_not_mem (v : View sig κ sp s e) (r : Rect s) {s' : Shape}
    (hn : s'.numel = r.shape.numel) (f : v.ty.Contents Val) (w : s'.Idx → Val e) (M : Finset s'.Idx) {y : s.Idx}
    (h : y ∉ r.set) : v.read Val (((v.slice r).reshape s' hn).write Val f w M) y = v.read Val f y := by
  have hy : v.emb y ∉ ((v.slice r).reshape s' hn).setOn M := fun hm => h (by
    have h1 := ((v.slice r).reshape s' hn).setOn_subset_set M hm
    rw [set_reshape, set_slice] at h1
    exact (Finset.mem_map' v.emb).mp h1)
  rw [read_apply, read_apply, write_of_not_mem _ _ _ hy]

section Rows

variable {R C : Nat} (v : View sig κ sp (⟨2, ![R, C]⟩ : Shape) e)

/-- The view of row k reads row k of what the buffer's view reads. -/
theorem read_row {off size : Fin 2 → Nat} (k : Fin R) (hoff : off = ![k.val, 0]) (hsize : size = ![1, C])
    (inb : ∀ a, off a + size a ≤ (⟨2, ![R, C]⟩ : Shape).size a)
    (hn : (⟨1, ![C]⟩ : Shape).numel = (Rect.unit (s := ⟨2, ![R, C]⟩) off size inb).shape.numel)
    (f : v.ty.Contents Val) (q : Fin C) :
    ((v.slice (Rect.unit (s := ⟨2, ![R, C]⟩) off size inb)).reshape ⟨1, ![C]⟩ hn).read Val f (ix1 q)
      = v.read Val f (ix2 k q) :=
  (read_reshape_slice v _ hn f (ix1 q)).trans (congrArg (v.read Val f) (Rect.emb_row_reshape k hoff hsize inb hn q))

/-- After an unmasked write through the view of row k, row k reads as the payload, -/
theorem read_write_row_same {off size : Fin 2 → Nat} (k : Fin R) (hoff : off = ![k.val, 0]) (hsize : size = ![1, C])
    (inb : ∀ a, off a + size a ≤ (⟨2, ![R, C]⟩ : Shape).size a)
    (hn : (⟨1, ![C]⟩ : Shape).numel = (Rect.unit (s := ⟨2, ![R, C]⟩) off size inb).shape.numel)
    (f : v.ty.Contents Val) (w : (⟨1, ![C]⟩ : Shape).Idx → Val e) (q : Fin C) :
    v.read Val (((v.slice (Rect.unit (s := ⟨2, ![R, C]⟩) off size inb)).reshape ⟨1, ![C]⟩ hn).write Val f w Finset.univ)
      (ix2 k q) = w (ix1 q) :=
  (congrArg (v.read Val _) (Rect.emb_row_reshape k hoff hsize inb hn q).symm).trans
    (read_write_reshape_slice_emb v _ hn f w (Finset.mem_univ (ix1 q)))

/-- and every other row as before. -/
theorem read_write_row_other {off size : Fin 2 → Nat} (k : Nat) (hoff : off = ![k, 0]) (hsize : size = ![1, C])
    (inb : ∀ a, off a + size a ≤ (⟨2, ![R, C]⟩ : Shape).size a)
    (hn : (⟨1, ![C]⟩ : Shape).numel = (Rect.unit (s := ⟨2, ![R, C]⟩) off size inb).shape.numel)
    (f : v.ty.Contents Val) (w : (⟨1, ![C]⟩ : Shape).Idx → Val e) (M : Finset (⟨1, ![C]⟩ : Shape).Idx) (j : Fin R)
    (q : Fin C) (hj : j.val ≠ k) :
    v.read Val (((v.slice (Rect.unit (s := ⟨2, ![R, C]⟩) off size inb)).reshape ⟨1, ![C]⟩ hn).write Val f w M) (ix2 j q)
      = v.read Val f (ix2 j q) :=
  read_write_reshape_slice_of_not_mem v _ hn f w M (Rect.not_mem_row k hoff hsize inb j q hj)

/-- Rows 0 … k − 1 of the buffer, at contents g, read as those rows of B. -/
def RowsRead (B : (⟨2, ![R, C]⟩ : Shape).Idx → Val e) (k : Nat) (g : v.ty.Contents Val) : Prop :=
  ∀ (j : Fin R) (q : Fin C), j.val < k → v.read Val g (ix2 j q) = B (ix2 j q)

/-- Of no rows, nothing is asked. -/
theorem rowsRead_zero (B : (⟨2, ![R, C]⟩ : Shape).Idx → Val e) (g : v.ty.Contents Val) : v.RowsRead B 0 g :=
  fun _ _ h => absurd h (Nat.not_lt_zero _)

variable {v}

/-- Writing row k of B through the view of row k adds row k to the rows that read as B: the write leaves the rows
    below k as they were. -/
theorem RowsRead.write_row {B : (⟨2, ![R, C]⟩ : Shape).Idx → Val e} {k : Nat} {g : v.ty.Contents Val}
    (h : v.RowsRead B k g) (hk : k < R) {off size : Fin 2 → Nat} (hoff : off = ![k, 0]) (hsize : size = ![1, C])
    (inb : ∀ a, off a + size a ≤ (⟨2, ![R, C]⟩ : Shape).size a)
    (hn : (⟨1, ![C]⟩ : Shape).numel = (Rect.unit (s := ⟨2, ![R, C]⟩) off size inb).shape.numel)
    (p : (⟨1, ![C]⟩ : Shape).Idx → Val e) (hp : ∀ q : Fin C, p (ix1 q) = B (ix2 (⟨k, hk⟩ : Fin R) q)) :
    v.RowsRead B (k + 1)
      (((v.slice (Rect.unit (s := ⟨2, ![R, C]⟩) off size inb)).reshape ⟨1, ![C]⟩ hn).write Val g p Finset.univ) := by
  intro j q hj
  by_cases hjk : j.val = k
  · obtain rfl : j = ⟨k, hk⟩ := Fin.ext hjk
    exact (read_write_row_same v ⟨k, hk⟩ hoff hsize inb hn g p q).trans (hp q)
  · exact (read_write_row_other v k hoff hsize inb hn g p Finset.univ j q hjk).trans (h j q (by omega))

/-- When every row reads as B, the buffer reads as B. -/
theorem RowsRead.read_eq {B : (⟨2, ![R, C]⟩ : Shape).Idx → Val e} {g : v.ty.Contents Val} (h : v.RowsRead B R g) :
    v.read Val g = B :=
  funext fun y => by rw [eq_ix2 y]; exact h (y 0) (y 1) (y 0).isLt

end Rows

end View

namespace Memref

variable {R C : Nat} (m : Memref sig κ sp (⟨2, ![R, C]⟩ : Shape) e)

/-- The memref of row k — the slice of that one row with the row axis squeezed — reads row k of what the memref reads. -/
theorem read_row {off size : Fin 2 → Nat} (k : Fin R) (hoff : off = ![k.val, 0]) (hsize : size = ![1, C])
    (inb : ∀ a, off a + size a ≤ (⟨2, ![R, C]⟩ : Shape).size a)
    (hs : ∀ a, (Rect.unit (s := ⟨2, ![R, C]⟩) off size inb).stride a = 1)
    (hq : (Rect.unit (s := ⟨2, ![R, C]⟩) off size inb).shape.Squeezes ⟨1, ![C]⟩)
    (f : m.view.ty.Contents Val) (q : Fin C) :
    ((m.slice (Rect.unit (s := ⟨2, ![R, C]⟩) off size inb) hs).squeeze ⟨1, ![C]⟩ hq).view.read Val f (ix1 q)
      = m.view.read Val f (ix2 k q) :=
  View.read_row m.view k hoff hsize inb hq.numel_eq f q

/-- The invariant step over a memref: an unmasked write of row k of B through the memref of row k. -/
theorem rowsRead_write_row {B : (⟨2, ![R, C]⟩ : Shape).Idx → Val e} {k : Nat} {g : m.view.ty.Contents Val}
    (h : m.view.RowsRead B k g) (hk : k < R) {off size : Fin 2 → Nat} (hoff : off = ![k, 0]) (hsize : size = ![1, C])
    (inb : ∀ a, off a + size a ≤ (⟨2, ![R, C]⟩ : Shape).size a)
    (hs : ∀ a, (Rect.unit (s := ⟨2, ![R, C]⟩) off size inb).stride a = 1)
    (hq : (Rect.unit (s := ⟨2, ![R, C]⟩) off size inb).shape.Squeezes ⟨1, ![C]⟩)
    (p : (⟨1, ![C]⟩ : Shape).Idx → Val e) (hp : ∀ q : Fin C, p (ix1 q) = B (ix2 (⟨k, hk⟩ : Fin R) q)) :
    m.view.RowsRead B (k + 1)
      (View.write Val ((m.slice (Rect.unit (s := ⟨2, ![R, C]⟩) off size inb) hs).squeeze ⟨1, ![C]⟩ hq).view g p Finset.univ) :=
  h.write_row hk hoff hsize inb hq.numel_eq p hp

end Memref

end Idealize.ShloMosaic
-- ==== Proof.LibTableWord.lean ====
/-
  A word of a table in scalar memory, and the table offset a kernel computes for it.

  A kernel reads word t of a rank-1 table by a load of the one-element rectangle at offset t; with the table held
  whole at the contents that read X, the load reads X at t. The offset of word 128·n + c of a table of 128-word
  stretches is computed in 32-bit words as n·128 + c; for n below 256 and c below 128 nothing wraps, and the computed
  offset is that number.
-/
import Idealize.ShloMosaic.Lib.WholeRead
import Idealize.ShloMosaic.Lib.ValueIdx

namespace Idealize.ShloMosaic

open ValueIdx

/-- The word arithmetic n·128 + c, cast to an index, is the number n·128 + c when n < 256 and c < 128: the product
    is below 2¹⁵ and the sum below 2¹⁵ + 2⁷, far from 2³². -/
theorem Scalar.toNat_mul128_add (n c : Nat) (hn : n < 256) (hc : c < 128) :
    (Scalar.indexCast (Scalar.addi (Scalar.muli (BitVec.ofNat 32 n) 128#32) (BitVec.ofNat 32 c))).toNat = n * 128 + c := by
  unfold Scalar.indexCast Scalar.addi Scalar.muli IntOp.addi IntOp.muli
  rw [BitVec.toNat_add, BitVec.toNat_mul, BitVec.toNat_ofNat, BitVec.toNat_ofNat, BitVec.toNat_ofNat]
  have h1 : n % 2 ^ 32 = n := Nat.mod_eq_of_lt (by omega)
  have h2 : c % 2 ^ 32 = c := Nat.mod_eq_of_lt (by omega)
  have h3 : 128 % 2 ^ 32 = 128 := by norm_num
  rw [h1, h2, h3]
  have h4 : n * 128 % 2 ^ 32 = n * 128 := Nat.mod_eq_of_lt (by omega)
  rw [h4]
  exact Nat.mod_eq_of_lt (by omega)

variable {sig : RefSig} {Val : EltTy → Type} {κ : Kind} {sp : Space} {e : EltTy}

/-- A load of the one-element rectangle at offset t of a whole rank-1 memref, held at the contents that read X,
    reads X at t. -/
theorem Memref.IsWhole.readAt_word_unread {N : Nat} {m : Memref sig κ sp (⟨1, ![N]⟩ : Shape) e} (h : m.IsWhole)
    (X : (⟨1, ![N]⟩ : Shape).Idx → Val e) {off size : Fin 1 → Nat} (t : Fin N) (hoff : off = ![t.val]) (hsize : size = ![1])
    (inb : ∀ a, off a + size a ≤ (⟨1, ![N]⟩ : Shape).size a)
    (x : (Rect.unit (s := ⟨1, ![N]⟩) off size inb).toLoadRect.shape.Idx) :
    View.readAt Val m.view (Rect.unit (s := ⟨1, ![N]⟩) off size inb).toLoadRect (h.unread X) x = X (ix1 t) := by
  subst hoff hsize
  rw [h.readAt_unread X _ x]
  congr 1
  funext a
  refine Fin.ext ?_
  match a with
  | ⟨0, _⟩ =>
    show t.val + 1 * (x (0 : Fin 1)).val = t.val
    have : (x (0 : Fin 1)).val < 1 := (x (0 : Fin 1)).isLt
    omega

end Idealize.ShloMosaic
-- ==== Proof.Kernel.GatherVal.lean ====
/-
  What the gather body leaves in its staging buffer, read row by row.

  The run of the body found the buffer's final contents as 128 row writes laid one over the other, row 0 innermost,
  row 127 outermost, each through the view of its own row. The payload of row j's write is what the view of one row of
  the transposed table reads off the table's contents: the row named by the token word the body loaded at table offset
  128·i + j (computed in 32-bit words as i·128 + j, which does not wrap for i below 256). So row j of the buffer ends as
  row x0[128·i + j] of the transposed table, whatever the buffer held before: every row is overwritten.
-/
import proofs.«406021_j30614526886303_1_alg».proof.Proof.Kernel.GatherRun
import proofs.«406021_j30614526886303_1_alg».proof.Proof.Spec
import proofs.«406021_j30614526886303_1_alg».proof.Proof.LibRowWrite
import proofs.«406021_j30614526886303_1_alg».proof.Proof.LibTableWord

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Word 128·i + j of the token table exists: 256 stretches of 128 words. -/
theorem tok_idx_lt (i : grid1.Coords) (y : S128x1024.Idx) : (i 0).val * 128 + (y 0).val < 32768 := by
  have h1 : (i 0).val < 256 := (i 0).isLt
  have h2 : (y 0).val < 128 := (y 0).isLt
  omega

/-- The block the body leaves: row j is the row of Y named by word 128·i + j of the token table. -/
def gblock (x0 : Vec F S32768 .i32) (i : grid1.Coords) (Y : S32000x1024.Idx → Elt F .f32) : S128x1024.Idx → Elt F .f32 :=
  fun y => Y (ValueIdx.ix2 (Cert.Spec.rowOf (x0 (ValueIdx.ix1 ⟨(i 0).val * 128 + (y 0).val, tok_idx_lt i y⟩))) (y 1 : Fin 1024))

/-- The token word the body loads at the table offset it computes as i·128 + j is word 128·i + j of the table. -/
theorem tok_word (i : grid1.Coords) (x0 : Vec F S32768 .i32) (j : Nat) (hj : j < 128) {offT : Fin 1 → Nat}
    (hoffT : offT = ![(Scalar.indexCast (Scalar.addi (Scalar.muli (BitVec.ofNat 32 (i 0).val) 128#32) (BitVec.ofNat 32 j))).toNat])
    (inbT : ∀ a, offT a + S1.size a ≤ S32768.size a)
    (x : (Rect.unit (s := S32768) offT S1.size inbT).toLoadRect.shape.Idx) :
    View.readAt (Elt F) tbM.view (Rect.unit (s := S32768) offT S1.size inbT).toLoadRect
        ((Memref.isWhole_whole main_v1).unread x0) x
      = x0 (ValueIdx.ix1 (⟨(i 0).val * 128 + j, by have h1 : (i 0).val < 256 := (i 0).isLt; omega⟩ : Fin 32768)) :=
  (Memref.isWhole_whole main_v1).readAt_word_unread x0 _
    (hoffT.trans (congrArg (fun t : Nat => (![t] : Fin 1 → Nat)) (Scalar.toNat_mul128_add (i 0).val j (i 0).isLt hj))) rfl inbT x

/-- The payload of row j's write: the view of the table row a word w names reads that row of the table; with w the
    token word 128·i + j, that is row j of the block. -/
theorem payload_row (c : Dev nD) (i : grid1.Coords) (x0 : Vec F S32768 .i32) (hx0 : ∀ y, (x0 y).toNat < 32000)
    (fh : HbBuf (F := F) c hbM) (j : Fin 128) (w : BitVec 32)
    (hw : w = x0 (ValueIdx.ix1 (⟨(i 0).val * 128 + j.val, by have h1 : (i 0).val < 256 := (i 0).isLt; have h2 := j.isLt; omega⟩ : Fin 32768)))
    {offH : Fin 2 → Nat} (hoffH : offH = ![w.toNat, 0])
    (inbH : ∀ a, offH a + S1x1024.size a ≤ S32000x1024.size a)
    (hs : ∀ a, (Rect.unit (s := S32000x1024) offH S1x1024.size inbH).stride a = 1)
    (hq : (Rect.unit (s := S32000x1024) offH S1x1024.size inbH).shape.Squeezes S1024) (q : Fin 1024) :
    ReadAs.same.apply (View.read (Elt F) ((hbM.slice (Rect.unit (s := S32000x1024) offH S1x1024.size inbH) hs).squeeze S1024 hq).view fh) (ValueIdx.ix1 q)
      = gblock x0 i (hbM.view.read (Elt F) fh) (ValueIdx.ix2 j q) := by
  have hlt : w.toNat < 32000 := hw ▸ hx0 _
  refine (Memref.read_row hbM (⟨w.toNat, hlt⟩ : Fin 32000) hoffH rfl inbH hs hq fh q).trans ?_
  unfold gblock
  refine congrArg (hbM.view.read (Elt F) fh) (congrArg (fun r : Fin 32000 => ValueIdx.ix2 r q) ?_)
  subst hw
  exact Fin.ext (Cert.Spec.rowOf_val_of_lt hlt).symm

set_option maxHeartbeats 4000000 in
/-- What the body leaves, read through the staging buffer: the block of the 128 token words' rows. Each of the 128
    writes adds its row to the rows that read as the block; none is left as the buffer was found. -/
theorem gatherRun_read (c : Dev nD) (i : grid1.Coords) (arg3 : Memref sig .tc .vmem S128x1024 .f32) (harg3 : arg3.IsWhole)
    (x0 : Vec F S32768 .i32) (hx0 : ∀ y, (x0 y).toNat < 32000) (fh : HbBuf (F := F) c hbM) (f1 : arg3.view.ty.Contents (Elt F)) :
    arg3.view.read (Elt F) (gatherRun c i arg3 harg3 x0 hx0 fh f1).1 = gblock x0 i (hbM.view.read (Elt F) fh) := by
  refine View.RowsRead.read_eq (R := 128) (C := 1024) ?_
  unfold gatherRun; dsimp only; sl_unfold_words
  iterate 128
    refine View.RowsRead.write_row ?_ (by omega) rfl rfl _ _ _ (fun q => ?_)
    swap
    · exact payload_row c i x0 hx0 fh ⟨_, _⟩ _ (tok_word i x0 _ (by omega) rfl _ _) rfl _ _ _ q
  exact View.rowsRead_zero _ _ _

end Cert.Kernel.Hand

end
-- ==== Proof.Kernel.Region1.lean ====
/-
  The second call (the row gather) as a pipeline: its proof data, its body obligation at every grid point.

  The call has one window, its output: block t (rows 128·t … 128·t + 127 of the gathered array) is staged in VMEM
  and written back after the body. The body fills the staged block from the transposed table, which it reads in
  HBM by transfers of its own on its eight semaphores, the rows named by the token table in scalar memory. Between
  two points nothing is in flight: the invariant holds the eight semaphores at zero, the transposed table and the
  token table whole at the contents the region found, the other scoped buffers and the generator register.
-/
import proofs.«406021_j30614526886303_1_alg».proof.Proof.Kernel.GatherVal
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The token table, read off the entry contents -/

/-- The token table's contents when the region is entered (the program runs on one device). -/
def tbl : pre1.Contents (Elt F) := fun j => V (0 : Dev nD) (pre1.ref j)
/-- On every device the table holds those contents. -/
theorem V_pre (c : Dev nD) (j : Fin 1) : V c (pre1.ref j) = tbl V j := by
  obtain rfl : c = 0 := Subsingleton.elim _ _; rfl
/-- The table's contents as admissible contents (no index map reads the table: nothing is asked of them), and the
    pipeline at them. -/
abbrev adm1 : (pcfg1 (F := F)).Adm := ⟨tbl V, trivial⟩
abbrev cfgM : Pipeline.Cfg sig Λ₀ := cfg1 (adm1 V)
/-- The table as a vector of 32768 words. -/
abbrev tokv : Vec F S32768 .i32 := tbl V 0

/-! ## The body's own semaphores and the array it reads in HBM -/

/-- The output window's current staging memref at point `t`, and its wholeness. -/
abbrev ms1_0 (t : Fin (cfgM V).N) : Memref sig .tc .vmem S128x1024 .f32 := spec1_0.stage ((cfgM V).slots t 0)
abbrev hs1_0 (t : Fin (cfgM V).N) : (ms1_0 V t).IsWhole := hstage1_0 (((cfgM V).slots t 0).cast nbuf1_0)

/-- The kernel body at point `t`, on what the pipeline calls it with. -/
abbrev bodyAt1 (t : Fin (cfgM V).N) : Prog (TpuEff nD τ sig (Elt F) Λ₀ .tc) PUnit :=
  cc1__gather_kernel (grid1.coords t) tbM (Memref.isWhole_whole _) hbM (Memref.isWhole_whole _) (ms1_0 V t) (hs1_0 V t) cc1_scratch0

/-- A memref's buffer held whole at the full share. -/
abbrev hbPt (c : Dev nD) {sp : Space} {S : Shape} {e : EltTy} (M : Memref sig .tc sp S e) (f : HbBuf (F := F) c M) : sProp 𝕄 :=
  M.view.loc (c : Thread nD τ) ↦{fullShare} f

/-- The body's eight DMA semaphores, by their numbers in the pool. -/
abbrev osem1 : Fin 8 → SemLoc sig := fun j => (![SemLoc.dma 6, SemLoc.dma 7, SemLoc.dma 8, SemLoc.dma 9, SemLoc.dma 10, SemLoc.dma 11, SemLoc.dma 12, SemLoc.dma 13] : Fin 8 → SemLoc sig) j
theorem ownSemFacts1 : Pipeline.OwnSemFacts spec1 osem1 := by decide
/-- The eight at zero, one by one. -/
theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 6) 0 ∗ semVal ((c : Thread nD τ), SemLoc.dma 7) 0
          ∗ semVal ((c : Thread nD τ), SemLoc.dma 8) 0 ∗ semVal ((c : Thread nD τ), SemLoc.dma 9) 0
          ∗ semVal ((c : Thread nD τ), SemLoc.dma 10) 0 ∗ semVal ((c : Thread nD τ), SemLoc.dma 11) 0
          ∗ semVal ((c : Thread nD τ), SemLoc.dma 12) 0 ∗ semVal ((c : Thread nD τ), SemLoc.dma 13) 0) := by
  rw [Pipeline.ownSems0_eq_of_list c osem1 [0, 1, 2, 3, 4, 5, 6, 7] (by decide) (by decide)]; rfl
/-- The array the body reads in HBM: the transposed table. -/
def H1 : Finset (Ref sig .tc) := {main_v0}
theorem H1_sub : H1 ⊆ Pipeline.restRefs sig spec1 := by decide
theorem hbmPts1_eq (c : Dev nD) :
    (bigSep H1 (fun b => ((c : Thread nD τ).loc b) ↦{fullShare} V c b) : sProp 𝕄) = iprop(hbPt c hbM (V c main_v0)) := by
  rw [BI.bigSep_eq_bigSepL_of_eq [main_v0] (by decide) (by decide)]; rfl

/-- The token table held whole, as the invariant keeps it: the one table's points-to. -/
theorem prefHeld1_eq (c : Dev nD) :
    (Pipeline.prefHeld (Ix := Unit) (Name := ℕ) (U := Pipeline.UD sig nD τ) (Lvl := ℕ) pre1 c (fun _ => fullShare) (tbl V) : sProp 𝕄)
      = owns (c : Thread nD τ) tbM fullShare (tokv V) := by
  unfold Pipeline.prefHeld
  rw [show (Finset.univ : Finset (Fin pre1.K)) = {(0 : Fin 1)} from by decide, BI.bigSep_singleton, owns_whole]
  rfl

/-- The transposed table whole is one read share per semaphore number below 14 and a remainder; the body uses the
    eight shares of its own semaphores' numbers. -/
theorem hbm_shares (c : Dev nD) (f : HbBuf (F := F) c hbM) :
    (hbPt c hbM f : sProp 𝕄) ⊣⊢ iprop(iprop((hbM.view.loc (c : Thread nD τ) ↦{Transfers.shareDrop fullShare 14} f) ∗ BI.bigSep (Finset.range 6) (fun k => hbTok c hbM k f))
        ∗ hbTok c hbM 6 f ∗ hbTok c hbM 7 f ∗ hbTok c hbM 8 f ∗ hbTok c hbM 9 f ∗ hbTok c hbM 10 f ∗ hbTok c hbM 11 f ∗ hbTok c hbM 12 f ∗ hbTok c hbM 13 f) := by
  have h := Transfers.pointsTo_toks_range (ℓ := hbM.view.loc (c : Thread nD τ)) (S := Finset.univ) (f := f)
    (Ix := Unit) (Name := ℕ) (U := Pipeline.UD sig nD τ) (Lvl := ℕ) (nD := nD) (τ := τ) (sig := sig) (Val := Elt F) fullShare 14
  have e : BI.bigSep (Finset.range 14) (fun k => (hbM.view.loc (c : Thread nD τ) ↦[Finset.univ]{Transfers.shareTokN fullShare k} f : sProp 𝕄))
      = iprop(hbTok c hbM 13 f ∗ hbTok c hbM 12 f ∗ hbTok c hbM 11 f ∗ hbTok c hbM 10 f ∗ hbTok c hbM 9 f ∗ hbTok c hbM 8 f ∗ hbTok c hbM 7 f ∗ hbTok c hbM 6 f
          ∗ BI.bigSep (Finset.range 6) (fun k => hbTok c hbM k f)) := by
    simp only [Finset.range_add_one (n := 13), Finset.range_add_one (n := 12), Finset.range_add_one (n := 11), Finset.range_add_one (n := 10),
      Finset.range_add_one (n := 9), Finset.range_add_one (n := 8), Finset.range_add_one (n := 7), Finset.range_add_one (n := 6)]
    rw [BI.bigSep_insert (by decide), BI.bigSep_insert (by decide), BI.bigSep_insert (by decide), BI.bigSep_insert (by decide),
      BI.bigSep_insert (by decide), BI.bigSep_insert (by decide), BI.bigSep_insert (by decide), BI.bigSep_insert (by decide)]
    rfl
  rw [e] at h
  constructor
  · refine h.1.trans ?_
    iintro ⟨Hd, H13, H12, H11, H10, H9, H8, H7, H6, Hr⟩
    isplitl [Hd Hr]; · isplitl [Hd]; · iexact Hd
                       iexact Hr
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · refine BIBase.Entails.trans ?_ h.2
    iintro ⟨⟨Hd, Hr⟩, H6, H7, H8, H9, H10, H11, H12, H13⟩
    isplitl [Hd]; · iexact Hd
    isplitl [H13]; · iexact H13
    isplitl [H12]; · iexact H12
    isplitl [H11]; · iexact H11
    isplitl [H10]; · iexact H10
    isplitl [H9]; · iexact H9
    isplitl [H8]; · iexact H8
    isplitl [H7]; · iexact H7
    isplitl [H6]; · iexact H6
    iexact Hr

/-! ## The pipeline's proof data -/

-- every token names a row of the transposed table
variable (hT : ∀ y, (tokv V y).toNat < 32000)

/-- The region invariant: the class's for a body that reads an array in HBM by its own transfers within the point
    (the other scoped buffers, the generator register, the eight semaphores at zero, the transposed table whole at
    its entry contents), and the token table whole at its entry contents. -/
def Φ1 (c : Dev nD) : sProp 𝕄 :=
  iprop(Pipeline.ΦD osem1 spec1 H1 V c ∗ Pipeline.prefHeld (Ix := Unit) (Name := ℕ) (U := Pipeline.UD sig nD τ) (Lvl := ℕ) pre1 c (fun _ => fullShare) (tbl V))

/-- The proof data of the gather pipeline on core `c`: the output array as the region finds it; after the body at
    point `t` the staged block holds rows 128·t … 128·t + 127 of the gather; the invariant above; nothing owed. -/
def dat1 (c : Dev nD) : Dat τ (Elt F) Unit ℕ (Pipeline.UD sig nD τ) ℕ (cfgM V) c where
  A w := V c (Pipeline.arrRef spec1 w)
  after w t := match w with
    | ⟨0, _⟩ => gblock (tokv V) (grid1.coords t) (hbM.view.read (Elt F) (V c main_v0))
  Φ _ := Φ1 V c
  q _ := fullShare
  owed _ := 0

theorem A_eq1 (c : Dev nD) (w : Fin (cfgM V).W) : (dat1 V c).A w = V c (Pipeline.arrRef spec1 w) := by
  dsimp only [dat1]
theorem after1_0 (c : Dev nD) (t : Fin (cfgM V).N) :
    (dat1 V c).after 0 t = gblock (tokv V) (grid1.coords t) (hbM.view.read (Elt F) (V c main_v0)) := by dsimp only [dat1]; try rfl

/-! ## The body obligation -/

/-- Owning a memref at read contents `X` is holding its own elements at some raw contents that read `X`. -/
theorem owns_open (c : Dev nD) {sp : Space} {S : Shape} {e : EltTy} (M : Memref sig .tc sp S e) (q : PosShare TreeShare) (X : S.Idx → Elt F e) :
    (owns (c : Thread nD τ) M q X : sProp 𝕄) ⊢ iprop(∃ f, ⌜M.view.read (Elt F) f = X⌝ ∗ (M.view.loc (c : Thread nD τ) ↦[M.view.set]{q} f)) :=
  Entails.of_eq (by unfold owns; rfl)
theorem owns_close (c : Dev nD) {sp : Space} {S : Shape} {e : EltTy} (M : Memref sig .tc sp S e) (q : PosShare TreeShare) (X : S.Idx → Elt F e) :
    (iprop(∃ f, ⌜M.view.read (Elt F) f = X⌝ ∗ (M.view.loc (c : Thread nD τ) ↦[M.view.set]{q} f)) : sProp 𝕄) ⊢ owns (c : Thread nD τ) M q X :=
  Entails.of_eq (by unfold owns; rfl)

/-- What the body is called with at point `t`, -/
def bodyPre1 (c : Dev nD) (t : Fin (cfgM V).N) : sProp 𝕄 :=
  iprop((dat1 V c).Φ t.castSucc ∗ (dat1 V c).owesAt () t.castSucc
    ∗ (∃ d, owns (c : Thread nD τ) (ms1_0 V t) fullShare ((dat1 V c).before 0 t d)))

/-- and what it returns. -/
def bodyPost1 (c : Dev nD) (t : Fin (cfgM V).N) : sProp 𝕄 :=
  iprop((dat1 V c).Φ t.succ ∗ (dat1 V c).owesAt () t.succ
    ∗ owns (c : Thread nD τ) (ms1_0 V t) fullShare ((dat1 V c).after 0 t))

include hT in
/-- The body at any point: the invariant hands it the semaphores at zero, the token table and, share by share, the
    transposed table; the run gives them back as they were and leaves the staged block at the gathered rows. -/
theorem sound_body1 (c : Dev nD) (t : Fin (cfgM V).N) :
    bodyPre1 V c t ⊢ wp frame (wpE (defs₀ (F := F)) Variants.none c none) Set.univ (bodyAt1 V t) (fun _ => bodyPost1 V c t) := by
  unfold bodyPre1 bodyPost1 bodyAt1
  rw [show (dat1 V c).Φ t.succ = Φ1 V c from rfl, show (dat1 V c).Φ t.castSucc = Φ1 V c from rfl, after1_0]
  unfold Φ1
  rw [Pipeline.ΦD_eq, ownSems01_eq, hbmPts1_eq, prefHeld1_eq]
  unfold Dat.owesAt Pipeline.owesWithin
  rw [show (dat1 V c).owed t.castSucc = 0 from rfl, show (dat1 V c).owed t.succ = 0 from rfl]
  iintro ⟨⟨⟨HR, Hg, ⟨Hq0, Hq1, Hq2, Hq3, Hq4, Hq5, Hq6, Hq7⟩, Hh⟩, HT⟩, ⟨%W, -, HW⟩, ⟨%d1, Hst⟩⟩
  ihave Hst' := (owns_open c (ms1_0 V t) fullShare ((dat1 V c).before 0 t d1)) $$ Hst
  icases Hst' with ⟨%f1, -, Hst⟩
  ihave Hh' := (hbm_shares c (V c main_v0)).1 $$ Hh
  icases Hh' with ⟨Hrest, Ht0, Ht1, Ht2, Ht3, Ht4, Ht5, Ht6, Ht7⟩
  iapply ((gatherRun c (grid1.coords t) (ms1_0 V t) (hs1_0 V t) (tokv V) hT (V c main_v0) f1).2 W _)
  isplitl [HT]; · iexact HT
  isplitl [Hst]; · iexact Hst
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨HT, Hst, Ht0, Ht1, Ht2, Ht3, Ht4, Ht5, Ht6, Ht7, Hq0, Hq1, Hq2, Hq3, Hq4, Hq5, Hq6, Hq7, ⟨%W', HW'⟩⟩
  ihave Hh := (hbm_shares c (V c main_v0)).2 $$ [Hrest Ht0 Ht1 Ht2 Ht3 Ht4 Ht5 Ht6 Ht7]
  · isplitl [Hrest]; · iexact Hrest
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    iexact Ht7
  isplitl [HR Hg Hq0 Hq1 Hq2 Hq3 Hq4 Hq5 Hq6 Hq7 Hh HT]
  · isplitl [HR Hg Hq0 Hq1 Hq2 Hq3 Hq4 Hq5 Hq6 Hq7 Hh]
    · isplitl [HR]; · iexact HR
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact HT
  isplitl [HW']
  · iexists W'; isplitr; · ipureintro; exact fun _ _ => Or.inl trivial
    iexact HW'
  iapply (owns_close c (ms1_0 V t) fullShare _)
  iexists _; isplitr
  swap; · iexact Hst
  ipureintro; exact gatherRun_read c (grid1.coords t) (ms1_0 V t) (hs1_0 V t) (tokv V) hT (V c main_v0) f1

include hT in
set_option maxRecDepth 65536 in
/-- The library's body obligation, at every point. -/
theorem body_obligation1 (c : Dev nD) : BodyObligation (dat1 (F := F) V c) (defs₀ (F := F)) Variants.none () Set.univ := fun t => by
  rw [bigSep_W1, bigSep_W1]
  exact sound_body1 V hT c t

end Cert.Kernel.Hand

end
-- ==== Proof.Kernel.Run.lean ====
/-
  The whole program as four segments — the transpose call, the tokens read as one vector, the gather call, the
  rows read as 8 × 4096 — run from the launch to the return, with every buffer's contents named at each boundary.

  Between two segments the core holds every unscoped buffer whole: at launch the memory's; after the transpose
  call the transposed table in its buffer; after the first reshape the token vector in the scalar table; after
  the gather call the gathered rows; after the second reshape the result. The arguments are written by no segment.
-/
import proofs.«406021_j30614526886303_1_alg».proof.Proof.Kernel.Region0
import proofs.«406021_j30614526886303_1_alg».proof.Proof.Kernel.Region1
import proofs.«406021_j30614526886303_1_alg».proof.Proof.Gen.Kernel.Regions
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Seg HostSeg RegionSeg)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
abbrev Ve0 : (c : Dev nD) → (b : Ref sig .tc) → Buf (Elt F) ((c : Thread nD τ).loc b) := fun c b => W0 m c b
/-- After the transpose call: its output array at what the write-backs leave. -/
def W1 (c : Dev nD) : Valuation τ sig (Elt F) :=
  Pipeline.withArrays spec0 c (W0 m c) fun w => (dat0 (Ve0 m) c).arrAt w cfg0.N
theorem W1_arr (c : Dev nD) (w : Fin cfg0.W) :
    W1 m c (Proc.devRef .tc (Pipeline.arrRef spec0 w)) = (dat0 (Ve0 m) c).arrAt w cfg0.N := by
  unfold W1; exact Pipeline.withArrays_arr spec0 (launch0 (F := F)).win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Ve1 : (c : Dev nD) → (b : Ref sig .tc) → Buf (Elt F) ((c : Thread nD τ).loc b) := fun c b => W1 m c b
theorem hF0 (c : Dev nD) (w : Fin cfg0.W) : (dat0 (Ve0 m) c).arrAt w cfg0.N = Ve1 m c (Pipeline.arrRef spec0 w) :=
  (W1_arr m c w).symm
theorem hrest0 (c : Dev nD) : ∀ b, b ∉ Finset.univ.image (Pipeline.arrRef spec0) → Ve1 m c b = Ve0 m c b :=
  fun b hb => W1_of_ne m c b fun w e => hb (Finset.mem_image.mpr ⟨w, Finset.mem_univ _, e⟩)

/-- After the tokens are read as one vector. -/
abbrev W2 (c : Dev nD) : Valuation τ sig (Elt F) := StableHlo.after hostOps1 (W1 m c)
abbrev Ve2 : (c : Dev nD) → (b : Ref sig .tc) → Buf (Elt F) ((c : Thread nD τ).loc b) := fun c b => W2 m c b

section Hosts

/-- The first reshape writes the tokens, read row-major, into the scalar table. -/
theorem host1_val (Wv : Valuation τ sig (Elt F)) :
    StableHlo.after hostOps1 Wv (Proc.devRef .tc main_v1) = shapeCast S32768 (Wv (Proc.devRef .tc main_arg0)) shapeCasts_S8x4096_S32768 := by
  after_results
  rfl

/-- The second reshape writes the gathered rows, read row-major, into the result buffer. -/
theorem host2_val (Wv : Valuation τ sig (Elt F)) :
    StableHlo.after hostOps2 Wv (Proc.devRef .tc main_v3) = shapeCast S8x4096x1024 (Wv (Proc.devRef .tc main_v2)) shapeCasts_S32768x1024_S8x4096x1024 := by
  after_results
  rfl

/-- The token vector the gather call finds: the tokens read row-major. -/
theorem tokv_eq : tokv (Ve2 m) = shapeCast S32768 (m (((0 : Dev nD) : Thread nD τ).loc main_arg0)) shapeCasts_S8x4096_S32768 := by
  show StableHlo.after hostOps1 (W1 m 0) (Proc.devRef .tc main_v1) = _
  rw [host1_val]
  exact congrArg (fun x => shapeCast S32768 x shapeCasts_S8x4096_S32768) (W1_of_ne m 0 main_arg0 (by decide))

/-- Word b·4096 + s of the token vector is token (b, s). -/
theorem tokv_apply (b : Fin 8) (s : Fin 4096) :
    tokv (Ve2 m) (ValueIdx.ix1 ⟨b.val * 4096 + s.val, by omega⟩) = m (((0 : Dev nD) : Thread nD τ).loc main_arg0) (ValueIdx.ix2 b s) := by
  rw [tokv_eq]
  exact shapeCast_apply _ _ _ _ ((Shape.rowMajor_val_two (d := ![8, 4096]) (ValueIdx.ix2 b s)).trans
    (Shape.rowMajor_val_one (d := ![32768]) (ValueIdx.ix1 ⟨b.val * 4096 + s.val, by omega⟩)).symm)

/-- Every word of the token vector is below 32000 when every token is. -/
theorem tokv_lt (h : ∀ y, (m (((0 : Dev nD) : Thread nD τ).loc main_arg0) y).toNat < 32000) : ∀ y, (tokv (Ve2 m) y).toNat < 32000 := by
  intro y
  rw [tokv_eq]
  unfold shapeCast
  exact h _

end Hosts

-- every token names a row of the transposed table
variable (hT : ∀ y, (tokv (Ve2 m) y).toNat < 32000)

/-- After the gather call: its output array at what the write-backs leave. -/
def W3 (c : Dev nD) : Valuation τ sig (Elt F) :=
  Pipeline.withArrays spec1 c (W2 m c) fun w => (dat1 (Ve2 m) c).arrAt w (cfgM (Ve2 m)).N
theorem W3_arr (c : Dev nD) (w : Fin (cfgM (Ve2 m)).W) :
    W3 m c (Proc.devRef .tc (Pipeline.arrRef spec1 w)) = (dat1 (Ve2 m) c).arrAt w (cfgM (Ve2 m)).N := by
  unfold W3; exact Pipeline.withArrays_arr spec1 (launch1 (F := F)).win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Ve3 : (c : Dev nD) → (b : Ref sig .tc) → Buf (Elt F) ((c : Thread nD τ).loc b) := fun c b => W3 m c b
theorem hF1 (c : Dev nD) (w : Fin (cfgM (Ve2 m)).W) : (dat1 (Ve2 m) c).arrAt w (cfgM (Ve2 m)).N = Ve3 m c (Pipeline.arrRef spec1 w) :=
  (W3_arr m c w).symm
theorem hrest1 (c : Dev nD) : ∀ b, b ∉ Finset.univ.image (Pipeline.arrRef spec1) → Ve3 m c b = Ve2 m c b :=
  fun b hb => W3_of_ne m c b fun w e => hb (Finset.mem_image.mpr ⟨w, Finset.mem_univ _, e⟩)

/-- After the rows are read as 8 × 4096. -/
abbrev W4 (c : Dev nD) : Valuation τ sig (Elt F) := StableHlo.after hostOps2 (W3 m c)

/-! ## No segment writes an argument -/

theorem W2_of (c : Dev nD) (r : Ref sig .tc) (h : r ∉ hostOps1_W) : W2 m c r = W1 m c r :=
  StableHlo.after_of_writes_sub hostOps1 _ hostOps1_writes h
theorem W4_of (c : Dev nD) (r : Ref sig .tc) (h : r ∉ hostOps2_W) : W4 m c r = W3 m c r :=
  StableHlo.after_of_writes_sub hostOps2 _ hostOps2_writes h

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of m c main_arg0 (by decide)
    _ = W2 m c (Proc.devRef .tc main_arg0) := W3_of_ne m c main_arg0 (by decide)
    _ = W1 m c (Proc.devRef .tc main_arg0) := W2_of m c main_arg0 (by decide)
    _ = W0 m c (Proc.devRef .tc main_arg0) := W1_of_ne m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of m c main_arg1 (by decide)
    _ = W2 m c (Proc.devRef .tc main_arg1) := W3_of_ne m c main_arg1 (by decide)
    _ = W1 m c (Proc.devRef .tc main_arg1) := W2_of m c main_arg1 (by decide)
    _ = W0 m c (Proc.devRef .tc main_arg1) := (W1_arr m c 0).trans (((dat0 (Ve0 m) c).arrAt_in 0 rfl _).trans (A_eq0 (Ve0 m) c 0))
    _ = m ((c : Thread nD τ).loc main_arg1) := rfl

/-! ## The proof data family and the thread state -/

/-- The tables' admissible contents: the transpose call has none, the gather call its token table as the region finds it. -/
def adm : (p : Fin 2) → (pcfgs (F := F) p).Adm
  | ⟨0, _⟩ => cfg0.toPCfg_adm
  | ⟨1, _⟩ => adm1 (Ve2 m)
/-- Every pipeline's proof data, each at its region's entry contents. -/
def pdats : (p : Fin 2) → (c : Dev nD) → Dat τ (Elt F) Unit ℕ (Pipeline.UD sig nD τ) ℕ (Pipeline.pin (pcfgs (F := F)) (adm m) p) c
  | ⟨0, _⟩ => fun c => dat0 (Ve0 m) c
  | ⟨1, _⟩ => fun c => dat1 (Ve2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A stretch of host operations as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The two calls as segments -/

set_option backward.isDefEq.respectTransparency.types false in
/-- The transpose call: entered from every unscoped buffer at the launch contents, left with the output array at what
    the write-backs leave; the generator register into the invariant and out; nothing owed; no semaphore of its own. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (Ve0 m c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole c (pdats m) ((pdats m 0 c).share_full fun _ => rfl)
      (Ve0 m c) (Ve1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

include hT in
set_option backward.isDefEq.respectTransparency.types false in
/-- The gather call: entered from every unscoped buffer at the contents after the first reshape, left with the output
    array at what the write-backs leave. The token table and the transposed table go into the invariant whole and
    come back whole; the eight semaphores from the boundary at zero and back; nothing owed. -/
def reg1 : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := Fin 8
  osem := osem1
  ho := ownSemFacts1
  hbody c := (body_obligation1 (Ve2 m) hT c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop((∃ r, prngReg c r) ∗ Pipeline.ownSems0 (Ix := Unit) (Name := ℕ) (U := Pipeline.UD sig nD τ) (Lvl := ℕ) (Val := Elt F) (τ := τ) osem1 c
    ∗ hbPt c hbM (Ve2 m c main_v0))
  Y c := iprop((∃ r, prngReg c r) ∗ hbPt c hbM (Ve2 m c main_v0)
    ∗ Pipeline.prefHeld (Ix := Unit) (Name := ℕ) (U := Pipeline.UD sig nD τ) (Lvl := ℕ) pre1 c (fun _ => fullShare) (tbl (Ve2 m)))
  Z c := iprop((((c : Thread nD τ).loc main_arg0) ↦{fullShare} Ve2 m c main_arg0) ∗ (((c : Thread nD τ).loc main_arg1) ↦{fullShare} Ve2 m c main_arg1)
    ∗ (((c : Thread nD τ).loc main_v3) ↦{fullShare} Ve2 m c main_v3))
  hentry c := by
    have hsplit := Pipeline.arrays_of_unscopedBufs (p := 1) (pcfgs (F := F)) (adm m) (pdats m) (launch1 (F := F)).win (launch1 (F := F)).arr_whole c
      ((pdats m 1 c).share_full fun _ => rfl) (Ve2 m c) fun _ => rfl
    rw [Pipeline.unscopedBufs_held] at hsplit
    have hrest : (Pipeline.unscopedRest (Ix := Unit) (Name := ℕ) (U := Pipeline.UD sig nD τ) (Lvl := ℕ) spec1 c (Ve2 m c) : sProp 𝕄)
        = iprop(Pipeline.prefHeld pre1 c (fun _ => fullShare) (tbl (Ve2 m))
            ∗ (((c : Thread nD τ).loc main_arg0) ↦{fullShare} Ve2 m c main_arg0) ∗ (((c : Thread nD τ).loc main_arg1) ↦{fullShare} Ve2 m c main_arg1)
            ∗ (((c : Thread nD τ).loc main_v0) ↦{fullShare} Ve2 m c main_v0) ∗ (((c : Thread nD τ).loc main_v3) ↦{fullShare} Ve2 m c main_v3)) := by
      rw [Pipeline.unscopedRest_split preFacts1 c (Ve2 m c), unscopedRestP1_eq c (Ve2 m c),
        show (fun k => Ve2 m c (pre1.ref k)) = tbl (Ve2 m) from funext fun k => V_pre (Ve2 m) c k]
    iintro ⟨⟨Hub, Hp, HO⟩, Hos, -⟩
    ihave H := hsplit $$ Hub
    icases H with ⟨Ha, Hrest⟩
    ihave H' := (Entails.of_eq hrest) $$ Hrest
    icases H' with ⟨HT, Ha0, Ha1, Hv0, Hv3⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp Hos Hv0]
    · isplitl [Hp]; · iexact Hp
      isplitl [Hos]; · iexact Hos
      iexact Hv0
    isplitl [Ha0]; · iexact Ha0
    isplitl [Ha1]; · iexact Ha1
    iexact Hv3
  hin c := by
    rw [show (pdats m 1 c).Φ 0 = Φ1 (Ve2 m) c from rfl]; unfold Φ1
    rw [Pipeline.ΦD_eq, hbmPts1_eq]
    iintro ⟨⟨Hp, Ho, HH⟩, HT, Hr⟩
    isplitl [Hr Hp Ho HH]
    · isplitl [Hr]; · iexact Hr
      isplitl [Hp]; · iexact Hp
      isplitl [Ho]; · iexact Ho
      iexact HH
    iexact HT
  hout c := by
    rw [show (pdats m 1 c).Φ (Fin.last _) = Φ1 (Ve2 m) c from rfl]; unfold Φ1
    rw [Pipeline.ΦD_eq, hbmPts1_eq]
    iintro ⟨⟨Hr, Hp, Ho, HH⟩, HT⟩
    isplitl [Hp HH HT]
    · isplitl [Hp]; · iexact Hp
      isplitl [HH]; · iexact HH
      iexact HT
    isplitl [Ho]; · iexact Ho
    iexact Hr
  hexit c := by
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole c (pdats m) ((pdats m 1 c).share_full fun _ => rfl)
      (Ve2 m c) (Ve3 m c) ((pdats m 1 c).arrAt · (cfgM (Ve2 m)).N) (hF1 m c) (hrest1 m c)
    rw [Pipeline.unscopedBufs_held] at hjoin
    have hrest : (Pipeline.unscopedRest (Ix := Unit) (Name := ℕ) (U := Pipeline.UD sig nD τ) (Lvl := ℕ) spec1 c (Ve2 m c) : sProp 𝕄)
        = iprop(Pipeline.prefHeld pre1 c (fun _ => fullShare) (tbl (Ve2 m))
            ∗ (((c : Thread nD τ).loc main_arg0) ↦{fullShare} Ve2 m c main_arg0) ∗ (((c : Thread nD τ).loc main_arg1) ↦{fullShare} Ve2 m c main_arg1)
            ∗ (((c : Thread nD τ).loc main_v0) ↦{fullShare} Ve2 m c main_v0) ∗ (((c : Thread nD τ).loc main_v3) ↦{fullShare} Ve2 m c main_v3)) := by
      rw [Pipeline.unscopedRest_split preFacts1 c (Ve2 m c), unscopedRestP1_eq c (Ve2 m c),
        show (fun k => Ve2 m c (pre1.ref k)) = tbl (Ve2 m) from funext fun k => V_pre (Ve2 m) c k]
    iintro ⟨Ha, HO, ⟨HY, Hv0, HT⟩, Ha0, Ha1, Hv3⟩
    ihave Hrest := (Entails.of_eq hrest.symm) $$ [HT Ha0 Ha1 Hv0 Hv3]
    · isplitl [HT]; · iexact HT
      isplitl [Ha0]; · iexact Ha0
      isplitl [Ha1]; · iexact Ha1
      isplitl [Hv0]; · iexact Hv0
      iexact Hv3
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The four segments in order. -/
abbrev segs : List (Pipeline.Seg (pcfgs (F := F)) (adm m) (pdats m) () defs₀ 𝒱₀ L lv) :=
  [ .region (reg0 m),
    .host (hseg hostOps1 hostOps1_sub hostOps1_fresh (W1 m)),
    .region (reg1 m hT),
    .host (hseg hostOps2 hostOps2_sub hostOps2_fresh (W3 m)) ]

include hT in
set_option backward.isDefEq.respectTransparency.types false in
/-- THE RUN: from any memory with zero counters, every weakly fair execution of the program terminates, nothing
    faulting, and every final state holds the result buffer at the last boundary's contents and the two argument
    arrays as launched. -/
theorem run_main : θ_run defs (onTc (τ := τ) (main (F := F))) ⟨m, fun _ => 0, ρ⟩ (fun r => ∀ c : Dev nD,
      r.2.mem ((c.tc : Thread nD τ).loc main_v3) = W4 m c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) (adm m) (pdats m) () (cellOf_inj (adm m)) embL defs₀ 𝒱₀ L lv m ρ main (segs m hT)
    (fun c Q => by
      rewrite [main_chain c, Seg.run_eq_chain,
        show (segs m hT).map Seg.prog = [
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v3 (by decide)),
       (h c _ (mem_uc main_arg0 (by decide))).trans (W4_main_arg0 m c),
       (h c _ (mem_uc main_arg1 (by decide))).trans (W4_main_arg1 m c)⟩)

end Cert.Kernel.Hand

end
-- ==== Proof.KernelIdeal.Region0.lean ====
/-
  The first call: the table transposed, block by block.

  The table `W` is 1024 × 32000. Point t of the 25 reads the block of columns 1280 t … 1280 t + 1279 whole
  into a staging buffer, transposes it, and stores the 1280 × 1024 result whole into the output's staging
  buffer, which the pipeline writes back as rows 1280 t … 1280 t + 1279 of the 32000 × 1024 output.

  Stated here: the pipeline's proof data for this call at any contents `V` of the buffers on entry (each
  input block as read off `V`, each output block its transpose), the body's obligation at every point, and
  the arrays after the 25 points: the input as it was, the output the transposed table
  (entry (r, e) is entry (e, r) of `W`), whatever it held before.
-/
import proofs.«406021_j30614526886303_1_alg».proof.Proof.Gen.KernelIdeal.Launch
import proofs.«406021_j30614526886303_1_alg».proof.Proof.Gen.KernelIdeal.Skeleton
import proofs.«406021_j30614526886303_1_alg».proof.Proof.Gen.KernelIdeal.Points
import proofs.«406021_j30614526886303_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.WholeRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffers' contents when the call is entered
variable (V : (c : Dev nD) → (b : Ref sig .tc) → Buf (Elt F) ((c : Thread nD τ).loc b))

/-! ## The windows' blocks -/

/-- Window `w`'s block at point `t`, read off its array as the call finds it. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's current staging buffer holds the table's block of point `t` at every point, for any proof data
    whose input array is `V`'s and whose body leaves the block in place: the block is fetched at every point. -/
theorem before_in0_of {c : Dev nD} (dat : Dat τ (Elt F) Unit ℕ (Pipeline.UD sig nD τ) ℕ cfg0 c) (hA : dat.A 0 = V c (Pipeline.arrRef spec0 0))
    (hafter : ∀ t, dat.after 0 t = blockAt0 V c 0 t) (t : Fin cfg0.N) (d) : dat.before 0 t d = blockAt0 V c 0 t :=
  (dat.before_in_eq_fetched 0 rfl (fun _ => rfl) (fun _ _ _ => rfl) (fun t => by rw [hafter]; unfold Dat.blockOf blockAt0; rw [hA]; try rfl) t d).trans
    (by unfold Dat.fetched Dat.blockOf blockAt0; rw [hA]; try rfl)

/-! ## The body: one load of the whole input block, its transpose stored over the whole output block -/

/-- The whole 1024 × 1280 input block, and the whole 1280 × 1024 output block. -/
abbrev rIn0 : Rect S1024x1280 := Rect.unit (s := S1024x1280) ![0, 0] S1024x1280.size inb_S1024x1280_S1024x1280_0_0
abbrev rOut0 : Rect S1280x1024 := Rect.unit (s := S1280x1024) ![0, 0] S1280x1024.size inb_S1280x1024_S1280x1024_0_0

/-- The output's staging buffer after the body, from the input block `x0`: the one store, of the transpose of
    what the load read. -/
def outBlock0 (x0 : Vec F S1024x1280 .f32) : Vec F S1280x1024 .f32 :=
  View.canon [⟨rOut0, k0_pay1 (View.ld x0 rIn0)⟩]

/-- The one store is of the whole block, so it covers the buffer. -/
theorem store_covers0 (p0 : Vec F S1280x1024 .f32) (y : S1280x1024.Idx) :
    ∃ pc ∈ ([⟨rOut0, p0⟩] : List (View.Piece (Elt F) S1280x1024 .f32)), y ∈ pc.1.set :=
  View.cover_of_tiled [⟨rOut0, p0⟩] S1280x1024.size (by rfl) y

set_option maxHeartbeats 1000000 in
/-- The body on whole staging memrefs, the input's at contents `x0` and the output's at anything, runs to its
    end holding the input's as it was and the output's at `outBlock0 x0`. (The body also reads the output's
    buffer before it overwrites it; nothing depends on what it read.) -/
theorem sound_kernel0 (c : Dev nD) (E : Set ℕ) (i : grid0.Coords) (arg1 : Memref sig .tc .vmem S1024x1280 .f32) (harg1 : arg1.IsWhole) (arg2 : Memref sig .tc .vmem S1280x1024 .f32) (harg2 : arg2.IsWhole)
    (x0 : Vec F S1024x1280 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outBlock0 x0)) -∗ K ⟨⟩))
      ⊢ wp frame (wpE (defs₀ (F := F)) Variants.none c none) E (cc0__transpose_kernel i arg1 harg1 arg2 harg2) K := by
  simp only [cc0__transpose_kernel_eq_skeleton]; unfold cc0__transpose_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (store_covers0 _)

/-! ## The pipeline's proof data -/

/-- The proof data of the call on core `c`: the arrays as the call finds them; after the body at point `t`
    the input's buffer at the table's block and the output's at its transpose; the untouched rest as the
    invariant; nothing owed; full shares. -/
def dat0 (c : Dev nD) : Dat τ (Elt F) Unit ℕ (Pipeline.UD sig nD τ) ℕ cfg0 c where
  A w := V c (Pipeline.arrRef spec0 w)
  after w t := match w with
    | ⟨0, _⟩ => blockAt0 V c 0 t
    | ⟨1, _⟩ => outBlock0 (blockAt0 V c 0 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_in (c : Dev nD) (t : Fin cfg0.N) : (dat0 V c).after 0 t = blockAt0 V c 0 t := by dsimp only [dat0]
theorem after0_out (c : Dev nD) (t : Fin cfg0.N) : (dat0 V c).after 1 t = outBlock0 (blockAt0 V c 0 t) := by dsimp only [dat0]

/-- The input's current staging buffer holds the table's block at every point. -/
theorem before0_in (c : Dev nD) (t : Fin cfg0.N) (d) : (dat0 V c).before 0 t d = blockAt0 V c 0 t :=
  before_in0_of V (dat0 V c) (A_eq0 V c 0) (after0_in V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds the table's block, so the body's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_in]
  rw [show (dat0 V c).Φ t.succ = (dat0 V c).Φ t.castSucc from rfl,
    show (dat0 V c).owesAt () t.succ = (dat0 V c).owesAt () t.castSucc from rfl,
    after0_in, after0_out]
  iintro ⟨HΦ, Ho, ⟨%d0, H0⟩, ⟨%d1, H1⟩⟩
  iapply (sound_kernel0 c Set.univ (grid0.coords t) _ _ _ _ (blockAt0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

/-- The input array is never written. -/
theorem arr0_in (c : Dev nD) : (dat0 V c).arrAt 0 cfg0.N = V c main_arg1 :=
  ((dat0 V c).arrAt_in 0 rfl _).trans (A_eq0 V c 0)

/-! ## From blocks to the array -/

open Idealize.ShloMosaic.ValueIdx in
/-- The body's stored value at an index: entry (p, q) of the transposed block is entry (q, p) of the block. -/
theorem transposed_apply (x0 : Vec F S1024x1280 .f32) (y : S1280x1024.Idx) (k : S1024x1280.Idx)
    (h0 : (k 0).val = (y 1).val) (h1 : (k 1).val = (y 0).val) : k0_pay1 x0 y = x0 k := by
  unfold k0_pay1
  exact transpose_apply [1, 0] x0 transposes_S1024x1280_p1_0_S1280x1024 y k
    (fun b => by match b with | ⟨0, _⟩ => exact h1 | ⟨1, _⟩ => exact h0)

/-- The zero offsets, however spelt. -/
theorem zero_off0 : (![0, 0] : Fin 2 → Nat) = fun _ => 0 := funext fun a => by fin_cases a <;> rfl

/-- The printed index maps over the grid: the input's block is column-block t of the table, the output's
    row-block t of the result. -/
theorem index_facts0 : ∀ t : Fin cfg0.N, win0_0.index t (0 : Fin 2) = 0
    ∧ win0_0.index t (1 : Fin 2) = t.val
    ∧ win0_1.index t (0 : Fin 2) = t.val
    ∧ win0_1.index t (1 : Fin 2) = 0 :=
  (by decide +kernel : ∀ t : Fin grid0.N, _)

open Idealize.ShloMosaic.ValueIdx in
/-- What point `t` writes back is block `t` of the transposed table: entry (p, q) of the stored block is entry
    (q, p) of the input block, which is entry (q, 1280 t + p) of the table — entry (1280 t + p, q) of its transpose. -/
theorem flushed_out0 (c : Dev nD) (t : Fin cfg0.N) :
    (dat0 V c).flushed 1 t = ((cfg0.win 1).blk t).view.read (Elt F) (Cert.Spec.wt (V c main_arg1) : S32000x1024.Idx → Elt F .f32) := by
  show (cfg0.win 1).cut (grid0.coords t) ((dat0 V c).after 1 t) = _
  rw [after0_out]
  unfold outBlock0
  rw [View.canon_unit_zero zero_off0]
  simp only [View.ld_unit_zero (S := S1024x1280) zero_off0]
  obtain ⟨e0, e1, e2, e3⟩ := index_facts0 t
  funext j
  have hj0 : (j 0).val < 1280 := (j 0).isLt
  have hj1 : (j 1).val < 1024 := (j 1).isLt
  show k0_pay1 (blockAt0 V c 0 t) ((win0 1).xinj (grid0.coords t) j) = Cert.Spec.wt (V c main_arg1) (((cfg0.win 1).blk t).view.emb j)
  refine (transposed_apply (blockAt0 V c 0 t) _ (ix2 (⟨(j 1).val, hj1⟩ : Fin 1024) (⟨(j 0).val, hj0⟩ : Fin 1280)) rfl rfl).trans ?_
  show (V c main_arg1 : S1024x32000.Idx → Elt F .f32) (((cfg0.win 0).blk t).view.emb (ix2 (⟨(j 1).val, hj1⟩ : Fin 1024) (⟨(j 0).val, hj0⟩ : Fin 1280)))
    = (V c main_arg1 : S1024x32000.Idx → Elt F .f32) (ix2 ((((cfg0.win 1).blk t).view.emb j) 1 : Fin 1024) ((((cfg0.win 1).blk t).view.emb j) 0 : Fin 32000))
  refine congrArg (V c main_arg1 : S1024x32000.Idx → Elt F .f32) (funext fun a => Fin.ext ?_)
  match a with
  | ⟨0, _⟩ => show win0_0.index t (0 : Fin 2) * 1024 + 1 * (j 1).val = win0_1.index t (1 : Fin 2) * 1024 + 1 * (j 1).val; omega
  | ⟨1, _⟩ => show win0_0.index t (1 : Fin 2) * 1280 + 1 * (j 0).val = win0_1.index t (0 : Fin 2) * 1280 + 1 * (j 0).val; omega

/-- An index of the result is in point `t`'s block iff each coordinate is in the block's range on its axis. -/
theorem mem_block_out0 (t : Fin cfg0.N) (i : S32000x1024.Idx) :
    i ∈ ((cfg0.win 1).blk t).view.set ↔ ∀ a : Fin 2, win0_1.index t a * S1280x1024.size a ≤ (i a).val ∧ (i a).val < win0_1.index t a * S1280x1024.size a + S1280x1024.size a := by
  show i ∈ ((View.whole main_v0).slice (win0_1.rect t)).set ↔ _
  rw [View.set_slice_whole, Rect.mem_set_unit]
  exact Iff.rfl

/-- The 25 blocks of 1280 rows tile the 32000 rows: row r is in the block of point r / 1280. -/
theorem covered_out0 (i : S32000x1024.Idx) :
    ∃ t : Fin cfg0.N, (cfg0.win 1).flush t = true ∧ i ∈ ((cfg0.win 1).blk t).view.set := by
  have hi0 : (i 0).val < 32000 := (i 0).isLt
  have hi1 : (i 1).val < 1024 := (i 1).isLt
  have hN : cfg0.N = 25 := N_0
  obtain ⟨t, ht⟩ : ∃ t : Fin cfg0.N, t.val = (i 0).val / 1280 := ⟨⟨(i 0).val / 1280, by rw [hN]; omega⟩, rfl⟩
  obtain ⟨e0, e1, e2, e3⟩ := index_facts0 t
  refine ⟨t, flush0_1 t, ?_⟩
  rw [mem_block_out0]
  intro a
  match a with
  | ⟨0, _⟩ => show win0_1.index t (0 : Fin 2) * 1280 ≤ (i 0).val ∧ (i 0).val < win0_1.index t (0 : Fin 2) * 1280 + 1280; omega
  | ⟨1, _⟩ => show win0_1.index t (1 : Fin 2) * 1024 ≤ (i 1).val ∧ (i 1).val < win0_1.index t (1 : Fin 2) * 1024 + 1024; omega

/-- The output array after the 25 write-backs is the transposed table, whatever it held before. -/
theorem arr0_out (c : Dev nD) : (dat0 V c).arrAt 1 cfg0.N = (Cert.Spec.wt (V c main_arg1) : S32000x1024.Idx → Elt F .f32) :=
  (dat0 V c).arrAt_eq_of_cover 1 (Cert.Spec.wt (V c main_arg1) : S32000x1024.Idx → Elt F .f32) (fun t _ => flushed_out0 V c t) covered_out0

end Cert.KernelIdeal.Hand

end
-- ==== Proof.KernelIdeal.GatherRun.lean ====
/-
  The gather body, run once on any staging buffer.

  The body of the second call fills the 128 rows of its output block one by one: row j is copied from
  row tok[128·i + j] of the transposed table, which stays in HBM, by a transfer of the kernel's own on
  semaphore j mod 8, eight transfers in flight at a time, each waited for before its semaphore is used
  again. Every row number is a word of the token table; the body may only run where that word names a
  row of the table, which holds when every token is below 32000.

  Stated here: on a whole staging buffer at any contents, the token table held whole, the transposed
  table held as one read share per semaphore, the eight semaphores at zero and nothing owed, the body
  runs to its end and gives all of that back, the staging buffer at contents the run finds.
-/
import proofs.«406021_j30614526886303_1_alg».proof.Proof.Gen.KernelIdeal.Launch
import proofs.«406021_j30614526886303_1_alg».proof.Proof.Gen.KernelIdeal.Skeleton
import proofs.«406021_j30614526886303_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WholeRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The transposed table, left in HBM, and the token table, in scalar memory, as the body is handed them. -/
abbrev hbM : Memref sig .tc .hbm S32000x1024 .f32 := Memref.whole main_v0
abbrev tbM : Memref sig .tc .smem S32768 .i32 := Memref.whole main_v1

/-- A memref's buffer on core `c`, and that buffer held whole at the read share of semaphore `k`. -/
abbrev HbBuf (c : Dev nD) {sp : Space} {S : Shape} {e : EltTy} (M : Memref sig .tc sp S e) : Type := Buf (Elt F) (M.view.loc (c : Thread nD τ))
abbrev hbTok (c : Dev nD) {sp : Space} {S : Shape} {e : EltTy} (M : Memref sig .tc sp S e) (k : ℕ) (f : HbBuf (F := F) c M) : sProp 𝕄 :=
  M.view.loc (c : Thread nD τ) ↦{Transfers.shareTokN fullShare k} f

/-- A word below 32000 names a row of the transposed table: the row's slice lies inside it. -/
theorem chk_of (v : BitVec 32) (h : v.toNat < 32000) : ∀ a : Fin 2, (![v.toNat, 0] : Fin 2 → Nat) a + S1x1024.size a ≤ S32000x1024.size a := by
  intro a
  match a with
  | ⟨0, _⟩ => show v.toNat + 1 ≤ 32000; omega
  | ⟨1, _⟩ => show 0 + 1024 ≤ 1024; omega

/-- A load of the token table, held at the contents that read `x0`, reads an entry of `x0`: below 32000 when all are. -/
theorem word_lt (x0 : Vec F S32768 .i32) (hx0 : ∀ y, (x0 y).toNat < 32000) (B : LoadRect S32768) (x : B.shape.Idx) :
    (View.readAt (Elt F) tbM.view B ((Memref.isWhole_whole main_v1).unread x0) x).toNat < 32000 := by
  rw [(Memref.isWhole_whole main_v1).readAt_unread x0 B x]; exact hx0 _

set_option maxHeartbeats 40000000 in
/-- The body on a whole staging buffer at contents `f1`: what it leaves there, with the proof that it runs to its
    end from the resources above and gives them back. -/
noncomputable def gatherRun (c : Dev nD) (i : grid1.Coords) (arg3 : Memref sig .tc .vmem S128x1024 .f32) (harg3 : arg3.IsWhole)
    (x0 : Vec F S32768 .i32) (hx0 : ∀ y, (x0 y).toNat < 32000) (fh : HbBuf (F := F) c hbM) (f1 : arg3.view.ty.Contents (Elt F)) :
    { g : arg3.view.ty.Contents (Elt F) //
      ∀ (W : Waits sig Unit) (K : PUnit → sProp 𝕄),
        iprop(owns (c : Thread nD τ) tbM fullShare x0 ∗ (arg3.view.loc (c : Thread nD τ) ↦[arg3.view.set]{fullShare} f1)
            ∗ hbTok c hbM 6 fh ∗ hbTok c hbM 7 fh ∗ hbTok c hbM 8 fh ∗ hbTok c hbM 9 fh ∗ hbTok c hbM 10 fh ∗ hbTok c hbM 11 fh ∗ hbTok c hbM 12 fh ∗ hbTok c hbM 13 fh
            ∗ semVal ((c : Thread nD τ), SemLoc.dma 6) 0 ∗ semVal ((c : Thread nD τ), SemLoc.dma 7) 0
            ∗ semVal ((c : Thread nD τ), SemLoc.dma 8) 0 ∗ semVal ((c : Thread nD τ), SemLoc.dma 9) 0
            ∗ semVal ((c : Thread nD τ), SemLoc.dma 10) 0 ∗ semVal ((c : Thread nD τ), SemLoc.dma 11) 0
            ∗ semVal ((c : Thread nD τ), SemLoc.dma 12) 0 ∗ semVal ((c : Thread nD τ), SemLoc.dma 13) 0
            ∗ owes (c : Thread nD τ) 0 W
            ∗ (iprop(owns (c : Thread nD τ) tbM fullShare x0 ∗ (arg3.view.loc (c : Thread nD τ) ↦[arg3.view.set]{fullShare} g)
                ∗ hbTok c hbM 6 fh ∗ hbTok c hbM 7 fh ∗ hbTok c hbM 8 fh ∗ hbTok c hbM 9 fh ∗ hbTok c hbM 10 fh ∗ hbTok c hbM 11 fh ∗ hbTok c hbM 12 fh ∗ hbTok c hbM 13 fh
                ∗ semVal ((c : Thread nD τ), SemLoc.dma 6) 0 ∗ semVal ((c : Thread nD τ), SemLoc.dma 7) 0
                ∗ semVal ((c : Thread nD τ), SemLoc.dma 8) 0 ∗ semVal ((c : Thread nD τ), SemLoc.dma 9) 0
                ∗ semVal ((c : Thread nD τ), SemLoc.dma 10) 0 ∗ semVal ((c : Thread nD τ), SemLoc.dma 11) 0
                ∗ semVal ((c : Thread nD τ), SemLoc.dma 12) 0 ∗ semVal ((c : Thread nD τ), SemLoc.dma 13) 0
                ∗ (∃ W', owes (c : Thread nD τ) 0 W')) -∗ K ⟨⟩))
          ⊢ wp frame (wpE (defs₀ (F := F)) Variants.none c none) Set.univ (cc1__gather_kernel i tbM (Memref.isWhole_whole _) hbM (Memref.isWhole_whole _) arg3 harg3 cc1_scratch0) K } := by
  refine ⟨?_, fun W K => ?run⟩
  case run =>
    simp only [cc1__gather_kernel_eq_skeleton]; unfold cc1__gather_kernel_skel
    unfold owns
    iintro ⟨⟨%f0, %hf0, H0⟩, H1, Ht0, Ht1, Ht2, Ht3, Ht4, Ht5, Ht6, Ht7, Hq0, Hq1, Hq2, Hq3, Hq4, Hq5, Hq6, Hq7, HW, Hk⟩
    obtain rfl := (Memref.isWhole_whole main_v1).eq_unread hf0
    set_option sl_exec.dmaWindowSet true in
    set_option sl_exec.dmaWindow true in
    set_option sl_exec.dmaWindowLent true in
    sl_exec (disch := (exact chk_of _ (word_lt x0 hx0 _ _)))
    sl_step
    iapply Hk
    isplitl [H0]
    · iexists _; isplitr; · ipureintro; exact (Memref.isWhole_whole main_v1).read_unread _
      iexact H0
    isplitl [H1]; · iexact H1
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    iexists _; iexact HW

end Cert.KernelIdeal.Hand

end
-- ==== Proof.KernelIdeal.GatherVal.lean ====
/-
  What the gather body leaves in its staging buffer, read row by row.

  The run of the body found the buffer's final contents as 128 row writes laid one over the other, row 0 innermost,
  row 127 outermost, each through the view of its own row. The payload of row j's write is what the view of one row of
  the transposed table reads off the table's contents: the row named by the token word the body loaded at table offset
  128·i + j (computed in 32-bit words as i·128 + j, which does not wrap for i below 256). So row j of the buffer ends as
  row x0[128·i + j] of the transposed table, whatever the buffer held before: every row is overwritten.
-/
import proofs.«406021_j30614526886303_1_alg».proof.Proof.KernelIdeal.GatherRun
import proofs.«406021_j30614526886303_1_alg».proof.Proof.Spec
import proofs.«406021_j30614526886303_1_alg».proof.Proof.LibRowWrite
import proofs.«406021_j30614526886303_1_alg».proof.Proof.LibTableWord

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Word 128·i + j of the token table exists: 256 stretches of 128 words. -/
theorem tok_idx_lt (i : grid1.Coords) (y : S128x1024.Idx) : (i 0).val * 128 + (y 0).val < 32768 := by
  have h1 : (i 0).val < 256 := (i 0).isLt
  have h2 : (y 0).val < 128 := (y 0).isLt
  omega

/-- The block the body leaves: row j is the row of Y named by word 128·i + j of the token table. -/
def gblock (x0 : Vec F S32768 .i32) (i : grid1.Coords) (Y : S32000x1024.Idx → Elt F .f32) : S128x1024.Idx → Elt F .f32 :=
  fun y => Y (ValueIdx.ix2 (Cert.Spec.rowOf (x0 (ValueIdx.ix1 ⟨(i 0).val * 128 + (y 0).val, tok_idx_lt i y⟩))) (y 1 : Fin 1024))

/-- The token word the body loads at the table offset it computes as i·128 + j is word 128·i + j of the table. -/
theorem tok_word (i : grid1.Coords) (x0 : Vec F S32768 .i32) (j : Nat) (hj : j < 128) {offT : Fin 1 → Nat}
    (hoffT : offT = ![(Scalar.indexCast (Scalar.addi (Scalar.muli (BitVec.ofNat 32 (i 0).val) 128#32) (BitVec.ofNat 32 j))).toNat])
    (inbT : ∀ a, offT a + S1.size a ≤ S32768.size a)
    (x : (Rect.unit (s := S32768) offT S1.size inbT).toLoadRect.shape.Idx) :
    View.readAt (Elt F) tbM.view (Rect.unit (s := S32768) offT S1.size inbT).toLoadRect
        ((Memref.isWhole_whole main_v1).unread x0) x
      = x0 (ValueIdx.ix1 (⟨(i 0).val * 128 + j, by have h1 : (i 0).val < 256 := (i 0).isLt; omega⟩ : Fin 32768)) :=
  (Memref.isWhole_whole main_v1).readAt_word_unread x0 _
    (hoffT.trans (congrArg (fun t : Nat => (![t] : Fin 1 → Nat)) (Scalar.toNat_mul128_add (i 0).val j (i 0).isLt hj))) rfl inbT x

/-- The payload of row j's write: the view of the table row a word w names reads that row of the table; with w the
    token word 128·i + j, that is row j of the block. -/
theorem payload_row (c : Dev nD) (i : grid1.Coords) (x0 : Vec F S32768 .i32) (hx0 : ∀ y, (x0 y).toNat < 32000)
    (fh : HbBuf (F := F) c hbM) (j : Fin 128) (w : BitVec 32)
    (hw : w = x0 (ValueIdx.ix1 (⟨(i 0).val * 128 + j.val, by have h1 : (i 0).val < 256 := (i 0).isLt; have h2 := j.isLt; omega⟩ : Fin 32768)))
    {offH : Fin 2 → Nat} (hoffH : offH = ![w.toNat, 0])
    (inbH : ∀ a, offH a + S1x1024.size a ≤ S32000x1024.size a)
    (hs : ∀ a, (Rect.unit (s := S32000x1024) offH S1x1024.size inbH).stride a = 1)
    (hq : (Rect.unit (s := S32000x1024) offH S1x1024.size inbH).shape.Squeezes S1024) (q : Fin 1024) :
    ReadAs.same.apply (View.read (Elt F) ((hbM.slice (Rect.unit (s := S32000x1024) offH S1x1024.size inbH) hs).squeeze S1024 hq).view fh) (ValueIdx.ix1 q)
      = gblock x0 i (hbM.view.read (Elt F) fh) (ValueIdx.ix2 j q) := by
  have hlt : w.toNat < 32000 := hw ▸ hx0 _
  refine (Memref.read_row hbM (⟨w.toNat, hlt⟩ : Fin 32000) hoffH rfl inbH hs hq fh q).trans ?_
  unfold gblock
  refine congrArg (hbM.view.read (Elt F) fh) (congrArg (fun r : Fin 32000 => ValueIdx.ix2 r q) ?_)
  subst hw
  exact Fin.ext (Cert.Spec.rowOf_val_of_lt hlt).symm

set_option maxHeartbeats 4000000 in
/-- What the body leaves, read through the staging buffer: the block of the 128 token words' rows. Each of the 128
    writes adds its row to the rows that read as the block; none is left as the buffer was found. -/
theorem gatherRun_read (c : Dev nD) (i : grid1.Coords) (arg3 : Memref sig .tc .vmem S128x1024 .f32) (harg3 : arg3.IsWhole)
    (x0 : Vec F S32768 .i32) (hx0 : ∀ y, (x0 y).toNat < 32000) (fh : HbBuf (F := F) c hbM) (f1 : arg3.view.ty.Contents (Elt F)) :
    arg3.view.read (Elt F) (gatherRun c i arg3 harg3 x0 hx0 fh f1).1 = gblock x0 i (hbM.view.read (Elt F) fh) := by
  refine View.RowsRead.read_eq (R := 128) (C := 1024) ?_
  unfold gatherRun; dsimp only; sl_unfold_words
  iterate 128
    refine View.RowsRead.write_row ?_ (by omega) rfl rfl _ _ _ (fun q => ?_)
    swap
    · exact payload_row c i x0 hx0 fh ⟨_, _⟩ _ (tok_word i x0 _ (by omega) rfl _ _) rfl _ _ _ q
  exact View.rowsRead_zero _ _ _

end Cert.KernelIdeal.Hand

end
-- ==== Proof.KernelIdeal.Region1.lean ====
/-
  The second call (the row gather) as a pipeline: its proof data, its body obligation at every grid point.

  The call has one window, its output: block t (rows 128·t … 128·t + 127 of the gathered array) is staged in VMEM
  and written back after the body. The body fills the staged block from the transposed table, which it reads in
  HBM by transfers of its own on its eight semaphores, the rows named by the token table in scalar memory. Between
  two points nothing is in flight: the invariant holds the eight semaphores at zero, the transposed table and the
  token table whole at the contents the region found, the other scoped buffers and the generator register.
-/
import proofs.«406021_j30614526886303_1_alg».proof.Proof.KernelIdeal.GatherVal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The token table, read off the entry contents -/

/-- The token table's contents when the region is entered (the program runs on one device). -/
def tbl : pre1.Contents (Elt F) := fun j => V (0 : Dev nD) (pre1.ref j)
/-- On every device the table holds those contents. -/
theorem V_pre (c : Dev nD) (j : Fin 1) : V c (pre1.ref j) = tbl V j := by
  obtain rfl : c = 0 := Subsingleton.elim _ _; rfl
/-- The table's contents as admissible contents (no index map reads the table: nothing is asked of them), and the
    pipeline at them. -/
abbrev adm1 : (pcfg1 (F := F)).Adm := ⟨tbl V, trivial⟩
abbrev cfgM : Pipeline.Cfg sig Λ₀ := cfg1 (adm1 V)
/-- The table as a vector of 32768 words. -/
abbrev tokv : Vec F S32768 .i32 := tbl V 0

/-! ## The body's own semaphores and the array it reads in HBM -/

/-- The output window's current staging memref at point `t`, and its wholeness. -/
abbrev ms1_0 (t : Fin (cfgM V).N) : Memref sig .tc .vmem S128x1024 .f32 := spec1_0.stage ((cfgM V).slots t 0)
abbrev hs1_0 (t : Fin (cfgM V).N) : (ms1_0 V t).IsWhole := hstage1_0 (((cfgM V).slots t 0).cast nbuf1_0)

/-- The kernel body at point `t`, on what the pipeline calls it with. -/
abbrev bodyAt1 (t : Fin (cfgM V).N) : Prog (TpuEff nD τ sig (Elt F) Λ₀ .tc) PUnit :=
  cc1__gather_kernel (grid1.coords t) tbM (Memref.isWhole_whole _) hbM (Memref.isWhole_whole _) (ms1_0 V t) (hs1_0 V t) cc1_scratch0

/-- A memref's buffer held whole at the full share. -/
abbrev hbPt (c : Dev nD) {sp : Space} {S : Shape} {e : EltTy} (M : Memref sig .tc sp S e) (f : HbBuf (F := F) c M) : sProp 𝕄 :=
  M.view.loc (c : Thread nD τ) ↦{fullShare} f

/-- The body's eight DMA semaphores, by their numbers in the pool. -/
abbrev osem1 : Fin 8 → SemLoc sig := fun j => (![SemLoc.dma 6, SemLoc.dma 7, SemLoc.dma 8, SemLoc.dma 9, SemLoc.dma 10, SemLoc.dma 11, SemLoc.dma 12, SemLoc.dma 13] : Fin 8 → SemLoc sig) j
theorem ownSemFacts1 : Pipeline.OwnSemFacts spec1 osem1 := by decide
/-- The eight at zero, one by one. -/
theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 6) 0 ∗ semVal ((c : Thread nD τ), SemLoc.dma 7) 0
          ∗ semVal ((c : Thread nD τ), SemLoc.dma 8) 0 ∗ semVal ((c : Thread nD τ), SemLoc.dma 9) 0
          ∗ semVal ((c : Thread nD τ), SemLoc.dma 10) 0 ∗ semVal ((c : Thread nD τ), SemLoc.dma 11) 0
          ∗ semVal ((c : Thread nD τ), SemLoc.dma 12) 0 ∗ semVal ((c : Thread nD τ), SemLoc.dma 13) 0) := by
  rw [Pipeline.ownSems0_eq_of_list c osem1 [0, 1, 2, 3, 4, 5, 6, 7] (by decide) (by decide)]; rfl
/-- The array the body reads in HBM: the transposed table. -/
def H1 : Finset (Ref sig .tc) := {main_v0}
theorem H1_sub : H1 ⊆ Pipeline.restRefs sig spec1 := by decide
theorem hbmPts1_eq (c : Dev nD) :
    (bigSep H1 (fun b => ((c : Thread nD τ).loc b) ↦{fullShare} V c b) : sProp 𝕄) = iprop(hbPt c hbM (V c main_v0)) := by
  rw [BI.bigSep_eq_bigSepL_of_eq [main_v0] (by decide) (by decide)]; rfl

/-- The token table held whole, as the invariant keeps it: the one table's points-to. -/
theorem prefHeld1_eq (c : Dev nD) :
    (Pipeline.prefHeld (Ix := Unit) (Name := ℕ) (U := Pipeline.UD sig nD τ) (Lvl := ℕ) pre1 c (fun _ => fullShare) (tbl V) : sProp 𝕄)
      = owns (c : Thread nD τ) tbM fullShare (tokv V) := by
  unfold Pipeline.prefHeld
  rw [show (Finset.univ : Finset (Fin pre1.K)) = {(0 : Fin 1)} from by decide, BI.bigSep_singleton, owns_whole]
  rfl

/-- The transposed table whole is one read share per semaphore number below 14 and a remainder; the body uses the
    eight shares of its own semaphores' numbers. -/
theorem hbm_shares (c : Dev nD) (f : HbBuf (F := F) c hbM) :
    (hbPt c hbM f : sProp 𝕄) ⊣⊢ iprop(iprop((hbM.view.loc (c : Thread nD τ) ↦{Transfers.shareDrop fullShare 14} f) ∗ BI.bigSep (Finset.range 6) (fun k => hbTok c hbM k f))
        ∗ hbTok c hbM 6 f ∗ hbTok c hbM 7 f ∗ hbTok c hbM 8 f ∗ hbTok c hbM 9 f ∗ hbTok c hbM 10 f ∗ hbTok c hbM 11 f ∗ hbTok c hbM 12 f ∗ hbTok c hbM 13 f) := by
  have h := Transfers.pointsTo_toks_range (ℓ := hbM.view.loc (c : Thread nD τ)) (S := Finset.univ) (f := f)
    (Ix := Unit) (Name := ℕ) (U := Pipeline.UD sig nD τ) (Lvl := ℕ) (nD := nD) (τ := τ) (sig := sig) (Val := Elt F) fullShare 14
  have e : BI.bigSep (Finset.range 14) (fun k => (hbM.view.loc (c : Thread nD τ) ↦[Finset.univ]{Transfers.shareTokN fullShare k} f : sProp 𝕄))
      = iprop(hbTok c hbM 13 f ∗ hbTok c hbM 12 f ∗ hbTok c hbM 11 f ∗ hbTok c hbM 10 f ∗ hbTok c hbM 9 f ∗ hbTok c hbM 8 f ∗ hbTok c hbM 7 f ∗ hbTok c hbM 6 f
          ∗ BI.bigSep (Finset.range 6) (fun k => hbTok c hbM k f)) := by
    simp only [Finset.range_add_one (n := 13), Finset.range_add_one (n := 12), Finset.range_add_one (n := 11), Finset.range_add_one (n := 10),
      Finset.range_add_one (n := 9), Finset.range_add_one (n := 8), Finset.range_add_one (n := 7), Finset.range_add_one (n := 6)]
    rw [BI.bigSep_insert (by decide), BI.bigSep_insert (by decide), BI.bigSep_insert (by decide), BI.bigSep_insert (by decide),
      BI.bigSep_insert (by decide), BI.bigSep_insert (by decide), BI.bigSep_insert (by decide), BI.bigSep_insert (by decide)]
    rfl
  rw [e] at h
  constructor
  · refine h.1.trans ?_
    iintro ⟨Hd, H13, H12, H11, H10, H9, H8, H7, H6, Hr⟩
    isplitl [Hd Hr]; · isplitl [Hd]; · iexact Hd
                       iexact Hr
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · refine BIBase.Entails.trans ?_ h.2
    iintro ⟨⟨Hd, Hr⟩, H6, H7, H8, H9, H10, H11, H12, H13⟩
    isplitl [Hd]; · iexact Hd
    isplitl [H13]; · iexact H13
    isplitl [H12]; · iexact H12
    isplitl [H11]; · iexact H11
    isplitl [H10]; · iexact H10
    isplitl [H9]; · iexact H9
    isplitl [H8]; · iexact H8
    isplitl [H7]; · iexact H7
    isplitl [H6]; · iexact H6
    iexact Hr

/-! ## The pipeline's proof data -/

-- every token names a row of the transposed table
variable (hT : ∀ y, (tokv V y).toNat < 32000)

/-- The region invariant: the class's for a body that reads an array in HBM by its own transfers within the point
    (the other scoped buffers, the generator register, the eight semaphores at zero, the transposed table whole at
    its entry contents), and the token table whole at its entry contents. -/
def Φ1 (c : Dev nD) : sProp 𝕄 :=
  iprop(Pipeline.ΦD osem1 spec1 H1 V c ∗ Pipeline.prefHeld (Ix := Unit) (Name := ℕ) (U := Pipeline.UD sig nD τ) (Lvl := ℕ) pre1 c (fun _ => fullShare) (tbl V))

/-- The proof data of the gather pipeline on core `c`: the output array as the region finds it; after the body at
    point `t` the staged block holds rows 128·t … 128·t + 127 of the gather; the invariant above; nothing owed. -/
def dat1 (c : Dev nD) : Dat τ (Elt F) Unit ℕ (Pipeline.UD sig nD τ) ℕ (cfgM V) c where
  A w := V c (Pipeline.arrRef spec1 w)
  after w t := match w with
    | ⟨0, _⟩ => gblock (tokv V) (grid1.coords t) (hbM.view.read (Elt F) (V c main_v0))
  Φ _ := Φ1 V c
  q _ := fullShare
  owed _ := 0

theorem A_eq1 (c : Dev nD) (w : Fin (cfgM V).W) : (dat1 V c).A w = V c (Pipeline.arrRef spec1 w) := by
  dsimp only [dat1]
theorem after1_0 (c : Dev nD) (t : Fin (cfgM V).N) :
    (dat1 V c).after 0 t = gblock (tokv V) (grid1.coords t) (hbM.view.read (Elt F) (V c main_v0)) := by dsimp only [dat1]; try rfl

/-! ## The body obligation -/

/-- Owning a memref at read contents `X` is holding its own elements at some raw contents that read `X`. -/
theorem owns_open (c : Dev nD) {sp : Space} {S : Shape} {e : EltTy} (M : Memref sig .tc sp S e) (q : PosShare TreeShare) (X : S.Idx → Elt F e) :
    (owns (c : Thread nD τ) M q X : sProp 𝕄) ⊢ iprop(∃ f, ⌜M.view.read (Elt F) f = X⌝ ∗ (M.view.loc (c : Thread nD τ) ↦[M.view.set]{q} f)) :=
  Entails.of_eq (by unfold owns; rfl)
theorem owns_close (c : Dev nD) {sp : Space} {S : Shape} {e : EltTy} (M : Memref sig .tc sp S e) (q : PosShare TreeShare) (X : S.Idx → Elt F e) :
    (iprop(∃ f, ⌜M.view.read (Elt F) f = X⌝ ∗ (M.view.loc (c : Thread nD τ) ↦[M.view.set]{q} f)) : sProp 𝕄) ⊢ owns (c : Thread nD τ) M q X :=
  Entails.of_eq (by unfold owns; rfl)

/-- What the body is called with at point `t`, -/
def bodyPre1 (c : Dev nD) (t : Fin (cfgM V).N) : sProp 𝕄 :=
  iprop((dat1 V c).Φ t.castSucc ∗ (dat1 V c).owesAt () t.castSucc
    ∗ (∃ d, owns (c : Thread nD τ) (ms1_0 V t) fullShare ((dat1 V c).before 0 t d)))

/-- and what it returns. -/
def bodyPost1 (c : Dev nD) (t : Fin (cfgM V).N) : sProp 𝕄 :=
  iprop((dat1 V c).Φ t.succ ∗ (dat1 V c).owesAt () t.succ
    ∗ owns (c : Thread nD τ) (ms1_0 V t) fullShare ((dat1 V c).after 0 t))

include hT in
/-- The body at any point: the invariant hands it the semaphores at zero, the token table and, share by share, the
    transposed table; the run gives them back as they were and leaves the staged block at the gathered rows. -/
theorem sound_body1 (c : Dev nD) (t : Fin (cfgM V).N) :
    bodyPre1 V c t ⊢ wp frame (wpE (defs₀ (F := F)) Variants.none c none) Set.univ (bodyAt1 V t) (fun _ => bodyPost1 V c t) := by
  unfold bodyPre1 bodyPost1 bodyAt1
  rw [show (dat1 V c).Φ t.succ = Φ1 V c from rfl, show (dat1 V c).Φ t.castSucc = Φ1 V c from rfl, after1_0]
  unfold Φ1
  rw [Pipeline.ΦD_eq, ownSems01_eq, hbmPts1_eq, prefHeld1_eq]
  unfold Dat.owesAt Pipeline.owesWithin
  rw [show (dat1 V c).owed t.castSucc = 0 from rfl, show (dat1 V c).owed t.succ = 0 from rfl]
  iintro ⟨⟨⟨HR, Hg, ⟨Hq0, Hq1, Hq2, Hq3, Hq4, Hq5, Hq6, Hq7⟩, Hh⟩, HT⟩, ⟨%W, -, HW⟩, ⟨%d1, Hst⟩⟩
  ihave Hst' := (owns_open c (ms1_0 V t) fullShare ((dat1 V c).before 0 t d1)) $$ Hst
  icases Hst' with ⟨%f1, -, Hst⟩
  ihave Hh' := (hbm_shares c (V c main_v0)).1 $$ Hh
  icases Hh' with ⟨Hrest, Ht0, Ht1, Ht2, Ht3, Ht4, Ht5, Ht6, Ht7⟩
  iapply ((gatherRun c (grid1.coords t) (ms1_0 V t) (hs1_0 V t) (tokv V) hT (V c main_v0) f1).2 W _)
  isplitl [HT]; · iexact HT
  isplitl [Hst]; · iexact Hst
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨HT, Hst, Ht0, Ht1, Ht2, Ht3, Ht4, Ht5, Ht6, Ht7, Hq0, Hq1, Hq2, Hq3, Hq4, Hq5, Hq6, Hq7, ⟨%W', HW'⟩⟩
  ihave Hh := (hbm_shares c (V c main_v0)).2 $$ [Hrest Ht0 Ht1 Ht2 Ht3 Ht4 Ht5 Ht6 Ht7]
  · isplitl [Hrest]; · iexact Hrest
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    iexact Ht7
  isplitl [HR Hg Hq0 Hq1 Hq2 Hq3 Hq4 Hq5 Hq6 Hq7 Hh HT]
  · isplitl [HR Hg Hq0 Hq1 Hq2 Hq3 Hq4 Hq5 Hq6 Hq7 Hh]
    · isplitl [HR]; · iexact HR
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact HT
  isplitl [HW']
  · iexists W'; isplitr; · ipureintro; exact fun _ _ => Or.inl trivial
    iexact HW'
  iapply (owns_close c (ms1_0 V t) fullShare _)
  iexists _; isplitr
  swap; · iexact Hst
  ipureintro; exact gatherRun_read c (grid1.coords t) (ms1_0 V t) (hs1_0 V t) (tokv V) hT (V c main_v0) f1

include hT in
set_option maxRecDepth 65536 in
/-- The library's body obligation, at every point. -/
theorem body_obligation1 (c : Dev nD) : BodyObligation (dat1 (F := F) V c) (defs₀ (F := F)) Variants.none () Set.univ := fun t => by
  rw [bigSep_W1, bigSep_W1]
  exact sound_body1 V hT c t

end Cert.KernelIdeal.Hand

end
-- ==== Proof.KernelIdeal.Run.lean ====
/-
  The whole program as four segments — the transpose call, the tokens read as one vector, the gather call, the
  rows read as 8 × 4096 — run from the launch to the return, with every buffer's contents named at each boundary.

  Between two segments the core holds every unscoped buffer whole: at launch the memory's; after the transpose
  call the transposed table in its buffer; after the first reshape the token vector in the scalar table; after
  the gather call the gathered rows; after the second reshape the result. The arguments are written by no segment.
-/
import proofs.«406021_j30614526886303_1_alg».proof.Proof.KernelIdeal.Region0
import proofs.«406021_j30614526886303_1_alg».proof.Proof.KernelIdeal.Region1
import proofs.«406021_j30614526886303_1_alg».proof.Proof.Gen.KernelIdeal.Regions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Seg HostSeg RegionSeg)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
abbrev Ve0 : (c : Dev nD) → (b : Ref sig .tc) → Buf (Elt F) ((c : Thread nD τ).loc b) := fun c b => W0 m c b
/-- After the transpose call: its output array at what the write-backs leave. -/
def W1 (c : Dev nD) : Valuation τ sig (Elt F) :=
  Pipeline.withArrays spec0 c (W0 m c) fun w => (dat0 (Ve0 m) c).arrAt w cfg0.N
theorem W1_arr (c : Dev nD) (w : Fin cfg0.W) :
    W1 m c (Proc.devRef .tc (Pipeline.arrRef spec0 w)) = (dat0 (Ve0 m) c).arrAt w cfg0.N := by
  unfold W1; exact Pipeline.withArrays_arr spec0 (launch0 (F := F)).win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Ve1 : (c : Dev nD) → (b : Ref sig .tc) → Buf (Elt F) ((c : Thread nD τ).loc b) := fun c b => W1 m c b
theorem hF0 (c : Dev nD) (w : Fin cfg0.W) : (dat0 (Ve0 m) c).arrAt w cfg0.N = Ve1 m c (Pipeline.arrRef spec0 w) :=
  (W1_arr m c w).symm
theorem hrest0 (c : Dev nD) : ∀ b, b ∉ Finset.univ.image (Pipeline.arrRef spec0) → Ve1 m c b = Ve0 m c b :=
  fun b hb => W1_of_ne m c b fun w e => hb (Finset.mem_image.mpr ⟨w, Finset.mem_univ _, e⟩)

/-- After the tokens are read as one vector. -/
abbrev W2 (c : Dev nD) : Valuation τ sig (Elt F) := StableHlo.after hostOps1 (W1 m c)
abbrev Ve2 : (c : Dev nD) → (b : Ref sig .tc) → Buf (Elt F) ((c : Thread nD τ).loc b) := fun c b => W2 m c b

section Hosts

/-- The first reshape writes the tokens, read row-major, into the scalar table. -/
theorem host1_val (Wv : Valuation τ sig (Elt F)) :
    StableHlo.after hostOps1 Wv (Proc.devRef .tc main_v1) = shapeCast S32768 (Wv (Proc.devRef .tc main_arg0)) shapeCasts_S8x4096_S32768 := by
  after_results
  rfl

/-- The second reshape writes the gathered rows, read row-major, into the result buffer. -/
theorem host2_val (Wv : Valuation τ sig (Elt F)) :
    StableHlo.after hostOps2 Wv (Proc.devRef .tc main_v3) = shapeCast S8x4096x1024 (Wv (Proc.devRef .tc main_v2)) shapeCasts_S32768x1024_S8x4096x1024 := by
  after_results
  rfl

/-- The token vector the gather call finds: the tokens read row-major. -/
theorem tokv_eq : tokv (Ve2 m) = shapeCast S32768 (m (((0 : Dev nD) : Thread nD τ).loc main_arg0)) shapeCasts_S8x4096_S32768 := by
  show StableHlo.after hostOps1 (W1 m 0) (Proc.devRef .tc main_v1) = _
  rw [host1_val]
  exact congrArg (fun x => shapeCast S32768 x shapeCasts_S8x4096_S32768) (W1_of_ne m 0 main_arg0 (by decide))

/-- Word b·4096 + s of the token vector is token (b, s). -/
theorem tokv_apply (b : Fin 8) (s : Fin 4096) :
    tokv (Ve2 m) (ValueIdx.ix1 ⟨b.val * 4096 + s.val, by omega⟩) = m (((0 : Dev nD) : Thread nD τ).loc main_arg0) (ValueIdx.ix2 b s) := by
  rw [tokv_eq]
  exact shapeCast_apply _ _ _ _ ((Shape.rowMajor_val_two (d := ![8, 4096]) (ValueIdx.ix2 b s)).trans
    (Shape.rowMajor_val_one (d := ![32768]) (ValueIdx.ix1 ⟨b.val * 4096 + s.val, by omega⟩)).symm)

/-- Every word of the token vector is below 32000 when every token is. -/
theorem tokv_lt (h : ∀ y, (m (((0 : Dev nD) : Thread nD τ).loc main_arg0) y).toNat < 32000) : ∀ y, (tokv (Ve2 m) y).toNat < 32000 := by
  intro y
  rw [tokv_eq]
  unfold shapeCast
  exact h _

end Hosts

-- every token names a row of the transposed table
variable (hT : ∀ y, (tokv (Ve2 m) y).toNat < 32000)

/-- After the gather call: its output array at what the write-backs leave. -/
def W3 (c : Dev nD) : Valuation τ sig (Elt F) :=
  Pipeline.withArrays spec1 c (W2 m c) fun w => (dat1 (Ve2 m) c).arrAt w (cfgM (Ve2 m)).N
theorem W3_arr (c : Dev nD) (w : Fin (cfgM (Ve2 m)).W) :
    W3 m c (Proc.devRef .tc (Pipeline.arrRef spec1 w)) = (dat1 (Ve2 m) c).arrAt w (cfgM (Ve2 m)).N := by
  unfold W3; exact Pipeline.withArrays_arr spec1 (launch1 (F := F)).win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Ve3 : (c : Dev nD) → (b : Ref sig .tc) → Buf (Elt F) ((c : Thread nD τ).loc b) := fun c b => W3 m c b
theorem hF1 (c : Dev nD) (w : Fin (cfgM (Ve2 m)).W) : (dat1 (Ve2 m) c).arrAt w (cfgM (Ve2 m)).N = Ve3 m c (Pipeline.arrRef spec1 w) :=
  (W3_arr m c w).symm
theorem hrest1 (c : Dev nD) : ∀ b, b ∉ Finset.univ.image (Pipeline.arrRef spec1) → Ve3 m c b = Ve2 m c b :=
  fun b hb => W3_of_ne m c b fun w e => hb (Finset.mem_image.mpr ⟨w, Finset.mem_univ _, e⟩)

/-- After the rows are read as 8 × 4096. -/
abbrev W4 (c : Dev nD) : Valuation τ sig (Elt F) := StableHlo.after hostOps2 (W3 m c)

/-! ## No segment writes an argument -/

theorem W2_of (c : Dev nD) (r : Ref sig .tc) (h : r ∉ hostOps1_W) : W2 m c r = W1 m c r :=
  StableHlo.after_of_writes_sub hostOps1 _ hostOps1_writes h
theorem W4_of (c : Dev nD) (r : Ref sig .tc) (h : r ∉ hostOps2_W) : W4 m c r = W3 m c r :=
  StableHlo.after_of_writes_sub hostOps2 _ hostOps2_writes h

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of m c main_arg0 (by decide)
    _ = W2 m c (Proc.devRef .tc main_arg0) := W3_of_ne m c main_arg0 (by decide)
    _ = W1 m c (Proc.devRef .tc main_arg0) := W2_of m c main_arg0 (by decide)
    _ = W0 m c (Proc.devRef .tc main_arg0) := W1_of_ne m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of m c main_arg1 (by decide)
    _ = W2 m c (Proc.devRef .tc main_arg1) := W3_of_ne m c main_arg1 (by decide)
    _ = W1 m c (Proc.devRef .tc main_arg1) := W2_of m c main_arg1 (by decide)
    _ = W0 m c (Proc.devRef .tc main_arg1) := (W1_arr m c 0).trans (((dat0 (Ve0 m) c).arrAt_in 0 rfl _).trans (A_eq0 (Ve0 m) c 0))
    _ = m ((c : Thread nD τ).loc main_arg1) := rfl

/-! ## The proof data family and the thread state -/

/-- The tables' admissible contents: the transpose call has none, the gather call its token table as the region finds it. -/
def adm : (p : Fin 2) → (pcfgs (F := F) p).Adm
  | ⟨0, _⟩ => cfg0.toPCfg_adm
  | ⟨1, _⟩ => adm1 (Ve2 m)
/-- Every pipeline's proof data, each at its region's entry contents. -/
def pdats : (p : Fin 2) → (c : Dev nD) → Dat τ (Elt F) Unit ℕ (Pipeline.UD sig nD τ) ℕ (Pipeline.pin (pcfgs (F := F)) (adm m) p) c
  | ⟨0, _⟩ => fun c => dat0 (Ve0 m) c
  | ⟨1, _⟩ => fun c => dat1 (Ve2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A stretch of host operations as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The two calls as segments -/

set_option backward.isDefEq.respectTransparency.types false in
/-- The transpose call: entered from every unscoped buffer at the launch contents, left with the output array at what
    the write-backs leave; the generator register into the invariant and out; nothing owed; no semaphore of its own. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (Ve0 m c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole c (pdats m) ((pdats m 0 c).share_full fun _ => rfl)
      (Ve0 m c) (Ve1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

include hT in
set_option backward.isDefEq.respectTransparency.types false in
/-- The gather call: entered from every unscoped buffer at the contents after the first reshape, left with the output
    array at what the write-backs leave. The token table and the transposed table go into the invariant whole and
    come back whole; the eight semaphores from the boundary at zero and back; nothing owed. -/
def reg1 : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := Fin 8
  osem := osem1
  ho := ownSemFacts1
  hbody c := (body_obligation1 (Ve2 m) hT c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop((∃ r, prngReg c r) ∗ Pipeline.ownSems0 (Ix := Unit) (Name := ℕ) (U := Pipeline.UD sig nD τ) (Lvl := ℕ) (Val := Elt F) (τ := τ) osem1 c
    ∗ hbPt c hbM (Ve2 m c main_v0))
  Y c := iprop((∃ r, prngReg c r) ∗ hbPt c hbM (Ve2 m c main_v0)
    ∗ Pipeline.prefHeld (Ix := Unit) (Name := ℕ) (U := Pipeline.UD sig nD τ) (Lvl := ℕ) pre1 c (fun _ => fullShare) (tbl (Ve2 m)))
  Z c := iprop((((c : Thread nD τ).loc main_arg0) ↦{fullShare} Ve2 m c main_arg0) ∗ (((c : Thread nD τ).loc main_arg1) ↦{fullShare} Ve2 m c main_arg1)
    ∗ (((c : Thread nD τ).loc main_v3) ↦{fullShare} Ve2 m c main_v3))
  hentry c := by
    have hsplit := Pipeline.arrays_of_unscopedBufs (p := 1) (pcfgs (F := F)) (adm m) (pdats m) (launch1 (F := F)).win (launch1 (F := F)).arr_whole c
      ((pdats m 1 c).share_full fun _ => rfl) (Ve2 m c) fun _ => rfl
    rw [Pipeline.unscopedBufs_held] at hsplit
    have hrest : (Pipeline.unscopedRest (Ix := Unit) (Name := ℕ) (U := Pipeline.UD sig nD τ) (Lvl := ℕ) spec1 c (Ve2 m c) : sProp 𝕄)
        = iprop(Pipeline.prefHeld pre1 c (fun _ => fullShare) (tbl (Ve2 m))
            ∗ (((c : Thread nD τ).loc main_arg0) ↦{fullShare} Ve2 m c main_arg0) ∗ (((c : Thread nD τ).loc main_arg1) ↦{fullShare} Ve2 m c main_arg1)
            ∗ (((c : Thread nD τ).loc main_v0) ↦{fullShare} Ve2 m c main_v0) ∗ (((c : Thread nD τ).loc main_v3) ↦{fullShare} Ve2 m c main_v3)) := by
      rw [Pipeline.unscopedRest_split preFacts1 c (Ve2 m c), unscopedRestP1_eq c (Ve2 m c),
        show (fun k => Ve2 m c (pre1.ref k)) = tbl (Ve2 m) from funext fun k => V_pre (Ve2 m) c k]
    iintro ⟨⟨Hub, Hp, HO⟩, Hos, -⟩
    ihave H := hsplit $$ Hub
    icases H with ⟨Ha, Hrest⟩
    ihave H' := (Entails.of_eq hrest) $$ Hrest
    icases H' with ⟨HT, Ha0, Ha1, Hv0, Hv3⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp Hos Hv0]
    · isplitl [Hp]; · iexact Hp
      isplitl [Hos]; · iexact Hos
      iexact Hv0
    isplitl [Ha0]; · iexact Ha0
    isplitl [Ha1]; · iexact Ha1
    iexact Hv3
  hin c := by
    rw [show (pdats m 1 c).Φ 0 = Φ1 (Ve2 m) c from rfl]; unfold Φ1
    rw [Pipeline.ΦD_eq, hbmPts1_eq]
    iintro ⟨⟨Hp, Ho, HH⟩, HT, Hr⟩
    isplitl [Hr Hp Ho HH]
    · isplitl [Hr]; · iexact Hr
      isplitl [Hp]; · iexact Hp
      isplitl [Ho]; · iexact Ho
      iexact HH
    iexact HT
  hout c := by
    rw [show (pdats m 1 c).Φ (Fin.last _) = Φ1 (Ve2 m) c from rfl]; unfold Φ1
    rw [Pipeline.ΦD_eq, hbmPts1_eq]
    iintro ⟨⟨Hr, Hp, Ho, HH⟩, HT⟩
    isplitl [Hp HH HT]
    · isplitl [Hp]; · iexact Hp
      isplitl [HH]; · iexact HH
      iexact HT
    isplitl [Ho]; · iexact Ho
    iexact Hr
  hexit c := by
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole c (pdats m) ((pdats m 1 c).share_full fun _ => rfl)
      (Ve2 m c) (Ve3 m c) ((pdats m 1 c).arrAt · (cfgM (Ve2 m)).N) (hF1 m c) (hrest1 m c)
    rw [Pipeline.unscopedBufs_held] at hjoin
    have hrest : (Pipeline.unscopedRest (Ix := Unit) (Name := ℕ) (U := Pipeline.UD sig nD τ) (Lvl := ℕ) spec1 c (Ve2 m c) : sProp 𝕄)
        = iprop(Pipeline.prefHeld pre1 c (fun _ => fullShare) (tbl (Ve2 m))
            ∗ (((c : Thread nD τ).loc main_arg0) ↦{fullShare} Ve2 m c main_arg0) ∗ (((c : Thread nD τ).loc main_arg1) ↦{fullShare} Ve2 m c main_arg1)
            ∗ (((c : Thread nD τ).loc main_v0) ↦{fullShare} Ve2 m c main_v0) ∗ (((c : Thread nD τ).loc main_v3) ↦{fullShare} Ve2 m c main_v3)) := by
      rw [Pipeline.unscopedRest_split preFacts1 c (Ve2 m c), unscopedRestP1_eq c (Ve2 m c),
        show (fun k => Ve2 m c (pre1.ref k)) = tbl (Ve2 m) from funext fun k => V_pre (Ve2 m) c k]
    iintro ⟨Ha, HO, ⟨HY, Hv0, HT⟩, Ha0, Ha1, Hv3⟩
    ihave Hrest := (Entails.of_eq hrest.symm) $$ [HT Ha0 Ha1 Hv0 Hv3]
    · isplitl [HT]; · iexact HT
      isplitl [Ha0]; · iexact Ha0
      isplitl [Ha1]; · iexact Ha1
      isplitl [Hv0]; · iexact Hv0
      iexact Hv3
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The four segments in order. -/
abbrev segs : List (Pipeline.Seg (pcfgs (F := F)) (adm m) (pdats m) () defs₀ 𝒱₀ L lv) :=
  [ .region (reg0 m),
    .host (hseg hostOps1 hostOps1_sub hostOps1_fresh (W1 m)),
    .region (reg1 m hT),
    .host (hseg hostOps2 hostOps2_sub hostOps2_fresh (W3 m)) ]

include hT in
set_option backward.isDefEq.respectTransparency.types false in
/-- THE RUN: from any memory with zero counters, every weakly fair execution of the program terminates, nothing
    faulting, and every final state holds the result buffer at the last boundary's contents and the two argument
    arrays as launched. -/
theorem run_main : θ_run defs (onTc (τ := τ) (main (F := F))) ⟨m, fun _ => 0, ρ⟩ (fun r => ∀ c : Dev nD,
      r.2.mem ((c.tc : Thread nD τ).loc main_v3) = W4 m c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) (adm m) (pdats m) () (cellOf_inj (adm m)) embL defs₀ 𝒱₀ L lv m ρ main (segs m hT)
    (fun c Q => by
      rewrite [main_chain c, Seg.run_eq_chain,
        show (segs m hT).map Seg.prog = [
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v3 (by decide)),
       (h c _ (mem_uc main_arg0 (by decide))).trans (W4_main_arg0 m c),
       (h c _ (mem_uc main_arg1 (by decide))).trans (W4_main_arg1 m c)⟩)

end Cert.KernelIdeal.Hand

end
-- ==== Proof.KernelIdeal.Region1Val.lean ====
/-
  The gathered rows as one array: what the second call leaves in its output after its 256 write-backs.

  The output is 32768 × 1024 and the call's window cuts it into 256 blocks of 128 whole rows: point t
  writes back rows 128 t … 128 t + 127. The body leaves in the staged block, at row j, the row of the
  transposed table that word 128 t + j of the token vector names; so block t, as written back, is the
  restriction to those rows of one function of the whole array — row r is the row named by word r — and,
  the 256 blocks tiling the 32768 rows (row r lies in block r / 128), the array ends holding that
  function everywhere, whatever it held before.

  Nothing here reads the token table's contents: the window's index map is (t, 0) at every contents, so
  every fact about the blocks is stated at arbitrary admissible contents and used at the run's last.
-/
import proofs.«406021_j30614526886303_1_alg».proof.Proof.KernelIdeal.Region1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The index map over the grid -/

/-- The grid has one axis, so point t has coordinate t; its block index is (t, 0): row-block t, the one
    column-block. -/
theorem index_facts1 : ∀ t : Fin grid1.N, (grid1.coords t 0).val = t.val
    ∧ cc1_transform_1 (grid1.coords t) (0 : Fin 2) = t.val
    ∧ cc1_transform_1 (grid1.coords t) (1 : Fin 2) = 0 := by
  decide +kernel

/-- Consecutive points have different blocks, so every point writes its block back. -/
theorem flushOf1 : ∀ t : Fin grid1.N, Window.flushOf grid1 true cc1_transform_1 t = true := by
  decide +kernel

/-! ## A block's entry as an entry of the gathered rows -/

/-- Entry (j, e) of the block of coordinates i is entry (128 i + j, e) of the gathered rows: both are entry e
    of the row of `Y` that word 128 i + j of `T` names. -/
theorem gblock_eq_rows (T : Vec F S32768 .i32) (Y : S32000x1024.Idx → Elt F .f32) (i : grid1.Coords) (y : S128x1024.Idx)
    (k : S32768x1024.Idx) (h0 : (k 0).val = (i 0).val * 128 + (y 0).val) (h1 : (k 1).val = (y 1).val) :
    gblock T i Y y = (Cert.Spec.rows T Y : S32768x1024.Idx → Elt F .f32) k := by
  unfold gblock Cert.Spec.rows
  have e0 : (⟨(i 0).val * 128 + (y 0).val, tok_idx_lt i y⟩ : Fin 32768) = (k 0 : Fin 32768) := Fin.ext h0.symm
  have e1 : (y 1 : Fin 1024) = (k 1 : Fin 1024) := Fin.ext h1.symm
  rw [e0, e1]

/-! ## The window's blocks, at any admissible contents of the token table -/

section AnyContents

variable (a : (pcfg1 (F := F)).Adm)

/-- Every point writes its block back. -/
theorem flush1_0 (t : Fin (cfg1 a).N) : ((cfg1 a).win 0).flush t = true :=
  (Window.flush_eq_flushOf ((cfg1 a).win 0) t).trans (flushOf1 t)

variable {c : Dev nD} (dat : Dat τ (Elt F) Unit ℕ (Pipeline.UD sig nD τ) ℕ (cfg1 a) c)
variable (T : Vec F S32768 .i32) (Y : S32000x1024.Idx → Elt F .f32)

/-- What point t writes back is block t of the gathered rows, for any proof data whose body leaves at point t
    the rows named by words 128 t … 128 t + 127: entry (j, e) of the staged block sits at (128 t + j, e) of the
    array. -/
theorem flushed_out1 (hafter : ∀ t, dat.after 0 t = gblock T (grid1.coords t) Y) (t : Fin (cfg1 a).N) :
    dat.flushed 0 t = (((cfg1 a).win 0).blk t).view.read (Elt F) (Cert.Spec.rows T Y : S32768x1024.Idx → Elt F .f32) := by
  show ((cfg1 a).win 0).cut (grid1.coords t) (dat.after 0 t) = _
  rw [hafter]
  obtain ⟨e0, e1, e2⟩ := index_facts1 t
  refine funext fun (j : S128x1024.Idx) => ?_
  show gblock T (grid1.coords t) Y (((cfg1 a).win 0).xinj (grid1.coords t) j)
    = (Cert.Spec.rows T Y : S32768x1024.Idx → Elt F .f32) ((((cfg1 a).win 0).blk t).view.emb j)
  refine gblock_eq_rows T Y _ _ _ ?_ ?_
  · show cc1_transform_1 (grid1.coords t) (0 : Fin 2) * 128 + 1 * (j 0).val = (grid1.coords t 0).val * 128 + (j 0).val
    omega
  · show cc1_transform_1 (grid1.coords t) (1 : Fin 2) * 1024 + 1 * (j 1).val = (j 1).val
    omega

/-- An index of the array is in point t's block iff each coordinate is in the block's range on its axis. -/
theorem mem_block_out1 (t : Fin (cfg1 a).N) (i : S32768x1024.Idx) :
    i ∈ (((cfg1 a).win 0).blk t).view.set ↔ ∀ b : Fin 2, cc1_transform_1 (grid1.coords t) b * S128x1024.size b ≤ (i b).val
      ∧ (i b).val < cc1_transform_1 (grid1.coords t) b * S128x1024.size b + S128x1024.size b := by
  refine Iff.trans (Finset.ext_iff.mp (View.set_slice_whole main_v2 (((cfg1 a).win 0).rect t)) i) ?_
  exact Rect.mem_set_unit

/-- The 256 blocks of 128 rows tile the 32768 rows: row r is in the block of point r / 128. -/
theorem covered_out1 (i : S32768x1024.Idx) :
    ∃ t : Fin (cfg1 a).N, ((cfg1 a).win 0).flush t = true ∧ i ∈ (((cfg1 a).win 0).blk t).view.set := by
  have hi0 : (i 0).val < 32768 := (i 0).isLt
  have hi1 : (i 1).val < 1024 := (i 1).isLt
  have hN : grid1.N = 256 := N_1
  obtain ⟨t, ht⟩ : ∃ t : Fin grid1.N, t.val = (i 0).val / 128 := ⟨⟨(i 0).val / 128, by rw [hN]; omega⟩, rfl⟩
  obtain ⟨e0, e1, e2⟩ := index_facts1 t
  refine ⟨t, flush1_0 a t, ?_⟩
  rw [mem_block_out1]
  intro b
  match b with
  | ⟨0, _⟩ => show cc1_transform_1 (grid1.coords t) (0 : Fin 2) * 128 ≤ (i 0).val ∧ (i 0).val < cc1_transform_1 (grid1.coords t) (0 : Fin 2) * 128 + 128; omega
  | ⟨1, _⟩ => show cc1_transform_1 (grid1.coords t) (1 : Fin 2) * 1024 ≤ (i 1).val ∧ (i 1).val < cc1_transform_1 (grid1.coords t) (1 : Fin 2) * 1024 + 1024; omega

/-- So the array after the 256 write-backs is the gathered rows, whatever it held before. -/
theorem arr1_out_of (hafter : ∀ t, dat.after 0 t = gblock T (grid1.coords t) Y) :
    dat.arrAt 0 (cfg1 a).N = (Cert.Spec.rows T Y : S32768x1024.Idx → Elt F .f32) :=
  dat.arrAt_eq_of_cover 0 (Cert.Spec.rows T Y : S32768x1024.Idx → Elt F .f32) (fun t _ => flushed_out1 a dat T Y hafter t) (covered_out1 a)

end AnyContents

/-! ## At the contents the region finds -/

-- the TensorCore's buffer contents when the region is entered
variable (V : (c : Dev nD) → (b : Ref sig .tc) → Buf (Elt F) ((c : Thread nD τ).loc b))

/-- The output array after the gather call's 256 write-backs is the gathered rows — row r the row of the
    transposed table, as the region found it, that word r of the token vector names —, whatever it held before. -/
theorem arr1_out (c : Dev nD) :
    (dat1 V c).arrAt 0 (cfgM V).N = (Cert.Spec.rows (tokv V) (V c main_v0) : S32768x1024.Idx → Elt F .f32) :=
  arr1_out_of (adm1 V) (dat1 V c) (tokv V) (V c main_v0) (fun t => after1_0 V c t)

end Cert.KernelIdeal.Hand

end
-- ==== Proof.KernelIdeal.Value.lean ====
/-
  The result buffer's contents after the run, as a function of the two arguments.

  The last boundary's result buffer is the gathered rows read as 8 × 4096; the gathered rows are rows of the
  transposed table named by the token vector; the token vector is the tokens read row-major, and the transposed
  table is what the first call leaves in its output array.
-/
import proofs.«406021_j30614526886303_1_alg».proof.Proof.KernelIdeal.Run
import proofs.«406021_j30614526886303_1_alg».proof.Proof.KernelIdeal.Region1Val
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The transposed table the gather call finds: what the first call left in its output array. -/
theorem table_eq (c : Dev nD) : Ve2 m c main_v0 = (Cert.Spec.wt (m ((c : Thread nD τ).loc main_arg1)) : S32000x1024.Idx → Elt F .f32) := by
  show W2 m c (Proc.devRef .tc main_v0) = _
  rw [W2_of m c main_v0 (by decide)]
  exact (W1_arr m c 1).trans (arr0_out (Ve0 m) c)

/-- THE RESULT: the last boundary's result buffer holds, at (b, s, e), entry e of the table's column `tokens[b, s]`. -/
theorem result_eq (c : Dev nD) :
    (W4 m c (Proc.devRef .tc main_v3) : S8x4096x1024.Idx → Elt F .f32)
      = Cert.Spec.result (m ((c : Thread nD τ).loc main_arg0)) (m ((c : Thread nD τ).loc main_arg1)) := by
  obtain rfl : c = 0 := Subsingleton.elim _ _
  refine Cert.Spec.result_of_stages _ _ (tokv (Ve2 m)) (tokv_apply m) _ (fun b s e => ?_)
  show StableHlo.after hostOps2 (W3 m 0) (Proc.devRef .tc main_v3) (ValueIdx.ix3 b s e) = _
  rw [host2_val]
  have h3 : W3 m 0 (Proc.devRef .tc main_v2) = (Cert.Spec.rows (tokv (Ve2 m)) (Cert.Spec.wt (m (((0 : Dev nD) : Thread nD τ).loc main_arg1))) : S32768x1024.Idx → Elt F .f32) := by
    rw [← table_eq m 0]
    exact (W3_arr m 0 0).trans (arr1_out (Ve2 m) 0)
  rw [h3]
  exact shapeCast_apply _ _ _ _ ((Shape.rowMajor_val_two (d := ![32768, 1024]) (ValueIdx.ix2 ⟨b.val * 4096 + s.val, by omega⟩ e)).trans
    (Shape.rowMajor_val_three (d := ![8, 4096, 1024]) (ValueIdx.ix3 b s e)).symm)

end Cert.KernelIdeal.Hand

end
-- ==== Proof.LibRowGather3.lean ====
/-
  A gather of whole rows under two leading batch axes, read at an index.

  What `x[idx]` of a matrix `x : [N, C]` at a rank-2 array `idx : [B, R]` of row numbers lowers to: a gather with
  offset axis 2, the collapsed slice axis 0, start index map `[0]`, the index vector on axis 2, slice sizes
  `[1, C]`, over the indices as `[B, R, 1]`. Result element `(b, r, q)` is `x` at row `idx[b, r, 0]` (read signed,
  clamped into `[0, N − 1]`) and column `q`: the gather selects whole rows.
-/
import Idealize.ShloMosaic.Lib.ValueIdx

noncomputable section

namespace Idealize.ShloMosaic.ValueIdx

section RowGather3
variable {α : Type}

/-- Those dimension numbers for an operand `[N, C]`, start indices `[B, R, 1]` and result `[B, R, C]`. -/
abbrev rowGather3Dims (N B R C : Nat)
    (wf : GatherDims.WF ⟨2, ![N, C]⟩ ⟨3, ![B, R, 1]⟩ ⟨3, ![B, R, C]⟩ [2] [0] [] [0] [] 2 ![1, C]) :
    GatherDims ⟨2, ![N, C]⟩ ⟨3, ![B, R, 1]⟩ ⟨3, ![B, R, C]⟩ where
  offsetDims := [2]
  collapsedSliceDims := [0]
  operandBatchingDims := []
  startIndicesBatchingDims := []
  startIndexMap := [0]
  indexVectorDim := 2
  sliceSizes := ![1, C]
  wf := wf

/-- The operand row that result position `(b, r)` reads: its start index, read signed and clamped into
    `[0, N − 1]`. -/
def gatherRow3 {N B R w : Nat} (hN : 0 < N) (idx : IVec ⟨3, ![B, R, 1]⟩ w) (b : Fin B) (r : Fin R) : Fin N :=
  ⟨min (idx (ix3 b r (0 : Fin 1))).toInt.toNat (N - 1), by omega⟩

/-- THE ROW GATHER READ AT `(b, r, q)`: the operand at the row `(b, r)` reads and the same column. -/
theorem rowGather3_apply {N B R C w : Nat} (hN : 0 < N)
    (wf : GatherDims.WF ⟨2, ![N, C]⟩ ⟨3, ![B, R, 1]⟩ ⟨3, ![B, R, C]⟩ [2] [0] [] [0] [] 2 ![1, C])
    (x : (⟨2, ![N, C]⟩ : Shape).Idx → α) (idx : IVec ⟨3, ![B, R, 1]⟩ w) (b : Fin B) (r : Fin R) (q : Fin C) :
    Host.gather (rowGather3Dims N B R C wf) x idx (ix3 b r q) = x (ix2 (gatherRow3 hN idx b r) q) := by
  unfold Host.gather
  congr 1
  funext a
  refine Fin.ext ?_
  match a with
  | ⟨0, _⟩ =>
    -- the row axis: collapsed, start-indexed; no batching or offset part
    show (rowGather3Dims N B R C wf).start (ix3 b r q) idx 0 + (rowGather3Dims N B R C wf).batchCoord (ix3 b r q) 0
      + (rowGather3Dims N B R C wf).offCoord (ix3 b r q) 0 = min (idx (ix3 b r (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather3Dims N B R C wf).startIndexMap from List.mem_singleton.mpr rfl)]
    -- the start index is read at the result's two batch coordinates, component 0 of the index vector
    have hsi : (rowGather3Dims N B R C wf).siIdx (ix3 b r q) ⟨List.idxOf (0 : Fin 2) (rowGather3Dims N B R C wf).startIndexMap,
        List.idxOf_lt_length_iff.2 (List.mem_singleton.mpr rfl)⟩ = ix3 b r (0 : Fin 1) := by
      funext c; refine Fin.ext ?_
      match c with
      | ⟨0, _⟩ => rfl
      | ⟨1, _⟩ => rfl
      | ⟨2, _⟩ => rfl
    rw [hsi]
    rfl
  | ⟨1, _⟩ =>
    -- the column axis: kept, read off the result's offset axis; not start-indexed
    show (rowGather3Dims N B R C wf).start (ix3 b r q) idx 1 + (rowGather3Dims N B R C wf).batchCoord (ix3 b r q) 1
      + (rowGather3Dims N B R C wf).offCoord (ix3 b r q) 1 = q.val
    have hmem : (1 : Fin 2) ∈ (rowGather3Dims N B R C wf).sKept :=
      (GatherDims.mem_sKept _ _).mpr ⟨show (1 : Fin 2) ∉ [(0 : Fin 2)] by decide, List.not_mem_nil⟩
    have hnot : (1 : Fin 2) ∉ (rowGather3Dims N B R C wf).startIndexMap := show (1 : Fin 2) ∉ [(0 : Fin 2)] by decide
    rw [GatherDims.batchCoord_eq_zero _ _ _ List.not_mem_nil]
    unfold GatherDims.start GatherDims.offCoord
    rw [dif_neg hnot, dif_pos hmem]
    simp only [Nat.zero_add]
    rfl

end RowGather3

end Idealize.ShloMosaic.ValueIdx

end
-- ==== Proof.RefValue.lean ====
/-
  The reference's run with its result named by the specification.

  The reference transposes the table, replaces a negative token by the token plus 32000, and gathers whole rows of
  the transposed table at the tokens laid out as [8, 4096, 1]. Result entry (b, s, e) is the transposed table at
  the row the start index names (read signed, clamped into [0, 31999]) and column e. For a token whose signed
  reading lies in [0, 32000) the replacement keeps the token, the clamp is the identity, and the signed and
  unsigned readings agree: the row is the one the specification names, and the transposed table at (row, e) is
  the table at (e, row).
-/
import proofs.«406021_j30614526886303_1_alg».proof.Proof.Gen.ReferenceIdeal.Run
import proofs.«406021_j30614526886303_1_alg».proof.Proof.Spec
import proofs.«406021_j30614526886303_1_alg».proof.Proof.LibRowGather3
import Idealize.ShloMosaic.Lib.ValueIdx
import Idealize.ShloMosaic.Lib.Pipeline.Value
import Idealize.ShloMosaic.Lib.Affine

noncomputable section

namespace Cert.RefValue

open Idealize.ShloMosaic Idealize.ShloMosaic.ValueIdx Idealize.SL.Sem
open Cert.ReferenceIdeal Cert.ReferenceIdeal.Gen

/-- The printed dimension numbers are the whole-row gather's under two batch axes. -/
theorem gatherDims_eq :
    gather_S32000x1024_S8x4096x1_S8x4096x1024_2_0_n_n_0_2_11024
      = rowGather3Dims 32000 8 4096 1024 Facts₀.gather_S32000x1024_S8x4096x1_S8x4096x1024_2_0_n_n_0_2_11024_wf := rfl

/-- A token word in range is not negative, so the wrap-around select keeps it. -/
theorem idx_word (w : BitVec 32) (h0 : (0 : Int) ≤ w.toInt) :
    Scalar.select (IntOp.cmpi .slt w 0#32) (IntOp.addi w 32000#32) w = w := by
  have hc : ¬ IntOp.cmpi .slt w 0#32 = 1#1 := by
    rw [IntOp.cmpi_slt]
    have c0 : (0#32 : BitVec 32).toInt = 0 := by decide
    rw [c0]; omega
  rw [eq_zero_of_ne_one hc, select_zero]

/-- A word whose signed reading lies in [0, 32000) names, clamped, the row the specification gives it. -/
theorem row_word (w : BitVec 32) (h0 : (0 : Int) ≤ w.toInt) (h1 : w.toInt < 32000) :
    min w.toInt.toNat (32000 - 1) = (Cert.Spec.rowOf w).val := by
  have hn := BitVec.toInt_eq_toNat_cond w
  have hlt := w.isLt
  unfold Cert.Spec.rowOf
  simp only
  split at hn <;> omega

/-- The reference's term is the specification's result, for tokens in range. -/
theorem ref_term (tok : IVec S8x4096 32) (W : FVec Ideal S1024x32000 .f32)
    (hrange : ∀ y : S8x4096.Idx, (0 : Int) ≤ (tok y).toInt ∧ (tok y).toInt < 32000) :
    Host.gather gather_S32000x1024_S8x4096x1_S8x4096x1024_2_0_n_n_0_2_11024
        (transpose S32000x1024 [1, 0] W Facts₀.transposes_S1024x32000_S32000x1024_1_0)
        (broadcastInDim S8x4096x1 ![0, 1] Facts₀.bcast_S8x4096_S8x4096x1_0_1
          (select (cmpi .slt tok (broadcastInDim S8x4096 ![] Facts₀.bcast_S_S8x4096 (constantI S_ 32 0#32)))
            (addi tok (broadcastInDim S8x4096 ![] Facts₀.bcast_S_S8x4096 (constantI S_ 32 32000#32))) tok))
      = Cert.Spec.result tok W := by
  funext y
  obtain ⟨b, s, e, rfl⟩ : ∃ (b : Fin 8) (s : Fin 4096) (e : Fin 1024), y = ix3 b s e := ⟨y 0, y 1, y 2, eq_ix3 y⟩
  rw [gatherDims_eq, rowGather3_apply (by decide : 0 < 32000)]
  -- the start index at (b, s): the token itself
  have hidx : (broadcastInDim S8x4096x1 ![0, 1] Facts₀.bcast_S8x4096_S8x4096x1_0_1
      (select (cmpi .slt tok (broadcastInDim S8x4096 ![] Facts₀.bcast_S_S8x4096 (constantI S_ 32 0#32)))
        (addi tok (broadcastInDim S8x4096 ![] Facts₀.bcast_S_S8x4096 (constantI S_ 32 32000#32))) tok))
      (ix3 b s (0 : Fin 1)) = tok (ix2 b s) := by
    refine (broadcastInDim_apply _ _ _ _ (ix2 b s) (fun a => ?_)).trans (idx_word _ (hrange _).1)
    match a with
    | ⟨0, _⟩ => rfl
    | ⟨1, _⟩ => rfl
  -- the transposed table at (row, e) is the table at (e, row)
  refine (transpose_apply [1, 0] W _ _ (ix2 e (Cert.Spec.rowOf (tok (ix2 b s)))) (fun a => ?_)).trans rfl
  match a with
  | ⟨0, _⟩ =>
    show (Cert.Spec.rowOf (tok (ix2 b s))).val = min _ (32000 - 1)
    rw [hidx]
    exact (row_word _ (hrange _).1 (hrange _).2).symm
  | ⟨1, _⟩ => rfl

/-- The reference's run: every execution ends with the result array at the specification's result of the two
    arguments, which are unchanged, when every token read signed lies in [0, 32000). -/
theorem ref_run (m' : (ℓ : Loc Cert.ReferenceIdeal.nD Cert.ReferenceIdeal.τ Cert.ReferenceIdeal.sig) → Buf (Elt Ideal) ℓ)
    (ρ' : Dev Cert.ReferenceIdeal.nD → PrngReg)
    (hrange : ∀ (c : Dev Cert.ReferenceIdeal.nD) (y : S8x4096.Idx),
      (0 : Int) ≤ ((m' ((c.tc : Thread Cert.ReferenceIdeal.nD Cert.ReferenceIdeal.τ).loc Cert.ReferenceIdeal.main_arg0) : IVec S8x4096 32) y).toInt
      ∧ ((m' ((c.tc : Thread Cert.ReferenceIdeal.nD Cert.ReferenceIdeal.τ).loc Cert.ReferenceIdeal.main_arg0) : IVec S8x4096 32) y).toInt < 32000) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v7)
          = Cert.Spec.result
              (m' ((c.tc : Thread Cert.ReferenceIdeal.nD Cert.ReferenceIdeal.τ).loc Cert.ReferenceIdeal.main_arg0) : IVec S8x4096 32)
              (m' ((c.tc : Thread Cert.ReferenceIdeal.nD Cert.ReferenceIdeal.τ).loc Cert.ReferenceIdeal.main_arg1) : FVec Ideal S1024x32000 .f32)
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans (ref_term _ _ (hrange c)), (h c).2⟩)
    (Cert.ReferenceIdeal.Value.run (F := Ideal) m' ρ')

end Cert.RefValue

end
-- ==== Proof.PreDecode.lean ====
/-
  The precondition decoded at the token words.

  The printed precondition is a conjunction of three whole-array tests: every table entry is finite, every
  token is at least 0 (compared signed), every token is below 32000 (compared signed). Each whole-array test is
  a reduction by "and" from 1 into a result of one index, so it holds exactly when it holds at every entry.
  Read at one token word, the second and third tests give its signed range, and a word whose signed reading is
  not negative has the same unsigned reading.
-/
import proofs.«406021_j30614526886303_1_alg».proof.Pre_finite_inputs
import Idealize.ShloMosaic.Lib.ReduceAll
import Idealize.ShloMosaic.Lib.StableHlo.Predicate
import Idealize.ShloMosaic.Lib.ValueIdx

namespace Cert.PreDecode

open Idealize.ShloMosaic

/-- The scalar shape has one index. -/
instance : Subsingleton Cert.Pre_finite_inputs.S_.Idx := ⟨fun a b => funext fun d => d.elim0⟩

/-- Every token word, read signed, lies in [0, 32000). -/
theorem tokens_range {F : FTy → Type} [FloatOps F] [Cert.Pre_finite_inputs.Facts]
    (tok : IVec Cert.Pre_finite_inputs.S8x4096 32) (W : FVec F Cert.Pre_finite_inputs.S1024x32000 .f32)
    (h : Cert.Pre_finite_inputs.fn (F := F) tok W = fun _ => 1#1) :
    ∀ y : Cert.Pre_finite_inputs.S8x4096.Idx, (0 : Int) ≤ (tok y).toInt ∧ (tok y).toInt < 32000 := by
  intro y
  have e := congrFun h ValueIdx.ix0
  dsimp only [Cert.Pre_finite_inputs.fn] at e
  -- the outer conjunction: (finite ∧ tokens ≥ 0) ∧ tokens < 32000
  obtain ⟨e12, e3⟩ := IntOp.andi_eq_one.1 e
  obtain ⟨_, e2⟩ := IntOp.andi_eq_one.1 e12
  -- each whole-array test, at the token y
  have hge := Host.reduce_andi_all _ _ _ _ _ e2 y
  have hlt := Host.reduce_andi_all _ _ _ _ _ e3 y
  -- the compared constants are the broadcast scalars 0 and 32000
  have hge' : (0#32 : BitVec 32).toInt ≤ (tok y).toInt := IntOp.cmpi_sge.1 hge
  have hlt' : (tok y).toInt < (32000#32 : BitVec 32).toInt := IntOp.cmpi_slt.1 hlt
  have c0 : (0#32 : BitVec 32).toInt = 0 := by decide
  have c1 : (32000#32 : BitVec 32).toInt = 32000 := by decide
  rw [c0] at hge'
  rw [c1] at hlt'
  exact ⟨hge', hlt'⟩

/-- Every token word, read unsigned, is below 32000. -/
theorem tokens_toNat_lt {F : FTy → Type} [FloatOps F] [Cert.Pre_finite_inputs.Facts]
    (tok : IVec Cert.Pre_finite_inputs.S8x4096 32) (W : FVec F Cert.Pre_finite_inputs.S1024x32000 .f32)
    (h : Cert.Pre_finite_inputs.fn (F := F) tok W = fun _ => 1#1) :
    ∀ y : Cert.Pre_finite_inputs.S8x4096.Idx, (tok y).toNat < 32000 := by
  intro y
  obtain ⟨h0, h1⟩ := tokens_range tok W h y
  have hn := BitVec.toInt_eq_toNat_cond (tok y)
  have hlt := (tok y).isLt
  split at hn <;> omega

end Cert.PreDecode
-- ==== Proof.lean ====
/-
  The certificate: a token-embedding lookup computed by a transpose and a row gather equals the reference's
  column gather, for tokens in range.

  Under the precondition (the table finite, every token at least 0 and below 32000) each program runs to its
  end with its arguments unchanged. The kernel's program leaves in its result buffer, at (b, s, e), entry e of the
  table's column tokens[b, s] (the transpose call writes the transposed table, the gather call copies row
  tokens[b, s] of it into row b·4096 + s, and the two reshapes only re-read indices row-major); the reference's
  gather, its index in range, reads the same entry. No arithmetic is done on the table's entries, so the two
  results agree as extended reals entry by entry.
-/
import proofs.«406021_j30614526886303_1_alg».proof.Defs
import proofs.«406021_j30614526886303_1_alg».proof.Proof.Gen.Kernel
import proofs.«406021_j30614526886303_1_alg».proof.Proof.Gen.KernelIdeal
import proofs.«406021_j30614526886303_1_alg».proof.Proof.Gen.ReferenceIdeal
import proofs.«406021_j30614526886303_1_alg».proof.Proof.Gen.Pre_finite_inputs
import proofs.«406021_j30614526886303_1_alg».proof.Proof.Kernel.Run
import proofs.«406021_j30614526886303_1_alg».proof.Proof.KernelIdeal.Value
import proofs.«406021_j30614526886303_1_alg».proof.Proof.RefValue
import proofs.«406021_j30614526886303_1_alg».proof.Proof.PreDecode
import Idealize.ShloMosaic.Adequacy
import Idealize.ShloMosaic.Init

noncomputable section

namespace Cert.Proof

open Idealize.ShloMosaic Idealize.SL.Sem

/-- Under the precondition every word of the word-level program's token array is below 32000. -/
theorem tokens_lt_Kernel (m : (ℓ : Loc Cert.Kernel.nD Cert.Kernel.τ Cert.Kernel.sig) → Buf (Elt Bits) ℓ)
    (h : Cert.Pre_Kernel m) :
    ∀ y, ((m (((0 : Dev Cert.Kernel.nD).tc : Thread Cert.Kernel.nD Cert.Kernel.τ).loc Cert.Kernel.main_arg0) : IVec Cert.Kernel.S8x4096 32) y).toNat < 32000 :=
  Cert.PreDecode.tokens_toNat_lt (F := Bits) _ _ (h 0)

/-- The same of the idealized program's. -/
theorem tokens_lt_KernelIdeal (m : (ℓ : Loc Cert.KernelIdeal.nD Cert.KernelIdeal.τ Cert.KernelIdeal.sig) → Buf (Elt Ideal) ℓ)
    (h : Cert.Pre_KernelIdeal m) :
    ∀ y, ((m (((0 : Dev Cert.KernelIdeal.nD).tc : Thread Cert.KernelIdeal.nD Cert.KernelIdeal.τ).loc Cert.KernelIdeal.main_arg0) : IVec Cert.KernelIdeal.S8x4096 32) y).toNat < 32000 :=
  Cert.PreDecode.tokens_toNat_lt (F := Ideal) _ _ (h 0)

theorem claim : Cert.Claim := ⟨Cert.Kernel.Gen.facts, Cert.KernelIdeal.Gen.facts, Cert.ReferenceIdeal.Gen.facts, Cert.Pre_finite_inputs.Gen.facts,
  -- the word-level program runs and keeps its arguments
  fun m ρ hpre => (θ_run _ _ _).mono (fun r h c => (h c).2)
    (Cert.Kernel.Hand.run_main (F := Bits) m ρ (Cert.Kernel.Hand.tokv_lt m (tokens_lt_Kernel m hpre))),
  -- so does the idealized program
  fun m ρ hpre => (θ_run _ _ _).mono (fun r h c => (h c).2)
    (Cert.KernelIdeal.Hand.run_main (F := Ideal) m ρ (Cert.KernelIdeal.Hand.tokv_lt m (tokens_lt_KernelIdeal m hpre))),
  -- and the reference, its gather's indices in range
  fun m ρ hpre => (θ_run _ _ _).mono (fun r h c => (h c).2)
    (Cert.RefValue.ref_run m ρ (fun c y => Cert.PreDecode.tokens_range (F := Ideal) _ _ (hpre c) y)),
  trivial,
  -- both results are the one function of the arguments
  fun m ρ m' ρ' hpre hagree =>
    ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
     (θ_run _ _ _).mono (fun r h c => ⟨(h c).1.trans (Cert.KernelIdeal.Hand.result_eq m c), (h c).2.1, (h c).2.2⟩)
       (Cert.KernelIdeal.Hand.run_main (F := Ideal) m ρ (Cert.KernelIdeal.Hand.tokv_lt m (tokens_lt_KernelIdeal m hpre))),
     (θ_run _ _ _).mono (fun r h c => ⟨by rw [(h c).1, (hagree c).1, (hagree c).2], (h c).2.1, (h c).2.2⟩)
       (Cert.RefValue.ref_run m' ρ' (fun c y => by rw [(hagree c).1]; exact Cert.PreDecode.tokens_range (F := Ideal) _ _ (hpre c) y))⟩⟩

end Cert.Proof

end
